-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v229) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2000x512 : Shape := ⟨2, ![2000, 512]⟩
abbrev S2000x256 : Shape := ⟨2, ![2000, 256]⟩
abbrev S256x512 : Shape := ⟨2, ![256, 512]⟩
abbrev S86x256 : Shape := ⟨2, ![86, 256]⟩
abbrev S200000 : Shape := ⟨1, ![200000]⟩
abbrev S_ : Shape := ⟨0, ![]⟩

class Facts : Prop where
  bcast_S_S2000x512 : S_.BroadcastsInDim S2000x512 (![] : Fin 0 → Fin S2000x512.rank)
  reducesTo_S2000x512_S_d0_1 : S2000x512.ReducesTo [0, 1] S_
  h_S_ : 0 < S_.numel
  bcast_S_S2000x256 : S_.BroadcastsInDim S2000x256 (![] : Fin 0 → Fin S2000x256.rank)
  reducesTo_S2000x256_S_d0_1 : S2000x256.ReducesTo [0, 1] S_
  bcast_S_S256x512 : S_.BroadcastsInDim S256x512 (![] : Fin 0 → Fin S256x512.rank)
  reducesTo_S256x512_S_d0_1 : S256x512.ReducesTo [0, 1] S_
  bcast_S_S86x256 : S_.BroadcastsInDim S86x256 (![] : Fin 0 → Fin S86x256.rank)
  reducesTo_S86x256_S_d0_1 : S86x256.ReducesTo [0, 1] S_
  bcast_S_S200000 : S_.BroadcastsInDim S200000 (![] : Fin 0 → Fin S200000.rank)
  reducesTo_S200000_S_d0 : S200000.ReducesTo [0] S_

variable [Facts]

def fn_part3 {F : FTy → Type} [FloatOps F] (main_arg10 : IVec S200000 32) (main_v45 : IVec S_ 1) (main_v50 : IVec S200000 1) : IVec S_ 1 :=
  let main_c_19 : IVec S_ 1 := constantI S_ 1 1#1
  let main_v51 : IVec S_ 1 := (fun x v => Host.reduce IntOp.andi x v reducesTo_S200000_S_d0 h_S_) main_v50 main_c_19
  let main_v52 : IVec S_ 1 := andi main_v45 main_v51
  let main_c_20 : IVec S_ 32 := constantI S_ 32 0#32
  let main_v53 : IVec S200000 32 := broadcastInDim S200000 ![] bcast_S_S200000 main_c_20
  let main_v54 : IVec S200000 1 := cmpi .sge main_arg10 main_v53
  let main_c_21 : IVec S_ 32 := constantI S_ 32 86#32
  let main_v55 : IVec S200000 32 := broadcastInDim S200000 ![] bcast_S_S200000 main_c_21
  let main_v56 : IVec S200000 1 := cmpi .slt main_arg10 main_v55
  let main_v57 : IVec S200000 1 := andi main_v54 main_v56
  let main_c_22 : IVec S_ 1 := constantI S_ 1 1#1
  let main_v58 : IVec S_ 1 := (fun x v => Host.reduce IntOp.andi x v reducesTo_S200000_S_d0 h_S_) main_v57 main_c_22
  let main_v59 : IVec S_ 1 := andi main_v52 main_v58
  main_v59

def fn_part2 {F : FTy → Type} [FloatOps F] (main_arg7 : FVec F S86x256 .f32) (main_arg8 : IVec S200000 32) (main_arg9 : IVec S200000 32) (main_arg10 : IVec S200000 32) (main_v33 : IVec S_ 1) : IVec S_ 1 :=
  let main_v34 : FVec F S86x256 .f32 := Host.absf main_arg7
  let main_cst_12 : FVec F S_ .f32 := constant S_ .f32 0x7F800000#32
  let main_v35 : FVec F S86x256 .f32 := broadcastInDim S86x256 ![] bcast_S_S86x256 main_cst_12
  let main_v36 : IVec S86x256 1 := cmpf .olt main_v34 main_v35
  let main_c_13 : IVec S_ 1 := constantI S_ 1 1#1
  let main_v37 : IVec S_ 1 := (fun x v => Host.reduce IntOp.andi x v reducesTo_S86x256_S_d0_1 h_S_) main_v36 main_c_13
  let main_v38 : IVec S_ 1 := andi main_v33 main_v37
  let main_c_14 : IVec S_ 32 := constantI S_ 32 0#32
  let main_v39 : IVec S200000 32 := broadcastInDim S200000 ![] bcast_S_S200000 main_c_14
  let main_v40 : IVec S200000 1 := cmpi .sge main_arg8 main_v39
  let main_c_15 : IVec S_ 32 := constantI S_ 32 2000#32
  let main_v41 : IVec S200000 32 := broadcastInDim S200000 ![] bcast_S_S200000 main_c_15
  let main_v42 : IVec S200000 1 := cmpi .slt main_arg8 main_v41
  let main_v43 : IVec S200000 1 := andi main_v40 main_v42
  let main_c_16 : IVec S_ 1 := constantI S_ 1 1#1
  let main_v44 : IVec S_ 1 := (fun x v => Host.reduce IntOp.andi x v reducesTo_S200000_S_d0 h_S_) main_v43 main_c_16
  let main_v45 : IVec S_ 1 := andi main_v38 main_v44
  let main_c_17 : IVec S_ 32 := constantI S_ 32 0#32
  let main_v46 : IVec S200000 32 := broadcastInDim S200000 ![] bcast_S_S200000 main_c_17
  let main_v47 : IVec S200000 1 := cmpi .sge main_arg9 main_v46
  let main_c_18 : IVec S_ 32 := constantI S_ 32 2000#32
  let main_v48 : IVec S200000 32 := broadcastInDim S200000 ![] bcast_S_S200000 main_c_18
  let main_v49 : IVec S200000 1 := cmpi .slt main_arg9 main_v48
  let main_v50 : IVec S200000 1 := andi main_v47 main_v49
  fn_part3 (F := F) main_arg10 main_v45 main_v50

def fn_part1 {F : FTy → Type} [FloatOps F] (main_arg4 : FVec F S256x512 .f32) (main_arg5 : FVec F S256x512 .f32) (main_arg6 : FVec F S86x256 .f32) (main_arg7 : FVec F S86x256 .f32) (main_arg8 : IVec S200000 32) (main_arg9 : IVec S200000 32) (main_arg10 : IVec S200000 32) (main_v13 : IVec S_ 1) (main_v16 : IVec S2000x256 1) : IVec S_ 1 :=
  let main_c_5 : IVec S_ 1 := constantI S_ 1 1#1
  let main_v17 : IVec S_ 1 := (fun x v => Host.reduce IntOp.andi x v reducesTo_S2000x256_S_d0_1 h_S_) main_v16 main_c_5
  let main_v18 : IVec S_ 1 := andi main_v13 main_v17
  let main_v19 : FVec F S256x512 .f32 := Host.absf main_arg4
  let main_cst_6 : FVec F S_ .f32 := constant S_ .f32 0x7F800000#32
  let main_v20 : FVec F S256x512 .f32 := broadcastInDim S256x512 ![] bcast_S_S256x512 main_cst_6
  let main_v21 : IVec S256x512 1 := cmpf .olt main_v19 main_v20
  let main_c_7 : IVec S_ 1 := constantI S_ 1 1#1
  let main_v22 : IVec S_ 1 := (fun x v => Host.reduce IntOp.andi x v reducesTo_S256x512_S_d0_1 h_S_) main_v21 main_c_7
  let main_v23 : IVec S_ 1 := andi main_v18 main_v22
  let main_v24 : FVec F S256x512 .f32 := Host.absf main_arg5
  let main_cst_8 : FVec F S_ .f32 := constant S_ .f32 0x7F800000#32
  let main_v25 : FVec F S256x512 .f32 := broadcastInDim S256x512 ![] bcast_S_S256x512 main_cst_8
  let main_v26 : IVec S256x512 1 := cmpf .olt main_v24 main_v25
  let main_c_9 : IVec S_ 1 := constantI S_ 1 1#1
  let main_v27 : IVec S_ 1 := (fun x v => Host.reduce IntOp.andi x v reducesTo_S256x512_S_d0_1 h_S_) main_v26 main_c_9
  let main_v28 : IVec S_ 1 := andi main_v23 main_v27
  let main_v29 : FVec F S86x256 .f32 := Host.absf main_arg6
  let main_cst_10 : FVec F S_ .f32 := constant S_ .f32 0x7F800000#32
  let main_v30 : FVec F S86x256 .f32 := broadcastInDim S86x256 ![] bcast_S_S86x256 main_cst_10
  let main_v31 : IVec S86x256 1 := cmpf .olt main_v29 main_v30
  let main_c_11 : IVec S_ 1 := constantI S_ 1 1#1
  let main_v32 : IVec S_ 1 := (fun x v => Host.reduce IntOp.andi x v reducesTo_S86x256_S_d0_1 h_S_) main_v31 main_c_11
  let main_v33 : IVec S_ 1 := andi main_v28 main_v32
  fn_part2 (F := F) main_arg7 main_arg8 main_arg9 main_arg10 main_v33

def fn {F : FTy → Type} [FloatOps F] (main_arg0 : FVec F S2000x512 .f32) (main_arg1 : FVec F S2000x512 .f32) (main_arg2 : FVec F S2000x256 .f32) (main_arg3 : FVec F S2000x256 .f32) (main_arg4 : FVec F S256x512 .f32) (main_arg5 : FVec F S256x512 .f32) (main_arg6 : FVec F S86x256 .f32) (main_arg7 : FVec F S86x256 .f32) (main_arg8 : IVec S200000 32) (main_arg9 : IVec S200000 32) (main_arg10 : IVec S200000 32) : IVec S_ 1 :=
  let main_v0 : FVec F S2000x512 .f32 := Host.absf main_arg0
  let main_cst : FVec F S_ .f32 := constant S_ .f32 0x7F800000#32
  let main_v1 : FVec F S2000x512 .f32 := broadcastInDim S2000x512 ![] bcast_S_S2000x512 main_cst
  let main_v2 : IVec S2000x512 1 := cmpf .olt main_v0 main_v1
  let main_c : IVec S_ 1 := constantI S_ 1 1#1
  let main_v3 : IVec S_ 1 := (fun x v => Host.reduce IntOp.andi x v reducesTo_S2000x512_S_d0_1 h_S_) main_v2 main_c
  let main_v4 : FVec F S2000x512 .f32 := Host.absf main_arg1
  let main_cst_0 : FVec F S_ .f32 := constant S_ .f32 0x7F800000#32
  let main_v5 : FVec F S2000x512 .f32 := broadcastInDim S2000x512 ![] bcast_S_S2000x512 main_cst_0
  let main_v6 : IVec S2000x512 1 := cmpf .olt main_v4 main_v5
  let main_c_1 : IVec S_ 1 := constantI S_ 1 1#1
  let main_v7 : IVec S_ 1 := (fun x v => Host.reduce IntOp.andi x v reducesTo_S2000x512_S_d0_1 h_S_) main_v6 main_c_1
  let main_v8 : IVec S_ 1 := andi main_v3 main_v7
  let main_v9 : FVec F S2000x256 .f32 := Host.absf main_arg2
  let main_cst_2 : FVec F S_ .f32 := constant S_ .f32 0x7F800000#32
  let main_v10 : FVec F S2000x256 .f32 := broadcastInDim S2000x256 ![] bcast_S_S2000x256 main_cst_2
  let main_v11 : IVec S2000x256 1 := cmpf .olt main_v9 main_v10
  let main_c_3 : IVec S_ 1 := constantI S_ 1 1#1
  let main_v12 : IVec S_ 1 := (fun x v => Host.reduce IntOp.andi x v reducesTo_S2000x256_S_d0_1 h_S_) main_v11 main_c_3
  let main_v13 : IVec S_ 1 := andi main_v8 main_v12
  let main_v14 : FVec F S2000x256 .f32 := Host.absf main_arg3
  let main_cst_4 : FVec F S_ .f32 := constant S_ .f32 0x7F800000#32
  let main_v15 : FVec F S2000x256 .f32 := broadcastInDim S2000x256 ![] bcast_S_S2000x256 main_cst_4
  let main_v16 : IVec S2000x256 1 := cmpf .olt main_v14 main_v15
  fn_part1 (F := F) main_arg4 main_arg5 main_arg6 main_arg7 main_arg8 main_arg9 main_arg10 main_v13 main_v16
-- ==== Kernel.lean ====
abbrev S2000x512 : Shape := ⟨2, ![2000, 512]⟩
abbrev S2000x256 : Shape := ⟨2, ![2000, 256]⟩
abbrev S256x512 : Shape := ⟨2, ![256, 512]⟩
abbrev S86x256 : Shape := ⟨2, ![86, 256]⟩
abbrev S200000 : Shape := ⟨1, ![200000]⟩
abbrev S512x256 : Shape := ⟨2, ![512, 256]⟩
abbrev S2000 : Shape := ⟨1, ![2000]⟩
abbrev S2000x1 : Shape := ⟨2, ![2000, 1]⟩
abbrev S2000x1024 : Shape := ⟨2, ![2000, 1024]⟩
abbrev S2000x2048 : Shape := ⟨2, ![2000, 2048]⟩
abbrev S86x512 : Shape := ⟨2, ![86, 512]⟩
abbrev S86x1024 : Shape := ⟨2, ![86, 1024]⟩
abbrev S_ : Shape := ⟨0, ![]⟩
abbrev S200192 : Shape := ⟨1, ![200192]⟩
abbrev S256 : Shape := ⟨1, ![256]⟩
abbrev S256x1 : Shape := ⟨2, ![256, 1]⟩
abbrev S256x2000 : Shape := ⟨2, ![256, 2000]⟩
abbrev S256x2048 : Shape := ⟨2, ![256, 2048]⟩
abbrev S256x1024 : Shape := ⟨2, ![256, 1024]⟩
abbrev S256x256 : Shape := ⟨2, ![256, 256]⟩
abbrev S256x86 : Shape := ⟨2, ![256, 86]⟩

abbrev nBuf : Space → Nat
  | .hbm => 46
  | .vmem => 17
  | .smem => 0
  | _ => 0

abbrev bufTy : (tb : Table) → Fin (tcTables nBuf tb) → BufTy
  | .hbm, ⟨0, _⟩ => ⟨S2000x512, .f32⟩
  | .hbm, ⟨1, _⟩ => ⟨S2000x512, .f32⟩
  | .hbm, ⟨2, _⟩ => ⟨S2000x256, .f32⟩
  | .hbm, ⟨3, _⟩ => ⟨S2000x256, .f32⟩
  | .hbm, ⟨4, _⟩ => ⟨S256x512, .f32⟩
  | .hbm, ⟨5, _⟩ => ⟨S256x512, .f32⟩
  | .hbm, ⟨6, _⟩ => ⟨S86x256, .f32⟩
  | .hbm, ⟨7, _⟩ => ⟨S86x256, .f32⟩
  | .hbm, ⟨8, _⟩ => ⟨S200000, .i32⟩
  | .hbm, ⟨9, _⟩ => ⟨S200000, .i32⟩
  | .hbm, ⟨10, _⟩ => ⟨S200000, .i32⟩
  | .hbm, ⟨11, _⟩ => ⟨S512x256, .f32⟩
  | .hbm, ⟨12, _⟩ => ⟨S512x256, .f32⟩
  | .hbm, ⟨13, _⟩ => ⟨S2000x256, .f32⟩
  | .hbm, ⟨14, _⟩ => ⟨S2000x256, .f32⟩
  | .hbm, ⟨15, _⟩ => ⟨S2000x1024, .f32⟩
  | .hbm, ⟨16, _⟩ => ⟨S2000x1024, .f32⟩
  | .hbm, ⟨17, _⟩ => ⟨S2000x1024, .bf16⟩
  | .hbm, ⟨18, _⟩ => ⟨S2000x1024, .f32⟩
  | .hbm, ⟨19, _⟩ => ⟨S2000x1024, .f32⟩
  | .hbm, ⟨20, _⟩ => ⟨S2000x1024, .bf16⟩
  | .hbm, ⟨21, _⟩ => ⟨S2000x2048, .bf16⟩
  | .hbm, ⟨22, _⟩ => ⟨S2000x1024, .bf16⟩
  | .hbm, ⟨23, _⟩ => ⟨S2000x1024, .f32⟩
  | .hbm, ⟨24, _⟩ => ⟨S2000x1024, .f32⟩
  | .hbm, ⟨25, _⟩ => ⟨S2000x1024, .bf16⟩
  | .hbm, ⟨26, _⟩ => ⟨S2000x2048, .bf16⟩
  | .hbm, ⟨27, _⟩ => ⟨S86x256, .f32⟩
  | .hbm, ⟨28, _⟩ => ⟨S86x256, .f32⟩
  | .hbm, ⟨29, _⟩ => ⟨S86x512, .f32⟩
  | .hbm, ⟨30, _⟩ => ⟨S86x512, .bf16⟩
  | .hbm, ⟨31, _⟩ => ⟨S86x512, .f32⟩
  | .hbm, ⟨32, _⟩ => ⟨S86x512, .f32⟩
  | .hbm, ⟨33, _⟩ => ⟨S86x512, .bf16⟩
  | .hbm, ⟨34, _⟩ => ⟨S86x1024, .bf16⟩
  | .hbm, ⟨35, _⟩ => ⟨S_, .i32⟩
  | .hbm, ⟨36, _⟩ => ⟨S_, .i32⟩
  | .hbm, ⟨37, _⟩ => ⟨S200192, .i32⟩
  | .hbm, ⟨38, _⟩ => ⟨S_, .i32⟩
  | .hbm, ⟨39, _⟩ => ⟨S_, .i32⟩
  | .hbm, ⟨40, _⟩ => ⟨S200192, .i32⟩
  | .hbm, ⟨41, _⟩ => ⟨S_, .i32⟩
  | .hbm, ⟨42, _⟩ => ⟨S_, .i32⟩
  | .hbm, ⟨43, _⟩ => ⟨S200192, .i32⟩
  | .hbm, ⟨44, _⟩ => ⟨S200192, .f32⟩
  | .hbm, ⟨45, _⟩ => ⟨S200000, .f32⟩
  | .local _ .vmem, ⟨0, _⟩ => ⟨S2000x512, .f32⟩
  | .local _ .vmem, ⟨1, _⟩ => ⟨S2000x512, .f32⟩
  | .local _ .vmem, ⟨2, _⟩ => ⟨S512x256, .f32⟩
  | .local _ .vmem, ⟨3, _⟩ => ⟨S512x256, .f32⟩
  | .local _ .vmem, ⟨4, _⟩ => ⟨S2000x256, .f32⟩
  | .local _ .vmem, ⟨5, _⟩ => ⟨S2000x256, .f32⟩
  | .local _ .vmem, ⟨6, _⟩ => ⟨S256, .i32⟩
  | .local _ .vmem, ⟨7, _⟩ => ⟨S256, .i32⟩
  | .local _ .vmem, ⟨8, _⟩ => ⟨S256, .i32⟩
  | .local _ .vmem, ⟨9, _⟩ => ⟨S256, .i32⟩
  | .local _ .vmem, ⟨10, _⟩ => ⟨S256, .i32⟩
  | .local _ .vmem, ⟨11, _⟩ => ⟨S256, .i32⟩
  | .local _ .vmem, ⟨12, _⟩ => ⟨S2000x2048, .bf16⟩
  | .local _ .vmem, ⟨13, _⟩ => ⟨S2000x2048, .bf16⟩
  | .local _ .vmem, ⟨14, _⟩ => ⟨S86x1024, .bf16⟩
  | .local _ .vmem, ⟨15, _⟩ => ⟨S256, .f32⟩
  | .local _ .vmem, ⟨16, _⟩ => ⟨S256, .f32⟩
  | _, _ => ⟨S2000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2_0 : Ref sig .tc := ⟨.hbm, 13, rfl⟩
abbrev main_v2_1 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c : Ref sig .tc := ⟨.hbm, 35, rfl⟩
abbrev main_call0_v0 : Ref sig .tc := ⟨.hbm, 36, rfl⟩
abbrev main_v23 : Ref sig .tc := ⟨.hbm, 37, rfl⟩
abbrev main_c_0 : Ref sig .tc := ⟨.hbm, 38, rfl⟩
abbrev main_call1_v0 : Ref sig .tc := ⟨.hbm, 39, rfl⟩
abbrev main_v24 : Ref sig .tc := ⟨.hbm, 40, rfl⟩
abbrev main_c_1 : Ref sig .tc := ⟨.hbm, 41, rfl⟩
abbrev main_call2_v0 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg6_1 : Ref sig .tc := ⟨.vmem, 16, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem6_1 : DmaSem sig := 16

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2000x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2000x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2000x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2000x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨1, ![782], ![false]⟩

def cc1_transform_0 (i : grid1.Coords) : Fin 1 → Nat :=
  let arg0 : BitVec 32 := BitVec.ofNat 32 (i 0).val
  let c0_i32 : BitVec 32 := 0#32
  ![arg0.toNat]

def cc1_transform_1 (i : grid1.Coords) : Fin 1 → Nat :=
  let arg0 : BitVec 32 := BitVec.ofNat 32 (i 0).val
  let c0_i32 : BitVec 32 := 0#32
  ![arg0.toNat]

def cc1_transform_2 (i : grid1.Coords) : Fin 1 → Nat :=
  let arg0 : BitVec 32 := BitVec.ofNat 32 (i 0).val
  let c0_i32 : BitVec 32 := 0#32
  ![arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  ![arg0.toNat]

abbrev stage1_0 : Fin 2 → Memref sig .tc .vmem S256 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S2000x2048 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S2000x2048 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S86x1024 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  transposes_S256x512_S512x256_1_0 : S256x512.Transposes [1, 0] S512x256
  inb_S2000x512_S2000x512_0_0 : ∀ a, (![0, 0] : Fin 2 → Nat) a + S2000x512.size a ≤ S2000x512.size a
  h_S2000x512 : 0 < S2000x512.numel
  reduces_S2000x512_S2000 : S2000x512.Reduces [1] S2000
  shapeCasts_S2000_S2000x1 : S2000.ShapeCasts S2000x1
  broadcasts_S2000x1_S2000x512 : S2000x1.Broadcasts S2000x512
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S2000x256_S2000x256_0_0 : ∀ a, (![0, 0] : Fin 2 → Nat) a + S2000x256.size a ≤ S2000x256.size a
  h_S2000x256 : 0 < S2000x256.numel
  concatenates_S2000x256_S2000x256_S2000x256_S2000x256_S2000x1024_d1 : Shape.Concatenates [S2000x256, S2000x256, S2000x256, S2000x256] S2000x1024 1
  concatenates_S2000x1024_S2000x1024_S2000x2048_d1 : Shape.Concatenates [S2000x1024, S2000x1024] S2000x2048 1
  concatenates_S86x256_S86x256_S86x512_d1 : Shape.Concatenates [S86x256, S86x256] S86x512 1
  concatenates_S86x512_S86x512_S86x1024_d1 : Shape.Concatenates [S86x512, S86x512] S86x1024 1
  pads_S200000_S200192_01920 : S200000.Pads (![0] : Fin 1 → Nat) ![192] ![0] S200192
  h_S_ : 0 < S_.numel
  inb_S256_S256_0 : ∀ a, (![0] : Fin 1 → Nat) a + S256.size a ≤ S256.size a
  h_S256 : 0 < S256.numel
  shapeCasts_S256_S256 : S256.ShapeCasts S256
  shapeCasts_S256_S256x1 : S256.ShapeCasts S256x1
  iota_S256x2000_d1_w32 : S256x2000.Iotas .tc 32 [1]
  broadcasts_S256x1_S256x2000 : S256x1.Broadcasts S256x2000
  natLt_1_32 : 1 < 32
  inb_S2000x2048_S2000x2048_0_0 : ∀ a, (![0, 0] : Fin 2 → Nat) a + S2000x2048.size a ≤ S2000x2048.size a
  h_S2000x2048 : 0 < S2000x2048.numel
  shapeCasts_S2000x2048_S2000x2048 : S2000x2048.ShapeCasts S2000x2048
  slices_S256x2048_o0_0_S256x1024 : S256x2048.Slices ![0, 0] S256x1024
  slices_S256x2048_o0_1024_S256x1024 : S256x2048.Slices ![0, 1024] S256x1024
  slices_S256x1024_o0_0_S256x256 : S256x1024.Slices ![0, 0] S256x256
  reduces_S256x256_S256 : S256x256.Reduces [1] S256
  broadcasts_S256x1_S256x256 : S256x1.Broadcasts S256x256
  slices_S256x1024_o0_256_S256x256 : S256x1024.Slices ![0, 256] S256x256
  slices_S256x1024_o0_512_S256x256 : S256x1024.Slices ![0, 512] S256x256
  slices_S256x1024_o0_768_S256x256 : S256x1024.Slices ![0, 768] S256x256
  iota_S256x86_d1_w32 : S256x86.Iotas .tc 32 [1]
  broadcasts_S256x1_S256x86 : S256x1.Broadcasts S256x86
  inb_S86x1024_S86x1024_0_0 : ∀ a, (![0, 0] : Fin 2 → Nat) a + S86x1024.size a ≤ S86x1024.size a
  h_S86x1024 : 0 < S86x1024.numel
  shapeCasts_S86x1024_S86x1024 : S86x1024.ShapeCasts S86x1024
  slices_S256x1024_o0_0_S256x512 : S256x1024.Slices ![0, 0] S256x512
  slices_S256x1024_o0_512_S256x512 : S256x1024.Slices ![0, 512] S256x512
  slices_S256x512_o0_0_S256x256 : S256x512.Slices ![0, 0] S256x256
  slices_S256x512_o0_256_S256x256 : S256x512.Slices ![0, 256] S256x256
  slices_S200192_S200000_0 : S200192.Slices ![0] S200000
  dot_S2000x512_S512x256_S2000x256_1_0_0_1_n_n_wf : DotDims.WF S2000x512 S512x256 S2000x256 [1] [0] [0] [1] [] []
  dot_S256x2000_S2000x2048_S256x2048_1_0_0_1_n_n_wf : DotDims.WF S256x2000 S2000x2048 S256x2048 [1] [0] [0] [1] [] []
  dot_S256x86_S86x1024_S256x1024_1_0_0_1_n_n_wf : DotDims.WF S256x86 S86x1024 S256x1024 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S2000x512.size a
  hwx0_0 : ∀ i : grid0.Coords, EltTy.bits .f32 = 32 ∨ (Rect.block (s := S2000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2000x512.size a ≤ S2000x512.size a
  hwx0_1 : ∀ i : grid0.Coords, EltTy.bits .f32 = 32 ∨ (Rect.block (s := S2000x512) S2000x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S512x256.size a
  hwx0_2 : ∀ i : grid0.Coords, EltTy.bits .f32 = 32 ∨ (Rect.block (s := S512x256) S512x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x256.size a ≤ S512x256.size a
  hwx0_3 : ∀ i : grid0.Coords, EltTy.bits .f32 = 32 ∨ (Rect.block (s := S512x256) S512x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2000x256.size a ≤ S2000x256.size a
  hwx0_4 : ∀ i : grid0.Coords, EltTy.bits .f32 = 32 ∨ (Rect.block (s := S2000x256) S2000x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S2000x256.size a ≤ S2000x256.size a
  hwx0_5 : ∀ i : grid0.Coords, EltTy.bits .f32 = 32 ∨ (Rect.block (s := S2000x256) S2000x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256.size a ≤ S200192.size a
  hwx1_0 : ∀ i : grid1.Coords, EltTy.bits .i32 = 32 ∨ (Rect.block (s := S200192) S256.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256.size a ≤ S200192.size a
  hwx1_1 : ∀ i : grid1.Coords, EltTy.bits .i32 = 32 ∨ (Rect.block (s := S200192) S256.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256.size a ≤ S200192.size a
  hwx1_2 : ∀ i : grid1.Coords, EltTy.bits .i32 = 32 ∨ (Rect.block (s := S200192) S256.size (cc1_transform_2 i) (hinb1_2 i)).WholeWords (EltTy.packing .i32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S2000x2048.size a ≤ S2000x2048.size a
  hwx1_3 : ∀ i : grid1.Coords, EltTy.bits .bf16 = 32 ∨ (Rect.block (s := S2000x2048) S2000x2048.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S2000x2048.size a ≤ S2000x2048.size a
  hwx1_4 : ∀ i : grid1.Coords, EltTy.bits .bf16 = 32 ∨ (Rect.block (s := S2000x2048) S2000x2048.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S86x1024.size a ≤ S86x1024.size a
  hwx1_5 : ∀ i : grid1.Coords, EltTy.bits .bf16 = 32 ∨ (Rect.block (s := S86x1024) S86x1024.size (cc1_transform_5 i) (hinb1_5 i)).WholeWords (EltTy.packing .bf16)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S256.size a ≤ S200192.size a
  hwx1_6 : ∀ i : grid1.Coords, EltTy.bits .f32 = 32 ∨ (Rect.block (s := S200192) S256.size (cc1_transform_6 i) (hinb1_6 i)).WholeWords (EltTy.packing .f32)

variable [Facts₀]

def dot_S2000x512_S512x256_S2000x256_1_0_0_1_n_n : DotDims S2000x512 S512x256 S2000x256 where
  lhsContracting := [1]
  rhsContracting := [0]
  lhsNonContracting := [0]
  rhsNonContracting := [1]
  lhsBatch := []
  rhsBatch := []
  wf := dot_S2000x512_S512x256_S2000x256_1_0_0_1_n_n_wf
def dot_S256x2000_S2000x2048_S256x2048_1_0_0_1_n_n : DotDims S256x2000 S2000x2048 S256x2048 where
  lhsContracting := [1]
  rhsContracting := [0]
  lhsNonContracting := [0]
  rhsNonContracting := [1]
  lhsBatch := []
  rhsBatch := []
  wf := dot_S256x2000_S2000x2048_S256x2048_1_0_0_1_n_n_wf
def dot_S256x86_S86x1024_S256x1024_1_0_0_1_n_n : DotDims S256x86 S86x1024 S256x1024 where
  lhsContracting := [1]
  rhsContracting := [0]
  lhsNonContracting := [0]
  rhsNonContracting := [1]
  lhsBatch := []
  rhsBatch := []
  wf := dot_S256x86_S86x1024_S256x1024_1_0_0_1_n_n_wf

abbrev win0_0 : Pipeline.Window sig grid0 :=
  Pipeline.Window.ofSpec (Memref.whole main_arg0) S2000x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2000x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S512x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2_0) S2000x256.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2_1) S2000x256.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v23) S256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v25) S256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v9) S2000x2048.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v14) S2000x2048.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v22) S86x1024.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v26) S256.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S2000x512 : Shape := ⟨2, ![2000, 512]⟩
abbrev S2000x256 : Shape := ⟨2, ![2000, 256]⟩
abbrev S256x512 : Shape := ⟨2, ![256, 512]⟩
abbrev S86x256 : Shape := ⟨2, ![86, 256]⟩
abbrev S200000 : Shape := ⟨1, ![200000]⟩
abbrev S_ : Shape := ⟨0, ![]⟩
abbrev S2000 : Shape := ⟨1, ![2000]⟩
abbrev S2000x1 : Shape := ⟨2, ![2000, 1]⟩
abbrev S512x256 : Shape := ⟨2, ![512, 256]⟩
abbrev S200000x1 : Shape := ⟨2, ![200000, 1]⟩
abbrev S200000x256 : Shape := ⟨2, ![200000, 256]⟩

abbrev nBuf : Space → Nat
  | .hbm => 330
  | .vmem => 0
  | .smem => 0
  | _ => 0

abbrev hbmTy0_0 (i : Nat) : BufTy := match i % 128 with
  | 0 => ⟨S2000x512, .f32⟩
  | 1 => ⟨S2000x512, .f32⟩
  | 2 => ⟨S2000x256, .f32⟩
  | 3 => ⟨S2000x256, .f32⟩
  | 4 => ⟨S256x512, .f32⟩
  | 5 => ⟨S256x512, .f32⟩
  | 6 => ⟨S86x256, .f32⟩
  | 7 => ⟨S86x256, .f32⟩
  | 8 => ⟨S200000, .i32⟩
  | 9 => ⟨S200000, .i32⟩
  | 10 => ⟨S200000, .i32⟩
  | 11 => ⟨S_, .f32⟩
  | 12 => ⟨S2000, .f32⟩
  | 13 => ⟨S2000x1, .f32⟩
  | 14 => ⟨S_, .f32⟩
  | 15 => ⟨S2000x1, .f32⟩
  | 16 => ⟨S2000x1, .f32⟩
  | 17 => ⟨S2000x512, .f32⟩
  | 18 => ⟨S2000x512, .f32⟩
  | 19 => ⟨S2000x512, .f32⟩
  | 20 => ⟨S_, .f32⟩
  | 21 => ⟨S2000, .f32⟩
  | 22 => ⟨S2000x1, .f32⟩
  | 23 => ⟨S_, .f32⟩
  | 24 => ⟨S2000x1, .f32⟩
  | 25 => ⟨S2000x1, .f32⟩
  | 26 => ⟨S2000x512, .f32⟩
  | 27 => ⟨S2000x512, .f32⟩
  | 28 => ⟨S_, .f32⟩
  | 29 => ⟨S2000x1, .f32⟩
  | 30 => ⟨S2000x1, .f32⟩
  | 31 => ⟨S2000x1, .f32⟩
  | 32 => ⟨S2000x512, .f32⟩
  | 33 => ⟨S2000x512, .f32⟩
  | 34 => ⟨S_, .f32⟩
  | 35 => ⟨S2000x512, .f32⟩
  | 36 => ⟨S2000x512, .i1⟩
  | 37 => ⟨S_, .f32⟩
  | 38 => ⟨S2000x512, .f32⟩
  | 39 => ⟨S2000x512, .i1⟩
  | 40 => ⟨S_, .f32⟩
  | 41 => ⟨S_, .f32⟩
  | 42 => ⟨S2000x512, .f32⟩
  | 43 => ⟨S2000x512, .f32⟩
  | 44 => ⟨S2000x512, .f32⟩
  | 45 => ⟨S_, .f32⟩
  | 46 => ⟨S2000x512, .f32⟩
  | 47 => ⟨S2000x512, .f32⟩
  | 48 => ⟨S2000x512, .f32⟩
  | 49 => ⟨S512x256, .f32⟩
  | 50 => ⟨S2000x256, .f32⟩
  | 51 => ⟨S_, .f32⟩
  | 52 => ⟨S2000x256, .f32⟩
  | 53 => ⟨S2000x256, .i1⟩
  | 54 => ⟨S_, .f32⟩
  | 55 => ⟨S2000x256, .f32⟩
  | 56 => ⟨S2000x256, .i1⟩
  | 57 => ⟨S_, .f32⟩
  | 58 => ⟨S_, .f32⟩
  | 59 => ⟨S2000x256, .f32⟩
  | 60 => ⟨S2000x256, .f32⟩
  | 61 => ⟨S2000x256, .f32⟩
  | 62 => ⟨S_, .f32⟩
  | 63 => ⟨S2000x256, .f32⟩
  | 64 => ⟨S2000x256, .f32⟩
  | 65 => ⟨S2000x256, .f32⟩
  | 66 => ⟨S512x256, .f32⟩
  | 67 => ⟨S2000x256, .f32⟩
  | 68 => ⟨S_, .i32⟩
  | 69 => ⟨S200000, .i32⟩
  | 70 => ⟨S200000, .i1⟩
  | 71 => ⟨S_, .i32⟩
  | 72 => ⟨S200000, .i32⟩
  | 73 => ⟨S200000, .i32⟩
  | 74 => ⟨S200000, .i32⟩
  | 75 => ⟨S200000x1, .i32⟩
  | 76 => ⟨S200000x256, .f32⟩
  | 77 => ⟨S_, .i32⟩
  | 78 => ⟨S200000, .i32⟩
  | 79 => ⟨S200000, .i1⟩
  | 80 => ⟨S_, .i32⟩
  | 81 => ⟨S200000, .i32⟩
  | 82 => ⟨S200000, .i32⟩
  | 83 => ⟨S200000, .i32⟩
  | 84 => ⟨S200000x1, .i32⟩
  | 85 => ⟨S200000x256, .f32⟩
  | 86 => ⟨S200000x256, .f32⟩
  | 87 => ⟨S_, .f32⟩
  | 88 => ⟨S200000, .f32⟩
  | 89 => ⟨S200000x1, .f32⟩
  | 90 => ⟨S_, .f32⟩
  | 91 => ⟨S200000x1, .f32⟩
  | 92 => ⟨S200000x1, .f32⟩
  | 93 => ⟨S200000x256, .f32⟩
  | 94 => ⟨S200000x256, .f32⟩
  | 95 => ⟨S200000x256, .f32⟩
  | 96 => ⟨S_, .f32⟩
  | 97 => ⟨S200000, .f32⟩
  | 98 => ⟨S200000x1, .f32⟩
  | 99 => ⟨S_, .f32⟩
  | 100 => ⟨S200000x1, .f32⟩
  | 101 => ⟨S200000x1, .f32⟩
  | 102 => ⟨S200000x256, .f32⟩
  | 103 => ⟨S200000x256, .f32⟩
  | 104 => ⟨S_, .f32⟩
  | 105 => ⟨S200000x1, .f32⟩
  | 106 => ⟨S200000x1, .f32⟩
  | 107 => ⟨S200000x1, .f32⟩
  | 108 => ⟨S200000x256, .f32⟩
  | 109 => ⟨S200000x256, .f32⟩
  | 110 => ⟨S_, .i32⟩
  | 111 => ⟨S200000, .i32⟩
  | 112 => ⟨S200000, .i1⟩
  | 113 => ⟨S_, .i32⟩
  | 114 => ⟨S200000, .i32⟩
  | 115 => ⟨S200000, .i32⟩
  | 116 => ⟨S200000, .i32⟩
  | 117 => ⟨S200000x1, .i32⟩
  | 118 => ⟨S200000x256, .f32⟩
  | 119 => ⟨S_, .i32⟩
  | 120 => ⟨S200000, .i32⟩
  | 121 => ⟨S200000, .i1⟩
  | 122 => ⟨S_, .i32⟩
  | 123 => ⟨S200000, .i32⟩
  | 124 => ⟨S200000, .i32⟩
  | 125 => ⟨S200000, .i32⟩
  | 126 => ⟨S200000x1, .i32⟩
  | 127 => ⟨S200000x256, .f32⟩
  | _ => ⟨S2000x512, .f32⟩

abbrev hbmTy0_1 (i : Nat) : BufTy := match i % 128 with
  | 0 => ⟨S200000x256, .f32⟩
  | 1 => ⟨S_, .f32⟩
  | 2 => ⟨S200000, .f32⟩
  | 3 => ⟨S200000x1, .f32⟩
  | 4 => ⟨S_, .f32⟩
  | 5 => ⟨S200000x1, .f32⟩
  | 6 => ⟨S200000x1, .f32⟩
  | 7 => ⟨S200000x256, .f32⟩
  | 8 => ⟨S200000x256, .f32⟩
  | 9 => ⟨S200000x256, .f32⟩
  | 10 => ⟨S_, .f32⟩
  | 11 => ⟨S200000, .f32⟩
  | 12 => ⟨S200000x1, .f32⟩
  | 13 => ⟨S_, .f32⟩
  | 14 => ⟨S200000x1, .f32⟩
  | 15 => ⟨S200000x1, .f32⟩
  | 16 => ⟨S200000x256, .f32⟩
  | 17 => ⟨S200000x256, .f32⟩
  | 18 => ⟨S_, .f32⟩
  | 19 => ⟨S200000x1, .f32⟩
  | 20 => ⟨S200000x1, .f32⟩
  | 21 => ⟨S200000x1, .f32⟩
  | 22 => ⟨S200000x256, .f32⟩
  | 23 => ⟨S200000x256, .f32⟩
  | 24 => ⟨S_, .i32⟩
  | 25 => ⟨S200000, .i32⟩
  | 26 => ⟨S200000, .i1⟩
  | 27 => ⟨S_, .i32⟩
  | 28 => ⟨S200000, .i32⟩
  | 29 => ⟨S200000, .i32⟩
  | 30 => ⟨S200000, .i32⟩
  | 31 => ⟨S200000x1, .i32⟩
  | 32 => ⟨S200000x256, .f32⟩
  | 33 => ⟨S_, .i32⟩
  | 34 => ⟨S200000, .i32⟩
  | 35 => ⟨S200000, .i1⟩
  | 36 => ⟨S_, .i32⟩
  | 37 => ⟨S200000, .i32⟩
  | 38 => ⟨S200000, .i32⟩
  | 39 => ⟨S200000, .i32⟩
  | 40 => ⟨S200000x1, .i32⟩
  | 41 => ⟨S200000x256, .f32⟩
  | 42 => ⟨S200000x256, .f32⟩
  | 43 => ⟨S_, .f32⟩
  | 44 => ⟨S200000, .f32⟩
  | 45 => ⟨S200000x1, .f32⟩
  | 46 => ⟨S_, .f32⟩
  | 47 => ⟨S200000x1, .f32⟩
  | 48 => ⟨S200000x1, .f32⟩
  | 49 => ⟨S200000x256, .f32⟩
  | 50 => ⟨S200000x256, .f32⟩
  | 51 => ⟨S200000x256, .f32⟩
  | 52 => ⟨S_, .f32⟩
  | 53 => ⟨S200000, .f32⟩
  | 54 => ⟨S200000x1, .f32⟩
  | 55 => ⟨S_, .f32⟩
  | 56 => ⟨S200000x1, .f32⟩
  | 57 => ⟨S200000x1, .f32⟩
  | 58 => ⟨S200000x256, .f32⟩
  | 59 => ⟨S200000x256, .f32⟩
  | 60 => ⟨S_, .f32⟩
  | 61 => ⟨S200000x1, .f32⟩
  | 62 => ⟨S200000x1, .f32⟩
  | 63 => ⟨S200000x1, .f32⟩
  | 64 => ⟨S200000x256, .f32⟩
  | 65 => ⟨S200000x256, .f32⟩
  | 66 => ⟨S_, .i32⟩
  | 67 => ⟨S200000, .i32⟩
  | 68 => ⟨S200000, .i1⟩
  | 69 => ⟨S_, .i32⟩
  | 70 => ⟨S200000, .i32⟩
  | 71 => ⟨S200000, .i32⟩
  | 72 => ⟨S200000, .i32⟩
  | 73 => ⟨S200000x1, .i32⟩
  | 74 => ⟨S200000x256, .f32⟩
  | 75 => ⟨S_, .i32⟩
  | 76 => ⟨S200000, .i32⟩
  | 77 => ⟨S200000, .i1⟩
  | 78 => ⟨S_, .i32⟩
  | 79 => ⟨S200000, .i32⟩
  | 80 => ⟨S200000, .i32⟩
  | 81 => ⟨S200000, .i32⟩
  | 82 => ⟨S200000x1, .i32⟩
  | 83 => ⟨S200000x256, .f32⟩
  | 84 => ⟨S200000x256, .f32⟩
  | 85 => ⟨S_, .f32⟩
  | 86 => ⟨S200000, .f32⟩
  | 87 => ⟨S200000x1, .f32⟩
  | 88 => ⟨S_, .f32⟩
  | 89 => ⟨S200000x1, .f32⟩
  | 90 => ⟨S200000x1, .f32⟩
  | 91 => ⟨S200000x256, .f32⟩
  | 92 => ⟨S200000x256, .f32⟩
  | 93 => ⟨S200000x256, .f32⟩
  | 94 => ⟨S_, .f32⟩
  | 95 => ⟨S200000, .f32⟩
  | 96 => ⟨S200000x1, .f32⟩
  | 97 => ⟨S_, .f32⟩
  | 98 => ⟨S200000x1, .f32⟩
  | 99 => ⟨S200000x1, .f32⟩
  | 100 => ⟨S200000x256, .f32⟩
  | 101 => ⟨S200000x256, .f32⟩
  | 102 => ⟨S_, .f32⟩
  | 103 => ⟨S200000x1, .f32⟩
  | 104 => ⟨S200000x1, .f32⟩
  | 105 => ⟨S200000x1, .f32⟩
  | 106 => ⟨S200000x256, .f32⟩
  | 107 => ⟨S200000x256, .f32⟩
  | 108 => ⟨S200000x256, .f32⟩
  | 109 => ⟨S200000x256, .f32⟩
  | 110 => ⟨S200000x256, .f32⟩
  | 111 => ⟨S_, .f32⟩
  | 112 => ⟨S200000, .f32⟩
  | 113 => ⟨S200000x1, .f32⟩
  | 114 => ⟨S_, .f32⟩
  | 115 => ⟨S200000x1, .f32⟩
  | 116 => ⟨S200000x1, .f32⟩
  | 117 => ⟨S200000x256, .f32⟩
  | 118 => ⟨S200000x256, .f32⟩
  | 119 => ⟨S200000x256, .f32⟩
  | 120 => ⟨S_, .f32⟩
  | 121 => ⟨S200000, .f32⟩
  | 122 => ⟨S200000x1, .f32⟩
  | 123 => ⟨S_, .f32⟩
  | 124 => ⟨S200000x1, .f32⟩
  | 125 => ⟨S200000x1, .f32⟩
  | 126 => ⟨S200000x256, .f32⟩
  | 127 => ⟨S200000x256, .f32⟩
  | _ => ⟨S2000x512, .f32⟩

abbrev hbmTy0_2 (i : Nat) : BufTy := match i % 128 with
  | 0 => ⟨S_, .f32⟩
  | 1 => ⟨S200000x1, .f32⟩
  | 2 => ⟨S200000x1, .f32⟩
  | 3 => ⟨S200000x1, .f32⟩
  | 4 => ⟨S200000x256, .f32⟩
  | 5 => ⟨S200000x256, .f32⟩
  | 6 => ⟨S200000x256, .f32⟩
  | 7 => ⟨S200000x256, .f32⟩
  | 8 => ⟨S200000x256, .f32⟩
  | 9 => ⟨S_, .f32⟩
  | 10 => ⟨S200000, .f32⟩
  | 11 => ⟨S200000x1, .f32⟩
  | 12 => ⟨S_, .f32⟩
  | 13 => ⟨S200000x1, .f32⟩
  | 14 => ⟨S200000x1, .f32⟩
  | 15 => ⟨S200000x256, .f32⟩
  | 16 => ⟨S200000x256, .f32⟩
  | 17 => ⟨S200000x256, .f32⟩
  | 18 => ⟨S_, .f32⟩
  | 19 => ⟨S200000, .f32⟩
  | 20 => ⟨S200000x1, .f32⟩
  | 21 => ⟨S_, .f32⟩
  | 22 => ⟨S200000x1, .f32⟩
  | 23 => ⟨S200000x1, .f32⟩
  | 24 => ⟨S200000x256, .f32⟩
  | 25 => ⟨S200000x256, .f32⟩
  | 26 => ⟨S_, .f32⟩
  | 27 => ⟨S200000x1, .f32⟩
  | 28 => ⟨S200000x1, .f32⟩
  | 29 => ⟨S200000x1, .f32⟩
  | 30 => ⟨S200000x256, .f32⟩
  | 31 => ⟨S200000x256, .f32⟩
  | 32 => ⟨S_, .i32⟩
  | 33 => ⟨S200000, .i32⟩
  | 34 => ⟨S200000, .i1⟩
  | 35 => ⟨S_, .i32⟩
  | 36 => ⟨S200000, .i32⟩
  | 37 => ⟨S200000, .i32⟩
  | 38 => ⟨S200000, .i32⟩
  | 39 => ⟨S200000x1, .i32⟩
  | 40 => ⟨S200000x256, .f32⟩
  | 41 => ⟨S_, .i32⟩
  | 42 => ⟨S200000, .i32⟩
  | 43 => ⟨S200000, .i1⟩
  | 44 => ⟨S_, .i32⟩
  | 45 => ⟨S200000, .i32⟩
  | 46 => ⟨S200000, .i32⟩
  | 47 => ⟨S200000, .i32⟩
  | 48 => ⟨S200000x1, .i32⟩
  | 49 => ⟨S200000x256, .f32⟩
  | 50 => ⟨S200000x256, .f32⟩
  | 51 => ⟨S_, .f32⟩
  | 52 => ⟨S200000, .f32⟩
  | 53 => ⟨S200000x256, .f32⟩
  | 54 => ⟨S_, .f32⟩
  | 55 => ⟨S200000, .f32⟩
  | 56 => ⟨S200000, .f32⟩
  | 57 => ⟨S200000x256, .f32⟩
  | 58 => ⟨S_, .f32⟩
  | 59 => ⟨S200000, .f32⟩
  | 60 => ⟨S200000, .f32⟩
  | 61 => ⟨S200000x256, .f32⟩
  | 62 => ⟨S_, .f32⟩
  | 63 => ⟨S200000, .f32⟩
  | 64 => ⟨S200000, .f32⟩
  | 65 => ⟨S200000, .f32⟩
  | 66 => ⟨S200000, .f32⟩
  | 67 => ⟨S200000, .f32⟩
  | 68 => ⟨S_, .f32⟩
  | 69 => ⟨S200000, .f32⟩
  | 70 => ⟨S200000, .f32⟩
  | 71 => ⟨S_, .f32⟩
  | 72 => ⟨S200000, .f32⟩
  | 73 => ⟨S200000, .f32⟩
  | _ => ⟨S2000x512, .f32⟩

abbrev hbmTy (i : Nat) : BufTy := match i / 128 with
  | 0 => hbmTy0_0 i
  | 1 => hbmTy0_1 i
  | 2 => hbmTy0_2 i
  | _ => ⟨S2000x512, .f32⟩

abbrev bufTy : (tb : Table) → Fin (tcTables nBuf tb) → BufTy
  | .hbm, ⟨i, _⟩ => hbmTy i
  | _, _ => ⟨S2000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_cst_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst_1 : Ref sig .tc := ⟨.hbm, 20, rfl⟩
abbrev main_v7 : Ref sig .tc := ⟨.hbm, 21, rfl⟩
abbrev main_v8 : Ref sig .tc := ⟨.hbm, 22, rfl⟩
abbrev main_cst_2 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_3 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_call0_cst : Ref sig .tc := ⟨.hbm, 34, rfl⟩
abbrev main_call0_v0 : Ref sig .tc := ⟨.hbm, 35, rfl⟩
abbrev main_call0_v1 : Ref sig .tc := ⟨.hbm, 36, rfl⟩
abbrev main_call0_cst_0 : Ref sig .tc := ⟨.hbm, 37, rfl⟩
abbrev main_call0_v2 : Ref sig .tc := ⟨.hbm, 38, rfl⟩
abbrev main_call0_v3 : Ref sig .tc := ⟨.hbm, 39, rfl⟩
abbrev main_call0_cst_1 : Ref sig .tc := ⟨.hbm, 40, rfl⟩
abbrev main_call0_call0_v0 : Ref sig .tc := ⟨.hbm, 41, rfl⟩
abbrev main_call0_call0_v1 : Ref sig .tc := ⟨.hbm, 42, rfl⟩
abbrev main_call0_v4 : Ref sig .tc := ⟨.hbm, 43, rfl⟩
abbrev main_call0_v5 : Ref sig .tc := ⟨.hbm, 44, rfl⟩
abbrev main_call0_cst_2 : Ref sig .tc := ⟨.hbm, 45, rfl⟩
abbrev main_call0_v6 : Ref sig .tc := ⟨.hbm, 46, rfl⟩
abbrev main_call0_v7 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_call1_cst : Ref sig .tc := ⟨.hbm, 51, rfl⟩
abbrev main_call1_v0 : Ref sig .tc := ⟨.hbm, 52, rfl⟩
abbrev main_call1_v1 : Ref sig .tc := ⟨.hbm, 53, rfl⟩
abbrev main_call1_cst_0 : Ref sig .tc := ⟨.hbm, 54, rfl⟩
abbrev main_call1_v2 : Ref sig .tc := ⟨.hbm, 55, rfl⟩
abbrev main_call1_v3 : Ref sig .tc := ⟨.hbm, 56, rfl⟩
abbrev main_call1_cst_1 : Ref sig .tc := ⟨.hbm, 57, rfl⟩
abbrev main_call1_call0_v0 : Ref sig .tc := ⟨.hbm, 58, rfl⟩
abbrev main_call1_call0_v1 : Ref sig .tc := ⟨.hbm, 59, rfl⟩
abbrev main_call1_v4 : Ref sig .tc := ⟨.hbm, 60, rfl⟩
abbrev main_call1_v5 : Ref sig .tc := ⟨.hbm, 61, rfl⟩
abbrev main_call1_cst_2 : Ref sig .tc := ⟨.hbm, 62, rfl⟩
abbrev main_call1_v6 : Ref sig .tc := ⟨.hbm, 63, rfl⟩
abbrev main_call1_v7 : Ref sig .tc := ⟨.hbm, 64, rfl⟩
abbrev main_v21 : Ref sig .tc := ⟨.hbm, 65, rfl⟩
abbrev main_v22 : Ref sig .tc := ⟨.hbm, 66, rfl⟩
abbrev main_v23 : Ref sig .tc := ⟨.hbm, 67, rfl⟩
abbrev main_c : Ref sig .tc := ⟨.hbm, 68, rfl⟩
abbrev main_v24 : Ref sig .tc := ⟨.hbm, 69, rfl⟩
abbrev main_v25 : Ref sig .tc := ⟨.hbm, 70, rfl⟩
abbrev main_c_4 : Ref sig .tc := ⟨.hbm, 71, rfl⟩
abbrev main_v26 : Ref sig .tc := ⟨.hbm, 72, rfl⟩
abbrev main_v27 : Ref sig .tc := ⟨.hbm, 73, rfl⟩
abbrev main_v28 : Ref sig .tc := ⟨.hbm, 74, rfl⟩
abbrev main_v29 : Ref sig .tc := ⟨.hbm, 75, rfl⟩
abbrev main_v30 : Ref sig .tc := ⟨.hbm, 76, rfl⟩
abbrev main_c_5 : Ref sig .tc := ⟨.hbm, 77, rfl⟩
abbrev main_v31 : Ref sig .tc := ⟨.hbm, 78, rfl⟩
abbrev main_v32 : Ref sig .tc := ⟨.hbm, 79, rfl⟩
abbrev main_c_6 : Ref sig .tc := ⟨.hbm, 80, rfl⟩
abbrev main_v33 : Ref sig .tc := ⟨.hbm, 81, rfl⟩
abbrev main_v34 : Ref sig .tc := ⟨.hbm, 82, rfl⟩
abbrev main_v35 : Ref sig .tc := ⟨.hbm, 83, rfl⟩
abbrev main_v36 : Ref sig .tc := ⟨.hbm, 84, rfl⟩
abbrev main_v37 : Ref sig .tc := ⟨.hbm, 85, rfl⟩
abbrev main_v38 : Ref sig .tc := ⟨.hbm, 86, rfl⟩
abbrev main_cst_7 : Ref sig .tc := ⟨.hbm, 87, rfl⟩
abbrev main_v39 : Ref sig .tc := ⟨.hbm, 88, rfl⟩
abbrev main_v40 : Ref sig .tc := ⟨.hbm, 89, rfl⟩
abbrev main_cst_8 : Ref sig .tc := ⟨.hbm, 90, rfl⟩
abbrev main_v41 : Ref sig .tc := ⟨.hbm, 91, rfl⟩
abbrev main_v42 : Ref sig .tc := ⟨.hbm, 92, rfl⟩
abbrev main_v43 : Ref sig .tc := ⟨.hbm, 93, rfl⟩
abbrev main_v44 : Ref sig .tc := ⟨.hbm, 94, rfl⟩
abbrev main_v45 : Ref sig .tc := ⟨.hbm, 95, rfl⟩
abbrev main_cst_9 : Ref sig .tc := ⟨.hbm, 96, rfl⟩
abbrev main_v46 : Ref sig .tc := ⟨.hbm, 97, rfl⟩
abbrev main_v47 : Ref sig .tc := ⟨.hbm, 98, rfl⟩
abbrev main_cst_10 : Ref sig .tc := ⟨.hbm, 99, rfl⟩
abbrev main_v48 : Ref sig .tc := ⟨.hbm, 100, rfl⟩
abbrev main_v49 : Ref sig .tc := ⟨.hbm, 101, rfl⟩
abbrev main_v50 : Ref sig .tc := ⟨.hbm, 102, rfl⟩
abbrev main_v51 : Ref sig .tc := ⟨.hbm, 103, rfl⟩
abbrev main_cst_11 : Ref sig .tc := ⟨.hbm, 104, rfl⟩
abbrev main_v52 : Ref sig .tc := ⟨.hbm, 105, rfl⟩
abbrev main_v53 : Ref sig .tc := ⟨.hbm, 106, rfl⟩
abbrev main_v54 : Ref sig .tc := ⟨.hbm, 107, rfl⟩
abbrev main_v55 : Ref sig .tc := ⟨.hbm, 108, rfl⟩
abbrev main_v56 : Ref sig .tc := ⟨.hbm, 109, rfl⟩
abbrev main_c_12 : Ref sig .tc := ⟨.hbm, 110, rfl⟩
abbrev main_v57 : Ref sig .tc := ⟨.hbm, 111, rfl⟩
abbrev main_v58 : Ref sig .tc := ⟨.hbm, 112, rfl⟩
abbrev main_c_13 : Ref sig .tc := ⟨.hbm, 113, rfl⟩
abbrev main_v59 : Ref sig .tc := ⟨.hbm, 114, rfl⟩
abbrev main_v60 : Ref sig .tc := ⟨.hbm, 115, rfl⟩
abbrev main_v61 : Ref sig .tc := ⟨.hbm, 116, rfl⟩
abbrev main_v62 : Ref sig .tc := ⟨.hbm, 117, rfl⟩
abbrev main_v63 : Ref sig .tc := ⟨.hbm, 118, rfl⟩
abbrev main_c_14 : Ref sig .tc := ⟨.hbm, 119, rfl⟩
abbrev main_v64 : Ref sig .tc := ⟨.hbm, 120, rfl⟩
abbrev main_v65 : Ref sig .tc := ⟨.hbm, 121, rfl⟩
abbrev main_c_15 : Ref sig .tc := ⟨.hbm, 122, rfl⟩
abbrev main_v66 : Ref sig .tc := ⟨.hbm, 123, rfl⟩
abbrev main_v67 : Ref sig .tc := ⟨.hbm, 124, rfl⟩
abbrev main_v68 : Ref sig .tc := ⟨.hbm, 125, rfl⟩
abbrev main_v69 : Ref sig .tc := ⟨.hbm, 126, rfl⟩
abbrev main_v70 : Ref sig .tc := ⟨.hbm, 127, rfl⟩
abbrev main_v71 : Ref sig .tc := ⟨.hbm, 128, rfl⟩
abbrev main_cst_16 : Ref sig .tc := ⟨.hbm, 129, rfl⟩
abbrev main_v72 : Ref sig .tc := ⟨.hbm, 130, rfl⟩
abbrev main_v73 : Ref sig .tc := ⟨.hbm, 131, rfl⟩
abbrev main_cst_17 : Ref sig .tc := ⟨.hbm, 132, rfl⟩
abbrev main_v74 : Ref sig .tc := ⟨.hbm, 133, rfl⟩
abbrev main_v75 : Ref sig .tc := ⟨.hbm, 134, rfl⟩
abbrev main_v76 : Ref sig .tc := ⟨.hbm, 135, rfl⟩
abbrev main_v77 : Ref sig .tc := ⟨.hbm, 136, rfl⟩
abbrev main_v78 : Ref sig .tc := ⟨.hbm, 137, rfl⟩
abbrev main_cst_18 : Ref sig .tc := ⟨.hbm, 138, rfl⟩
abbrev main_v79 : Ref sig .tc := ⟨.hbm, 139, rfl⟩
abbrev main_v80 : Ref sig .tc := ⟨.hbm, 140, rfl⟩
abbrev main_cst_19 : Ref sig .tc := ⟨.hbm, 141, rfl⟩
abbrev main_v81 : Ref sig .tc := ⟨.hbm, 142, rfl⟩
abbrev main_v82 : Ref sig .tc := ⟨.hbm, 143, rfl⟩
abbrev main_v83 : Ref sig .tc := ⟨.hbm, 144, rfl⟩
abbrev main_v84 : Ref sig .tc := ⟨.hbm, 145, rfl⟩
abbrev main_cst_20 : Ref sig .tc := ⟨.hbm, 146, rfl⟩
abbrev main_v85 : Ref sig .tc := ⟨.hbm, 147, rfl⟩
abbrev main_v86 : Ref sig .tc := ⟨.hbm, 148, rfl⟩
abbrev main_v87 : Ref sig .tc := ⟨.hbm, 149, rfl⟩
abbrev main_v88 : Ref sig .tc := ⟨.hbm, 150, rfl⟩
abbrev main_v89 : Ref sig .tc := ⟨.hbm, 151, rfl⟩
abbrev main_c_21 : Ref sig .tc := ⟨.hbm, 152, rfl⟩
abbrev main_v90 : Ref sig .tc := ⟨.hbm, 153, rfl⟩
abbrev main_v91 : Ref sig .tc := ⟨.hbm, 154, rfl⟩
abbrev main_c_22 : Ref sig .tc := ⟨.hbm, 155, rfl⟩
abbrev main_v92 : Ref sig .tc := ⟨.hbm, 156, rfl⟩
abbrev main_v93 : Ref sig .tc := ⟨.hbm, 157, rfl⟩
abbrev main_v94 : Ref sig .tc := ⟨.hbm, 158, rfl⟩
abbrev main_v95 : Ref sig .tc := ⟨.hbm, 159, rfl⟩
abbrev main_v96 : Ref sig .tc := ⟨.hbm, 160, rfl⟩
abbrev main_c_23 : Ref sig .tc := ⟨.hbm, 161, rfl⟩
abbrev main_v97 : Ref sig .tc := ⟨.hbm, 162, rfl⟩
abbrev main_v98 : Ref sig .tc := ⟨.hbm, 163, rfl⟩
abbrev main_c_24 : Ref sig .tc := ⟨.hbm, 164, rfl⟩
abbrev main_v99 : Ref sig .tc := ⟨.hbm, 165, rfl⟩
abbrev main_v100 : Ref sig .tc := ⟨.hbm, 166, rfl⟩
abbrev main_v101 : Ref sig .tc := ⟨.hbm, 167, rfl⟩
abbrev main_v102 : Ref sig .tc := ⟨.hbm, 168, rfl⟩
abbrev main_v103 : Ref sig .tc := ⟨.hbm, 169, rfl⟩
abbrev main_v104 : Ref sig .tc := ⟨.hbm, 170, rfl⟩
abbrev main_cst_25 : Ref sig .tc := ⟨.hbm, 171, rfl⟩
abbrev main_v105 : Ref sig .tc := ⟨.hbm, 172, rfl⟩
abbrev main_v106 : Ref sig .tc := ⟨.hbm, 173, rfl⟩
abbrev main_cst_26 : Ref sig .tc := ⟨.hbm, 174, rfl⟩
abbrev main_v107 : Ref sig .tc := ⟨.hbm, 175, rfl⟩
abbrev main_v108 : Ref sig .tc := ⟨.hbm, 176, rfl⟩
abbrev main_v109 : Ref sig .tc := ⟨.hbm, 177, rfl⟩
abbrev main_v110 : Ref sig .tc := ⟨.hbm, 178, rfl⟩
abbrev main_v111 : Ref sig .tc := ⟨.hbm, 179, rfl⟩
abbrev main_cst_27 : Ref sig .tc := ⟨.hbm, 180, rfl⟩
abbrev main_v112 : Ref sig .tc := ⟨.hbm, 181, rfl⟩
abbrev main_v113 : Ref sig .tc := ⟨.hbm, 182, rfl⟩
abbrev main_cst_28 : Ref sig .tc := ⟨.hbm, 183, rfl⟩
abbrev main_v114 : Ref sig .tc := ⟨.hbm, 184, rfl⟩
abbrev main_v115 : Ref sig .tc := ⟨.hbm, 185, rfl⟩
abbrev main_v116 : Ref sig .tc := ⟨.hbm, 186, rfl⟩
abbrev main_v117 : Ref sig .tc := ⟨.hbm, 187, rfl⟩
abbrev main_cst_29 : Ref sig .tc := ⟨.hbm, 188, rfl⟩
abbrev main_v118 : Ref sig .tc := ⟨.hbm, 189, rfl⟩
abbrev main_v119 : Ref sig .tc := ⟨.hbm, 190, rfl⟩
abbrev main_v120 : Ref sig .tc := ⟨.hbm, 191, rfl⟩
abbrev main_v121 : Ref sig .tc := ⟨.hbm, 192, rfl⟩
abbrev main_v122 : Ref sig .tc := ⟨.hbm, 193, rfl⟩
abbrev main_c_30 : Ref sig .tc := ⟨.hbm, 194, rfl⟩
abbrev main_v123 : Ref sig .tc := ⟨.hbm, 195, rfl⟩
abbrev main_v124 : Ref sig .tc := ⟨.hbm, 196, rfl⟩
abbrev main_c_31 : Ref sig .tc := ⟨.hbm, 197, rfl⟩
abbrev main_v125 : Ref sig .tc := ⟨.hbm, 198, rfl⟩
abbrev main_v126 : Ref sig .tc := ⟨.hbm, 199, rfl⟩
abbrev main_v127 : Ref sig .tc := ⟨.hbm, 200, rfl⟩
abbrev main_v128 : Ref sig .tc := ⟨.hbm, 201, rfl⟩
abbrev main_v129 : Ref sig .tc := ⟨.hbm, 202, rfl⟩
abbrev main_c_32 : Ref sig .tc := ⟨.hbm, 203, rfl⟩
abbrev main_v130 : Ref sig .tc := ⟨.hbm, 204, rfl⟩
abbrev main_v131 : Ref sig .tc := ⟨.hbm, 205, rfl⟩
abbrev main_c_33 : Ref sig .tc := ⟨.hbm, 206, rfl⟩
abbrev main_v132 : Ref sig .tc := ⟨.hbm, 207, rfl⟩
abbrev main_v133 : Ref sig .tc := ⟨.hbm, 208, rfl⟩
abbrev main_v134 : Ref sig .tc := ⟨.hbm, 209, rfl⟩
abbrev main_v135 : Ref sig .tc := ⟨.hbm, 210, rfl⟩
abbrev main_v136 : Ref sig .tc := ⟨.hbm, 211, rfl⟩
abbrev main_v137 : Ref sig .tc := ⟨.hbm, 212, rfl⟩
abbrev main_cst_34 : Ref sig .tc := ⟨.hbm, 213, rfl⟩
abbrev main_v138 : Ref sig .tc := ⟨.hbm, 214, rfl⟩
abbrev main_v139 : Ref sig .tc := ⟨.hbm, 215, rfl⟩
abbrev main_cst_35 : Ref sig .tc := ⟨.hbm, 216, rfl⟩
abbrev main_v140 : Ref sig .tc := ⟨.hbm, 217, rfl⟩
abbrev main_v141 : Ref sig .tc := ⟨.hbm, 218, rfl⟩
abbrev main_v142 : Ref sig .tc := ⟨.hbm, 219, rfl⟩
abbrev main_v143 : Ref sig .tc := ⟨.hbm, 220, rfl⟩
abbrev main_v144 : Ref sig .tc := ⟨.hbm, 221, rfl⟩
abbrev main_cst_36 : Ref sig .tc := ⟨.hbm, 222, rfl⟩
abbrev main_v145 : Ref sig .tc := ⟨.hbm, 223, rfl⟩
abbrev main_v146 : Ref sig .tc := ⟨.hbm, 224, rfl⟩
abbrev main_cst_37 : Ref sig .tc := ⟨.hbm, 225, rfl⟩
abbrev main_v147 : Ref sig .tc := ⟨.hbm, 226, rfl⟩
abbrev main_v148 : Ref sig .tc := ⟨.hbm, 227, rfl⟩
abbrev main_v149 : Ref sig .tc := ⟨.hbm, 228, rfl⟩
abbrev main_v150 : Ref sig .tc := ⟨.hbm, 229, rfl⟩
abbrev main_cst_38 : Ref sig .tc := ⟨.hbm, 230, rfl⟩
abbrev main_v151 : Ref sig .tc := ⟨.hbm, 231, rfl⟩
abbrev main_v152 : Ref sig .tc := ⟨.hbm, 232, rfl⟩
abbrev main_v153 : Ref sig .tc := ⟨.hbm, 233, rfl⟩
abbrev main_v154 : Ref sig .tc := ⟨.hbm, 234, rfl⟩
abbrev main_v155 : Ref sig .tc := ⟨.hbm, 235, rfl⟩
abbrev main_v156 : Ref sig .tc := ⟨.hbm, 236, rfl⟩
abbrev main_v157 : Ref sig .tc := ⟨.hbm, 237, rfl⟩
abbrev main_v158 : Ref sig .tc := ⟨.hbm, 238, rfl⟩
abbrev main_cst_39 : Ref sig .tc := ⟨.hbm, 239, rfl⟩
abbrev main_v159 : Ref sig .tc := ⟨.hbm, 240, rfl⟩
abbrev main_v160 : Ref sig .tc := ⟨.hbm, 241, rfl⟩
abbrev main_cst_40 : Ref sig .tc := ⟨.hbm, 242, rfl⟩
abbrev main_v161 : Ref sig .tc := ⟨.hbm, 243, rfl⟩
abbrev main_v162 : Ref sig .tc := ⟨.hbm, 244, rfl⟩
abbrev main_v163 : Ref sig .tc := ⟨.hbm, 245, rfl⟩
abbrev main_v164 : Ref sig .tc := ⟨.hbm, 246, rfl⟩
abbrev main_v165 : Ref sig .tc := ⟨.hbm, 247, rfl⟩
abbrev main_cst_41 : Ref sig .tc := ⟨.hbm, 248, rfl⟩
abbrev main_v166 : Ref sig .tc := ⟨.hbm, 249, rfl⟩
abbrev main_v167 : Ref sig .tc := ⟨.hbm, 250, rfl⟩
abbrev main_cst_42 : Ref sig .tc := ⟨.hbm, 251, rfl⟩
abbrev main_v168 : Ref sig .tc := ⟨.hbm, 252, rfl⟩
abbrev main_v169 : Ref sig .tc := ⟨.hbm, 253, rfl⟩
abbrev main_v170 : Ref sig .tc := ⟨.hbm, 254, rfl⟩
abbrev main_v171 : Ref sig .tc := ⟨.hbm, 255, rfl⟩
abbrev main_cst_43 : Ref sig .tc := ⟨.hbm, 256, rfl⟩
abbrev main_v172 : Ref sig .tc := ⟨.hbm, 257, rfl⟩
abbrev main_v173 : Ref sig .tc := ⟨.hbm, 258, rfl⟩
abbrev main_v174 : Ref sig .tc := ⟨.hbm, 259, rfl⟩
abbrev main_v175 : Ref sig .tc := ⟨.hbm, 260, rfl⟩
abbrev main_v176 : Ref sig .tc := ⟨.hbm, 261, rfl⟩
abbrev main_v177 : Ref sig .tc := ⟨.hbm, 262, rfl⟩
abbrev main_v178 : Ref sig .tc := ⟨.hbm, 263, rfl⟩
abbrev main_v179 : Ref sig .tc := ⟨.hbm, 264, rfl⟩
abbrev main_cst_44 : Ref sig .tc := ⟨.hbm, 265, rfl⟩
abbrev main_v180 : Ref sig .tc := ⟨.hbm, 266, rfl⟩
abbrev main_v181 : Ref sig .tc := ⟨.hbm, 267, rfl⟩
abbrev main_cst_45 : Ref sig .tc := ⟨.hbm, 268, rfl⟩
abbrev main_v182 : Ref sig .tc := ⟨.hbm, 269, rfl⟩
abbrev main_v183 : Ref sig .tc := ⟨.hbm, 270, rfl⟩
abbrev main_v184 : Ref sig .tc := ⟨.hbm, 271, rfl⟩
abbrev main_v185 : Ref sig .tc := ⟨.hbm, 272, rfl⟩
abbrev main_v186 : Ref sig .tc := ⟨.hbm, 273, rfl⟩
abbrev main_cst_46 : Ref sig .tc := ⟨.hbm, 274, rfl⟩
abbrev main_v187 : Ref sig .tc := ⟨.hbm, 275, rfl⟩
abbrev main_v188 : Ref sig .tc := ⟨.hbm, 276, rfl⟩
abbrev main_cst_47 : Ref sig .tc := ⟨.hbm, 277, rfl⟩
abbrev main_v189 : Ref sig .tc := ⟨.hbm, 278, rfl⟩
abbrev main_v190 : Ref sig .tc := ⟨.hbm, 279, rfl⟩
abbrev main_v191 : Ref sig .tc := ⟨.hbm, 280, rfl⟩
abbrev main_v192 : Ref sig .tc := ⟨.hbm, 281, rfl⟩
abbrev main_cst_48 : Ref sig .tc := ⟨.hbm, 282, rfl⟩
abbrev main_v193 : Ref sig .tc := ⟨.hbm, 283, rfl⟩
abbrev main_v194 : Ref sig .tc := ⟨.hbm, 284, rfl⟩
abbrev main_v195 : Ref sig .tc := ⟨.hbm, 285, rfl⟩
abbrev main_v196 : Ref sig .tc := ⟨.hbm, 286, rfl⟩
abbrev main_v197 : Ref sig .tc := ⟨.hbm, 287, rfl⟩
abbrev main_c_49 : Ref sig .tc := ⟨.hbm, 288, rfl⟩
abbrev main_v198 : Ref sig .tc := ⟨.hbm, 289, rfl⟩
abbrev main_v199 : Ref sig .tc := ⟨.hbm, 290, rfl⟩
abbrev main_c_50 : Ref sig .tc := ⟨.hbm, 291, rfl⟩
abbrev main_v200 : Ref sig .tc := ⟨.hbm, 292, rfl⟩
abbrev main_v201 : Ref sig .tc := ⟨.hbm, 293, rfl⟩
abbrev main_v202 : Ref sig .tc := ⟨.hbm, 294, rfl⟩
abbrev main_v203 : Ref sig .tc := ⟨.hbm, 295, rfl⟩
abbrev main_v204 : Ref sig .tc := ⟨.hbm, 296, rfl⟩
abbrev main_c_51 : Ref sig .tc := ⟨.hbm, 297, rfl⟩
abbrev main_v205 : Ref sig .tc := ⟨.hbm, 298, rfl⟩
abbrev main_v206 : Ref sig .tc := ⟨.hbm, 299, rfl⟩
abbrev main_c_52 : Ref sig .tc := ⟨.hbm, 300, rfl⟩
abbrev main_v207 : Ref sig .tc := ⟨.hbm, 301, rfl⟩
abbrev main_v208 : Ref sig .tc := ⟨.hbm, 302, rfl⟩
abbrev main_v209 : Ref sig .tc := ⟨.hbm, 303, rfl⟩
abbrev main_v210 : Ref sig .tc := ⟨.hbm, 304, rfl⟩
abbrev main_v211 : Ref sig .tc := ⟨.hbm, 305, rfl⟩
abbrev main_v212 : Ref sig .tc := ⟨.hbm, 306, rfl⟩
abbrev main_cst_53 : Ref sig .tc := ⟨.hbm, 307, rfl⟩
abbrev main_v213 : Ref sig .tc := ⟨.hbm, 308, rfl⟩
abbrev main_v214 : Ref sig .tc := ⟨.hbm, 309, rfl⟩
abbrev main_cst_54 : Ref sig .tc := ⟨.hbm, 310, rfl⟩
abbrev main_v215 : Ref sig .tc := ⟨.hbm, 311, rfl⟩
abbrev main_v216 : Ref sig .tc := ⟨.hbm, 312, rfl⟩
abbrev main_v217 : Ref sig .tc := ⟨.hbm, 313, rfl⟩
abbrev main_cst_55 : Ref sig .tc := ⟨.hbm, 314, rfl⟩
abbrev main_v218 : Ref sig .tc := ⟨.hbm, 315, rfl⟩
abbrev main_v219 : Ref sig .tc := ⟨.hbm, 316, rfl⟩
abbrev main_v220 : Ref sig .tc := ⟨.hbm, 317, rfl⟩
abbrev main_cst_56 : Ref sig .tc := ⟨.hbm, 318, rfl⟩
abbrev main_v221 : Ref sig .tc := ⟨.hbm, 319, rfl⟩
abbrev main_v222 : Ref sig .tc := ⟨.hbm, 320, rfl⟩
abbrev main_v223 : Ref sig .tc := ⟨.hbm, 321, rfl⟩
abbrev main_v224 : Ref sig .tc := ⟨.hbm, 322, rfl⟩
abbrev main_v225 : Ref sig .tc := ⟨.hbm, 323, rfl⟩
abbrev main_cst_57 : Ref sig .tc := ⟨.hbm, 324, rfl⟩
abbrev main_v226 : Ref sig .tc := ⟨.hbm, 325, rfl⟩
abbrev main_v227 : Ref sig .tc := ⟨.hbm, 326, rfl⟩
abbrev main_cst_58 : Ref sig .tc := ⟨.hbm, 327, rfl⟩
abbrev main_v228 : Ref sig .tc := ⟨.hbm, 328, rfl⟩
abbrev main_v229 : Ref sig .tc := ⟨.hbm, 329, rfl⟩

abbrev nD : Nat := 1
abbrev τ : Topo := Topo.v7x

variable {F : FTy → Type} [FloatOps F]

class Facts₀ : Prop where
  reducesTo_S2000x512_S2000_d1 : S2000x512.ReducesTo [1] S2000
  h_S_ : 0 < S_.numel
  bcast_S2000_S2000x1_0 : S2000.BroadcastsInDim S2000x1 (![0] : Fin 1 → Fin S2000x1.rank)
  bcast_S_S2000x1 : S_.BroadcastsInDim S2000x1 (![] : Fin 0 → Fin S2000x1.rank)
  bcast_S2000x1_S2000x512_0_1 : S2000x1.BroadcastsInDim S2000x512 (![0, 1] : Fin 2 → Fin S2000x512.rank)
  bcast_S_S2000x512 : S_.BroadcastsInDim S2000x512 (![] : Fin 0 → Fin S2000x512.rank)
  transposes_S256x512_S512x256_1_0 : S256x512.Transposes [1, 0] S512x256
  bcast_S_S2000x256 : S_.BroadcastsInDim S2000x256 (![] : Fin 0 → Fin S2000x256.rank)
  bcast_S_S200000 : S_.BroadcastsInDim S200000 (![] : Fin 0 → Fin S200000.rank)
  bcast_S200000_S200000x1_0 : S200000.BroadcastsInDim S200000x1 (![0] : Fin 1 → Fin S200000x1.rank)
  reducesTo_S200000x256_S200000_d1 : S200000x256.ReducesTo [1] S200000
  bcast_S_S200000x1 : S_.BroadcastsInDim S200000x1 (![] : Fin 0 → Fin S200000x1.rank)
  bcast_S200000x1_S200000x256_0_1 : S200000x1.BroadcastsInDim S200000x256 (![0, 1] : Fin 2 → Fin S200000x256.rank)
  dot_S2000x512_S512x256_S2000x256_1_0_0_1_n_n_wf : DotDims.WF S2000x512 S512x256 S2000x256 [1] [0] [0] [1] [] []
  gather_S2000x256_S200000x1_S200000x256_1_0_n_n_0_1_1256_wf : GatherDims.WF S2000x256 S200000x1 S200000x256 [1] [0] [] [0] [] 1 ![1, 256]
  gather_S86x256_S200000x1_S200000x256_1_0_n_n_0_1_1256_wf : GatherDims.WF S86x256 S200000x1 S200000x256 [1] [0] [] [0] [] 1 ![1, 256]

variable [Facts₀]

def dot_S2000x512_S512x256_S2000x256_1_0_0_1_n_n : DotDims S2000x512 S512x256 S2000x256 where
  lhsContracting := [1]
  rhsContracting := [0]
  lhsNonContracting := [0]
  rhsNonContracting := [1]
  lhsBatch := []
  rhsBatch := []
  wf := dot_S2000x512_S512x256_S2000x256_1_0_0_1_n_n_wf
def gather_S2000x256_S200000x1_S200000x256_1_0_n_n_0_1_1256 : GatherDims S2000x256 S200000x1 S200000x256 where
  offsetDims := [1]
  collapsedSliceDims := [0]
  operandBatchingDims := []
  startIndicesBatchingDims := []
  startIndexMap := [0]
  indexVectorDim := 1
  sliceSizes := ![1, 256]
  wf := gather_S2000x256_S200000x1_S200000x256_1_0_n_n_0_1_1256_wf
def gather_S86x256_S200000x1_S200000x256_1_0_n_n_0_1_1256 : GatherDims S86x256 S200000x1 S200000x256 where
  offsetDims := [1]
  collapsedSliceDims := [0]
  operandBatchingDims := []
  startIndicesBatchingDims := []
  startIndexMap := [0]
  indexVectorDim := 1
  sliceSizes := ![1, 256]
  wf := gather_S86x256_S200000x1_S200000x256_1_0_n_n_0_1_1256_wf

class Facts : Prop extends Facts₀ where

variable [Facts]
-- ==== Proof.PayB.lean ====
/-
  The value the pair kernel stores, as one function of the six blocks it loads: the three index blocks, the two
  drug tables (each holding a table and its rounding residual side by side) and the relation table. It is the
  composition of the body's named stages: the one-hot products and their sum, the four normalised vectors, the
  normalised complex product, and the logistic of the inner product with the gathered relation weights.
-/
import proofs.«417564_j14156212208090_3_alg».proof.Proof.Gen.Kernel.Skeleton

noncomputable section

namespace Cert.Kernel.Hand

open Cert.Kernel Cert.Kernel.Gen Idealize.ShloMosaic

variable {F : FTy → Type} [FloatOps F]

/-- The 256 outputs of one grid point from the point's blocks. -/
def gatherOut (v0 v3 v6 : Vec F S256 .i32) (v20 v23 : Vec F S2000x2048 .bf16) (v157 : Vec F S86x1024 .bf16) :
    FVec F S256 .f32 :=
  k1_pay1 (k1_pay2 v6)
    (k1_pay14 (k1_pay8 (k1_pay4 v0 v3 v20 v23) (k1_pay6 v0 v3 v20 v23) (k1_pay7 v0 v3 v20 v23))
      (k1_pay9 (k1_pay3 v0 v3 v20 v23)) (k1_pay10 (k1_pay3 v0 v3 v20 v23)) (k1_pay11 (k1_pay3 v0 v3 v20 v23))
      (k1_pay12 (k1_pay3 v0 v3 v20 v23)) (Scalar.ofBits .f32 0x43800000#32))
    (k1_pay15 (k1_pay8 (k1_pay4 v0 v3 v20 v23) (k1_pay6 v0 v3 v20 v23) (k1_pay7 v0 v3 v20 v23))
      (k1_pay9 (k1_pay3 v0 v3 v20 v23)) (k1_pay10 (k1_pay3 v0 v3 v20 v23)) (k1_pay11 (k1_pay3 v0 v3 v20 v23))
      (k1_pay12 (k1_pay3 v0 v3 v20 v23)) (Scalar.ofBits .f32 0x43800000#32))
    (k1_pay16 (k1_pay8 (k1_pay4 v0 v3 v20 v23) (k1_pay6 v0 v3 v20 v23) (k1_pay7 v0 v3 v20 v23))
      (k1_pay9 (k1_pay3 v0 v3 v20 v23)) (k1_pay10 (k1_pay3 v0 v3 v20 v23)) (k1_pay11 (k1_pay3 v0 v3 v20 v23))
      (k1_pay12 (k1_pay3 v0 v3 v20 v23)) (Scalar.ofBits .f32 0x43800000#32))
    (k1_pay17 (k1_pay8 (k1_pay4 v0 v3 v20 v23) (k1_pay6 v0 v3 v20 v23) (k1_pay7 v0 v3 v20 v23))
      (k1_pay9 (k1_pay3 v0 v3 v20 v23)) (k1_pay10 (k1_pay3 v0 v3 v20 v23)) (k1_pay11 (k1_pay3 v0 v3 v20 v23))
      (k1_pay12 (k1_pay3 v0 v3 v20 v23)) (Scalar.ofBits .f32 0x43800000#32))
    v157

end Cert.Kernel.Hand

end
-- ==== Proof.Reg0B.lean ====
/-
  Region 0 of the program: the encoder kernel, a grid of one point over six windows, every block the whole array.
  Stated at a parameter V, the contents of the core's buffers when the region is entered: each window's block, what
  the body leaves in each of the two output buffers as the canon of its one store over the input blocks, the body's
  triple, the proof data of the pipeline and the body obligation at every point. Each output is one piece covering
  its whole buffer, so the canon is the stored payload itself.
-/
import proofs.«417564_j14156212208090_3_alg».proof.Proof.Gen.Kernel.Launch
import proofs.«417564_j14156212208090_3_alg».proof.Proof.Gen.Kernel.Skeleton
import proofs.«417564_j14156212208090_3_alg».proof.Proof.Gen.Kernel.Points
import proofs.«417564_j14156212208090_3_alg».proof.Proof.PayB
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the contents of the core's buffers when the region is entered
variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is V's and whose body leaves the block in place: unfetched, the index has not moved; the
    window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is V's and whose body leaves the block in place: unfetched, the index has not moved; the
    window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof
    data whose array is V's and whose body leaves the block in place: unfetched, the index has not moved; the
    window is uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for any proof
    data whose array is V's and whose body leaves the block in place: unfetched, the index has not moved; the
    window is uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each the whole buffer -/

abbrev rA : Rect S2000x512 := Rect.unit (s := S2000x512) ![0, 0] S2000x512.size inb_S2000x512_S2000x512_0_0
abbrev rB : Rect S512x256 := Rect.unit (s := S512x256) ![0, 0] S512x256.size inb_S512x256_S512x256_0_0
abbrev rC : Rect S2000x256 := Rect.unit (s := S2000x256) ![0, 0] S2000x256.size inb_S2000x256_S2000x256_0_0

/-! ## What the body leaves in each output window's buffer -/

/-- Window 4's staging buffer after the body, from the blocks of windows 0 and 2: its one store as a piece. -/
def out0_4 (x0 : Vec F S2000x512 .f32) (x2 : Vec F S512x256 .f32) : Vec F S2000x256 .f32 :=
  View.canon [⟨rC, k0_pay2 (View.ld x0 rA) (View.ld x2 rB)⟩]

/-- Window 5's staging buffer after the body, from the blocks of windows 1 and 3: its one store as a piece. -/
def out0_5 (x1 : Vec F S2000x512 .f32) (x3 : Vec F S512x256 .f32) : Vec F S2000x256 .f32 :=
  View.canon [⟨rC, k0_pay1 (View.ld x1 rA) (View.ld x3 rB)⟩]

/-- The one store tiles the buffer, so it covers it. -/
theorem cover0 (p0 : Vec F S2000x256 .f32) (y : S2000x256.Idx) :
    ∃ pc ∈ ([⟨rC, p0⟩] : List (View.Piece (Elt F) S2000x256 .f32)), y ∈ pc.1.set :=
  View.cover_of_tiled [⟨rC, p0⟩] S2000x256.size (by rfl) y

/-! ## The body's triple -/

set_option maxHeartbeats 1000000 in
/-- The kernel body on whole staging memrefs, the four inputs' at read contents and the two outputs' at anything,
    runs to the continuation holding the inputs' as they were and each output's at its canon over the inputs. -/
theorem sound_kernel0 (c : Dev nD) (E : Set ℕ) (i : grid0.Coords)
    (arg1 : Memref sig .tc .vmem S2000x512 .f32) (harg1 : arg1.IsWhole) (arg2 : Memref sig .tc .vmem S2000x512 .f32) (harg2 : arg2.IsWhole)
    (arg3 : Memref sig .tc .vmem S512x256 .f32) (harg3 : arg3.IsWhole) (arg4 : Memref sig .tc .vmem S512x256 .f32) (harg4 : arg4.IsWhole)
    (arg5 : Memref sig .tc .vmem S2000x256 .f32) (harg5 : arg5.IsWhole) (arg6 : Memref sig .tc .vmem S2000x256 .f32) (harg6 : arg6.IsWhole)
    (x0 x1 : Vec F S2000x512 .f32) (x2 x3 : Vec F S512x256 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out0_4 x0 x2) ∗ owns (c : Thread nD τ) arg6 fullShare (out0_5 x1 x3)) -∗ K ⟨⟩))
      ⊢ wp frame (wpE (defs₀ (F := F)) Variants.none c none) E (cc0__encoder_kernel i arg1 harg1 arg2 harg2 arg3 harg3 arg4 harg4 arg5 harg5 arg6 harg6) K := by
  simp only [cc0__encoder_kernel_eq_skeleton]; unfold cc0__encoder_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0 _)
  iexists _; isplitr
  swap; · iexact H5
  ipureintro
  exact View.read_writes_eq_canon _ _ _ (cover0 _)

/-! ## The pipeline's proof data -/

/-- The proof data of pipeline 0 on core c: the arrays as the region finds them; after the body at point t each
    input's buffer at its block and each output's at its canon over the input blocks; the invariant the scoped rest
    and the pseudo-random register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 2 t)
    | ⟨5, _⟩ => out0_5 (iblk0 V c 1 t) (iblk0 V c 3 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 2 t) := by dsimp only [dat0]
theorem after0_5 (c : Dev nD) (t : Fin cfg0.N) : (dat0 V c).after 5 t = out0_5 (iblk0 V c 1 t) (iblk0 V c 3 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks, so the kernel's triple applies; the invariant and
    the core's owed count pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _
    (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Regions

/-! ## One piece covering the whole buffer: the canon is the payload -/

/-- The zero offsets of a rank-two rectangle, as the constant function. -/
theorem off_zero2 : (![0, 0] : Fin 2 → Nat) = fun _ => 0 := by
  funext a; fin_cases a <;> rfl

theorem out0_4_eq (x0 : Vec F S2000x512 .f32) (x2 : Vec F S512x256 .f32) : out0_4 x0 x2 = k0_pay2 x0 x2 := by
  unfold out0_4
  rw [View.canon_unit_zero off_zero2]
  simp only [View.ld_unit_zero (S := S2000x512) off_zero2, View.ld_unit_zero (S := S512x256) off_zero2]

theorem out0_5_eq (x1 : Vec F S2000x512 .f32) (x3 : Vec F S512x256 .f32) : out0_5 x1 x3 = k0_pay1 x1 x3 := by
  unfold out0_5
  rw [View.canon_unit_zero off_zero2]
  simp only [View.ld_unit_zero (S := S2000x512) off_zero2, View.ld_unit_zero (S := S512x256) off_zero2]

end Cert.Kernel.Hand

end
-- ==== Proof.Reg1B.lean ====
/-
  The second kernel region of the program, at the contents V its core's buffers hold when the region is entered:
  each window's block at a grid point, what one run of the kernel body leaves in the output window's buffer as a
  function of the six input blocks, the body's triple, the proof data of the pipeline, and the body obligation at
  every point of the grid. Generic in the float instance.
-/
import proofs.«417564_j14156212208090_3_alg».proof.Proof.Gen.Kernel.Launch
import proofs.«417564_j14156212208090_3_alg».proof.Proof.Gen.Kernel.Skeleton
import proofs.«417564_j14156212208090_3_alg».proof.Proof.Gen.Kernel.Points
import proofs.«417564_j14156212208090_3_alg».proof.Proof.PayB
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current buffer holds its block at every point, fetched there or not: where it is not
    fetched its block index has not moved, and the body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current buffer holds its block at every point, fetched there or not: where it is not
    fetched its block index has not moved, and the body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current buffer holds its block at every point, fetched there or not: where it is not
    fetched its block index has not moved, and the body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current buffer holds its block at every point, fetched there or not: where it is not
    fetched its block index has not moved, and the body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current buffer holds its block at every point, fetched there or not: where it is not
    fetched its block index has not moved, and the body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current buffer holds its block at every point, fetched there or not: where it is not
    fetched its block index has not moved, and the body leaves the block in place. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each load and the one store go through the whole of a buffer -/

abbrev r1_v : Rect S256 := Rect.unit (s := S256) ![0] S256.size inb_S256_S256_0
abbrev r1_T : Rect S2000x2048 := Rect.unit (s := S2000x2048) ![0, 0] S2000x2048.size inb_S2000x2048_S2000x2048_0_0
abbrev r1_R : Rect S86x1024 := Rect.unit (s := S86x1024) ![0, 0] S86x1024.size inb_S86x1024_S86x1024_0_0

/-! ## What the body leaves in the output window's buffer -/

/-- The output window's buffer after the body, from the six input blocks: its one store as one piece. -/
def out1_6 (i1 i2 i3 : Vec F S256 .i32) (T1 T2 : Vec F S2000x2048 .bf16) (Tr : Vec F S86x1024 .bf16) : Vec F S256 .f32 :=
  View.canon [⟨r1_v, gatherOut (View.ld i1 r1_v) (View.ld i2 r1_v) (View.ld i3 r1_v) (View.ld T1 r1_T) (View.ld T2 r1_T) (View.ld Tr r1_R)⟩]

/-- The one store covers the buffer. -/
theorem cover1_6 (p0 : Vec F S256 .f32) (y : S256.Idx) :
    ∃ pc ∈ ([⟨r1_v, p0⟩] : List (View.Piece (Elt F) S256 .f32)), y ∈ pc.1.set :=
  View.cover_of_tiled [⟨r1_v, p0⟩] S256.size (by rfl) y

/-- One piece covering the whole buffer: the buffer holds the piece's value, and each load reads its whole block. -/
theorem out1_6_eq (i1 i2 i3 : Vec F S256 .i32) (T1 T2 : Vec F S2000x2048 .bf16) (Tr : Vec F S86x1024 .bf16) :
    out1_6 i1 i2 i3 T1 T2 Tr = gatherOut i1 i2 i3 T1 T2 Tr := by
  have hz1 : (![0] : Fin 1 → Nat) = fun _ => 0 := by funext a; fin_cases a; rfl
  have hz2 : (![0, 0] : Fin 2 → Nat) = fun _ => 0 := by funext a; fin_cases a <;> rfl
  unfold out1_6
  rw [View.canon_unit_zero (S := S256) hz1]
  simp only [View.ld_unit_zero (S := S256) hz1, View.ld_unit_zero (S := S2000x2048) hz2, View.ld_unit_zero (S := S86x1024) hz2]

/-! ## The body's triple -/

set_option maxHeartbeats 1000000 in
/-- The kernel body on whole memrefs, the six inputs' at read contents and the output's at anything, runs to the
    continuation holding the inputs' as they were and the output's at out1_6 of the inputs'. -/
theorem sound_kernel1 (c : Dev nD) (E : Set ℕ) (i : grid1.Coords)
    (arg1 : Memref sig .tc .vmem S256 .i32) (harg1 : arg1.IsWhole) (arg2 : Memref sig .tc .vmem S256 .i32) (harg2 : arg2.IsWhole)
    (arg3 : Memref sig .tc .vmem S256 .i32) (harg3 : arg3.IsWhole) (arg4 : Memref sig .tc .vmem S2000x2048 .bf16) (harg4 : arg4.IsWhole)
    (arg5 : Memref sig .tc .vmem S2000x2048 .bf16) (harg5 : arg5.IsWhole) (arg6 : Memref sig .tc .vmem S86x1024 .bf16) (harg6 : arg6.IsWhole)
    (arg7 : Memref sig .tc .vmem S256 .f32) (harg7 : arg7.IsWhole)
    (x0 x1 x2 : Vec F S256 .i32) (x3 x4 : Vec F S2000x2048 .bf16) (x5 : Vec F S86x1024 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out1_6 x0 x1 x2 x3 x4 x5)) -∗ K ⟨⟩))
      ⊢ wp frame (wpE (defs₀ (F := F)) Variants.none c none) E (cc1__gather_kernel i arg1 harg1 arg2 harg2 arg3 harg3 arg4 harg4 arg5 harg5 arg6 harg6 arg7 harg7) K := by
  simp only [cc1__gather_kernel_eq_skeleton]; unfold cc1__gather_kernel_skel
  simp only [k1_part1_eq_skeleton, k1_part2_eq_skeleton, k1_part3_eq_skeleton]
  unfold k1_part1_skel k1_part2_skel k1_part3_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_6 _)

/-! ## The pipeline's proof data -/

/-- The proof data of the pipeline on core c: the arrays as the region finds them; after the body at point t each
    input's buffer at its block and the output's at out1_6 of the input blocks; the invariant the scoped rest and the
    core's random-number register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]

/-- Each input's current buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the inputs' memrefs hold their blocks, so the body's triple applies; the invariant and
    the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.RunB.lean ====
/-
  The launch of the two-kernel program: what each kernel region leaves in the core's buffers, the proof data of both
  pipelines at their regions' entry contents, each region as a segment between two thread states, and from these the
  frame: every weakly fair execution terminates, faults nowhere and leaves the argument arrays as launched.

  Between two items of the program a core holds every unscoped buffer whole at known contents, beside its generator
  register at some state and an empty debt. A region splits its windows' arrays out of those buffers, runs its
  pipeline, and puts the arrays back at what the write-backs leave: the inputs as entered, each output at the fold of
  its blocks. The contents the first region leaves in its two outputs, and the second in its one, are named here
  once, so that the contents at every later boundary are a function of the launch memory alone.
-/
import proofs.«417564_j14156212208090_3_alg».proof.Proof.Gen.Kernel.Regions
import proofs.«417564_j14156212208090_3_alg».proof.Proof.Reg0B
import proofs.«417564_j14156212208090_3_alg».proof.Proof.Reg1B
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## What the regions leave -/

/-- The first region's entry contents, read at the TensorCore's references. -/
abbrev E1 : (c : Dev nD) → (b : Ref sig .tc) → Buf (Elt F) ((c : Thread nD τ).loc b) := fun c b => Gen.V1 m c b

/-- The core's buffers when the first region exits: its arrays at what the pipeline leaves, every other buffer as
    entered. -/
def W2 (c : Dev nD) : Valuation τ sig (Elt F) :=
  Pipeline.withArrays spec0 c (Gen.V1 m c) fun w => (dat0 (E1 m) c).arrAt w cfg0.N

theorem W2_arr (c : Dev nD) (w : Fin cfg0.W) :
    W2 m c (Proc.devRef .tc (Pipeline.arrRef spec0 w)) = (dat0 (E1 m) c).arrAt w cfg0.N := by
  unfold W2; exact Pipeline.withArrays_arr spec0 launch0.win.arr_inj c _ _ w

/-- The unknowns of the boundary contents, with only the first region's outputs filled in. -/
def outsA : Gen.Outs (F := F) := fun _ r c => W2 m c r

/-- The second region's entry contents, read at the TensorCore's references. -/
abbrev E8 : (c : Dev nD) → (b : Ref sig .tc) → Buf (Elt F) ((c : Thread nD τ).loc b) := fun c b => Gen.V8 m (outsA m) c b

/-- The core's buffers when the second region exits. -/
def W9 (c : Dev nD) : Valuation τ sig (Elt F) :=
  Pipeline.withArrays spec1 c (Gen.V8 m (outsA m) c) fun w => (dat1 (E8 m) c).arrAt w cfg1.N

theorem W9_arr (c : Dev nD) (w : Fin cfg1.W) :
    W9 m c (Proc.devRef .tc (Pipeline.arrRef spec1 w)) = (dat1 (E8 m) c).arrAt w cfg1.N := by
  unfold W9; exact Pipeline.withArrays_arr spec1 launch1.win.arr_inj c _ _ w

/-- What the regions leave in the buffers they may change: after the second item the first region's exit contents,
    after the ninth the second's. -/
def outs : Gen.Outs (F := F) := fun J r c => if J = 9 then W9 m c r else W2 m c r

theorem outs_two (r : Ref sig .tc) (c : Dev nD) : outs m 2 r c = W2 m c r := if_neg (by decide)
theorem outs_nine (r : Ref sig .tc) (c : Dev nD) : outs m 9 r c = W9 m c r := if_pos rfl

/-- The contents between the two regions do not depend on what the second leaves. -/
theorem V2_outs (c : Dev nD) : Gen.V2 m (outs m) c = Gen.V2 m (outsA m) c := by
  show Function.update (Function.update (Gen.V1 m c) main_v2_0 (outs m 2 main_v2_0 c)) main_v2_1 (outs m 2 main_v2_1 c) = _
  rw [outs_two, outs_two]; rfl

theorem V8_outs (c : Dev nD) : Gen.V8 m (outs m) c = Gen.V8 m (outsA m) c := by
  show StableHlo.after hostOps1_5 (StableHlo.after hostOps1_4 (StableHlo.after hostOps1_3 (StableHlo.after hostOps1_2
    (StableHlo.after hostOps1_1 (StableHlo.after hostOps1 (Gen.V2 m (outs m) c)))))) = _
  rw [V2_outs]

/-- At the first region's exit each of its arrays holds what the pipeline leaves. -/
theorem hF0 (c : Dev nD) (w : Fin cfg0.W) :
    (dat0 (E1 m) c).arrAt w cfg0.N = Gen.V2 m (outs m) c (Pipeline.arrRef spec0 w) :=
  match w with
  | ⟨0, _⟩ => (((dat0 (E1 m) c).arrAt_in 0 rfl _).trans (A_eq0 (E1 m) c 0)).trans (Gen.V2_of m (outs m) c main_arg0 (by decide)).symm
  | ⟨1, _⟩ => (((dat0 (E1 m) c).arrAt_in 1 rfl _).trans (A_eq0 (E1 m) c 1)).trans (Gen.V2_of m (outs m) c main_arg1 (by decide)).symm
  | ⟨2, _⟩ => (((dat0 (E1 m) c).arrAt_in 2 rfl _).trans (A_eq0 (E1 m) c 2)).trans (Gen.V2_of m (outs m) c main_v0 (by decide)).symm
  | ⟨3, _⟩ => (((dat0 (E1 m) c).arrAt_in 3 rfl _).trans (A_eq0 (E1 m) c 3)).trans (Gen.V2_of m (outs m) c main_v1 (by decide)).symm
  | ⟨4, _⟩ => by
      show _ = Function.update (Function.update (Gen.V1 m c) main_v2_0 (outs m 2 main_v2_0 c)) main_v2_1 (outs m 2 main_v2_1 c) main_v2_0
      rw [Function.update_of_ne (StableHlo.devRef_ne_of_ne (by decide) : (Proc.devRef .tc main_v2_0 : DevRef τ sig) ≠ Proc.devRef .tc main_v2_1),
        Function.update_self, outs_two]
      exact (W2_arr m c 4).symm
  | ⟨5, _⟩ => by
      show _ = Function.update (Function.update (Gen.V1 m c) main_v2_0 (outs m 2 main_v2_0 c)) main_v2_1 (outs m 2 main_v2_1 c) main_v2_1
      rw [Function.update_self, outs_two]
      exact (W2_arr m c 5).symm

/-- Every other buffer holds what it held at entry. -/
theorem hrest0 (c : Dev nD) : ∀ b, b ∉ Finset.univ.image (Pipeline.arrRef spec0) → Gen.V2 m (outs m) c b = Gen.V1 m c b :=
  fun b hb => Gen.V2_of m (outs m) c b (by
    intro h
    simp only [List.mem_cons, List.mem_nil_iff, or_false] at h
    rcases h with rfl | rfl
    · exact hb (Finset.mem_image.mpr ⟨4, Finset.mem_univ _, rfl⟩)
    · exact hb (Finset.mem_image.mpr ⟨5, Finset.mem_univ _, rfl⟩))

/-- At the second region's exit each of its arrays holds what the pipeline leaves. -/
theorem hF1 (c : Dev nD) (w : Fin cfg1.W) :
    (dat1 (E8 m) c).arrAt w cfg1.N = Gen.V9 m (outs m) c (Pipeline.arrRef spec1 w) :=
  match w with
  | ⟨0, _⟩ => (((dat1 (E8 m) c).arrAt_in 0 rfl _).trans (A_eq1 (E8 m) c 0)).trans (((Gen.V9_of m (outs m) c main_v23 (by decide)).trans (congrFun (V8_outs m c) _)).symm)
  | ⟨1, _⟩ => (((dat1 (E8 m) c).arrAt_in 1 rfl _).trans (A_eq1 (E8 m) c 1)).trans (((Gen.V9_of m (outs m) c main_v24 (by decide)).trans (congrFun (V8_outs m c) _)).symm)
  | ⟨2, _⟩ => (((dat1 (E8 m) c).arrAt_in 2 rfl _).trans (A_eq1 (E8 m) c 2)).trans (((Gen.V9_of m (outs m) c main_v25 (by decide)).trans (congrFun (V8_outs m c) _)).symm)
  | ⟨3, _⟩ => (((dat1 (E8 m) c).arrAt_in 3 rfl _).trans (A_eq1 (E8 m) c 3)).trans (((Gen.V9_of m (outs m) c main_v9 (by decide)).trans (congrFun (V8_outs m c) _)).symm)
  | ⟨4, _⟩ => (((dat1 (E8 m) c).arrAt_in 4 rfl _).trans (A_eq1 (E8 m) c 4)).trans (((Gen.V9_of m (outs m) c main_v14 (by decide)).trans (congrFun (V8_outs m c) _)).symm)
  | ⟨5, _⟩ => (((dat1 (E8 m) c).arrAt_in 5 rfl _).trans (A_eq1 (E8 m) c 5)).trans (((Gen.V9_of m (outs m) c main_v22 (by decide)).trans (congrFun (V8_outs m c) _)).symm)
  | ⟨6, _⟩ => by
      show _ = Function.update (Gen.V8 m (outs m) c) main_v26 (outs m 9 main_v26 c) main_v26
      rw [Function.update_self, outs_nine]
      exact (W9_arr m c 6).symm

theorem hrest1 (c : Dev nD) : ∀ b, b ∉ Finset.univ.image (Pipeline.arrRef spec1) → Gen.V9 m (outs m) c b = Gen.V8 m (outsA m) c b :=
  fun b hb => (Gen.V9_of m (outs m) c b (by
    intro h
    simp only [List.mem_cons, List.mem_nil_iff, or_false] at h
    subst h
    exact hb (Finset.mem_image.mpr ⟨6, Finset.mem_univ _, rfl⟩))).trans (congrFun (V8_outs m c) _)

/-! ## The proof data family and the thread state -/

/-- Every pipeline's proof data, each at its region's entry contents. -/
def pdats : (p : Fin 2) → (c : Dev nD) → Dat τ (Elt F) Unit ℕ (UR sig nD τ) ℕ (cfgs p) c
  | ⟨0, _⟩ => fun c => dat0 (E1 m) c
  | ⟨1, _⟩ => fun c => dat1 (E8 m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, and an empty debt. -/
abbrev R (c : Dev nD) : sProp 𝕄 := iprop((∃ r, prngReg c r) ∗ ∃ W, owes (c : Thread nD τ) (0 : CellTallies nD τ sig Unit) W)

/-! ## The regions as segments -/

set_option backward.isDefEq.respectTransparency.types false in
/-- The first region between its two thread states: its arrays split out of the unscoped buffers and put back at the
    exit contents; the generator register into the pipeline's invariant and out; nothing owed; no semaphore of the
    kernel's own. -/
def reg0 : RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (Gen.V1 m c) ∗ R c)
  post c := iprop(StableHlo.held (c : Thread nD τ) (Pipeline.ucRefs τ sig) (Gen.V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (E1 m c) (fun b => Gen.V2 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region between its two thread states, in the same way. -/
def reg1 : RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E8 m) c).loose
  hwaits := Pipeline.hwaits_of_owed_zero _ _ _ _ L lv 1 fun _ _ => rfl
  pre c := iprop(StableHlo.held (c : Thread nD τ) (Pipeline.ucRefs τ sig) (Gen.V8 m (outsA m) c) ∗ R c)
  post c := iprop(StableHlo.held (c : Thread nD τ) (Pipeline.ucRefs τ sig) (Gen.V9 m (outs m) c) ∗ R c)
  X c := iprop(∃ r, prngReg c r)
  Y c := iprop(∃ r, prngReg c r)
  Z c := Pipeline.unscopedRest (Ix := Unit) (Name := ℕ) (U := UR sig nD τ) (Lvl := ℕ) spec1 c (E8 m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (E8 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (E8 m c) (fun b => Gen.V9 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch's side: the ghost state and the first rest -/

/-- The launch's ghost resource is the cells' and tokens' initial state itself; no extra per-core resource. -/
theorem hu₀ : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj)))
        ∗ bigSep Finset.univ fun _ : Dev nD => (BI.emp : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- What the launch hands every core makes the rest state at once: the register at its launch state, the debt empty. -/
theorem hE0 (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) ∗ levAts L lv)
      ⊢ (|={Set.univ}=> bigSep Finset.univ (fun c : Dev nD => R (F := F) c) : sProp 𝕄) := by
  have hmono : (bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄)))
      ⊢ (bigSep Finset.univ (fun c : Dev nD => R (F := F) c) : sProp 𝕄) :=
    bigSep_mono fun (c : Dev nD) _ => show iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))
        ⊢ iprop((∃ r, prngReg c r) ∗ ∃ W, owes (c : Thread nD τ) (0 : CellTallies nD τ sig Unit) W) from by
      iintro ⟨-, HO, -, Hp, -⟩
      isplitl [Hp]; · iexists _; iexact Hp
      iexists ∅; iexact HO
  iintro ⟨H, -⟩
  imodintro
  iapply hmono
  iexact H

/-! ## The frame -/

/-- At any float instance: from any memory with zero counters every weakly fair execution of the program terminates,
    nothing faulting, and every final memory holds each argument as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Gen.frame_cond (F := F) m emb₁ () 𝒱₀ L lv (fun _ _ => rfl) ρ (outs m) (pdats m) (O₀ := 0) (G := fun _ => iprop(emp))
    (u₀ := initOf (Pipeline.cells cfgs cellOf_inj) (Pipeline.launchToks cfgs cellOf_inj)) hu₀
    (E := fun _ c => R c) (hE0 ρ) (fun c => by iintro ⟨-, HO⟩; iexact HO)
    (reg0 m) (fun c => .rfl) (fun c => .rfl)
    (reg1 m) (fun c => by rw [V8_outs]; exact .rfl) (fun c => .rfl)

end Cert.Kernel.Hand

end
-- ==== Proof.Pay.lean ====
/-
  The value the pair kernel stores, as one function of the six blocks it loads: the three index blocks, the two
  drug tables (each holding a table and its rounding residual side by side) and the relation table. It is the
  composition of the body's named stages: the one-hot products and their sum, the four normalised vectors, the
  normalised complex product, and the logistic of the inner product with the gathered relation weights.
-/
import proofs.«417564_j14156212208090_3_alg».proof.Proof.Gen.KernelIdeal.Skeleton

noncomputable section

namespace Cert.KernelIdeal.Hand

open Cert.KernelIdeal Cert.KernelIdeal.Gen Idealize.ShloMosaic

variable {F : FTy → Type} [FloatOps F]

/-- The 256 outputs of one grid point from the point's blocks. -/
def gatherOut (v0 v3 v6 : Vec F S256 .i32) (v20 v23 : Vec F S2000x2048 .bf16) (v157 : Vec F S86x1024 .bf16) :
    FVec F S256 .f32 :=
  k1_pay1 (k1_pay2 v6)
    (k1_pay14 (k1_pay8 (k1_pay4 v0 v3 v20 v23) (k1_pay6 v0 v3 v20 v23) (k1_pay7 v0 v3 v20 v23))
      (k1_pay9 (k1_pay3 v0 v3 v20 v23)) (k1_pay10 (k1_pay3 v0 v3 v20 v23)) (k1_pay11 (k1_pay3 v0 v3 v20 v23))
      (k1_pay12 (k1_pay3 v0 v3 v20 v23)) (Scalar.ofBits .f32 0x43800000#32))
    (k1_pay15 (k1_pay8 (k1_pay4 v0 v3 v20 v23) (k1_pay6 v0 v3 v20 v23) (k1_pay7 v0 v3 v20 v23))
      (k1_pay9 (k1_pay3 v0 v3 v20 v23)) (k1_pay10 (k1_pay3 v0 v3 v20 v23)) (k1_pay11 (k1_pay3 v0 v3 v20 v23))
      (k1_pay12 (k1_pay3 v0 v3 v20 v23)) (Scalar.ofBits .f32 0x43800000#32))
    (k1_pay16 (k1_pay8 (k1_pay4 v0 v3 v20 v23) (k1_pay6 v0 v3 v20 v23) (k1_pay7 v0 v3 v20 v23))
      (k1_pay9 (k1_pay3 v0 v3 v20 v23)) (k1_pay10 (k1_pay3 v0 v3 v20 v23)) (k1_pay11 (k1_pay3 v0 v3 v20 v23))
      (k1_pay12 (k1_pay3 v0 v3 v20 v23)) (Scalar.ofBits .f32 0x43800000#32))
    (k1_pay17 (k1_pay8 (k1_pay4 v0 v3 v20 v23) (k1_pay6 v0 v3 v20 v23) (k1_pay7 v0 v3 v20 v23))
      (k1_pay9 (k1_pay3 v0 v3 v20 v23)) (k1_pay10 (k1_pay3 v0 v3 v20 v23)) (k1_pay11 (k1_pay3 v0 v3 v20 v23))
      (k1_pay12 (k1_pay3 v0 v3 v20 v23)) (Scalar.ofBits .f32 0x43800000#32))
    v157

end Cert.KernelIdeal.Hand

end
-- ==== Proof.Reg0.lean ====
/-
  Region 0 of the program: the encoder kernel, a grid of one point over six windows, every block the whole array.
  Stated at a parameter V, the contents of the core's buffers when the region is entered: each window's block, what
  the body leaves in each of the two output buffers as the canon of its one store over the input blocks, the body's
  triple, the proof data of the pipeline and the body obligation at every point. Each output is one piece covering
  its whole buffer, so the canon is the stored payload itself.
-/
import proofs.«417564_j14156212208090_3_alg».proof.Proof.Gen.KernelIdeal.Launch
import proofs.«417564_j14156212208090_3_alg».proof.Proof.Gen.KernelIdeal.Skeleton
import proofs.«417564_j14156212208090_3_alg».proof.Proof.Gen.KernelIdeal.Points
import proofs.«417564_j14156212208090_3_alg».proof.Proof.Pay
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the contents of the core's buffers when the region is entered
variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is V's and whose body leaves the block in place: unfetched, the index has not moved; the
    window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is V's and whose body leaves the block in place: unfetched, the index has not moved; the
    window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof
    data whose array is V's and whose body leaves the block in place: unfetched, the index has not moved; the
    window is uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for any proof
    data whose array is V's and whose body leaves the block in place: unfetched, the index has not moved; the
    window is uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each the whole buffer -/

abbrev rA : Rect S2000x512 := Rect.unit (s := S2000x512) ![0, 0] S2000x512.size inb_S2000x512_S2000x512_0_0
abbrev rB : Rect S512x256 := Rect.unit (s := S512x256) ![0, 0] S512x256.size inb_S512x256_S512x256_0_0
abbrev rC : Rect S2000x256 := Rect.unit (s := S2000x256) ![0, 0] S2000x256.size inb_S2000x256_S2000x256_0_0

/-! ## What the body leaves in each output window's buffer -/

/-- Window 4's staging buffer after the body, from the blocks of windows 0 and 2: its one store as a piece. -/
def out0_4 (x0 : Vec F S2000x512 .f32) (x2 : Vec F S512x256 .f32) : Vec F S2000x256 .f32 :=
  View.canon [⟨rC, k0_pay2 (View.ld x0 rA) (View.ld x2 rB)⟩]

/-- Window 5's staging buffer after the body, from the blocks of windows 1 and 3: its one store as a piece. -/
def out0_5 (x1 : Vec F S2000x512 .f32) (x3 : Vec F S512x256 .f32) : Vec F S2000x256 .f32 :=
  View.canon [⟨rC, k0_pay1 (View.ld x1 rA) (View.ld x3 rB)⟩]

/-- The one store tiles the buffer, so it covers it. -/
theorem cover0 (p0 : Vec F S2000x256 .f32) (y : S2000x256.Idx) :
    ∃ pc ∈ ([⟨rC, p0⟩] : List (View.Piece (Elt F) S2000x256 .f32)), y ∈ pc.1.set :=
  View.cover_of_tiled [⟨rC, p0⟩] S2000x256.size (by rfl) y

/-! ## The body's triple -/

set_option maxHeartbeats 1000000 in
/-- The kernel body on whole staging memrefs, the four inputs' at read contents and the two outputs' at anything,
    runs to the continuation holding the inputs' as they were and each output's at its canon over the inputs. -/
theorem sound_kernel0 (c : Dev nD) (E : Set ℕ) (i : grid0.Coords)
    (arg1 : Memref sig .tc .vmem S2000x512 .f32) (harg1 : arg1.IsWhole) (arg2 : Memref sig .tc .vmem S2000x512 .f32) (harg2 : arg2.IsWhole)
    (arg3 : Memref sig .tc .vmem S512x256 .f32) (harg3 : arg3.IsWhole) (arg4 : Memref sig .tc .vmem S512x256 .f32) (harg4 : arg4.IsWhole)
    (arg5 : Memref sig .tc .vmem S2000x256 .f32) (harg5 : arg5.IsWhole) (arg6 : Memref sig .tc .vmem S2000x256 .f32) (harg6 : arg6.IsWhole)
    (x0 x1 : Vec F S2000x512 .f32) (x2 x3 : Vec F S512x256 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out0_4 x0 x2) ∗ owns (c : Thread nD τ) arg6 fullShare (out0_5 x1 x3)) -∗ K ⟨⟩))
      ⊢ wp frame (wpE (defs₀ (F := F)) Variants.none c none) E (cc0__encoder_kernel i arg1 harg1 arg2 harg2 arg3 harg3 arg4 harg4 arg5 harg5 arg6 harg6) K := by
  simp only [cc0__encoder_kernel_eq_skeleton]; unfold cc0__encoder_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0 _)
  iexists _; isplitr
  swap; · iexact H5
  ipureintro
  exact View.read_writes_eq_canon _ _ _ (cover0 _)

/-! ## The pipeline's proof data -/

/-- The proof data of pipeline 0 on core c: the arrays as the region finds them; after the body at point t each
    input's buffer at its block and each output's at its canon over the input blocks; the invariant the scoped rest
    and the pseudo-random register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 2 t)
    | ⟨5, _⟩ => out0_5 (iblk0 V c 1 t) (iblk0 V c 3 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 2 t) := by dsimp only [dat0]
theorem after0_5 (c : Dev nD) (t : Fin cfg0.N) : (dat0 V c).after 5 t = out0_5 (iblk0 V c 1 t) (iblk0 V c 3 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks, so the kernel's triple applies; the invariant and
    the core's owed count pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _
    (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Regions

/-! ## One piece covering the whole buffer: the canon is the payload -/

/-- The zero offsets of a rank-two rectangle, as the constant function. -/
theorem off_zero2 : (![0, 0] : Fin 2 → Nat) = fun _ => 0 := by
  funext a; fin_cases a <;> rfl

theorem out0_4_eq (x0 : Vec F S2000x512 .f32) (x2 : Vec F S512x256 .f32) : out0_4 x0 x2 = k0_pay2 x0 x2 := by
  unfold out0_4
  rw [View.canon_unit_zero off_zero2]
  simp only [View.ld_unit_zero (S := S2000x512) off_zero2, View.ld_unit_zero (S := S512x256) off_zero2]

theorem out0_5_eq (x1 : Vec F S2000x512 .f32) (x3 : Vec F S512x256 .f32) : out0_5 x1 x3 = k0_pay1 x1 x3 := by
  unfold out0_5
  rw [View.canon_unit_zero off_zero2]
  simp only [View.ld_unit_zero (S := S2000x512) off_zero2, View.ld_unit_zero (S := S512x256) off_zero2]

end Cert.KernelIdeal.Hand

end
-- ==== Proof.Reg1.lean ====
/-
  The second kernel region of the program, at the contents V its core's buffers hold when the region is entered:
  each window's block at a grid point, what one run of the kernel body leaves in the output window's buffer as a
  function of the six input blocks, the body's triple, the proof data of the pipeline, and the body obligation at
  every point of the grid. Generic in the float instance.
-/
import proofs.«417564_j14156212208090_3_alg».proof.Proof.Gen.KernelIdeal.Launch
import proofs.«417564_j14156212208090_3_alg».proof.Proof.Gen.KernelIdeal.Skeleton
import proofs.«417564_j14156212208090_3_alg».proof.Proof.Gen.KernelIdeal.Points
import proofs.«417564_j14156212208090_3_alg».proof.Proof.Pay
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current buffer holds its block at every point, fetched there or not: where it is not
    fetched its block index has not moved, and the body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current buffer holds its block at every point, fetched there or not: where it is not
    fetched its block index has not moved, and the body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current buffer holds its block at every point, fetched there or not: where it is not
    fetched its block index has not moved, and the body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current buffer holds its block at every point, fetched there or not: where it is not
    fetched its block index has not moved, and the body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current buffer holds its block at every point, fetched there or not: where it is not
    fetched its block index has not moved, and the body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current buffer holds its block at every point, fetched there or not: where it is not
    fetched its block index has not moved, and the body leaves the block in place. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each load and the one store go through the whole of a buffer -/

abbrev r1_v : Rect S256 := Rect.unit (s := S256) ![0] S256.size inb_S256_S256_0
abbrev r1_T : Rect S2000x2048 := Rect.unit (s := S2000x2048) ![0, 0] S2000x2048.size inb_S2000x2048_S2000x2048_0_0
abbrev r1_R : Rect S86x1024 := Rect.unit (s := S86x1024) ![0, 0] S86x1024.size inb_S86x1024_S86x1024_0_0

/-! ## What the body leaves in the output window's buffer -/

/-- The output window's buffer after the body, from the six input blocks: its one store as one piece. -/
def out1_6 (i1 i2 i3 : Vec F S256 .i32) (T1 T2 : Vec F S2000x2048 .bf16) (Tr : Vec F S86x1024 .bf16) : Vec F S256 .f32 :=
  View.canon [⟨r1_v, gatherOut (View.ld i1 r1_v) (View.ld i2 r1_v) (View.ld i3 r1_v) (View.ld T1 r1_T) (View.ld T2 r1_T) (View.ld Tr r1_R)⟩]

/-- The one store covers the buffer. -/
theorem cover1_6 (p0 : Vec F S256 .f32) (y : S256.Idx) :
    ∃ pc ∈ ([⟨r1_v, p0⟩] : List (View.Piece (Elt F) S256 .f32)), y ∈ pc.1.set :=
  View.cover_of_tiled [⟨r1_v, p0⟩] S256.size (by rfl) y

/-- One piece covering the whole buffer: the buffer holds the piece's value, and each load reads its whole block. -/
theorem out1_6_eq (i1 i2 i3 : Vec F S256 .i32) (T1 T2 : Vec F S2000x2048 .bf16) (Tr : Vec F S86x1024 .bf16) :
    out1_6 i1 i2 i3 T1 T2 Tr = gatherOut i1 i2 i3 T1 T2 Tr := by
  have hz1 : (![0] : Fin 1 → Nat) = fun _ => 0 := by funext a; fin_cases a; rfl
  have hz2 : (![0, 0] : Fin 2 → Nat) = fun _ => 0 := by funext a; fin_cases a <;> rfl
  unfold out1_6
  rw [View.canon_unit_zero (S := S256) hz1]
  simp only [View.ld_unit_zero (S := S256) hz1, View.ld_unit_zero (S := S2000x2048) hz2, View.ld_unit_zero (S := S86x1024) hz2]

/-! ## The body's triple -/

set_option maxHeartbeats 1000000 in
/-- The kernel body on whole memrefs, the six inputs' at read contents and the output's at anything, runs to the
    continuation holding the inputs' as they were and the output's at out1_6 of the inputs'. -/
theorem sound_kernel1 (c : Dev nD) (E : Set ℕ) (i : grid1.Coords)
    (arg1 : Memref sig .tc .vmem S256 .i32) (harg1 : arg1.IsWhole) (arg2 : Memref sig .tc .vmem S256 .i32) (harg2 : arg2.IsWhole)
    (arg3 : Memref sig .tc .vmem S256 .i32) (harg3 : arg3.IsWhole) (arg4 : Memref sig .tc .vmem S2000x2048 .bf16) (harg4 : arg4.IsWhole)
    (arg5 : Memref sig .tc .vmem S2000x2048 .bf16) (harg5 : arg5.IsWhole) (arg6 : Memref sig .tc .vmem S86x1024 .bf16) (harg6 : arg6.IsWhole)
    (arg7 : Memref sig .tc .vmem S256 .f32) (harg7 : arg7.IsWhole)
    (x0 x1 x2 : Vec F S256 .i32) (x3 x4 : Vec F S2000x2048 .bf16) (x5 : Vec F S86x1024 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out1_6 x0 x1 x2 x3 x4 x5)) -∗ K ⟨⟩))
      ⊢ wp frame (wpE (defs₀ (F := F)) Variants.none c none) E (cc1__gather_kernel i arg1 harg1 arg2 harg2 arg3 harg3 arg4 harg4 arg5 harg5 arg6 harg6 arg7 harg7) K := by
  simp only [cc1__gather_kernel_eq_skeleton]; unfold cc1__gather_kernel_skel
  simp only [k1_part1_eq_skeleton, k1_part2_eq_skeleton, k1_part3_eq_skeleton]
  unfold k1_part1_skel k1_part2_skel k1_part3_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_6 _)

/-! ## The pipeline's proof data -/

/-- The proof data of the pipeline on core c: the arrays as the region finds them; after the body at point t each
    input's buffer at its block and the output's at out1_6 of the input blocks; the invariant the scoped rest and the
    core's random-number register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]

/-- Each input's current buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the inputs' memrefs hold their blocks, so the body's triple applies; the invariant and
    the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.Run.lean ====
/-
  The launch of the two-kernel program: what each kernel region leaves in the core's buffers, the proof data of both
  pipelines at their regions' entry contents, each region as a segment between two thread states, and from these the
  frame: every weakly fair execution terminates, faults nowhere and leaves the argument arrays as launched.

  Between two items of the program a core holds every unscoped buffer whole at known contents, beside its generator
  register at some state and an empty debt. A region splits its windows' arrays out of those buffers, runs its
  pipeline, and puts the arrays back at what the write-backs leave: the inputs as entered, each output at the fold of
  its blocks. The contents the first region leaves in its two outputs, and the second in its one, are named here
  once, so that the contents at every later boundary are a function of the launch memory alone.
-/
import proofs.«417564_j14156212208090_3_alg».proof.Proof.Gen.KernelIdeal.Regions
import proofs.«417564_j14156212208090_3_alg».proof.Proof.Reg0
import proofs.«417564_j14156212208090_3_alg».proof.Proof.Reg1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## What the regions leave -/

/-- The first region's entry contents, read at the TensorCore's references. -/
abbrev E1 : (c : Dev nD) → (b : Ref sig .tc) → Buf (Elt F) ((c : Thread nD τ).loc b) := fun c b => Gen.V1 m c b

/-- The core's buffers when the first region exits: its arrays at what the pipeline leaves, every other buffer as
    entered. -/
def W2 (c : Dev nD) : Valuation τ sig (Elt F) :=
  Pipeline.withArrays spec0 c (Gen.V1 m c) fun w => (dat0 (E1 m) c).arrAt w cfg0.N

theorem W2_arr (c : Dev nD) (w : Fin cfg0.W) :
    W2 m c (Proc.devRef .tc (Pipeline.arrRef spec0 w)) = (dat0 (E1 m) c).arrAt w cfg0.N := by
  unfold W2; exact Pipeline.withArrays_arr spec0 launch0.win.arr_inj c _ _ w

/-- The unknowns of the boundary contents, with only the first region's outputs filled in. -/
def outsA : Gen.Outs (F := F) := fun _ r c => W2 m c r

/-- The second region's entry contents, read at the TensorCore's references. -/
abbrev E8 : (c : Dev nD) → (b : Ref sig .tc) → Buf (Elt F) ((c : Thread nD τ).loc b) := fun c b => Gen.V8 m (outsA m) c b

/-- The core's buffers when the second region exits. -/
def W9 (c : Dev nD) : Valuation τ sig (Elt F) :=
  Pipeline.withArrays spec1 c (Gen.V8 m (outsA m) c) fun w => (dat1 (E8 m) c).arrAt w cfg1.N

theorem W9_arr (c : Dev nD) (w : Fin cfg1.W) :
    W9 m c (Proc.devRef .tc (Pipeline.arrRef spec1 w)) = (dat1 (E8 m) c).arrAt w cfg1.N := by
  unfold W9; exact Pipeline.withArrays_arr spec1 launch1.win.arr_inj c _ _ w

/-- What the regions leave in the buffers they may change: after the second item the first region's exit contents,
    after the ninth the second's. -/
def outs : Gen.Outs (F := F) := fun J r c => if J = 9 then W9 m c r else W2 m c r

theorem outs_two (r : Ref sig .tc) (c : Dev nD) : outs m 2 r c = W2 m c r := if_neg (by decide)
theorem outs_nine (r : Ref sig .tc) (c : Dev nD) : outs m 9 r c = W9 m c r := if_pos rfl

/-- The contents between the two regions do not depend on what the second leaves. -/
theorem V2_outs (c : Dev nD) : Gen.V2 m (outs m) c = Gen.V2 m (outsA m) c := by
  show Function.update (Function.update (Gen.V1 m c) main_v2_0 (outs m 2 main_v2_0 c)) main_v2_1 (outs m 2 main_v2_1 c) = _
  rw [outs_two, outs_two]; rfl

theorem V8_outs (c : Dev nD) : Gen.V8 m (outs m) c = Gen.V8 m (outsA m) c := by
  show StableHlo.after hostOps1_5 (StableHlo.after hostOps1_4 (StableHlo.after hostOps1_3 (StableHlo.after hostOps1_2
    (StableHlo.after hostOps1_1 (StableHlo.after hostOps1 (Gen.V2 m (outs m) c)))))) = _
  rw [V2_outs]

/-- At the first region's exit each of its arrays holds what the pipeline leaves. -/
theorem hF0 (c : Dev nD) (w : Fin cfg0.W) :
    (dat0 (E1 m) c).arrAt w cfg0.N = Gen.V2 m (outs m) c (Pipeline.arrRef spec0 w) :=
  match w with
  | ⟨0, _⟩ => (((dat0 (E1 m) c).arrAt_in 0 rfl _).trans (A_eq0 (E1 m) c 0)).trans (Gen.V2_of m (outs m) c main_arg0 (by decide)).symm
  | ⟨1, _⟩ => (((dat0 (E1 m) c).arrAt_in 1 rfl _).trans (A_eq0 (E1 m) c 1)).trans (Gen.V2_of m (outs m) c main_arg1 (by decide)).symm
  | ⟨2, _⟩ => (((dat0 (E1 m) c).arrAt_in 2 rfl _).trans (A_eq0 (E1 m) c 2)).trans (Gen.V2_of m (outs m) c main_v0 (by decide)).symm
  | ⟨3, _⟩ => (((dat0 (E1 m) c).arrAt_in 3 rfl _).trans (A_eq0 (E1 m) c 3)).trans (Gen.V2_of m (outs m) c main_v1 (by decide)).symm
  | ⟨4, _⟩ => by
      show _ = Function.update (Function.update (Gen.V1 m c) main_v2_0 (outs m 2 main_v2_0 c)) main_v2_1 (outs m 2 main_v2_1 c) main_v2_0
      rw [Function.update_of_ne (StableHlo.devRef_ne_of_ne (by decide) : (Proc.devRef .tc main_v2_0 : DevRef τ sig) ≠ Proc.devRef .tc main_v2_1),
        Function.update_self, outs_two]
      exact (W2_arr m c 4).symm
  | ⟨5, _⟩ => by
      show _ = Function.update (Function.update (Gen.V1 m c) main_v2_0 (outs m 2 main_v2_0 c)) main_v2_1 (outs m 2 main_v2_1 c) main_v2_1
      rw [Function.update_self, outs_two]
      exact (W2_arr m c 5).symm

/-- Every other buffer holds what it held at entry. -/
theorem hrest0 (c : Dev nD) : ∀ b, b ∉ Finset.univ.image (Pipeline.arrRef spec0) → Gen.V2 m (outs m) c b = Gen.V1 m c b :=
  fun b hb => Gen.V2_of m (outs m) c b (by
    intro h
    simp only [List.mem_cons, List.mem_nil_iff, or_false] at h
    rcases h with rfl | rfl
    · exact hb (Finset.mem_image.mpr ⟨4, Finset.mem_univ _, rfl⟩)
    · exact hb (Finset.mem_image.mpr ⟨5, Finset.mem_univ _, rfl⟩))

/-- At the second region's exit each of its arrays holds what the pipeline leaves. -/
theorem hF1 (c : Dev nD) (w : Fin cfg1.W) :
    (dat1 (E8 m) c).arrAt w cfg1.N = Gen.V9 m (outs m) c (Pipeline.arrRef spec1 w) :=
  match w with
  | ⟨0, _⟩ => (((dat1 (E8 m) c).arrAt_in 0 rfl _).trans (A_eq1 (E8 m) c 0)).trans (((Gen.V9_of m (outs m) c main_v23 (by decide)).trans (congrFun (V8_outs m c) _)).symm)
  | ⟨1, _⟩ => (((dat1 (E8 m) c).arrAt_in 1 rfl _).trans (A_eq1 (E8 m) c 1)).trans (((Gen.V9_of m (outs m) c main_v24 (by decide)).trans (congrFun (V8_outs m c) _)).symm)
  | ⟨2, _⟩ => (((dat1 (E8 m) c).arrAt_in 2 rfl _).trans (A_eq1 (E8 m) c 2)).trans (((Gen.V9_of m (outs m) c main_v25 (by decide)).trans (congrFun (V8_outs m c) _)).symm)
  | ⟨3, _⟩ => (((dat1 (E8 m) c).arrAt_in 3 rfl _).trans (A_eq1 (E8 m) c 3)).trans (((Gen.V9_of m (outs m) c main_v9 (by decide)).trans (congrFun (V8_outs m c) _)).symm)
  | ⟨4, _⟩ => (((dat1 (E8 m) c).arrAt_in 4 rfl _).trans (A_eq1 (E8 m) c 4)).trans (((Gen.V9_of m (outs m) c main_v14 (by decide)).trans (congrFun (V8_outs m c) _)).symm)
  | ⟨5, _⟩ => (((dat1 (E8 m) c).arrAt_in 5 rfl _).trans (A_eq1 (E8 m) c 5)).trans (((Gen.V9_of m (outs m) c main_v22 (by decide)).trans (congrFun (V8_outs m c) _)).symm)
  | ⟨6, _⟩ => by
      show _ = Function.update (Gen.V8 m (outs m) c) main_v26 (outs m 9 main_v26 c) main_v26
      rw [Function.update_self, outs_nine]
      exact (W9_arr m c 6).symm

theorem hrest1 (c : Dev nD) : ∀ b, b ∉ Finset.univ.image (Pipeline.arrRef spec1) → Gen.V9 m (outs m) c b = Gen.V8 m (outsA m) c b :=
  fun b hb => (Gen.V9_of m (outs m) c b (by
    intro h
    simp only [List.mem_cons, List.mem_nil_iff, or_false] at h
    subst h
    exact hb (Finset.mem_image.mpr ⟨6, Finset.mem_univ _, rfl⟩))).trans (congrFun (V8_outs m c) _)

/-! ## The proof data family and the thread state -/

/-- Every pipeline's proof data, each at its region's entry contents. -/
def pdats : (p : Fin 2) → (c : Dev nD) → Dat τ (Elt F) Unit ℕ (UR sig nD τ) ℕ (cfgs p) c
  | ⟨0, _⟩ => fun c => dat0 (E1 m) c
  | ⟨1, _⟩ => fun c => dat1 (E8 m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, and an empty debt. -/
abbrev R (c : Dev nD) : sProp 𝕄 := iprop((∃ r, prngReg c r) ∗ ∃ W, owes (c : Thread nD τ) (0 : CellTallies nD τ sig Unit) W)

/-! ## The regions as segments -/

set_option backward.isDefEq.respectTransparency.types false in
/-- The first region between its two thread states: its arrays split out of the unscoped buffers and put back at the
    exit contents; the generator register into the pipeline's invariant and out; nothing owed; no semaphore of the
    kernel's own. -/
def reg0 : RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (Gen.V1 m c) ∗ R c)
  post c := iprop(StableHlo.held (c : Thread nD τ) (Pipeline.ucRefs τ sig) (Gen.V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (E1 m c) (fun b => Gen.V2 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region between its two thread states, in the same way. -/
def reg1 : RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E8 m) c).loose
  hwaits := Pipeline.hwaits_of_owed_zero _ _ _ _ L lv 1 fun _ _ => rfl
  pre c := iprop(StableHlo.held (c : Thread nD τ) (Pipeline.ucRefs τ sig) (Gen.V8 m (outsA m) c) ∗ R c)
  post c := iprop(StableHlo.held (c : Thread nD τ) (Pipeline.ucRefs τ sig) (Gen.V9 m (outs m) c) ∗ R c)
  X c := iprop(∃ r, prngReg c r)
  Y c := iprop(∃ r, prngReg c r)
  Z c := Pipeline.unscopedRest (Ix := Unit) (Name := ℕ) (U := UR sig nD τ) (Lvl := ℕ) spec1 c (E8 m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (E8 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (E8 m c) (fun b => Gen.V9 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch's side: the ghost state and the first rest -/

/-- The launch's ghost resource is the cells' and tokens' initial state itself; no extra per-core resource. -/
theorem hu₀ : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj)))
        ∗ bigSep Finset.univ fun _ : Dev nD => (BI.emp : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- What the launch hands every core makes the rest state at once: the register at its launch state, the debt empty. -/
theorem hE0 (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) ∗ levAts L lv)
      ⊢ (|={Set.univ}=> bigSep Finset.univ (fun c : Dev nD => R (F := F) c) : sProp 𝕄) := by
  have hmono : (bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄)))
      ⊢ (bigSep Finset.univ (fun c : Dev nD => R (F := F) c) : sProp 𝕄) :=
    bigSep_mono fun (c : Dev nD) _ => show iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))
        ⊢ iprop((∃ r, prngReg c r) ∗ ∃ W, owes (c : Thread nD τ) (0 : CellTallies nD τ sig Unit) W) from by
      iintro ⟨-, HO, -, Hp, -⟩
      isplitl [Hp]; · iexists _; iexact Hp
      iexists ∅; iexact HO
  iintro ⟨H, -⟩
  imodintro
  iapply hmono
  iexact H

/-! ## The frame -/

/-- At any float instance: from any memory with zero counters every weakly fair execution of the program terminates,
    nothing faulting, and every final memory holds each argument as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Gen.frame_cond (F := F) m emb₁ () 𝒱₀ L lv (fun _ _ => rfl) ρ (outs m) (pdats m) (O₀ := 0) (G := fun _ => iprop(emp))
    (u₀ := initOf (Pipeline.cells cfgs cellOf_inj) (Pipeline.launchToks cfgs cellOf_inj)) hu₀
    (E := fun _ c => R c) (hE0 ρ) (fun c => by iintro ⟨-, HO⟩; iexact HO)
    (reg0 m) (fun c => .rfl) (fun c => .rfl)
    (reg1 m) (fun c => by rw [V8_outs]; exact .rfl) (fun c => .rfl)

end Cert.KernelIdeal.Hand

end
-- ==== Proof.RunV.lean ====
/-
  The run of the two-kernel program with its result: every weakly fair execution terminates, faults nowhere, leaves
  the argument arrays as launched, and leaves the result buffer at the contents the last boundary names: the
  slice of what the second region's write-backs leave.
-/
import proofs.«417564_j14156212208090_3_alg».proof.Proof.Run
import proofs.«417564_j14156212208090_3_alg».proof.Proof.RunVal

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

variable (m : (ℓ : Loc nD τ sig) → Buf (Elt F) ℓ)

/-- The result buffer's final contents: the last boundary's valuation at the result. -/
abbrev resultOf (c : Dev nD) : Buf (Elt F) ((c.tc : Thread nD τ).loc main_v27) := Gen.V10 m (outs m) c main_v27

/-- The run, with the result named. -/
theorem run_val (ρ : Dev nD → PrngReg) :
    θ_run defs (onTc (τ := τ) (main (F := F))) ⟨m, fun _ => 0, ρ⟩ (fun r => ∀ c : Dev nD,
      r.2.mem ((c.tc : Thread nD τ).loc main_v27) = resultOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  GenP.frame_cond_val (F := F) m emb₁ () 𝒱₀ L lv (fun _ _ => rfl) ρ (outs m) (pdats m) (O₀ := 0) (G := fun _ => iprop(emp))
    (u₀ := initOf (Pipeline.cells cfgs cellOf_inj) (Pipeline.launchToks cfgs cellOf_inj)) hu₀
    (E := fun _ c => R c) (hE0 ρ) (fun c => by iintro ⟨-, HO⟩; iexact HO)
    (reg0 m) (fun c => .rfl) (fun c => .rfl)
    (reg1 m) (fun c => by rw [V8_outs]; exact .rfl) (fun c => .rfl)

end Cert.KernelIdeal.Hand

end
-- ==== Proof.RegVal.lean ====
/-
  From blocks to arrays, for the two kernel regions of the program, at the contents V the core's buffers hold when a
  region is entered and for every float instance. Region 0 runs its body once on whole arrays, so each of its two
  output arrays ends holding the stored payload of the input arrays. Region 1 cuts its three index vectors and its
  output vector in blocks of 256 rows, one block per grid point, and reads its three tables whole at every point:
  the output array ends holding, on rows 256·t … 256·t + 255, the 256 outputs of the point's row blocks.
-/
import proofs.«417564_j14156212208090_3_alg».proof.Proof.Reg0
import proofs.«417564_j14156212208090_3_alg».proof.Proof.Reg1
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix1)

variable {F : FTy → Type} [FloatOps F]

-- the contents of the core's buffers when the region is entered
variable (V : (c : Dev nD) → (b : Ref sig .tc) → Buf (Elt F) ((c : Thread nD τ).loc b))

/-! ## Region 0: one point, whole blocks -/

/-- The zero offsets of the one block of each whole-array window. -/
theorem off0_0 : (fun a => win0_0.index t0_0 a * main_arg0.ty.shape.size a) = fun _ => 0 := funext fun a => by fin_cases a <;> decide
theorem off0_1 : (fun a => win0_1.index t0_0 a * main_arg1.ty.shape.size a) = fun _ => 0 := funext fun a => by fin_cases a <;> decide
theorem off0_2 : (fun a => win0_2.index t0_0 a * main_v0.ty.shape.size a) = fun _ => 0 := funext fun a => by fin_cases a <;> decide
theorem off0_3 : (fun a => win0_3.index t0_0 a * main_v1.ty.shape.size a) = fun _ => 0 := funext fun a => by fin_cases a <;> decide
theorem off0_4 : (fun a => win0_4.index t0_0 a * main_v2_0.ty.shape.size a) = fun _ => 0 := funext fun a => by fin_cases a <;> decide
theorem off0_5 : (fun a => win0_5.index t0_0 a * main_v2_1.ty.shape.size a) = fun _ => 0 := funext fun a => by fin_cases a <;> decide

/-- Each input block of the one point is its whole array. -/
theorem iblk0_0 (c : Dev nD) : iblk0 V c 0 t0_0 = V c main_arg0 :=
  Memref.read_access_unit_zero (Elt F) main_arg0 off0_0 (fun a => by rw [congrFun off0_0 a]; simp) (V c main_arg0)
theorem iblk0_1 (c : Dev nD) : iblk0 V c 1 t0_0 = V c main_arg1 :=
  Memref.read_access_unit_zero (Elt F) main_arg1 off0_1 (fun a => by rw [congrFun off0_1 a]; simp) (V c main_arg1)
theorem iblk0_2 (c : Dev nD) : iblk0 V c 2 t0_0 = V c main_v0 :=
  Memref.read_access_unit_zero (Elt F) main_v0 off0_2 (fun a => by rw [congrFun off0_2 a]; simp) (V c main_v0)
theorem iblk0_3 (c : Dev nD) : iblk0 V c 3 t0_0 = V c main_v1 :=
  Memref.read_access_unit_zero (Elt F) main_v1 off0_3 (fun a => by rw [congrFun off0_3 a]; simp) (V c main_v1)

/-- What the one point writes back to the first output array is its block of the stored payload of the input arrays. -/
theorem flushed0_4_eq (c : Dev nD) (t : Fin cfg0.N) :
    (dat0 V c).flushed 4 t = ((cfg0.win 4).blk t).view.read (Elt F) (k0_pay2 (V c main_arg0) (V c main_v0)) := by
  obtain rfl := fin_N0 t
  show (cfg0.win 4).cut (grid0.coords t0_0) ((dat0 V c).after 4 t0_0) = _
  rw [after0_4, out0_4_eq, iblk0_0, iblk0_2]
  exact (Memref.read_access_unit_zero (Elt F) main_v2_0 off0_4 (fun a => by rw [congrFun off0_4 a]; simp) (k0_pay2 (V c main_arg0) (V c main_v0))).symm

/-- What the one point writes back to the second output array, likewise. -/
theorem flushed0_5_eq (c : Dev nD) (t : Fin cfg0.N) :
    (dat0 V c).flushed 5 t = ((cfg0.win 5).blk t).view.read (Elt F) (k0_pay1 (V c main_arg1) (V c main_v1)) := by
  obtain rfl := fin_N0 t
  show (cfg0.win 5).cut (grid0.coords t0_0) ((dat0 V c).after 5 t0_0) = _
  rw [after0_5, out0_5_eq, iblk0_1, iblk0_3]
  exact (Memref.read_access_unit_zero (Elt F) main_v2_1 off0_5 (fun a => by rw [congrFun off0_5 a]; simp) (k0_pay1 (V c main_arg1) (V c main_v1))).symm

/-- The one point's block covers the first output array. -/
theorem cover0_4 (i : S2000x256.Idx) : ∃ t : Fin cfg0.N, (cfg0.win 4).flush t = true ∧ i ∈ ((cfg0.win 4).blk t).view.set := by
  refine ⟨t0_0, flush0_4 t0_0, ?_⟩
  show i ∈ ((View.whole main_v2_0).slice (win0_4.rect t0_0)).set
  rw [View.set_slice_whole]
  exact View.mem_set_unit_zero (S := S2000x256) off0_4 _ i

/-- The one point's block covers the second output array. -/
theorem cover0_5 (i : S2000x256.Idx) : ∃ t : Fin cfg0.N, (cfg0.win 5).flush t = true ∧ i ∈ ((cfg0.win 5).blk t).view.set := by
  refine ⟨t0_0, flush0_5 t0_0, ?_⟩
  show i ∈ ((View.whole main_v2_1).slice (win0_5.rect t0_0)).set
  rw [View.set_slice_whole]
  exact View.mem_set_unit_zero (S := S2000x256) off0_5 _ i

/-- The first output array of region 0 ends holding the stored payload of the first argument and the first weight. -/
theorem final0_4 (c : Dev nD) : (dat0 V c).arrAt 4 cfg0.N = k0_pay2 (V c main_arg0) (V c main_v0) :=
  (dat0 V c).arrAt_eq_of_cover 4 (k0_pay2 (V c main_arg0) (V c main_v0)) (fun t _ => flushed0_4_eq V c t) cover0_4

/-- The second output array of region 0 ends holding the stored payload of the second argument and the second weight. -/
theorem final0_5 (c : Dev nD) : (dat0 V c).arrAt 5 cfg0.N = k0_pay1 (V c main_arg1) (V c main_v1) :=
  (dat0 V c).arrAt_eq_of_cover 5 (k0_pay1 (V c main_arg1) (V c main_v1)) (fun t _ => flushed0_5_eq V c t) cover0_5

/-! ## Region 1: blocks of 256 rows -/

/-- Rows 256·t … 256·t + 255 of a length-200192 vector, as a vector of 256. -/
def rowBlock {e : EltTy} (x : S200192.Idx → Elt F e) (t : Fin 782) : S256.Idx → Elt F e :=
  fun y => x (ix1 ⟨256 * t.val + (y 0).val, by
    have hy : (y 0).val < 256 := (y 0).isLt
    have ht : t.val < 782 := t.isLt
    omega⟩)

theorem rowBlock_apply {e : EltTy} (x : S200192.Idx → Elt F e) (t : Fin 782) (p : Fin 256) (h : 256 * t.val + p.val < 200192) :
    rowBlock x t (ix1 p) = x (ix1 ⟨256 * t.val + p.val, h⟩) := rfl

/-- The block a row of the long vectors lies in, and its place inside the block. -/
def blkOf (i : S200192.Idx) : Fin 782 := ⟨(i 0).val / 256, by
  have hi : (i 0).val < 200192 := (i 0).isLt
  omega⟩
def rowOf (i : S200192.Idx) : Fin 256 := ⟨(i 0).val % 256, Nat.mod_lt _ (by decide)⟩

theorem blkOf_eq (i : S200192.Idx) (t : Fin 782) (p : Fin 256) (hi : (i 0).val = 256 * t.val + p.val) : blkOf i = t :=
  Fin.ext (by show (i 0).val / 256 = t.val; have := p.isLt; omega)
theorem rowOf_eq (i : S200192.Idx) (t : Fin 782) (p : Fin 256) (hi : (i 0).val = 256 * t.val + p.val) : rowOf i = p :=
  Fin.ext (by show (i 0).val % 256 = p.val; have := p.isLt; omega)

/-- The printed index maps, decided once over the grid: the three index vectors and the output move with the grid
    coordinate, the three tables stay at their one block. -/
theorem idx1 : ∀ t : Fin cfg1.N, win1_0.index t (0 : Fin 1) = t.val ∧ win1_1.index t (0 : Fin 1) = t.val
    ∧ win1_2.index t (0 : Fin 1) = t.val ∧ win1_6.index t (0 : Fin 1) = t.val
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0 :=
  (by decide +kernel : ∀ t : Fin grid1.N, _)

/-- The whole output vector as one function of the arrays: row i is output i % 256 of the point i / 256. -/
def G1 (c : Dev nD) : S200192.Idx → Elt F .f32 := fun i =>
  gatherOut (rowBlock (V c main_v23) (blkOf i)) (rowBlock (V c main_v24) (blkOf i)) (rowBlock (V c main_v25) (blkOf i))
    (V c main_v9) (V c main_v14) (V c main_v22) (ix1 (rowOf i))

theorem G1_at (c : Dev nD) (t : Fin 782) (p : Fin 256) (i : S200192.Idx) (hi : (i 0).val = 256 * t.val + p.val) :
    G1 V c i = gatherOut (rowBlock (V c main_v23) t) (rowBlock (V c main_v24) t) (rowBlock (V c main_v25) t)
      (V c main_v9) (V c main_v14) (V c main_v22) (ix1 p) := by
  unfold G1
  rw [blkOf_eq i t p hi, rowOf_eq i t p hi]

/-- Each index vector's block at point t is its rows 256·t … 256·t + 255. -/
theorem iblk1_0 (c : Dev nD) (t : Fin cfg1.N) : iblk1 V c 0 t = rowBlock (V c main_v23) (t.cast N_1) := by
  funext y
  show V c main_v23 (((cfg1.win 0).blk t).view.emb y) = V c main_v23 (ix1 ⟨256 * t.val + (y 0).val, _⟩)
  congr 1
  funext a
  apply Fin.ext
  match a with
  | ⟨0, _⟩ => show win1_0.index t (0 : Fin 1) * 256 + 1 * (y 0).val = 256 * t.val + (y 0).val; rw [(idx1 t).1]; omega

theorem iblk1_1 (c : Dev nD) (t : Fin cfg1.N) : iblk1 V c 1 t = rowBlock (V c main_v24) (t.cast N_1) := by
  funext y
  show V c main_v24 (((cfg1.win 1).blk t).view.emb y) = V c main_v24 (ix1 ⟨256 * t.val + (y 0).val, _⟩)
  congr 1
  funext a
  apply Fin.ext
  match a with
  | ⟨0, _⟩ => show win1_1.index t (0 : Fin 1) * 256 + 1 * (y 0).val = 256 * t.val + (y 0).val; rw [(idx1 t).2.1]; omega
theorem iblk1_2 (c : Dev nD) (t : Fin cfg1.N) : iblk1 V c 2 t = rowBlock (V c main_v25) (t.cast N_1) := by
  funext y
  show V c main_v25 (((cfg1.win 2).blk t).view.emb y) = V c main_v25 (ix1 ⟨256 * t.val + (y 0).val, _⟩)
  congr 1
  funext a
  apply Fin.ext
  match a with
  | ⟨0, _⟩ => show win1_2.index t (0 : Fin 1) * 256 + 1 * (y 0).val = 256 * t.val + (y 0).val; rw [(idx1 t).2.2.1]; omega

/-- Each table's block at every point is the whole table. -/
theorem iblk1_3 (c : Dev nD) (t : Fin cfg1.N) : iblk1 V c 3 t = V c main_v9 := by
  obtain ⟨-, -, -, -, e0, e1, -⟩ := idx1 t
  funext y
  show V c main_v9 (((cfg1.win 3).blk t).view.emb y) = V c main_v9 y
  congr 1
  funext a
  apply Fin.ext
  match a with
  | ⟨0, _⟩ => show win1_3.index t (0 : Fin 2) * 2000 + 1 * (y 0).val = (y 0).val; rw [e0]; omega
  | ⟨1, _⟩ => show win1_3.index t (1 : Fin 2) * 2048 + 1 * (y 1).val = (y 1).val; rw [e1]; omega
theorem iblk1_4 (c : Dev nD) (t : Fin cfg1.N) : iblk1 V c 4 t = V c main_v14 := by
  obtain ⟨-, -, -, -, -, -, e0, e1, -⟩ := idx1 t
  funext y
  show V c main_v14 (((cfg1.win 4).blk t).view.emb y) = V c main_v14 y
  congr 1
  funext a
  apply Fin.ext
  match a with
  | ⟨0, _⟩ => show win1_4.index t (0 : Fin 2) * 2000 + 1 * (y 0).val = (y 0).val; rw [e0]; omega
  | ⟨1, _⟩ => show win1_4.index t (1 : Fin 2) * 2048 + 1 * (y 1).val = (y 1).val; rw [e1]; omega
theorem iblk1_5 (c : Dev nD) (t : Fin cfg1.N) : iblk1 V c 5 t = V c main_v22 := by
  obtain ⟨-, -, -, -, -, -, -, -, e0, e1⟩ := idx1 t
  funext y
  show V c main_v22 (((cfg1.win 5).blk t).view.emb y) = V c main_v22 y
  congr 1
  funext a
  apply Fin.ext
  match a with
  | ⟨0, _⟩ => show win1_5.index t (0 : Fin 2) * 86 + 1 * (y 0).val = (y 0).val; rw [e0]; omega
  | ⟨1, _⟩ => show win1_5.index t (1 : Fin 2) * 1024 + 1 * (y 1).val = (y 1).val; rw [e1]; omega

/-- What point t writes back is block t of the whole output vector. -/
theorem flushed1_6_eq (c : Dev nD) (t : Fin cfg1.N) :
    (dat1 V c).flushed 6 t = ((cfg1.win 6).blk t).view.read (Elt F) (G1 V c) := by
  show (cfg1.win 6).cut (grid1.coords t) ((dat1 V c).after 6 t) = _
  rw [after1_6, out1_6_eq, iblk1_0, iblk1_1, iblk1_2, iblk1_3, iblk1_4, iblk1_5]
  funext y
  have hy : (y 0).val < 256 := (y 0).isLt
  have hx : (cfg1.win 6).xinj (grid1.coords t) y = ix1 ⟨(y 0).val, hy⟩ := by
    funext a
    match a with
    | ⟨0, _⟩ => rfl
  show gatherOut (rowBlock (V c main_v23) (t.cast N_1)) (rowBlock (V c main_v24) (t.cast N_1)) (rowBlock (V c main_v25) (t.cast N_1))
      (V c main_v9) (V c main_v14) (V c main_v22) ((cfg1.win 6).xinj (grid1.coords t) y) = G1 V c (((cfg1.win 6).blk t).view.emb y)
  rw [hx]
  refine (G1_at V c (t.cast N_1) ⟨(y 0).val, hy⟩ _ ?_).symm
  show win1_6.index t (0 : Fin 1) * 256 + 1 * (y 0).val = 256 * t.val + (y 0).val
  rw [(idx1 t).2.2.2.1]; omega

/-- A row of the output vector is in point t's block iff it lies in the block's range. -/
theorem mem_blk1_6 (t : Fin cfg1.N) (i : S200192.Idx) :
    i ∈ ((cfg1.win 6).blk t).view.set ↔ ∀ a : Fin 1, win1_6.index t a * S256.size a ≤ (i a).val ∧ (i a).val < win1_6.index t a * S256.size a + S256.size a := by
  show i ∈ ((View.whole main_v26).slice (win1_6.rect t)).set ↔ _
  rw [View.set_slice_whole, Rect.mem_set_unit]
  exact Iff.rfl

/-- Every row of the output vector is in the block of the point that is the row over 256. -/
theorem cover1_6_arr (i : S200192.Idx) : ∃ t : Fin cfg1.N, (cfg1.win 6).flush t = true ∧ i ∈ ((cfg1.win 6).blk t).view.set := by
  refine ⟨(blkOf i).cast N_1.symm, flush1_6 _, ?_⟩
  rw [mem_blk1_6]
  intro a
  have hi : (i 0).val < 200192 := (i 0).isLt
  match a with
  | ⟨0, _⟩ =>
    show win1_6.index ((blkOf i).cast N_1.symm) (0 : Fin 1) * 256 ≤ (i 0).val ∧ (i 0).val < win1_6.index ((blkOf i).cast N_1.symm) (0 : Fin 1) * 256 + 256
    rw [(idx1 ((blkOf i).cast N_1.symm)).2.2.2.1]
    show (i 0).val / 256 * 256 ≤ (i 0).val ∧ (i 0).val < (i 0).val / 256 * 256 + 256
    omega

/-- The output vector of region 1 ends holding, at row 256·t + p, output p of the point t's row blocks. -/
theorem final1_6 (c : Dev nD) (t : Fin 782) (p : Fin 256) (h : 256 * t.val + p.val < 200192) :
    (dat1 V c).arrAt 6 cfg1.N (ix1 ⟨256 * t.val + p.val, h⟩)
      = gatherOut (rowBlock (V c main_v23) t) (rowBlock (V c main_v24) t) (rowBlock (V c main_v25) t)
          (V c main_v9) (V c main_v14) (V c main_v22) (ix1 p) := by
  have hfin := (dat1 V c).arrAt_eq_of_cover 6 (G1 V c) (fun t _ => flushed1_6_eq V c t) cover1_6_arr
  rw [hfin]
  exact G1_at V c t p _ rfl

end Cert.KernelIdeal.Hand

end
-- ==== Proof.LibNaryApp.lean ====
/-
  General facts about host operations over a literal family of three or four operand references (a concatenation of
  three or four pieces). Such an operation leaves at its result reference its function applied to the family of the
  operands' contents, each read at its own reference. Here that value is written as ONE application, naryApp3 f u0 u1 u2
  (naryApp4 f u0 u1 u2 u3), of the function to the three (four) contents as separate arguments; by definition it is the
  function at the family (u0, u1, u2) (respectively (u0, u1, u2, u3)).
-/
import Idealize.ShloMosaic.Lib.StableHlo.Run

noncomputable section

namespace Idealize.ShloMosaic.StableHlo

open Idealize.SL.Sem

variable {τ : Topo} {sig : RefSig} {Val : EltTy → Type}
variable {x a b c y : Ref sig .tc}

/-- A function of a family over the three references `![x, a, b]`, applied to one value per reference. -/
def naryApp3 (f : ((k : Fin 3) → ((![x, a, b] : Fin 3 → Ref sig .tc) k).ty.Contents Val) → y.ty.Contents Val)
    (u0 : x.ty.Contents Val) (u1 : a.ty.Contents Val) (u2 : b.ty.Contents Val) : y.ty.Contents Val :=
  f (Fin.cons u0 (Fin.cons u1 (Fin.cons u2 (fun i => i.elim0))))

/-- A function of a family over the four references `![x, a, b, c]`, applied to one value per reference. -/
def naryApp4 (f : ((k : Fin 4) → ((![x, a, b, c] : Fin 4 → Ref sig .tc) k).ty.Contents Val) → y.ty.Contents Val)
    (u0 : x.ty.Contents Val) (u1 : a.ty.Contents Val) (u2 : b.ty.Contents Val) (u3 : c.ty.Contents Val) : y.ty.Contents Val :=
  f (Fin.cons u0 (Fin.cons u1 (Fin.cons u2 (Fin.cons u3 (fun i => i.elim0)))))

/-- An operation over three operand references leaves at its result reference its function applied to the three
    operands' contents. -/
theorem nary3_result_app
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = naryApp3 f (F (Proc.devRef .tc x)) (F (Proc.devRef .tc a)) (F (Proc.devRef .tc b)) := by
  unfold naryApp3
  rw [nary_result]; congr 1; funext k; fin_cases k <;> rfl

/-- The same over four operand references. -/
theorem nary4_result_app
    (f : ((k : Fin 4) → ((![x, a, b, c] : Fin 4 → Ref sig .tc) k).ty.Contents Val) → y.ty.Contents Val) (hxs hy)
    (F : Valuation τ sig Val) :
    (nary (τ := τ) ![x, a, b, c] y f hxs hy).result F (no_index (Proc.devRef .tc y))
      = naryApp4 f (F (Proc.devRef .tc x)) (F (Proc.devRef .tc a)) (F (Proc.devRef .tc b)) (F (Proc.devRef .tc c)) := by
  unfold naryApp4
  exact nary4_result f hxs hy F

/-- The contents of one reference after a literal list of operations: each operation's result at its own result
    reference is its function's value, and at any other reference what was there; a three- or four-piece concatenation's
    value is the folded application above. -/
macro "after_results_pieces" : tactic =>
  `(tactic| (simp (disch := decide) only [after_cons, after_nil,
      nullary_result', unary_result', binary_result', ternary_result', quaternary_result', reshape_result',
      nary4_result_app, nary3_result_app, unaryIndexed_result', binaryIndexed_result',
      nullary_result_ne', unary_result_ne', binary_result_ne', ternary_result_ne', quaternary_result_ne', reshape_result_ne',
      nary_result_ne', unaryIndexed_result_ne', binaryIndexed_result_ne']))

end Idealize.ShloMosaic.StableHlo

end
-- ==== Proof.HostVal.lean ====
/-
  The host operations of the kernel program, read back.

  Between its two kernel calls the program builds three tables on the host. The top table lays four 2000 x 256 arrays
  side by side (1024 columns), rounds every entry to the short float format, and lays beside the rounded entries the
  rounded residuals "entry minus its rounded value widened back" (2048 columns in all). The bottom table is the same of
  the four arrays in the opposite order. The relation table is the same construction over the two arrays wR - wI and
  wR + wI laid side by side (86 x 512, then 86 x 1024). Three index vectors of 200000 words are padded with 192 words
  behind, and the second kernel's result of 200192 entries is cut back to its first 200000. Two matrices are transposed
  before the first kernel call.

  Part 1 names these functions, generic in the float instance, and shows that the buffers after each stretch of host
  operations hold them. Part 2 reads them entry by entry over the extended reals, where a change of float format is the
  identity: the first half of a table row holds the entries themselves, the second half holds x - x.
-/
import proofs.«417564_j14156212208090_3_alg».proof.Proof.LibNaryApp
import proofs.«417564_j14156212208090_3_alg».proof.Proof.Gen.KernelIdeal.Launch
import Idealize.ShloMosaic.Lib.StableHlo.Run
import Idealize.ShloMosaic.Lib.ValueIdx
import Idealize.ShloMosaic.Lib.ValueLayout
import Idealize.ShloMosaic.Lib.Pipeline.Value
import Idealize.ShloMosaic.Lib.KernelVsHost
import Idealize.ShloMosaic.PureOps.Ideal

noncomputable section

namespace Cert.KernelIdeal.Hand

open Cert.KernelIdeal Cert.KernelIdeal.Gen Idealize.ShloMosaic Idealize.ShloMosaic.TcCoe Idealize.ShloMosaic.StableHlo
open Idealize.ShloMosaic.ValueIdx

variable {F : FTy → Type} [FloatOps F]

/-! ## Part 1: the functions, and the buffers after each stretch -/

/-- Four 2000 x 256 arrays laid side by side. -/
def cat4 (a b c d : Vec F S2000x256 .f32) : Vec F S2000x1024 .f32 :=
  concatenate S2000x1024 1 [⟨S2000x256, a⟩, ⟨S2000x256, b⟩, ⟨S2000x256, c⟩, ⟨S2000x256, d⟩]
    concatenates_S2000x256_S2000x256_S2000x256_S2000x256_S2000x1024_d1

/-- A 2000 x 1024 array rounded to the short format, with the rounded residuals beside it. -/
def hiLo2000 (v : Vec F S2000x1024 .f32) : Vec F S2000x2048 .bf16 :=
  concatenate S2000x2048 1
    [⟨S2000x1024, (truncf .bf16 v bitsLt_bf16_f32 : FVec F S2000x1024 .bf16)⟩,
     ⟨S2000x1024, (truncf .bf16 (subf v (extf .f32 (truncf .bf16 v bitsLt_bf16_f32 : FVec F S2000x1024 .bf16) bitsLt_bf16_f32))
        bitsLt_bf16_f32 : FVec F S2000x1024 .bf16)⟩]
    concatenates_S2000x1024_S2000x1024_S2000x2048_d1

/-- The top table: the quarters x1, x2, xs, xf, then their residuals. -/
def topTable (x1 x2 xs xf : Vec F S2000x256 .f32) : Vec F S2000x2048 .bf16 := hiLo2000 (cat4 x1 x2 xs xf)

/-- The bottom table: the quarters xf, xs, x2, x1, then their residuals. -/
def botTable (xf xs x2 x1 : Vec F S2000x256 .f32) : Vec F S2000x2048 .bf16 := hiLo2000 (cat4 xf xs x2 x1)

/-- The difference and the sum of two 86 x 256 arrays laid side by side. -/
def relCat (wR wI : Vec F S86x256 .f32) : Vec F S86x512 .f32 :=
  concatenate S86x512 1 [⟨S86x256, (subf wR wI : FVec F S86x256 .f32)⟩, ⟨S86x256, (addf wR wI : FVec F S86x256 .f32)⟩]
    concatenates_S86x256_S86x256_S86x512_d1

/-- An 86 x 512 array rounded to the short format, with the rounded residuals beside it. -/
def hiLo86 (v : Vec F S86x512 .f32) : Vec F S86x1024 .bf16 :=
  concatenate S86x1024 1
    [⟨S86x512, (truncf .bf16 v bitsLt_bf16_f32 : FVec F S86x512 .bf16)⟩,
     ⟨S86x512, (truncf .bf16 (subf v (extf .f32 (truncf .bf16 v bitsLt_bf16_f32 : FVec F S86x512 .bf16) bitsLt_bf16_f32))
        bitsLt_bf16_f32 : FVec F S86x512 .bf16)⟩]
    concatenates_S86x512_S86x512_S86x1024_d1

/-- The relation table: wR - wI, wR + wI, then their residuals. -/
def relTable (wR wI : Vec F S86x256 .f32) : Vec F S86x1024 .bf16 := hiLo86 (relCat wR wI)

/-- An index vector of 200000 words with 192 copies of the word z behind it. -/
def padIdx (x : IVec S200000 32) (z : IVec S_ 32) : IVec S200192 32 :=
  pad S200192 ![0] ![192] ![0] x z pads_S200000_S200192_01920 h_S_

/-- After the first stretch the buffer of %0 holds the transposed %arg4. -/
theorem after_hostOps0_v0 (W : Valuation τ sig (Elt F)) :
    (StableHlo.after hostOps0 W main_v0 : Vec F S512x256 .f32)
      = transpose S512x256 [1, 0] (W main_arg4 : Vec F S256x512 .f32) transposes_S256x512_S512x256_1_0 := by
  after_results

/-- After the first stretch the buffer of %1 holds the transposed %arg5. -/
theorem after_hostOps0_v1 (W : Valuation τ sig (Elt F)) :
    (StableHlo.after hostOps0 W main_v1 : Vec F S512x256 .f32)
      = transpose S512x256 [1, 0] (W main_arg5 : Vec F S256x512 .f32) transposes_S256x512_S512x256_1_0 := by
  after_results

/-- After the table-building stretch the buffer of %9 holds the top table. -/
theorem after_hostOps1_v9 (W : Valuation τ sig (Elt F)) :
    (StableHlo.after hostOps1 W main_v9 : Vec F S2000x2048 .bf16)
      = topTable (W main_arg2) (W main_arg3) (W main_v2_1) (W main_v2_0) := by
  after_results_pieces; rfl

/-- After the table-building stretch the buffer of %14 holds the bottom table. -/
theorem after_hostOps1_v14 (W : Valuation τ sig (Elt F)) :
    (StableHlo.after hostOps1 W main_v14 : Vec F S2000x2048 .bf16)
      = botTable (W main_v2_0) (W main_v2_1) (W main_arg3) (W main_arg2) := by
  after_results_pieces; rfl

/-- After the table-building stretch the buffer of %22 holds the relation table. -/
theorem after_hostOps1_v22 (W : Valuation τ sig (Elt F)) :
    (StableHlo.after hostOps1 W main_v22 : Vec F S86x1024 .bf16)
      = relTable (W main_arg6) (W main_arg7) := by
  after_results_pieces; rfl

/-- After the first padding stretch the buffer of %23 holds %arg8 padded with the word of %c. -/
theorem after_pad_v23 (W : Valuation τ sig (Elt F)) :
    (StableHlo.after hostOps1_1 W main_v23 : IVec S200192 32) = padIdx (W main_arg8) (W main_c) := by
  after_results; rfl

/-- After the second padding stretch the buffer of %24 holds %arg9 padded with the word of %c_0. -/
theorem after_pad_v24 (W : Valuation τ sig (Elt F)) :
    (StableHlo.after hostOps1_3 W main_v24 : IVec S200192 32) = padIdx (W main_arg9) (W main_c_0) := by
  after_results; rfl

/-- After the third padding stretch the buffer of %25 holds %arg10 padded with the word of %c_1. -/
theorem after_pad_v25 (W : Valuation τ sig (Elt F)) :
    (StableHlo.after hostOps1_5 W main_v25 : IVec S200192 32) = padIdx (W main_arg10) (W main_c_1) := by
  after_results; rfl

/-- After the last stretch the buffer of %27 holds the first 200000 entries of %26. -/
theorem after_hostOps2_v27 (W : Valuation τ sig (Elt F)) :
    (StableHlo.after hostOps2 W main_v27 : Vec F S200000 .f32)
      = extractStridedSlice S200000 ![0] (W main_v26 : Vec F S200192 .f32) slices_S200192_S200000_0 := by
  after_results

/-! ## Part 2: the functions entry by entry, over the extended reals -/

/-- Four arrays side by side, read in each quarter of a row. -/
theorem cat4_apply {α : Type} (a b c d : S2000x256.Idx → α) (n : Fin 2000) (e : Fin 256) :
    concatenate S2000x1024 1 [⟨S2000x256, a⟩, ⟨S2000x256, b⟩, ⟨S2000x256, c⟩, ⟨S2000x256, d⟩]
        concatenates_S2000x256_S2000x256_S2000x256_S2000x256_S2000x1024_d1 (ix2 n (⟨e.val, by omega⟩ : Fin 1024)) = a (ix2 n e)
    ∧ concatenate S2000x1024 1 [⟨S2000x256, a⟩, ⟨S2000x256, b⟩, ⟨S2000x256, c⟩, ⟨S2000x256, d⟩]
        concatenates_S2000x256_S2000x256_S2000x256_S2000x256_S2000x1024_d1 (ix2 n (⟨256 + e.val, by omega⟩ : Fin 1024)) = b (ix2 n e)
    ∧ concatenate S2000x1024 1 [⟨S2000x256, a⟩, ⟨S2000x256, b⟩, ⟨S2000x256, c⟩, ⟨S2000x256, d⟩]
        concatenates_S2000x256_S2000x256_S2000x256_S2000x256_S2000x1024_d1 (ix2 n (⟨512 + e.val, by omega⟩ : Fin 1024)) = c (ix2 n e)
    ∧ concatenate S2000x1024 1 [⟨S2000x256, a⟩, ⟨S2000x256, b⟩, ⟨S2000x256, c⟩, ⟨S2000x256, d⟩]
        concatenates_S2000x256_S2000x256_S2000x256_S2000x256_S2000x1024_d1 (ix2 n (⟨768 + e.val, by omega⟩ : Fin 1024)) = d (ix2 n e) := by
  refine ⟨?_, ?_, ?_, ?_⟩
  · exact concatenate_apply_piece (t := S2000x1024) 1 [⟨S2000x256, a⟩, ⟨S2000x256, b⟩, ⟨S2000x256, c⟩, ⟨S2000x256, d⟩]
      concatenates_S2000x256_S2000x256_S2000x256_S2000x256_S2000x1024_d1 (ix2 n (⟨e.val, by omega⟩ : Fin 1024))
      0 (by show (0 : Nat) < 4; omega) S2000x256 a rfl rfl 0 rfl (ix2 n e)
      (fun q hq => match q, hq with | ⟨0, _⟩, _ => rfl | ⟨1, _⟩, hq => absurd rfl hq) (Nat.zero_add _)
  · exact concatenate_apply_piece (t := S2000x1024) 1 [⟨S2000x256, a⟩, ⟨S2000x256, b⟩, ⟨S2000x256, c⟩, ⟨S2000x256, d⟩]
      concatenates_S2000x256_S2000x256_S2000x256_S2000x256_S2000x1024_d1 (ix2 n (⟨256 + e.val, by omega⟩ : Fin 1024))
      1 (by show (1 : Nat) < 4; omega) S2000x256 b rfl rfl 256 rfl (ix2 n e)
      (fun q hq => match q, hq with | ⟨0, _⟩, _ => rfl | ⟨1, _⟩, hq => absurd rfl hq) rfl
  · exact concatenate_apply_piece (t := S2000x1024) 1 [⟨S2000x256, a⟩, ⟨S2000x256, b⟩, ⟨S2000x256, c⟩, ⟨S2000x256, d⟩]
      concatenates_S2000x256_S2000x256_S2000x256_S2000x256_S2000x1024_d1 (ix2 n (⟨512 + e.val, by omega⟩ : Fin 1024))
      2 (by show (2 : Nat) < 4; omega) S2000x256 c rfl rfl 512 rfl (ix2 n e)
      (fun q hq => match q, hq with | ⟨0, _⟩, _ => rfl | ⟨1, _⟩, hq => absurd rfl hq) rfl
  · exact concatenate_apply_piece (t := S2000x1024) 1 [⟨S2000x256, a⟩, ⟨S2000x256, b⟩, ⟨S2000x256, c⟩, ⟨S2000x256, d⟩]
      concatenates_S2000x256_S2000x256_S2000x256_S2000x256_S2000x1024_d1 (ix2 n (⟨768 + e.val, by omega⟩ : Fin 1024))
      3 (by show (3 : Nat) < 4; omega) S2000x256 d rfl rfl 768 rfl (ix2 n e)
      (fun q hq => match q, hq with | ⟨0, _⟩, _ => rfl | ⟨1, _⟩, hq => absurd rfl hq) rfl

/-- The first half of a row of a rounded table holds the array's entries. -/
theorem hiLo2000_hi (v : Vec Ideal S2000x1024 .f32) (n : Fin 2000) (j : Fin 1024) :
    hiLo2000 v (ix2 n (⟨j.val, by omega⟩ : Fin 2048)) = v (ix2 n j) := by
  unfold hiLo2000
  exact concatenate_pair_apply_left (t := S2000x2048) (s₁ := S2000x1024) (s₂ := S2000x1024) 1 _ _
    concatenates_S2000x1024_S2000x1024_S2000x2048_d1 (ix2 n (⟨j.val, by omega⟩ : Fin 2048)) rfl (ix2 n j)
    (fun q => match q with | ⟨0, _⟩ => rfl | ⟨1, _⟩ => rfl)

/-- The second half of a row of a rounded table holds x - x of the array's entries. -/
theorem hiLo2000_lo (v : Vec Ideal S2000x1024 .f32) (n : Fin 2000) (j : Fin 1024) :
    hiLo2000 v (ix2 n (⟨1024 + j.val, by omega⟩ : Fin 2048)) = v (ix2 n j) - v (ix2 n j) := by
  unfold hiLo2000
  exact concatenate_pair_apply_right (t := S2000x2048) (s₁ := S2000x1024) (s₂ := S2000x1024) 1 _ _
    concatenates_S2000x1024_S2000x1024_S2000x2048_d1 (ix2 n (⟨1024 + j.val, by omega⟩ : Fin 2048)) rfl rfl (ix2 n j)
    (fun q hq => match q, hq with | ⟨0, _⟩, _ => rfl | ⟨1, _⟩, hq => absurd rfl hq) (Nat.add_comm j.val 1024)

/-- The four quarters of a row of the top table's first half are the four arrays' rows. -/
theorem topTable_apply (x1 x2 xs xf : Vec Ideal S2000x256 .f32) (n : Fin 2000) (d : Fin 256) :
    topTable x1 x2 xs xf (ix2 n (⟨d.val, by omega⟩ : Fin 2048)) = x1 (ix2 n d)
    ∧ topTable x1 x2 xs xf (ix2 n (⟨256 + d.val, by omega⟩ : Fin 2048)) = x2 (ix2 n d)
    ∧ topTable x1 x2 xs xf (ix2 n (⟨512 + d.val, by omega⟩ : Fin 2048)) = xs (ix2 n d)
    ∧ topTable x1 x2 xs xf (ix2 n (⟨768 + d.val, by omega⟩ : Fin 2048)) = xf (ix2 n d) := by
  obtain ⟨h0, h1, h2, h3⟩ := cat4_apply x1 x2 xs xf n d
  refine ⟨?_, ?_, ?_, ?_⟩
  · exact (hiLo2000_hi (cat4 x1 x2 xs xf) n ⟨d.val, by omega⟩).trans h0
  · exact (hiLo2000_hi (cat4 x1 x2 xs xf) n ⟨256 + d.val, by omega⟩).trans h1
  · exact (hiLo2000_hi (cat4 x1 x2 xs xf) n ⟨512 + d.val, by omega⟩).trans h2
  · exact (hiLo2000_hi (cat4 x1 x2 xs xf) n ⟨768 + d.val, by omega⟩).trans h3

/-- The second half of a row of the top table holds x - x of the first half's entries. -/
theorem topTable_lo (x1 x2 xs xf : Vec Ideal S2000x256 .f32) (n : Fin 2000) (j : Fin 1024) :
    topTable x1 x2 xs xf (ix2 n (⟨1024 + j.val, by omega⟩ : Fin 2048))
      = topTable x1 x2 xs xf (ix2 n (⟨j.val, by omega⟩ : Fin 2048)) - topTable x1 x2 xs xf (ix2 n (⟨j.val, by omega⟩ : Fin 2048)) := by
  have hh := hiLo2000_hi (cat4 x1 x2 xs xf) n j
  have hl := hiLo2000_lo (cat4 x1 x2 xs xf) n j
  show hiLo2000 (cat4 x1 x2 xs xf) _ = hiLo2000 (cat4 x1 x2 xs xf) _ - hiLo2000 (cat4 x1 x2 xs xf) _
  rw [hl, hh]

/-- The four quarters of a row of the bottom table's first half are the four arrays' rows. -/
theorem botTable_apply (xf xs x2 x1 : Vec Ideal S2000x256 .f32) (n : Fin 2000) (d : Fin 256) :
    botTable xf xs x2 x1 (ix2 n (⟨d.val, by omega⟩ : Fin 2048)) = xf (ix2 n d)
    ∧ botTable xf xs x2 x1 (ix2 n (⟨256 + d.val, by omega⟩ : Fin 2048)) = xs (ix2 n d)
    ∧ botTable xf xs x2 x1 (ix2 n (⟨512 + d.val, by omega⟩ : Fin 2048)) = x2 (ix2 n d)
    ∧ botTable xf xs x2 x1 (ix2 n (⟨768 + d.val, by omega⟩ : Fin 2048)) = x1 (ix2 n d) := by
  obtain ⟨h0, h1, h2, h3⟩ := cat4_apply xf xs x2 x1 n d
  refine ⟨?_, ?_, ?_, ?_⟩
  · exact (hiLo2000_hi (cat4 xf xs x2 x1) n ⟨d.val, by omega⟩).trans h0
  · exact (hiLo2000_hi (cat4 xf xs x2 x1) n ⟨256 + d.val, by omega⟩).trans h1
  · exact (hiLo2000_hi (cat4 xf xs x2 x1) n ⟨512 + d.val, by omega⟩).trans h2
  · exact (hiLo2000_hi (cat4 xf xs x2 x1) n ⟨768 + d.val, by omega⟩).trans h3

/-- The second half of a row of the bottom table holds x - x of the first half's entries. -/
theorem botTable_lo (xf xs x2 x1 : Vec Ideal S2000x256 .f32) (n : Fin 2000) (j : Fin 1024) :
    botTable xf xs x2 x1 (ix2 n (⟨1024 + j.val, by omega⟩ : Fin 2048))
      = botTable xf xs x2 x1 (ix2 n (⟨j.val, by omega⟩ : Fin 2048)) - botTable xf xs x2 x1 (ix2 n (⟨j.val, by omega⟩ : Fin 2048)) := by
  have hh := hiLo2000_hi (cat4 xf xs x2 x1) n j
  have hl := hiLo2000_lo (cat4 xf xs x2 x1) n j
  show hiLo2000 (cat4 xf xs x2 x1) _ = hiLo2000 (cat4 xf xs x2 x1) _ - hiLo2000 (cat4 xf xs x2 x1) _
  rw [hl, hh]

/-- The difference and the sum side by side, read in each half of a row. -/
theorem relCat_apply (wR wI : Vec Ideal S86x256 .f32) (r : Fin 86) (e : Fin 256) :
    relCat wR wI (ix2 r (⟨e.val, by omega⟩ : Fin 512)) = wR (ix2 r e) - wI (ix2 r e)
    ∧ relCat wR wI (ix2 r (⟨256 + e.val, by omega⟩ : Fin 512)) = wR (ix2 r e) + wI (ix2 r e) := by
  unfold relCat
  refine ⟨?_, ?_⟩
  · exact concatenate_pair_apply_left (t := S86x512) (s₁ := S86x256) (s₂ := S86x256) 1 _ _
      concatenates_S86x256_S86x256_S86x512_d1 (ix2 r (⟨e.val, by omega⟩ : Fin 512)) rfl (ix2 r e)
      (fun q => match q with | ⟨0, _⟩ => rfl | ⟨1, _⟩ => rfl)
  · exact concatenate_pair_apply_right (t := S86x512) (s₁ := S86x256) (s₂ := S86x256) 1 _ _
      concatenates_S86x256_S86x256_S86x512_d1 (ix2 r (⟨256 + e.val, by omega⟩ : Fin 512)) rfl rfl (ix2 r e)
      (fun q hq => match q, hq with | ⟨0, _⟩, _ => rfl | ⟨1, _⟩, hq => absurd rfl hq) (Nat.add_comm e.val 256)

/-- The first half of a row of the rounded relation table holds the array's entries. -/
theorem hiLo86_hi (v : Vec Ideal S86x512 .f32) (r : Fin 86) (j : Fin 512) :
    hiLo86 v (ix2 r (⟨j.val, by omega⟩ : Fin 1024)) = v (ix2 r j) := by
  unfold hiLo86
  exact concatenate_pair_apply_left (t := S86x1024) (s₁ := S86x512) (s₂ := S86x512) 1 _ _
    concatenates_S86x512_S86x512_S86x1024_d1 (ix2 r (⟨j.val, by omega⟩ : Fin 1024)) rfl (ix2 r j)
    (fun q => match q with | ⟨0, _⟩ => rfl | ⟨1, _⟩ => rfl)

/-- The second half of a row of the rounded relation table holds x - x of the array's entries. -/
theorem hiLo86_lo (v : Vec Ideal S86x512 .f32) (r : Fin 86) (j : Fin 512) :
    hiLo86 v (ix2 r (⟨512 + j.val, by omega⟩ : Fin 1024)) = v (ix2 r j) - v (ix2 r j) := by
  unfold hiLo86
  exact concatenate_pair_apply_right (t := S86x1024) (s₁ := S86x512) (s₂ := S86x512) 1 _ _
    concatenates_S86x512_S86x512_S86x1024_d1 (ix2 r (⟨512 + j.val, by omega⟩ : Fin 1024)) rfl rfl (ix2 r j)
    (fun q hq => match q, hq with | ⟨0, _⟩, _ => rfl | ⟨1, _⟩, hq => absurd rfl hq) (Nat.add_comm j.val 512)

/-- The two quarters of a row of the relation table's first half are the difference and the sum. -/
theorem relTable_apply (wR wI : Vec Ideal S86x256 .f32) (r : Fin 86) (d : Fin 256) :
    relTable wR wI (ix2 r (⟨d.val, by omega⟩ : Fin 1024)) = wR (ix2 r d) - wI (ix2 r d)
    ∧ relTable wR wI (ix2 r (⟨256 + d.val, by omega⟩ : Fin 1024)) = wR (ix2 r d) + wI (ix2 r d) := by
  obtain ⟨h0, h1⟩ := relCat_apply wR wI r d
  refine ⟨?_, ?_⟩
  · exact (hiLo86_hi (relCat wR wI) r ⟨d.val, by omega⟩).trans h0
  · exact (hiLo86_hi (relCat wR wI) r ⟨256 + d.val, by omega⟩).trans h1

/-- The second half of a row of the relation table holds x - x of the first half's entries. -/
theorem relTable_lo (wR wI : Vec Ideal S86x256 .f32) (r : Fin 86) (j : Fin 512) :
    relTable wR wI (ix2 r (⟨512 + j.val, by omega⟩ : Fin 1024))
      = relTable wR wI (ix2 r (⟨j.val, by omega⟩ : Fin 1024)) - relTable wR wI (ix2 r (⟨j.val, by omega⟩ : Fin 1024)) := by
  have hh := hiLo86_hi (relCat wR wI) r j
  have hl := hiLo86_lo (relCat wR wI) r j
  show hiLo86 (relCat wR wI) _ = hiLo86 (relCat wR wI) _ - hiLo86 (relCat wR wI) _
  rw [hl, hh]

/-- A padded index vector keeps its first 200000 words. -/
theorem padIdx_apply (x : IVec S200000 32) (z : IVec S_ 32) (e : Fin 200000) :
    padIdx x z (ix1 (⟨e.val, by omega⟩ : Fin 200192)) = x (ix1 e) := by
  unfold padIdx
  exact pad_apply_of_inside (s := S200000) (t := S200192) ![0] ![192] ![0] x z pads_S200000_S200192_01920 h_S_
    (ix1 (⟨e.val, by omega⟩ : Fin 200192)) (ix1 e)
    (fun q => match q with | ⟨0, _⟩ => by show e.val = 0 + e.val * (0 + 1); omega)

/-- The cut of a vector of 200192 entries to its first 200000 reads the same entries. -/
theorem slice_apply {α : Type} (y : S200192.Idx → α) (e : Fin 200000) :
    extractStridedSlice S200000 ![0] y slices_S200192_S200000_0 (ix1 e) = y (ix1 (⟨e.val, by omega⟩ : Fin 200192)) := by
  exact extractStridedSlice_apply (s := S200192) (t := S200000) ![0] y slices_S200192_S200000_0 (ix1 e)
    (ix1 (⟨e.val, by omega⟩ : Fin 200192)) (fun q => match q with | ⟨0, _⟩ => by show e.val = 0 + e.val; omega)

/-- The transposed 256 x 512 matrix at (h, d) is the matrix at (d, h). -/
theorem transpose_apply {α : Type} (w : S256x512.Idx → α) (h : Fin 512) (d : Fin 256) :
    transpose S512x256 [1, 0] w transposes_S256x512_S512x256_1_0 (ix2 h d) = w (ix2 d h) := by
  exact transpose_ix2_apply w transposes_S256x512_S512x256_1_0 h d

end Cert.KernelIdeal.Hand

end
-- ==== Proof.Spec.lean ====
/-
  The mathematics both programs compute, entry by entry on the extended reals.

  A drug row of 512 features is layer-normalised and passed through elu, projected by W_fp to 256 features and
  passed through elu again (xfp); a second row is projected by W_skip (xskip). For a pair (a, b) of drug rows and a
  relation row r, four 256-vectors are formed by adding a row of one table at a to a row of another at b and
  layer-normalising; they are multiplied as two complex vectors, both parts layer-normalised again, and the result
  is the logistic of the complex inner product with the relation's weights. The inner product is written in two
  arrangements: one sum of Rc * (wR - wI) + Ic * (wR + wI), and four separate sums; they agree when every entry is a
  real number.
-/
import Idealize.ShloMosaic.PureOps.Ideal
import Idealize.ShloMosaic.Lib.ValueIdx

noncomputable section

namespace Cert.Spec

open Idealize.ShloMosaic

/-- The layer norm's epsilon, the f32 nearest to 1e-5, as its exact value. -/
abbrev eps : EReal := Ideal.ofBits .f32 0x3727C5AC#32
/-- The literal 256. -/
abbrev c256 : EReal := Ideal.ofBits .f32 0x43800000#32
/-- The literal 512. -/
abbrev c512 : EReal := Ideal.ofBits .f32 0x44000000#32

/-- An extended real that is a real number. -/
def IsReal (x : EReal) : Prop := ∃ r : ℝ, x = (r : EReal)

/-- The mean of a row: its sum over the literal count cn. -/
def mean {n : ℕ} (cn : EReal) (v : Fin n → EReal) : EReal := Ideal.div (∑ k, v k) cn

/-- The variance of a row: the mean of the squared deviations. -/
def var {n : ℕ} (cn : EReal) (v : Fin n → EReal) : EReal :=
  Ideal.div (∑ k, (v k - mean cn v) * (v k - mean cn v)) cn

/-- Layer normalisation of a row without affine part: (v - mean) * rsqrt (var + eps). -/
def ln {n : ℕ} (cn : EReal) (v : Fin n → EReal) (j : Fin n) : EReal :=
  (v j - mean cn v) * Ideal.rsqrt (var cn v + eps)

/-- elu: the identity on positives, exp (min x 0) - 1 elsewhere. -/
def elu (x : EReal) : EReal := if 0 < x then x else Ideal.exp (min x 0) - 1

section Encoder
variable (fp init : Fin 2000 → Fin 512 → EReal) (Wfp Wskip : Fin 256 → Fin 512 → EReal)

/-- The normalised, activated fingerprint row. -/
def fpn (n : Fin 2000) (h : Fin 512) : EReal := elu (ln c512 (fp n) h)
/-- The fingerprint embedding: elu of the normalised row times W_fp transposed. -/
def xfp (n : Fin 2000) (d : Fin 256) : EReal := elu (∑ h, fpn fp n h * Wfp d h)
/-- The skip embedding: the second row times W_skip transposed. -/
def xskip (n : Fin 2000) (d : Fin 256) : EReal := ∑ h, init n h * Wskip d h
end Encoder

section Pair
-- The four tables a pair reads rows of, and the two relation tables.
variable (x1 x2 xf xs : Fin 2000 → Fin 256 → EReal) (wR wI : Fin 86 → Fin 256 → EReal)
variable (a b : Fin 2000) (r : Fin 86)

def R1 (d : Fin 256) : EReal := ln c256 (fun d => x1 a d + xf b d) d
def I1 (d : Fin 256) : EReal := ln c256 (fun d => x2 a d + xs b d) d
def R2 (d : Fin 256) : EReal := ln c256 (fun d => xs a d + x2 b d) d
def I2 (d : Fin 256) : EReal := ln c256 (fun d => xf a d + x1 b d) d
/-- The real part of the complex product, normalised. -/
def Rc (d : Fin 256) : EReal :=
  ln c256 (fun d => R1 x1 xf a b d * R2 x2 xs a b d - I1 x2 xs a b d * I2 x1 xf a b d) d
/-- The imaginary part of the complex product, normalised. -/
def Ic (d : Fin 256) : EReal :=
  ln c256 (fun d => R1 x1 xf a b d * I2 x1 xf a b d + I1 x2 xs a b d * R2 x2 xs a b d) d

/-- The inner product as one sum over the fused weights. -/
def logitK : EReal :=
  ∑ d, (Rc x1 x2 xf xs a b d * (wR r d - wI r d) + Ic x1 x2 xf xs a b d * (wR r d + wI r d))
/-- The inner product as four sums. -/
def logitR : EReal :=
  (∑ d, Rc x1 x2 xf xs a b d * wR r d + ∑ d, Ic x1 x2 xf xs a b d * wI r d)
    + (-(∑ d, Rc x1 x2 xf xs a b d * wI r d) + ∑ d, Ic x1 x2 xf xs a b d * wR r d)

def outK : EReal := Ideal.logistic (logitK x1 x2 xf xs wR wI a b r)
def outR : EReal := Ideal.logistic (logitR x1 x2 xf xs wR wI a b r)
end Pair

/-! ## Real numbers stay real -/

theorem c256_eq : c256 = ((256 : ℝ) : EReal) := by
  show Ideal.ofBits .f32 0x43800000#32 = ((256 : ℝ) : EReal)
  simp [Ideal.ofBits, Ideal.ieee, -EReal.coe_mul]; norm_num
theorem c512_eq : c512 = ((512 : ℝ) : EReal) := by
  show Ideal.ofBits .f32 0x44000000#32 = ((512 : ℝ) : EReal)
  simp [Ideal.ofBits, Ideal.ieee, -EReal.coe_mul]; norm_num

/-- The epsilon's exact value: (2^23 + 2606508) * 2^(110 - 127 - 23) = 10995116 / 2^40. -/
theorem eps_eq : eps = ((10995116 / 1099511627776 : ℝ) : EReal) := by
  show Ideal.ofBits .f32 0x3727C5AC#32 = _
  simp [Ideal.ofBits, Ideal.ieee, -EReal.coe_mul]; norm_num

theorem eps_pos_real : ∃ e : ℝ, 0 < e ∧ eps = (e : EReal) := ⟨_, by norm_num, eps_eq⟩

theorem IsReal.sub_self {x : EReal} (h : IsReal x) : x - x = 0 := by
  obtain ⟨r, rfl⟩ := h
  rw [← EReal.coe_sub, _root_.sub_self, EReal.coe_zero]
theorem IsReal.add {x y : EReal} (hx : IsReal x) (hy : IsReal y) : IsReal (x + y) := by
  obtain ⟨p, rfl⟩ := hx; obtain ⟨q, rfl⟩ := hy
  exact ⟨p + q, (EReal.coe_add p q).symm⟩
theorem IsReal.sub {x y : EReal} (hx : IsReal x) (hy : IsReal y) : IsReal (x - y) := by
  obtain ⟨p, rfl⟩ := hx; obtain ⟨q, rfl⟩ := hy
  exact ⟨p - q, (EReal.coe_sub p q).symm⟩
theorem IsReal.mul {x y : EReal} (hx : IsReal x) (hy : IsReal y) : IsReal (x * y) := by
  obtain ⟨p, rfl⟩ := hx; obtain ⟨q, rfl⟩ := hy
  exact ⟨p * q, (EReal.coe_mul p q).symm⟩
theorem IsReal.sum {ι : Type} (s : Finset ι) (f : ι → EReal) (h : ∀ i ∈ s, IsReal (f i)) : IsReal (∑ i ∈ s, f i) := by
  classical
  induction s using Finset.induction_on with
  | empty => exact ⟨0, by simp⟩
  | insert i s hi ih =>
    rw [Finset.sum_insert hi]
    exact IsReal.add (h i (Finset.mem_insert_self i s)) (ih (fun j hj => h j (Finset.mem_insert_of_mem hj)))

/-- The coercion of a finite sum of reals is the sum of the coercions. -/
theorem coe_sum {ι : Type} (s : Finset ι) (g : ι → ℝ) :
    ((∑ i ∈ s, g i : ℝ) : EReal) = ∑ i ∈ s, (g i : EReal) := by
  classical
  induction s using Finset.induction_on with
  | empty => simp
  | insert i s hi ih => rw [Finset.sum_insert hi, Finset.sum_insert hi, EReal.coe_add, ih]

theorem elu_isReal {x : EReal} (h : IsReal x) : IsReal (elu x) := by
  obtain ⟨r, rfl⟩ := h
  unfold elu
  split_ifs with hpos
  · exact ⟨r, rfl⟩
  · have hr : (r : EReal) ≤ 0 := not_lt.mp hpos
    rw [min_eq_left hr, Ideal.exp_coe]
    exact ⟨Real.exp r - 1, by rw [EReal.coe_sub, EReal.coe_one]⟩

/-- Division of a real by a nonzero real is the real quotient. -/
theorem div_coe (p k : ℝ) (hk : k ≠ 0) : Ideal.div (p : EReal) (k : EReal) = ((p / k : ℝ) : EReal) := by
  unfold Ideal.div
  rw [if_neg (EReal.coe_ne_zero.mpr hk), ← EReal.coe_inv, ← EReal.coe_mul, div_eq_mul_inv]

theorem mean_coe {n : ℕ} (k : ℝ) (hk : k ≠ 0) (g : Fin n → ℝ) :
    mean (k : EReal) (fun j => (g j : EReal)) = (((∑ j, g j) / k : ℝ) : EReal) := by
  unfold mean
  rw [← coe_sum, div_coe _ _ hk]

theorem var_coe {n : ℕ} (k : ℝ) (hk : k ≠ 0) (g : Fin n → ℝ) :
    var (k : EReal) (fun j => (g j : EReal))
      = (((∑ j, (g j - (∑ i, g i) / k) * (g j - (∑ i, g i) / k)) / k : ℝ) : EReal) := by
  unfold var
  rw [mean_coe k hk g]
  simp only [← EReal.coe_sub, ← EReal.coe_mul]
  rw [← coe_sum, div_coe _ _ hk]

/-- A real row's layer norm (over a positive real count) is real. -/
theorem ln_isReal {n : ℕ} {cn : EReal} (hcn : ∃ k : ℝ, 0 < k ∧ cn = (k : EReal)) (v : Fin n → EReal)
    (h : ∀ k, IsReal (v k)) (j : Fin n) : IsReal (ln cn v j) := by
  obtain ⟨k, hk, rfl⟩ := hcn
  choose g hg using h
  obtain rfl : v = fun j => (g j : EReal) := funext hg
  obtain ⟨e, he, hee⟩ := eps_pos_real
  -- the variance is a nonnegative real, so the radicand is a positive real
  have hw : 0 ≤ (∑ j, (g j - (∑ i, g i) / k) * (g j - (∑ i, g i) / k)) / k :=
    div_nonneg (Finset.sum_nonneg (fun i _ => mul_self_nonneg _)) hk.le
  have hpos : 0 < (∑ j, (g j - (∑ i, g i) / k) * (g j - (∑ i, g i) / k)) / k + e := by linarith
  unfold ln
  rw [var_coe k hk.ne' g, mean_coe k hk.ne' g, hee, ← EReal.coe_add, ← EReal.coe_sub, Ideal.rsqrt_coe,
    if_neg (not_lt.mpr hpos.le), if_neg hpos.ne', ← EReal.coe_mul]
  exact ⟨_, rfl⟩

theorem xskip_isReal (init : Fin 2000 → Fin 512 → EReal) (Wskip : Fin 256 → Fin 512 → EReal)
    (hi : ∀ n h, IsReal (init n h)) (hW : ∀ d h, IsReal (Wskip d h)) (n : Fin 2000) (d : Fin 256) :
    IsReal (xskip init Wskip n d) := by
  unfold xskip
  exact IsReal.sum _ _ (fun h _ => (hi n h).mul (hW d h))

theorem xfp_isReal (fp : Fin 2000 → Fin 512 → EReal) (Wfp : Fin 256 → Fin 512 → EReal)
    (hf : ∀ n h, IsReal (fp n h)) (hW : ∀ d h, IsReal (Wfp d h)) (n : Fin 2000) (d : Fin 256) :
    IsReal (xfp fp Wfp n d) := by
  unfold xfp
  refine elu_isReal (IsReal.sum _ _ (fun h _ => IsReal.mul ?_ (hW d h)))
  unfold fpn
  exact elu_isReal (ln_isReal ⟨512, by norm_num, c512_eq⟩ _ (hf n) h)

/-- With every table entry real, the two arrangements of the inner product agree. -/
theorem outK_eq_outR (x1 x2 xf xs : Fin 2000 → Fin 256 → EReal) (wR wI : Fin 86 → Fin 256 → EReal)
    (h1 : ∀ n d, IsReal (x1 n d)) (h2 : ∀ n d, IsReal (x2 n d)) (hf : ∀ n d, IsReal (xf n d)) (hs : ∀ n d, IsReal (xs n d))
    (hR : ∀ r d, IsReal (wR r d)) (hI : ∀ r d, IsReal (wI r d)) (a b : Fin 2000) (r : Fin 86) :
    outK x1 x2 xf xs wR wI a b r = outR x1 x2 xf xs wR wI a b r := by
  have hc : ∃ k : ℝ, 0 < k ∧ c256 = (k : EReal) := ⟨256, by norm_num, c256_eq⟩
  have hR1 : ∀ d, IsReal (R1 x1 xf a b d) := fun d => by
    unfold R1; exact ln_isReal hc _ (fun d => (h1 a d).add (hf b d)) d
  have hI1 : ∀ d, IsReal (I1 x2 xs a b d) := fun d => by
    unfold I1; exact ln_isReal hc _ (fun d => (h2 a d).add (hs b d)) d
  have hR2 : ∀ d, IsReal (R2 x2 xs a b d) := fun d => by
    unfold R2; exact ln_isReal hc _ (fun d => (hs a d).add (h2 b d)) d
  have hI2 : ∀ d, IsReal (I2 x1 xf a b d) := fun d => by
    unfold I2; exact ln_isReal hc _ (fun d => (hf a d).add (h1 b d)) d
  have hRc : ∀ d, IsReal (Rc x1 x2 xf xs a b d) := fun d => by
    unfold Rc; exact ln_isReal hc _ (fun d => ((hR1 d).mul (hR2 d)).sub ((hI1 d).mul (hI2 d))) d
  have hIc : ∀ d, IsReal (Ic x1 x2 xf xs a b d) := fun d => by
    unfold Ic; exact ln_isReal hc _ (fun d => ((hR1 d).mul (hI2 d)).add ((hI1 d).mul (hR2 d))) d
  choose rc hrc using hRc
  choose ic hic using hIc
  choose p hp using hR r
  choose q hq using hI r
  unfold outK outR logitK logitR
  congr 1
  simp only [hrc, hic, hp, hq, ← EReal.coe_sub, ← EReal.coe_add, ← EReal.coe_mul, ← coe_sum, ← EReal.coe_neg]
  congr 1
  simp only [mul_sub, mul_add, Finset.sum_add_distrib, Finset.sum_sub_distrib]
  ring

end Cert.Spec

end
-- ==== Proof.LibRows.lean ====
/-
  Layout operations, a one-axis reduction and a plain matrix product READ AT AN INDEX GIVEN BY COORDINATES, in the forms
  the body of a row-blocked kernel meets: a column `[a, 1]` broadcast over the lanes, a vector `[a]` viewed as a column
  `[a, 1]`, the index a reduction over the lane axis inserts, the lane sum and the lane maximum of a row, and the
  product of an `[M, K]` by a `[K, N]` matrix into the zero accumulator. Then the three row-wise bodies built from them:
  the scaled product, the scaled and shifted block, and the row-wise log-softmax of it. Everything is stated over generic
  extents with indices written `ix1` / `ix2`; no program is imported.
-/
import Idealize.ShloMosaic.PureOps.Ideal.Laws
import Idealize.ShloMosaic.Lib.ValueIdx
import Idealize.ShloMosaic.Lib.ValueLayout

open scoped BigOperators

namespace Cert.Proof.LibRows

open Idealize.ShloMosaic Idealize.ShloMosaic.ValueIdx

section Layout
variable {α : Type}

/-- An `[a, 1]` column broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` vector cast to the column `[a, 1]` reads, at `(i, u)`, the vector at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The source index a reduction of `[a, b]` over its lane axis inserts over row `r` at lane `k` is `(r, k)`. -/
theorem lift_lane {a b : ℕ} (h : (⟨2, ![a, b]⟩ : Shape).Reduces [1] ⟨1, ![a]⟩) (r : Fin a) (k : Fin b) :
    h.lift (ix1 r) k = ix2 r k :=
  funext fun c => Fin.ext (match c with | ⟨0, _⟩ => rfl | ⟨1, _⟩ => rfl)

end Layout

/-! ## A reduction over the lane axis, read at a row -/

section Reduce

/-- The lane sum of an `[a, b]` block at row `r` is the sum over the lanes of the row's entries. -/
theorem multiReduction_add_lane {a b : ℕ} (src : FVec Ideal ⟨2, ![a, b]⟩ .f32) (acc : BitVec FTy.f32.bits)
    (h : (⟨2, ![a, b]⟩ : Shape).Reduces [1] ⟨1, ![a]⟩) (hφ : FKind.Formats .f32) (hacc : acc = FKind.add.neutral .f32 hφ)
    (r : Fin a) :
    multiReduction (F := Ideal) .add [1] ⟨1, ![a]⟩ src acc h hφ hacc (ix1 r) = ∑ k : Fin b, src (ix2 r k) :=
  (Ideal.multiReduction_add_single src acc h hφ hacc (ix1 r)).trans
    (Finset.sum_congr rfl fun k _ => congrArg src (lift_lane h r k))

/-- The lane maximum of an `[a, b]` block at row `r` is the fold of `max`, from the accumulator's value, over the lanes
    of the row's entries. -/
theorem multiReduction_maximumf_lane {a b : ℕ} (src : FVec Ideal ⟨2, ![a, b]⟩ .f32) (acc : BitVec FTy.f32.bits)
    (h : (⟨2, ![a, b]⟩ : Shape).Reduces [1] ⟨1, ![a]⟩) (hφ : FKind.Formats .f32)
    (hacc : acc = FKind.maximumf.neutral .f32 hφ) (r : Fin a) :
    multiReduction (F := Ideal) .maximumf [1] ⟨1, ![a]⟩ src acc h hφ hacc (ix1 r)
      = (Finset.univ : Finset (Fin b)).fold max (Ideal.ofBits .f32 acc) (fun k => src (ix2 r k)) :=
  (Ideal.multiReduction_maximumf_single src acc h hφ hacc (ix1 r)).trans
    (congrArg (fun f : Fin b → EReal => (Finset.univ : Finset (Fin b)).fold max (Ideal.ofBits .f32 acc) f)
      (funext fun k => congrArg src (lift_lane h r k)))

end Reduce

/-! ## The plain matrix product, read at `(r, q)` -/

section Product
variable {M K N : ℕ}

/-- On the left operand's row axis the operand index is the output's row … -/
theorem plain_lhs_0 (j : (⟨2, ![M, N]⟩ : Shape).Idx) (k : (DotDims.plain M K N).contr.Idx) :
    ((DotDims.plain M K N).lhsIdx j k 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl
/-- … on its contracted axis the contraction index's one coordinate … -/
theorem plain_lhs_1 (j : (⟨2, ![M, N]⟩ : Shape).Idx) (k : (DotDims.plain M K N).contr.Idx) :
    ((DotDims.plain M K N).lhsIdx j k 1).val = (k ⟨0, Nat.one_pos⟩).val :=
  (DotDims.plain M K N).lhsIdx_val_of_single rfl j k
/-- … and on the right operand's contracted axis the same coordinate … -/
theorem plain_rhs_0 (j : (⟨2, ![M, N]⟩ : Shape).Idx) (k : (DotDims.plain M K N).contr.Idx) :
    ((DotDims.plain M K N).rhsIdx j k 0).val = (k ⟨0, Nat.one_pos⟩).val :=
  (DotDims.plain M K N).rhsIdx_val_of_single rfl j k
/-- … on its column axis the output's column. -/
theorem plain_rhs_1 (j : (⟨2, ![M, N]⟩ : Shape).Idx) (k : (DotDims.plain M K N).contr.Idx) :
    ((DotDims.plain M K N).rhsIdx j k 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The product of an `[M, K]` by a `[K, N]` matrix into the zero accumulator, read at `(r, q)`: the sum over `k` of the
    left operand's row `r` times the right operand's column `q`, exactly (no rounding at the ideal values). -/
theorem matmul_plain_zero_apply (prec : Option ContractPrecision) (x : FVec Ideal ⟨2, ![M, K]⟩ .f32)
    (W : FVec Ideal ⟨2, ![K, N]⟩ .f32) (r : Fin M) (q : Fin N) :
    FloatOps.matmul (DotDims.plain M K N) prec x W (constant (F := Ideal) ⟨2, ![M, N]⟩ .f32 0x00000000#32) (ix2 r q)
      = ∑ k : Fin K, x (ix2 r k) * W (ix2 k q) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r q) ((contrEquiv1 (DotDims.plain M K N) K rfl rfl).symm k) = ix2 r k :=
    funext fun a => Fin.ext (by
      match a with
      | ⟨0, _⟩ => exact plain_lhs_0 _ _
      | ⟨1, _⟩ => exact (plain_lhs_1 _ _).trans hk)
  have er : (DotDims.plain M K N).rhsIdx (ix2 r q) ((contrEquiv1 (DotDims.plain M K N) K rfl rfl).symm k) = ix2 k q :=
    funext fun a => Fin.ext (by
      match a with
      | ⟨0, _⟩ => exact (plain_rhs_0 _ _).trans hk
      | ⟨1, _⟩ => exact plain_rhs_1 _ _)
  rw [el, er]

end Product

/-! ## The exponential and the logarithm of a vector, read at an index (definitional at the ideal values) -/

section Pointwise
variable {s : Shape} {φ : FTy}

/-- An exponential at an index is the exponential of the element. -/
theorem exp_apply (x : FVec Ideal s φ) (i : s.Idx) : exp x i = Ideal.exp (x i) := rfl
/-- A logarithm at an index is the logarithm of the element. -/
theorem log_apply (x : FVec Ideal s φ) (i : s.Idx) : log x i = Ideal.log (x i) := rfl

end Pointwise

/-! ## Three row-wise bodies, read at `(r, q)` -/

section Bodies

/-- THE SCALED PRODUCT: an `[M, K]` block times a `[K, N]` matrix into the zero accumulator, each row then scaled by its
    entry of an `[M, 1]` column broadcast over the lanes. At `(r, q)` it is the row sum times the column's entry of row `r`:
    a function of row `r` of the block and of the column only. -/
theorem scaledProduct_apply {M K N : ℕ} (prec : Option ContractPrecision) (x : FVec Ideal ⟨2, ![M, K]⟩ .f32)
    (W : FVec Ideal ⟨2, ![K, N]⟩ .f32) (s : FVec Ideal ⟨2, ![M, 1]⟩ .f32)
    (hc : (⟨2, ![M, 1]⟩ : Shape).ShapeCasts ⟨2, ![M, 1]⟩) (hb : (⟨2, ![M, 1]⟩ : Shape).Broadcasts ⟨2, ![M, N]⟩)
    (r : Fin M) (q : Fin N) :
    mulf (matmul (DotDims.plain M K N) prec x W (constant (F := Ideal) ⟨2, ![M, N]⟩ .f32 0x00000000#32))
        (broadcastTo ⟨2, ![M, N]⟩ (shapeCast ⟨2, ![M, 1]⟩ s hc) hb) (ix2 r q)
      = (∑ k : Fin K, x (ix2 r k) * W (ix2 k q)) * s (ix2 r (0 : Fin 1)) := by
  rw [mulf_apply, broadcastTo_a1_ab_apply, shapeCast_self]
  exact congrArg (· * s (ix2 r (0 : Fin 1))) (matmul_plain_zero_apply prec x W r q)

/-- THE SCALED AND SHIFTED BLOCK: an `[a, b]` block, each row scaled by its entry of an `[a, 1]` column and shifted by a
    `[1, b]` row, both broadcast. At `(r, q)` it is `v (r, q) * s (r, 0) + β (0, q)`. -/
theorem scaleShift_apply {a b : ℕ} (v : FVec Ideal ⟨2, ![a, b]⟩ .f32) (s : FVec Ideal ⟨2, ![a, 1]⟩ .f32)
    (β : FVec Ideal ⟨2, ![1, b]⟩ .f32)
    (h0 : (⟨2, ![a, b]⟩ : Shape).ShapeCasts ⟨2, ![a, b]⟩) (h1 : (⟨2, ![a, 1]⟩ : Shape).ShapeCasts ⟨2, ![a, 1]⟩)
    (h2 : (⟨2, ![a, 1]⟩ : Shape).Broadcasts ⟨2, ![a, b]⟩) (h3 : (⟨2, ![1, b]⟩ : Shape).ShapeCasts ⟨2, ![1, b]⟩)
    (h4 : (⟨2, ![1, b]⟩ : Shape).Broadcasts ⟨2, ![a, b]⟩) (r : Fin a) (q : Fin b) :
    addf (mulf (shapeCast ⟨2, ![a, b]⟩ v h0) (broadcastTo ⟨2, ![a, b]⟩ (shapeCast ⟨2, ![a, 1]⟩ s h1) h2))
        (broadcastTo ⟨2, ![a, b]⟩ (shapeCast ⟨2, ![1, b]⟩ β h3) h4) (ix2 r q)
      = v (ix2 r q) * s (ix2 r (0 : Fin 1)) + β (ix2 (0 : Fin 1) q) := by
  rw [addf_apply, mulf_apply, broadcastTo_a1_ab_apply, broadcastTo_1b_ab_apply, shapeCast_self, shapeCast_self,
    shapeCast_self]

/-- THE ROW-WISE LOG-SOFTMAX of an `[a, b]` block `v`: with `m` the lane maximum of a row (kept as a column and
    broadcast back) and `z = v - m`, the body is `z - log (lane sum of exp z)`. Whatever row `r` of `v` is known to be
    (`hv`), at `(r, q)` it is `(f q - m) - log (∑ j, exp (f j - m))` with `m` the fold of `max` over `f` from the
    accumulator's value: a function of row `r` only. -/
theorem logSoftmax_apply {a b : ℕ} (v : FVec Ideal ⟨2, ![a, b]⟩ .f32)
    (hr : (⟨2, ![a, b]⟩ : Shape).Reduces [1] ⟨1, ![a]⟩) (hφ hφ' : FKind.Formats .f32)
    (hm : (0xFF800000#32 : BitVec FTy.f32.bits) = FKind.maximumf.neutral .f32 hφ)
    (hs : (0x00000000#32 : BitVec FTy.f32.bits) = FKind.add.neutral .f32 hφ')
    (hc : (⟨1, ![a]⟩ : Shape).ShapeCasts ⟨2, ![a, 1]⟩) (hb : (⟨2, ![a, 1]⟩ : Shape).Broadcasts ⟨2, ![a, b]⟩)
    (r : Fin a) (q : Fin b) (f : Fin b → EReal) (hv : ∀ k, v (ix2 r k) = f k) :
    subf (subf v (broadcastTo ⟨2, ![a, b]⟩
            (shapeCast ⟨2, ![a, 1]⟩ (multiReduction (F := Ideal) .maximumf [1] ⟨1, ![a]⟩ v 0xFF800000#32 hr hφ hm) hc) hb))
        (broadcastTo ⟨2, ![a, b]⟩
          (log (shapeCast ⟨2, ![a, 1]⟩
            (multiReduction (F := Ideal) .add [1] ⟨1, ![a]⟩
              (exp (subf v (broadcastTo ⟨2, ![a, b]⟩
                (shapeCast ⟨2, ![a, 1]⟩ (multiReduction (F := Ideal) .maximumf [1] ⟨1, ![a]⟩ v 0xFF800000#32 hr hφ hm) hc) hb)))
              0x00000000#32 hr hφ' hs) hc)) hb) (ix2 r q)
      = (f q - (Finset.univ : Finset (Fin b)).fold max (Ideal.ofBits .f32 0xFF800000#32) f)
          - Ideal.log (∑ j : Fin b,
              Ideal.exp (f j - (Finset.univ : Finset (Fin b)).fold max (Ideal.ofBits .f32 0xFF800000#32) f)) := by
  -- the centred block at any entry of row `r`
  have hz : ∀ k : Fin b, subf v (broadcastTo ⟨2, ![a, b]⟩
      (shapeCast ⟨2, ![a, 1]⟩ (multiReduction (F := Ideal) .maximumf [1] ⟨1, ![a]⟩ v 0xFF800000#32 hr hφ hm) hc) hb) (ix2 r k)
      = f k - (Finset.univ : Finset (Fin b)).fold max (Ideal.ofBits .f32 0xFF800000#32) f := fun k => by
    rw [subf_apply, broadcastTo_a1_ab_apply, shapeCast_a_a1_apply, multiReduction_maximumf_lane, hv k]
    exact congrArg (fun g : Fin b → EReal => f k - (Finset.univ : Finset (Fin b)).fold max (Ideal.ofBits .f32 0xFF800000#32) g)
      (funext hv)
  rw [subf_apply, hz q, broadcastTo_a1_ab_apply, log_apply, shapeCast_a_a1_apply, multiReduction_add_lane]
  exact congrArg (fun t : EReal => _ - Ideal.log t) (Finset.sum_congr rfl fun j _ => by rw [exp_apply, hz j])

end Bodies

end Cert.Proof.LibRows
-- ==== Proof.KVal0.lean ====
/-
  The encoder's two stored blocks, read at an entry, are the specification's two embeddings.

  A block of rows is layer-normalised row by row: the lane sum over the literal count is the row's mean, the lane sum
  of the squared deviations over the same count its variance, and the entry is the deviation times the reciprocal root
  of the variance plus epsilon. The activation is a select on "greater than zero" between the value and
  exp (min x 0) - 1, which is elu. The product with the weight block into the zero accumulator is, at (n, d), the sum
  over the 512 lanes of the row's entries times the weight's column; a change of float format is the identity on the
  extended reals. Composed: the first block is elu of the projected, activated, normalised row, the second the plain
  projection of the second table's row.
-/
import proofs.«417564_j14156212208090_3_alg».proof.Proof.Gen.KernelIdeal.Skeleton
import proofs.«417564_j14156212208090_3_alg».proof.Proof.Spec
import proofs.«417564_j14156212208090_3_alg».proof.Proof.LibRows
import Idealize.ShloMosaic.PureOps.Ideal.Laws
import Idealize.ShloMosaic.Lib.ValueIdx
import Idealize.ShloMosaic.Lib.ValueLayout
import Idealize.ShloMosaic.Lib.Pipeline.Value

open scoped BigOperators

noncomputable section

namespace Cert.KernelIdeal.Hand

open Cert.KernelIdeal Cert.KernelIdeal.Gen Idealize.ShloMosaic Idealize.ShloMosaic.ValueIdx Cert.Proof.LibRows

/-! ## Words and the activation at one element -/

/-- The f32 word of one is the extended real one. -/
theorem ofBits_one_f32 : Ideal.ofBits .f32 0x3F800000#32 = 1 := by
  simp [Ideal.ofBits, Ideal.ieee, -EReal.coe_mul]; norm_num

/-- The comparison "greater than zero" is the bit one exactly at the positive values. -/
theorem cmp_ogt_zero (x : EReal) : Ideal.cmp .ogt x 0 = 1 ↔ 0 < x := by
  unfold Ideal.cmp
  by_cases h : 0 < x
  · simp [h]
  · simp [h]

/-- A select on "greater than zero" between the value and exp (min x 0) - 1 is elu. -/
theorem select_elu (x : EReal) :
    Scalar.select (Ideal.cmp .ogt x (Ideal.ofBits .f32 0x00000000#32)) x
        (Ideal.exp (min x (Ideal.ofBits .f32 0x00000000#32)) - Ideal.ofBits .f32 0x3F800000#32)
      = Cert.Spec.elu x := by
  rw [Ideal.ofBits_zero_f32, ofBits_one_f32]
  unfold Cert.Spec.elu Scalar.select
  by_cases h : 0 < x
  · rw [if_pos ((cmp_ogt_zero x).mpr h), if_pos h]
  · rw [if_neg (fun hc => h ((cmp_ogt_zero x).mp hc)), if_neg h]

section Pointwise
variable {s : Shape}

/-- A reciprocal root at an index is the reciprocal root of the element. -/
theorem rsqrt_entry (x : FVec Ideal s .f32) (i : s.Idx) : rsqrt x i = Ideal.rsqrt (x i) := rfl

/-- The activation of a block, read at an index, is elu of the element. -/
theorem elu_apply (x : FVec Ideal s .f32) (i : s.Idx) :
    (select (cmpf .ogt x (broadcast s (Scalar.ofBits (F := Ideal) .f32 0x00000000#32))) x (subf (exp (minimumf x (broadcast s (Scalar.ofBits (F := Ideal) .f32 0x00000000#32)))) (broadcast s (Scalar.ofBits (F := Ideal) .f32 0x3F800000#32)))) i = Cert.Spec.elu (x i) :=
  select_elu (x i)

end Pointwise

/-! ## The layer norm of a block of rows, read at an entry -/

section LayerNorm
variable {a b : ℕ}

/-- The column of row means at row p: the row's sum over the count. -/
theorem meanCol_apply (v : FVec Ideal ⟨2, ![a, b]⟩ .f32) (cn : BitVec FTy.f32.bits)
    (hr : (⟨2, ![a, b]⟩ : Shape).Reduces [1] ⟨1, ![a]⟩) (hφ : FKind.Formats .f32)
    (hs : (0x00000000#32 : BitVec FTy.f32.bits) = FKind.add.neutral .f32 hφ)
    (hc : (⟨1, ![a]⟩ : Shape).ShapeCasts ⟨2, ![a, 1]⟩) (hb : (⟨2, ![a, 1]⟩ : Shape).Broadcasts ⟨2, ![a, b]⟩) (p : Fin a) (u : Fin 1) :
    (divf (shapeCast ⟨2, ![a, 1]⟩ (multiReduction (F := Ideal) .add [1] ⟨1, ![a]⟩ v 0x00000000#32 hr hφ hs) hc) (broadcast ⟨2, ![a, 1]⟩ (Scalar.ofBits (F := Ideal) .f32 cn))) (ix2 p u)
      = Cert.Spec.mean (Ideal.ofBits .f32 cn) (fun k => v (ix2 p k)) := by
  rw [divf_apply, shapeCast_a_a1_apply, multiReduction_add_lane, broadcast_apply]
  rfl

/-- The centred block at (p, k): the entry less its row's mean. -/
theorem centred_apply (v : FVec Ideal ⟨2, ![a, b]⟩ .f32) (cn : BitVec FTy.f32.bits)
    (hr : (⟨2, ![a, b]⟩ : Shape).Reduces [1] ⟨1, ![a]⟩) (hφ : FKind.Formats .f32)
    (hs : (0x00000000#32 : BitVec FTy.f32.bits) = FKind.add.neutral .f32 hφ)
    (hc : (⟨1, ![a]⟩ : Shape).ShapeCasts ⟨2, ![a, 1]⟩) (hb : (⟨2, ![a, 1]⟩ : Shape).Broadcasts ⟨2, ![a, b]⟩) (p : Fin a) (k : Fin b) :
    (subf v (broadcastTo ⟨2, ![a, b]⟩ (divf (shapeCast ⟨2, ![a, 1]⟩ (multiReduction (F := Ideal) .add [1] ⟨1, ![a]⟩ v 0x00000000#32 hr hφ hs) hc) (broadcast ⟨2, ![a, 1]⟩ (Scalar.ofBits (F := Ideal) .f32 cn))) hb)) (ix2 p k)
      = v (ix2 p k) - Cert.Spec.mean (Ideal.ofBits .f32 cn) (fun k => v (ix2 p k)) := by
  rw [subf_apply, broadcastTo_a1_ab_apply, meanCol_apply v cn hr hφ hs hc hb]

/-- The column of row variances at row p: the sum of the squared deviations over the count. -/
theorem varCol_apply (v : FVec Ideal ⟨2, ![a, b]⟩ .f32) (cn : BitVec FTy.f32.bits)
    (hr : (⟨2, ![a, b]⟩ : Shape).Reduces [1] ⟨1, ![a]⟩) (hφ : FKind.Formats .f32)
    (hs : (0x00000000#32 : BitVec FTy.f32.bits) = FKind.add.neutral .f32 hφ)
    (hc : (⟨1, ![a]⟩ : Shape).ShapeCasts ⟨2, ![a, 1]⟩) (hb : (⟨2, ![a, 1]⟩ : Shape).Broadcasts ⟨2, ![a, b]⟩) (p : Fin a) (u : Fin 1) :
    (divf (shapeCast ⟨2, ![a, 1]⟩ (multiReduction (F := Ideal) .add [1] ⟨1, ![a]⟩ (mulf (subf v (broadcastTo ⟨2, ![a, b]⟩ (divf (shapeCast ⟨2, ![a, 1]⟩ (multiReduction (F := Ideal) .add [1] ⟨1, ![a]⟩ v 0x00000000#32 hr hφ hs) hc) (broadcast ⟨2, ![a, 1]⟩ (Scalar.ofBits (F := Ideal) .f32 cn))) hb)) (subf v (broadcastTo ⟨2, ![a, b]⟩ (divf (shapeCast ⟨2, ![a, 1]⟩ (multiReduction (F := Ideal) .add [1] ⟨1, ![a]⟩ v 0x00000000#32 hr hφ hs) hc) (broadcast ⟨2, ![a, 1]⟩ (Scalar.ofBits (F := Ideal) .f32 cn))) hb))) 0x00000000#32 hr hφ hs) hc) (broadcast ⟨2, ![a, 1]⟩ (Scalar.ofBits (F := Ideal) .f32 cn))) (ix2 p u)
      = Cert.Spec.var (Ideal.ofBits .f32 cn) (fun k => v (ix2 p k)) := by
  rw [divf_apply, shapeCast_a_a1_apply, multiReduction_add_lane, broadcast_apply]
  unfold Cert.Spec.var
  refine congrArg (fun t : EReal => Ideal.div t (Ideal.ofBits .f32 cn)) (Finset.sum_congr rfl fun k _ => ?_)
  rw [mulf_apply, centred_apply v cn hr hφ hs hc hb]

/-- The normalised block at (p, q): the deviation times the reciprocal root of the variance plus epsilon. -/
theorem layerNorm_apply (v : FVec Ideal ⟨2, ![a, b]⟩ .f32) (cn : BitVec FTy.f32.bits)
    (hr : (⟨2, ![a, b]⟩ : Shape).Reduces [1] ⟨1, ![a]⟩) (hφ : FKind.Formats .f32)
    (hs : (0x00000000#32 : BitVec FTy.f32.bits) = FKind.add.neutral .f32 hφ)
    (hc : (⟨1, ![a]⟩ : Shape).ShapeCasts ⟨2, ![a, 1]⟩) (hb : (⟨2, ![a, 1]⟩ : Shape).Broadcasts ⟨2, ![a, b]⟩) (p : Fin a) (q : Fin b) :
    (mulf (subf v (broadcastTo ⟨2, ![a, b]⟩ (divf (shapeCast ⟨2, ![a, 1]⟩ (multiReduction (F := Ideal) .add [1] ⟨1, ![a]⟩ v 0x00000000#32 hr hφ hs) hc) (broadcast ⟨2, ![a, 1]⟩ (Scalar.ofBits (F := Ideal) .f32 cn))) hb)) (broadcastTo ⟨2, ![a, b]⟩ (rsqrt (addf (divf (shapeCast ⟨2, ![a, 1]⟩ (multiReduction (F := Ideal) .add [1] ⟨1, ![a]⟩ (mulf (subf v (broadcastTo ⟨2, ![a, b]⟩ (divf (shapeCast ⟨2, ![a, 1]⟩ (multiReduction (F := Ideal) .add [1] ⟨1, ![a]⟩ v 0x00000000#32 hr hφ hs) hc) (broadcast ⟨2, ![a, 1]⟩ (Scalar.ofBits (F := Ideal) .f32 cn))) hb)) (subf v (broadcastTo ⟨2, ![a, b]⟩ (divf (shapeCast ⟨2, ![a, 1]⟩ (multiReduction (F := Ideal) .add [1] ⟨1, ![a]⟩ v 0x00000000#32 hr hφ hs) hc) (broadcast ⟨2, ![a, 1]⟩ (Scalar.ofBits (F := Ideal) .f32 cn))) hb))) 0x00000000#32 hr hφ hs) hc) (broadcast ⟨2, ![a, 1]⟩ (Scalar.ofBits (F := Ideal) .f32 cn))) (broadcast ⟨2, ![a, 1]⟩ (Scalar.ofBits (F := Ideal) .f32 0x3727C5AC#32)))) hb)) (ix2 p q)
      = Cert.Spec.ln (Ideal.ofBits .f32 cn) (fun k => v (ix2 p k)) q := by
  rw [mulf_apply, centred_apply v cn hr hφ hs hc hb, broadcastTo_a1_ab_apply, rsqrt_entry, addf_apply,
    varCol_apply v cn hr hφ hs hc hb, broadcast_apply]
  rfl

end LayerNorm

/-! ## The product with the weight block, read at an entry -/

section Product

/-- The product into the zero accumulator whatever the operands' float formats: at the extended reals a format is
    only a name, so the sum over the contracted axis is the same. -/
theorem matmul_plain_zero_apply' {M K N : ℕ} {φ₁ φ₂ : FTy} (prec : Option ContractPrecision)
    (x : FVec Ideal ⟨2, ![M, K]⟩ φ₁) (W : FVec Ideal ⟨2, ![K, N]⟩ φ₂) (r : Fin M) (q : Fin N) :
    FloatOps.matmul (DotDims.plain M K N) prec x W (constant (F := Ideal) ⟨2, ![M, N]⟩ .f32 0x00000000#32) (ix2 r q)
      = ∑ k : Fin K, x (ix2 r k) * W (ix2 k q) :=
  matmul_plain_zero_apply prec (x : FVec Ideal ⟨2, ![M, K]⟩ .f32) (W : FVec Ideal ⟨2, ![K, N]⟩ .f32) r q

/-- The encoder's dimension numbers are the plain ones: rows by columns, one contracted axis. -/
theorem dot_eq_plain : dot_S2000x512_S512x256_S2000x256_1_0_0_1_n_n = DotDims.plain 2000 512 256 := rfl

/-- The encoder's product at (r, q): the sum over the 512 lanes of row r times column q. -/
theorem matmul_enc_apply {φ₁ φ₂ : FTy} (x : FVec Ideal S2000x512 φ₁) (W : FVec Ideal S512x256 φ₂) (r : Fin 2000)
    (q : Fin 256) :
    matmul dot_S2000x512_S512x256_S2000x256_1_0_0_1_n_n none x W (constant (F := Ideal) S2000x256 .f32 0x00000000#32)
        (ix2 r q)
      = ∑ k : Fin 512, x (ix2 r k) * W (ix2 k q) := by
  rw [dot_eq_plain]
  exact matmul_plain_zero_apply' none x W r q

end Product

/-! ## The two stored blocks -/

/-- The first stored block at (n, d): elu of the projection of the activated, normalised row n. -/
theorem k0_pay2_apply (fp : Vec Ideal S2000x512 .f32) (wT : Vec Ideal S512x256 .f32) (n : Fin 2000) (d : Fin 256) :
    k0_pay2 (F := Ideal) fp wT (ix2 n d)
      = Cert.Spec.xfp (fun n h => fp (ix2 n h)) (fun d h => wT (ix2 h d)) n d := by
  unfold k0_pay2
  dsimp only
  refine (elu_apply _ _).trans ?_
  unfold Cert.Spec.xfp
  refine congrArg Cert.Spec.elu ?_
  refine (matmul_enc_apply _ _ n d).trans ?_
  refine Finset.sum_congr rfl fun k _ => ?_
  rw [truncf_apply, truncf_apply, shapeCast_self]
  refine congrArg (fun t : EReal => t * wT (ix2 k d)) ?_
  refine (elu_apply _ _).trans ?_
  unfold Cert.Spec.fpn
  refine congrArg Cert.Spec.elu ?_
  exact layerNorm_apply fp 0x44000000#32 _ _ _ _ _ n k

/-- The second stored block at (n, d): the projection of the second table's row n. -/
theorem k0_pay1_apply (init : Vec Ideal S2000x512 .f32) (wT : Vec Ideal S512x256 .f32) (n : Fin 2000) (d : Fin 256) :
    k0_pay1 (F := Ideal) init wT (ix2 n d)
      = Cert.Spec.xskip (fun n h => init (ix2 n h)) (fun d h => wT (ix2 h d)) n d := by
  unfold k0_pay1
  refine (matmul_enc_apply _ _ n d).trans ?_
  unfold Cert.Spec.xskip
  refine Finset.sum_congr rfl fun k _ => ?_
  rw [truncf_apply, truncf_apply, shapeCast_self]

end Cert.KernelIdeal.Hand

end
-- ==== Proof.KVal1.lean ====
/-
  The value the pair kernel stores at one row is the specification's output for that row's pair and relation.

  Every row p of a grid point carries three index words: two drug rows a, b and a relation row r. The body forms, for
  each index word, the row of indicators (1 where the column's number is the word, else 0) and multiplies it with a
  table: a sum over the table's rows in which every term but one vanishes, so the product is the table's row at the
  word. Each table holds a table and, beside it, the residual x - x of every entry, which is 0 for a real x; adding
  the halves therefore gives the plain entry. The 1024 columns are four quarters of 256; each quarter of the sum of the
  two gathered rows is layer-normalised along its 256 lanes; the four normalised vectors are multiplied as two complex
  vectors; both parts are normalised again; the result is the logistic of the lane sum of
  Rc * (wR - wI) + Ic * (wR + wI).
-/
import proofs.«417564_j14156212208090_3_alg».proof.Proof.Gen.KernelIdeal.Skeleton
import proofs.«417564_j14156212208090_3_alg».proof.Proof.Spec
import proofs.«417564_j14156212208090_3_alg».proof.Proof.Pay
import proofs.«417564_j14156212208090_3_alg».proof.Proof.LibRows
import Idealize.ShloMosaic.PureOps.Ideal.Laws
import Idealize.ShloMosaic.Lib.ValueIdx
import Idealize.ShloMosaic.Lib.ValueLayout
import Idealize.ShloMosaic.Lib.Pipeline.Value

open scoped BigOperators

noncomputable section

namespace Cert.KernelIdeal.Hand

open Cert.KernelIdeal Cert.KernelIdeal.Gen Idealize.ShloMosaic Idealize.ShloMosaic.ValueIdx Cert.Proof.LibRows

/-! ## Indicator rows -/

/-- The conversion of a widened equality bit: 1 where the two words are equal, else 0. -/
theorem sitofp_eqbit (x y : BitVec 32) :
    FloatOps.sitofp (F := Ideal) .f32 ((IntOp.cmpi .eq x y).setWidth 32) = if x = y then (1 : EReal) else 0 := by
  show (((((IntOp.cmpi .eq x y).setWidth 32).toInt : ℝ)) : EReal) = _
  by_cases h : x = y
  · subst h
    rw [if_pos rfl]
    simp [IntOp.cmpi]
  · rw [if_neg h]
    have hb : (x == y) = false := by simpa using h
    simp [IntOp.cmpi, hb]

section OneHot
variable {N : ℕ}

/-- An indicator block at (p, k): 1 where the column's number k is row p's index word, else 0. -/
theorem onehot_apply (hi : (⟨2, ![256, N]⟩ : Shape).Iotas .tc 32 [1]) (hb : S256x1.Broadcasts ⟨2, ![256, N]⟩)
    (v : Vec Ideal S256 .i32) (p : Fin 256) (k : Fin N) :
    truncf (F := Ideal) .bf16 (sitofp .f32 (extui 32 (cmpi .eq (iota .tc ⟨2, ![256, N]⟩ 32 [1] hi)
        (broadcastTo ⟨2, ![256, N]⟩ (shapeCast S256x1 (shapeCast S256 v shapeCasts_S256_S256) shapeCasts_S256_S256x1) hb))
        natLt_1_32)) bitsLt_bf16_f32 (ix2 p k)
      = if BitVec.ofNat 32 k.val = v (ix1 p) then (1 : EReal) else 0 := by
  rw [truncf_apply, sitofp_apply, extui_apply]
  show FloatOps.sitofp (F := Ideal) .f32 ((IntOp.cmpi .eq (iota .tc ⟨2, ![256, N]⟩ 32 [1] hi (ix2 p k))
    (broadcastTo ⟨2, ![256, N]⟩ (shapeCast S256x1 (shapeCast S256 v shapeCasts_S256_S256) shapeCasts_S256_S256x1) hb (ix2 p k))).setWidth 32) = _
  rw [sitofp_eqbit, iota_single_apply, broadcastTo_a1_ab_apply, shapeCast_a_a1_apply, shapeCast_self]
  rfl

end OneHot

/-! ## An indicator row times a table is the table's row -/

section Product
variable {M K N : ℕ} {φ₁ φ₂ : FTy}

/-- The plain product into the zero accumulator at (r, q), for operands of any two formats: the sum over k of the
    left operand's row r times the right operand's column q. -/
theorem matmul_plain_apply (prec : Option ContractPrecision) (x : FVec Ideal ⟨2, ![M, K]⟩ φ₁)
    (W : FVec Ideal ⟨2, ![K, N]⟩ φ₂) (r : Fin M) (q : Fin N) :
    FloatOps.matmul (DotDims.plain M K N) prec x W (constant (F := Ideal) ⟨2, ![M, N]⟩ .f32 0x00000000#32) (ix2 r q)
      = ∑ k : Fin K, x (ix2 r k) * W (ix2 k q) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r q) ((contrEquiv1 (DotDims.plain M K N) K rfl rfl).symm k) = ix2 r k :=
    funext fun a => Fin.ext (by
      match a with
      | ⟨0, _⟩ => exact plain_lhs_0 _ _
      | ⟨1, _⟩ => exact (plain_lhs_1 _ _).trans hk)
  have er : (DotDims.plain M K N).rhsIdx (ix2 r q) ((contrEquiv1 (DotDims.plain M K N) K rfl rfl).symm k) = ix2 k q :=
    funext fun a => Fin.ext (by
      match a with
      | ⟨0, _⟩ => exact (plain_rhs_0 _ _).trans hk
      | ⟨1, _⟩ => exact plain_rhs_1 _ _)
  rw [el, er]

/-- A sum against the indicator of one index keeps that index's term: every other term is 0 * x = 0, and the kept
    one is 1 * x = x, on all extended reals. Numbers below 2^32 are distinct as 32-bit words. -/
theorem indicator_sum (hK : K ≤ 4294967296) (a : Fin K) (T : Fin K → EReal) :
    ∑ k : Fin K, (if BitVec.ofNat 32 k.val = BitVec.ofNat 32 a.val then (1 : EReal) else 0) * T k = T a := by
  rw [Finset.sum_eq_single a]
  · rw [if_pos rfl, one_mul]
  · intro k _ hk
    have hne : ¬ BitVec.ofNat 32 k.val = BitVec.ofNat 32 a.val := by
      intro h
      apply hk
      have h2 := congrArg BitVec.toNat h
      rw [BitVec.toNat_ofNat, BitVec.toNat_ofNat] at h2
      have hk' := k.isLt
      have ha' := a.isLt
      rw [Nat.mod_eq_of_lt (by omega), Nat.mod_eq_of_lt (by omega)] at h2
      exact Fin.ext h2
    rw [if_neg hne, zero_mul]
  · intro h; exact absurd (Finset.mem_univ a) h

/-- An indicator block times a table, into the zero accumulator, read at (p, j): the table's entry (a, j), where row
    p of the block is the indicator of a. -/
theorem gather_row (hK : K ≤ 4294967296) (D : DotDims ⟨2, ![256, K]⟩ ⟨2, ![K, N]⟩ ⟨2, ![256, N]⟩)
    (hD : D = DotDims.plain 256 K N) (H : FVec Ideal ⟨2, ![256, K]⟩ .bf16) (T : FVec Ideal ⟨2, ![K, N]⟩ .bf16)
    (hc : (⟨2, ![K, N]⟩ : Shape).ShapeCasts ⟨2, ![K, N]⟩) (p : Fin 256) (a : Fin K)
    (hH : ∀ k : Fin K, H (ix2 p k) = if BitVec.ofNat 32 k.val = BitVec.ofNat 32 a.val then (1 : EReal) else 0)
    (j : Fin N) :
    matmul (F := Ideal) D none H (shapeCast ⟨2, ![K, N]⟩ T hc)
        (constant (F := Ideal) ⟨2, ![256, N]⟩ .f32 0x00000000#32) (ix2 p j) = T (ix2 a j) := by
  subst hD
  rw [shapeCast_self]
  refine (matmul_plain_apply none H T p j).trans ?_
  rw [Finset.sum_congr rfl fun k _ => congrArg (· * T (ix2 k j)) (hH k)]
  exact indicator_sum hK a (fun k => T (ix2 k j))

end Product

/-! ## The gathered rows -/

/-- The first product of the body at (p, j): row a of the drug table, where a is row p's index word. -/
theorem gathered2000_apply (i : Vec Ideal S256 .i32) (T : FVec Ideal S2000x2048 .bf16) (p : Fin 256) (a : Fin 2000)
    (ha : i (ix1 p) = BitVec.ofNat 32 a.val) (j : Fin 2048) :
    matmul (F := Ideal) dot_S256x2000_S2000x2048_S256x2048_1_0_0_1_n_n none
      (truncf .bf16 (sitofp .f32 (extui 32 (cmpi .eq (iota .tc S256x2000 32 [1] iota_S256x2000_d1_w32)
        (broadcastTo S256x2000 (shapeCast S256x1 (shapeCast S256 i shapeCasts_S256_S256) shapeCasts_S256_S256x1)
          broadcasts_S256x1_S256x2000)) natLt_1_32)) bitsLt_bf16_f32)
      (shapeCast S2000x2048 T shapeCasts_S2000x2048_S2000x2048) (constant S256x2048 .f32 0x00000000#32) (ix2 p j)
      = T (ix2 a j) :=
  gather_row (K := 2000) (N := 2048) (by norm_num) _ rfl _ T _ p a
    (fun k => (onehot_apply _ _ i p k).trans (by rw [ha])) j

/-- The relation product of the body at (p, j): row r of the relation table, where r is row p's index word. -/
theorem gathered86_apply (i : IVec S256x1 32) (T : FVec Ideal S86x1024 .bf16) (p : Fin 256) (r : Fin 86)
    (hr : i (ix2 p (0 : Fin 1)) = BitVec.ofNat 32 r.val) (j : Fin 1024) :
    matmul (F := Ideal) dot_S256x86_S86x1024_S256x1024_1_0_0_1_n_n none
      (truncf .bf16 (sitofp .f32 (extui 32 (cmpi .eq (iota .tc S256x86 32 [1] iota_S256x86_d1_w32)
        (broadcastTo S256x86 i broadcasts_S256x1_S256x86)) natLt_1_32)) bitsLt_bf16_f32)
      (shapeCast S86x1024 T shapeCasts_S86x1024_S86x1024) (constant S256x1024 .f32 0x00000000#32) (ix2 p j)
      = T (ix2 r j) :=
  gather_row (K := 86) (N := 1024) (by norm_num) _ rfl _ T _ p r
    (fun k => by
      rw [truncf_apply, sitofp_apply, extui_apply]
      show FloatOps.sitofp (F := Ideal) .f32 ((IntOp.cmpi .eq (iota .tc S256x86 32 [1] iota_S256x86_d1_w32 (ix2 p k))
        (broadcastTo S256x86 i broadcasts_S256x1_S256x86 (ix2 p k))).setWidth 32) = _
      rw [sitofp_eqbit, iota_single_apply, broadcastTo_a1_ab_apply, hr]) j

/-- The four halves added, at (p, j): ((top + its residual) + bottom) + its residual. -/
theorem halves_apply (G1 G2 : FVec Ideal S256x2048 .f32) (p : Fin 256) (j : Fin 1024) :
    addf (addf (addf (extractStridedSlice S256x1024 ![0, 0] G1 slices_S256x2048_o0_0_S256x1024)
          (extractStridedSlice S256x1024 ![0, 1024] G1 slices_S256x2048_o0_1024_S256x1024))
        (extractStridedSlice S256x1024 ![0, 0] G2 slices_S256x2048_o0_0_S256x1024))
      (extractStridedSlice S256x1024 ![0, 1024] G2 slices_S256x2048_o0_1024_S256x1024) (ix2 p j)
      = ((G1 (ix2 p (⟨j.val, by omega⟩ : Fin 2048)) + G1 (ix2 p (⟨1024 + j.val, by omega⟩ : Fin 2048)))
          + G2 (ix2 p (⟨j.val, by omega⟩ : Fin 2048))) + G2 (ix2 p (⟨1024 + j.val, by omega⟩ : Fin 2048)) := by
  rw [addf_apply, addf_apply, addf_apply,
    slice2_axis1_apply 0 G1 slices_S256x2048_o0_0_S256x1024 p j ⟨j.val, by omega⟩ (Nat.zero_add _).symm,
    slice2_axis1_apply 1024 G1 slices_S256x2048_o0_1024_S256x1024 p j ⟨1024 + j.val, by omega⟩ rfl,
    slice2_axis1_apply 0 G2 slices_S256x2048_o0_0_S256x1024 p j ⟨j.val, by omega⟩ (Nat.zero_add _).symm,
    slice2_axis1_apply 1024 G2 slices_S256x2048_o0_1024_S256x1024 p j ⟨1024 + j.val, by omega⟩ rfl]

/-- The 1024-wide sum of the two gathered rows at (p, j), before the residuals are cancelled. -/
theorem pay3_apply (i1 i2 : Vec Ideal S256 .i32) (T1 T2 : FVec Ideal S2000x2048 .bf16) (p : Fin 256) (a b : Fin 2000)
    (ha : i1 (ix1 p) = BitVec.ofNat 32 a.val) (hb : i2 (ix1 p) = BitVec.ofNat 32 b.val) (j : Fin 1024) :
    k1_pay3 (F := Ideal) i1 i2 T1 T2 (ix2 p j)
      = ((T1 (ix2 a (⟨j.val, by omega⟩ : Fin 2048)) + T1 (ix2 a (⟨1024 + j.val, by omega⟩ : Fin 2048)))
          + T2 (ix2 b (⟨j.val, by omega⟩ : Fin 2048))) + T2 (ix2 b (⟨1024 + j.val, by omega⟩ : Fin 2048)) := by
  unfold k1_pay3
  refine (halves_apply _ _ p j).trans ?_
  rw [gathered2000_apply i1 T1 p a ha, gathered2000_apply i1 T1 p a ha, gathered2000_apply i2 T2 p b hb,
    gathered2000_apply i2 T2 p b hb]

/-- Adding a real entry, its residual, another real entry and its residual gives the sum of the two entries. -/
theorem add_residuals {x y : EReal} (hx : Cert.Spec.IsReal x) (hy : Cert.Spec.IsReal y) :
    ((x + (x - x)) + y) + (y - y) = x + y := by
  rw [hx.sub_self, hy.sub_self, add_zero, add_zero]

/-! ## Columns and lane sums of a [256, 256] block -/

/-- A column broadcast over the lanes, read at (p, d): the column's entry of row p. -/
theorem bcol_apply (c : FVec Ideal S256x1 .f32) (p d : Fin 256) :
    broadcastTo S256x256 c broadcasts_S256x1_S256x256 (ix2 p d) = c (ix2 p (0 : Fin 1)) :=
  broadcastTo_a1_ab_apply c _ p d

/-- The lane sums of a block kept as a column, read at row p: the sum of the row's entries. -/
theorem sumcol_apply (X : FVec Ideal S256x256 .f32) (p : Fin 256) (u : Fin 1) :
    shapeCast S256x1 (multiReduction (F := Ideal) .add [1] S256 X 0x00000000#32 reduces_S256x256_S256 (.inl rfl) rfl)
        shapeCasts_S256_S256x1 (ix2 p u) = ∑ k : Fin 256, X (ix2 p k) :=
  (shapeCast_a_a1_apply _ _ p u).trans (multiReduction_add_lane X _ _ _ _ p)

/-- A reciprocal square root at an index is that of the element. -/
theorem rsqrt_apply {s : Shape} {φ : FTy} (x : FVec Ideal s φ) (i : s.Idx) : rsqrt x i = Ideal.rsqrt (x i) := rfl
/-- A logistic at an index is that of the element. -/
theorem logistic_apply {s : Shape} {φ : FTy} (x : FVec Ideal s φ) (i : s.Idx) : logistic x i = Ideal.logistic (x i) := rfl
/-- A scalar literal is the extended real its word encodes. -/
theorem scalar_ofBits (φ : FTy) (b : BitVec φ.bits) : Scalar.ofBits (F := Ideal) φ b = Ideal.ofBits φ b := rfl

/-! ## Layer normalisation of a block, row by row

The body computes, for a block X: the column of row means m = (lane sum of X) / 256; the centred block X - m; the
column of row variances (lane sum of (X - m) * (X - m)) / 256; and (X - m) * rsqrt (variance + eps). Read at row p,
whose entries are f, these are the specification's mean, var and ln of f. -/

/-- The column of row means at row p. -/
theorem meancol_apply (X : FVec Ideal S256x256 .f32) (p : Fin 256) (f : Fin 256 → EReal) (hX : ∀ k, X (ix2 p k) = f k)
    (u : Fin 1) :
    divf (shapeCast S256x1 (multiReduction (F := Ideal) .add [1] S256 X 0x00000000#32 reduces_S256x256_S256 (.inl rfl) rfl)
        shapeCasts_S256_S256x1) (broadcast S256x1 (Scalar.ofBits .f32 0x43800000#32)) (ix2 p u)
      = Cert.Spec.mean Cert.Spec.c256 f := by
  rw [divf_apply, sumcol_apply, broadcast_apply, Finset.sum_congr rfl fun k _ => hX k]
  rfl

/-- A block minus a column broadcast over the lanes, at (p, k). -/
theorem center_apply (X : FVec Ideal S256x256 .f32) (M : FVec Ideal S256x1 .f32) (p : Fin 256) (f : Fin 256 → EReal)
    (m : EReal) (hX : ∀ k, X (ix2 p k) = f k) (hM : M (ix2 p (0 : Fin 1)) = m) (k : Fin 256) :
    subf X (broadcastTo S256x256 M broadcasts_S256x1_S256x256) (ix2 p k) = f k - m := by
  rw [subf_apply, bcol_apply, hX, hM]

/-- The column of lane sums of the squares of a block at row p. -/
theorem sumsq_apply (C : FVec Ideal S256x256 .f32) (p : Fin 256) (g : Fin 256 → EReal) (hC : ∀ k, C (ix2 p k) = g k)
    (u : Fin 1) :
    shapeCast S256x1 (multiReduction (F := Ideal) .add [1] S256 (mulf C C) 0x00000000#32 reduces_S256x256_S256 (.inl rfl) rfl)
        shapeCasts_S256_S256x1 (ix2 p u) = ∑ k : Fin 256, g k * g k := by
  rw [sumcol_apply]
  exact Finset.sum_congr rfl fun k _ => by rw [mulf_apply, hC]

/-- The column of row variances at row p, from the centred block. -/
theorem varcol_apply (C : FVec Ideal S256x256 .f32) (p : Fin 256) (f : Fin 256 → EReal)
    (hC : ∀ k, C (ix2 p k) = f k - Cert.Spec.mean Cert.Spec.c256 f) (u : Fin 1) :
    divf (shapeCast S256x1 (multiReduction (F := Ideal) .add [1] S256 (mulf C C) 0x00000000#32 reduces_S256x256_S256 (.inl rfl) rfl)
        shapeCasts_S256_S256x1) (broadcast S256x1 (Scalar.ofBits .f32 0x43800000#32)) (ix2 p u)
      = Cert.Spec.var Cert.Spec.c256 f := by
  rw [divf_apply, broadcast_apply, sumsq_apply C p _ hC]
  rfl

/-- The centred block scaled by the reciprocal root of (variance column + eps), at (p, d). -/
theorem scale_apply (C : FVec Ideal S256x256 .f32) (V : FVec Ideal S256x1 .f32) (p : Fin 256) (f : Fin 256 → EReal)
    (hC : ∀ k, C (ix2 p k) = f k - Cert.Spec.mean Cert.Spec.c256 f)
    (hV : V (ix2 p (0 : Fin 1)) = Cert.Spec.var Cert.Spec.c256 f) (d : Fin 256) :
    mulf C (broadcastTo S256x256 (rsqrt (addf V (broadcast S256x1 (Scalar.ofBits .f32 0x3727C5AC#32))))
        broadcasts_S256x1_S256x256) (ix2 p d) = Cert.Spec.ln Cert.Spec.c256 f d := by
  rw [mulf_apply, bcol_apply, rsqrt_apply, addf_apply, broadcast_apply, hC, hV]
  rfl

/-- The body's layer norm of a [256, 256] block written out in one piece, read at (p, d): the specification's layer
    norm of row p. -/
theorem ln_inline (X : FVec Ideal S256x256 .f32) (p : Fin 256) (f : Fin 256 → EReal) (hX : ∀ k, X (ix2 p k) = f k)
    (d : Fin 256) :
    mulf
      (subf X (broadcastTo S256x256
        (divf (shapeCast S256x1 (multiReduction (F := Ideal) .add [1] S256 X 0x00000000#32 reduces_S256x256_S256 (.inl rfl) rfl)
          shapeCasts_S256_S256x1) (broadcast S256x1 (Scalar.ofBits .f32 0x43800000#32))) broadcasts_S256x1_S256x256))
      (broadcastTo S256x256
        (rsqrt (addf
          (divf (shapeCast S256x1 (multiReduction (F := Ideal) .add [1] S256
              (mulf
                (subf X (broadcastTo S256x256
                  (divf (shapeCast S256x1 (multiReduction (F := Ideal) .add [1] S256 X 0x00000000#32 reduces_S256x256_S256 (.inl rfl) rfl)
                    shapeCasts_S256_S256x1) (broadcast S256x1 (Scalar.ofBits .f32 0x43800000#32))) broadcasts_S256x1_S256x256))
                (subf X (broadcastTo S256x256
                  (divf (shapeCast S256x1 (multiReduction (F := Ideal) .add [1] S256 X 0x00000000#32 reduces_S256x256_S256 (.inl rfl) rfl)
                    shapeCasts_S256_S256x1) (broadcast S256x1 (Scalar.ofBits .f32 0x43800000#32))) broadcasts_S256x1_S256x256)))
              0x00000000#32 reduces_S256x256_S256 (.inl rfl) rfl) shapeCasts_S256_S256x1)
            (broadcast S256x1 (Scalar.ofBits .f32 0x43800000#32)))
          (broadcast S256x1 (Scalar.ofBits .f32 0x3727C5AC#32))))
        broadcasts_S256x1_S256x256) (ix2 p d)
      = Cert.Spec.ln Cert.Spec.c256 f d :=
  scale_apply _ _ p f (fun k => center_apply X _ p f _ hX (meancol_apply X p f hX 0) k)
    (varcol_apply _ p f (fun k => center_apply X _ p f _ hX (meancol_apply X p f hX 0) k) 0) d

/-! ## The quarters of the 1024-wide block, and the halves of the relation block -/

/-- The first quarter of a 1024-wide block at (p, d): the block's entry (p, d). -/
theorem q0_apply (V : FVec Ideal S256x1024 .f32) (p d : Fin 256) :
    extractStridedSlice S256x256 ![0, 0] V slices_S256x1024_o0_0_S256x256 (ix2 p d)
      = V (ix2 p (⟨d.val, by omega⟩ : Fin 1024)) :=
  slice2_axis1_apply 0 V _ p d _ (Nat.zero_add _).symm
/-- The second quarter at (p, d): the block's entry (p, 256 + d). -/
theorem q1_apply (V : FVec Ideal S256x1024 .f32) (p d : Fin 256) :
    extractStridedSlice S256x256 ![0, 256] V slices_S256x1024_o0_256_S256x256 (ix2 p d)
      = V (ix2 p (⟨256 + d.val, by omega⟩ : Fin 1024)) :=
  slice2_axis1_apply 256 V _ p d _ rfl
/-- The third quarter at (p, d): the block's entry (p, 512 + d). -/
theorem q2_apply (V : FVec Ideal S256x1024 .f32) (p d : Fin 256) :
    extractStridedSlice S256x256 ![0, 512] V slices_S256x1024_o0_512_S256x256 (ix2 p d)
      = V (ix2 p (⟨512 + d.val, by omega⟩ : Fin 1024)) :=
  slice2_axis1_apply 512 V _ p d _ rfl
/-- The fourth quarter at (p, d): the block's entry (p, 768 + d). -/
theorem q3_apply (V : FVec Ideal S256x1024 .f32) (p d : Fin 256) :
    extractStridedSlice S256x256 ![0, 768] V slices_S256x1024_o0_768_S256x256 (ix2 p d)
      = V (ix2 p (⟨768 + d.val, by omega⟩ : Fin 1024)) :=
  slice2_axis1_apply 768 V _ p d _ rfl

/-- The relation block's halves added, first quarter, at (p, k): entry k plus its residual's entry 512 + k. -/
theorem relA_apply (G : FVec Ideal S256x1024 .f32) (p k : Fin 256) :
    extractStridedSlice S256x256 ![0, 0]
        (addf (extractStridedSlice S256x512 ![0, 0] G slices_S256x1024_o0_0_S256x512)
          (extractStridedSlice S256x512 ![0, 512] G slices_S256x1024_o0_512_S256x512))
        slices_S256x512_o0_0_S256x256 (ix2 p k)
      = G (ix2 p (⟨k.val, by omega⟩ : Fin 1024)) + G (ix2 p (⟨512 + k.val, by omega⟩ : Fin 1024)) := by
  rw [slice2_axis1_apply 0 _ slices_S256x512_o0_0_S256x256 p k (⟨k.val, by omega⟩ : Fin 512) (Nat.zero_add _).symm,
    addf_apply,
    slice2_axis1_apply 0 G slices_S256x1024_o0_0_S256x512 p (⟨k.val, by omega⟩ : Fin 512) (⟨k.val, by omega⟩ : Fin 1024)
      (Nat.zero_add _).symm,
    slice2_axis1_apply 512 G slices_S256x1024_o0_512_S256x512 p (⟨k.val, by omega⟩ : Fin 512)
      (⟨512 + k.val, by omega⟩ : Fin 1024) rfl]

/-- The relation block's halves added, second quarter, at (p, k): entry 256 + k plus its residual's entry. -/
theorem relB_apply (G : FVec Ideal S256x1024 .f32) (p k : Fin 256) :
    extractStridedSlice S256x256 ![0, 256]
        (addf (extractStridedSlice S256x512 ![0, 0] G slices_S256x1024_o0_0_S256x512)
          (extractStridedSlice S256x512 ![0, 512] G slices_S256x1024_o0_512_S256x512))
        slices_S256x512_o0_256_S256x256 (ix2 p k)
      = G (ix2 p (⟨256 + k.val, by omega⟩ : Fin 1024)) + G (ix2 p (⟨512 + (256 + k.val), by omega⟩ : Fin 1024)) := by
  rw [slice2_axis1_apply 256 _ slices_S256x512_o0_256_S256x256 p k (⟨256 + k.val, by omega⟩ : Fin 512) rfl,
    addf_apply,
    slice2_axis1_apply 0 G slices_S256x1024_o0_0_S256x512 p (⟨256 + k.val, by omega⟩ : Fin 512)
      (⟨256 + k.val, by omega⟩ : Fin 1024) (Nat.zero_add _).symm,
    slice2_axis1_apply 512 G slices_S256x1024_o0_512_S256x512 p (⟨256 + k.val, by omega⟩ : Fin 512)
      (⟨512 + (256 + k.val), by omega⟩ : Fin 1024) rfl]

/-- The lane sum of a block at row p. -/
theorem rowsum_apply (X : FVec Ideal S256x256 .f32) (p : Fin 256) :
    multiReduction (F := Ideal) .add [1] S256 X 0x00000000#32 reduces_S256x256_S256 (.inl rfl) rfl (ix1 p)
      = ∑ k : Fin 256, X (ix2 p k) :=
  multiReduction_add_lane X _ _ _ _ p

/-! ## The body's stages at a row -/

section Stages
variable (i1 i2 : Vec Ideal S256 .i32) (T1 T2 : FVec Ideal S2000x2048 .bf16) (p : Fin 256)

/-- The residuals cancelled: the 1024-wide sum at (p, j) is the first table's entry (a, j) plus the second's (b, j),
    both real. -/
theorem pay3_row (a b : Fin 2000) (ha : i1 (ix1 p) = BitVec.ofNat 32 a.val) (hb : i2 (ix1 p) = BitVec.ofNat 32 b.val)
    (j : Fin 1024)
    (hx : Cert.Spec.IsReal (T1 (ix2 a (⟨j.val, by omega⟩ : Fin 2048))))
    (hy : Cert.Spec.IsReal (T2 (ix2 b (⟨j.val, by omega⟩ : Fin 2048))))
    (hlo1 : T1 (ix2 a (⟨1024 + j.val, by omega⟩ : Fin 2048))
      = T1 (ix2 a (⟨j.val, by omega⟩ : Fin 2048)) - T1 (ix2 a (⟨j.val, by omega⟩ : Fin 2048)))
    (hlo2 : T2 (ix2 b (⟨1024 + j.val, by omega⟩ : Fin 2048))
      = T2 (ix2 b (⟨j.val, by omega⟩ : Fin 2048)) - T2 (ix2 b (⟨j.val, by omega⟩ : Fin 2048))) :
    k1_pay3 (F := Ideal) i1 i2 T1 T2 (ix2 p j)
      = T1 (ix2 a (⟨j.val, by omega⟩ : Fin 2048)) + T2 (ix2 b (⟨j.val, by omega⟩ : Fin 2048)) := by
  rw [pay3_apply i1 i2 T1 T2 p a b ha hb j, hlo1, hlo2]
  exact add_residuals hx hy

/-- The first quarter of the sum. -/
theorem pay4_apply (d : Fin 256) :
    k1_pay4 (F := Ideal) i1 i2 T1 T2 (ix2 p d)
      = k1_pay3 (F := Ideal) i1 i2 T1 T2 (ix2 p (⟨d.val, by omega⟩ : Fin 1024)) := by
  unfold k1_pay4
  exact q0_apply _ p d

variable (f : Fin 256 → EReal) (h4 : ∀ k, k1_pay4 (F := Ideal) i1 i2 T1 T2 (ix2 p k) = f k)
include h4

/-- The first quarter's column of row means. -/
theorem pay5_apply (u : Fin 1) :
    k1_pay5 (F := Ideal) i1 i2 T1 T2 (ix2 p u) = Cert.Spec.mean Cert.Spec.c256 f := by
  unfold k1_pay5
  exact meancol_apply _ p f h4 u

/-- The first quarter's column of row variances. -/
theorem pay6_apply (u : Fin 1) :
    k1_pay6 (F := Ideal) i1 i2 T1 T2 (ix2 p u) = Cert.Spec.var Cert.Spec.c256 f := by
  unfold k1_pay6
  exact varcol_apply _ p f (fun k => center_apply _ _ p f _ h4 (pay5_apply i1 i2 T1 T2 p f h4 0) k) u

/-- The first quarter's row means broadcast over the lanes. -/
theorem pay7_apply (d : Fin 256) :
    k1_pay7 (F := Ideal) i1 i2 T1 T2 (ix2 p d) = Cert.Spec.mean Cert.Spec.c256 f := by
  unfold k1_pay7
  rw [bcol_apply]
  exact pay5_apply i1 i2 T1 T2 p f h4 0

end Stages

section Stages2
variable (p : Fin 256)

/-- The first quarter normalised, from the block, its variance column and its broadcast means. -/
theorem pay8_apply (v33 : FVec Ideal S256x256 .f32) (v44 : FVec Ideal S256x1 .f32) (v45 : FVec Ideal S256x256 .f32)
    (f : Fin 256 → EReal) (h33 : ∀ k, v33 (ix2 p k) = f k) (h45 : ∀ k, v45 (ix2 p k) = Cert.Spec.mean Cert.Spec.c256 f)
    (h44 : v44 (ix2 p (0 : Fin 1)) = Cert.Spec.var Cert.Spec.c256 f) (d : Fin 256) :
    k1_pay8 (F := Ideal) v33 v44 v45 (ix2 p d) = Cert.Spec.ln Cert.Spec.c256 f d := by
  unfold k1_pay8
  exact scale_apply _ _ p f (fun k => by rw [subf_apply, h33, h45]) h44 d

/-- The second quarter normalised. -/
theorem pay9_apply (v32 : FVec Ideal S256x1024 .f32) (f : Fin 256 → EReal)
    (h : ∀ k : Fin 256, v32 (ix2 p (⟨256 + k.val, by omega⟩ : Fin 1024)) = f k) (d : Fin 256) :
    k1_pay9 (F := Ideal) v32 (ix2 p d) = Cert.Spec.ln Cert.Spec.c256 f d := by
  unfold k1_pay9
  exact ln_inline _ p f (fun k => (q1_apply v32 p k).trans (h k)) d

/-- The third quarter normalised. -/
theorem pay10_apply (v32 : FVec Ideal S256x1024 .f32) (f : Fin 256 → EReal)
    (h : ∀ k : Fin 256, v32 (ix2 p (⟨512 + k.val, by omega⟩ : Fin 1024)) = f k) (d : Fin 256) :
    k1_pay10 (F := Ideal) v32 (ix2 p d) = Cert.Spec.ln Cert.Spec.c256 f d := by
  unfold k1_pay10
  exact ln_inline _ p f (fun k => (q2_apply v32 p k).trans (h k)) d

/-- The fourth quarter. -/
theorem pay11_apply (v32 : FVec Ideal S256x1024 .f32) (d : Fin 256) :
    k1_pay11 (F := Ideal) v32 (ix2 p d) = v32 (ix2 p (⟨768 + d.val, by omega⟩ : Fin 1024)) := by
  unfold k1_pay11
  exact q3_apply v32 p d

/-- The fourth quarter's column of lane sums. -/
theorem pay12_apply (v32 : FVec Ideal S256x1024 .f32) (f : Fin 256 → EReal)
    (h : ∀ k : Fin 256, v32 (ix2 p (⟨768 + k.val, by omega⟩ : Fin 1024)) = f k) (u : Fin 1) :
    k1_pay12 (F := Ideal) v32 (ix2 p u) = ∑ k : Fin 256, f k := by
  unfold k1_pay12
  rw [sumcol_apply]
  exact Finset.sum_congr rfl fun k _ => (pay11_apply p v32 k).trans (h k)

/-- The fourth quarter normalised, from the block and its column of lane sums. -/
theorem pay13_apply (v90 : FVec Ideal S256x256 .f32) (v92 : FVec Ideal S256x1 .f32) (f : Fin 256 → EReal)
    (h90 : ∀ k, v90 (ix2 p k) = f k) (h92 : v92 (ix2 p (0 : Fin 1)) = ∑ k : Fin 256, f k) (d : Fin 256) :
    k1_pay13 (F := Ideal) v90 v92 (Scalar.ofBits .f32 0x43800000#32) (ix2 p d) = Cert.Spec.ln Cert.Spec.c256 f d := by
  unfold k1_pay13
  have hm : divf v92 (broadcast S256x1 (Scalar.ofBits (F := Ideal) .f32 0x43800000#32)) (ix2 p (0 : Fin 1))
      = Cert.Spec.mean Cert.Spec.c256 f := by
    rw [divf_apply, broadcast_apply, h92]
    rfl
  exact scale_apply _ _ p f (fun k => center_apply v90 _ p f _ h90 hm k)
    (varcol_apply _ p f (fun k => center_apply v90 _ p f _ h90 hm k) 0) d

variable (v51 v70 v89 v90 : FVec Ideal S256x256 .f32) (v92 : FVec Ideal S256x1 .f32) (c : Ideal .f32)
  (g1 g2 g3 g4 : Fin 256 → EReal)
  (h51 : ∀ k, v51 (ix2 p k) = g1 k) (h70 : ∀ k, v70 (ix2 p k) = g2 k) (h89 : ∀ k, v89 (ix2 p k) = g3 k)
  (h13 : ∀ k, k1_pay13 (F := Ideal) v90 v92 c (ix2 p k) = g4 k)
include h51 h70 h89 h13

/-- The real part of the complex product, normalised. -/
theorem pay14_apply (d : Fin 256) :
    k1_pay14 (F := Ideal) v51 v70 v89 v90 v92 c (ix2 p d)
      = Cert.Spec.ln Cert.Spec.c256 (fun k => g1 k * g3 k - g2 k * g4 k) d := by
  unfold k1_pay14
  exact ln_inline _ p _ (fun k => by rw [subf_apply, mulf_apply, mulf_apply, h51, h89, h70, h13]) d

/-- The imaginary part of the complex product. -/
theorem pay15_apply (k : Fin 256) :
    k1_pay15 (F := Ideal) v51 v70 v89 v90 v92 c (ix2 p k) = g1 k * g4 k + g2 k * g3 k := by
  unfold k1_pay15
  rw [addf_apply, mulf_apply, mulf_apply, h51, h13, h70, h89]

/-- Its column of row means. -/
theorem pay16_apply (u : Fin 1) :
    k1_pay16 (F := Ideal) v51 v70 v89 v90 v92 c (ix2 p u)
      = Cert.Spec.mean Cert.Spec.c256 (fun k => g1 k * g4 k + g2 k * g3 k) := by
  unfold k1_pay16
  exact meancol_apply _ p _ (pay15_apply p v51 v70 v89 v90 v92 c g1 g2 g3 g4 h51 h70 h89 h13) u

/-- Its column of lane sums of squared deviations. -/
theorem pay17_apply (u : Fin 1) :
    k1_pay17 (F := Ideal) v51 v70 v89 v90 v92 c (ix2 p u)
      = ∑ k : Fin 256, ((g1 k * g4 k + g2 k * g3 k) - Cert.Spec.mean Cert.Spec.c256 (fun k => g1 k * g4 k + g2 k * g3 k))
          * ((g1 k * g4 k + g2 k * g3 k) - Cert.Spec.mean Cert.Spec.c256 (fun k => g1 k * g4 k + g2 k * g3 k)) := by
  unfold k1_pay17
  exact sumsq_apply _ p _ (fun k => center_apply _ _ p (fun k => g1 k * g4 k + g2 k * g3 k) _
    (pay15_apply p v51 v70 v89 v90 v92 c g1 g2 g3 g4 h51 h70 h89 h13)
    (pay16_apply p v51 v70 v89 v90 v92 c g1 g2 g3 g4 h51 h70 h89 h13 0) k) u

end Stages2

/-! ## The relation row, the lane sum and the logistic -/

/-- The relation index column at row p is the relation index vector's entry p. -/
theorem pay2_apply (i3 : Vec Ideal S256 .i32) (p : Fin 256) :
    k1_pay2 (F := Ideal) i3 (ix2 p (0 : Fin 1)) = i3 (ix1 p) := by
  unfold k1_pay2
  rw [shapeCast_a_a1_apply, shapeCast_self]

/-- The stored value at row p, from the normalised real part's row rc, the imaginary part's row h with its mean column
    and its column of summed squared deviations, and the relation table: the logistic of the lane sum of
    rc * (first quarter of the relation row, halves added) + ln h * (second quarter, halves added). -/
theorem pay1_apply (v8 : IVec S256x1 32) (v129 v132 : FVec Ideal S256x256 .f32) (v136 v141 : FVec Ideal S256x1 .f32)
    (Tr : FVec Ideal S86x1024 .bf16) (p : Fin 256) (r : Fin 86) (rc h : Fin 256 → EReal)
    (h8 : v8 (ix2 p (0 : Fin 1)) = BitVec.ofNat 32 r.val)
    (h129 : ∀ k, v129 (ix2 p k) = rc k) (h132 : ∀ k, v132 (ix2 p k) = h k)
    (h136 : v136 (ix2 p (0 : Fin 1)) = Cert.Spec.mean Cert.Spec.c256 h)
    (h141 : v141 (ix2 p (0 : Fin 1))
      = ∑ k : Fin 256, (h k - Cert.Spec.mean Cert.Spec.c256 h) * (h k - Cert.Spec.mean Cert.Spec.c256 h)) :
    k1_pay1 (F := Ideal) v8 v129 v132 v136 v141 Tr (ix1 p)
      = Ideal.logistic (∑ k : Fin 256,
          (rc k * (Tr (ix2 r (⟨k.val, by omega⟩ : Fin 1024)) + Tr (ix2 r (⟨512 + k.val, by omega⟩ : Fin 1024)))
            + Cert.Spec.ln Cert.Spec.c256 h k
              * (Tr (ix2 r (⟨256 + k.val, by omega⟩ : Fin 1024))
                  + Tr (ix2 r (⟨512 + (256 + k.val), by omega⟩ : Fin 1024))))) := by
  unfold k1_pay1
  refine (logistic_apply _ _).trans (congrArg Ideal.logistic ?_)
  refine (rowsum_apply _ p).trans (Finset.sum_congr rfl fun k _ => ?_)
  have hV : divf v141 (broadcast S256x1 (Scalar.ofBits (F := Ideal) .f32 0x43800000#32)) (ix2 p (0 : Fin 1))
      = Cert.Spec.var Cert.Spec.c256 h := by
    rw [divf_apply, broadcast_apply, h141]
    rfl
  rw [addf_apply, mulf_apply, mulf_apply, h129,
    scale_apply (subf v132 (broadcastTo S256x256 v136 broadcasts_S256x1_S256x256))
      (divf v141 (broadcast S256x1 (Scalar.ofBits (F := Ideal) .f32 0x43800000#32))) p h
      (fun k => center_apply v132 v136 p h _ h132 h136 k) hV k,
    relA_apply, relB_apply, gathered86_apply v8 Tr p r h8, gathered86_apply v8 Tr p r h8,
    gathered86_apply v8 Tr p r h8, gathered86_apply v8 Tr p r h8]

/-! ## The stored value is the specification's output -/

/-- Row p of a grid point's output is the specification's output for the pair (a, b) and the relation r that the
    row's three index words name. The four quarters of the gathered sum are x1 a + xf b, x2 a + xs b, xs a + x2 b and
    xf a + x1 b, the rows the specification normalises into R1, I1, R2 and I2. -/
theorem gatherOut_apply
    (i1 i2 i3 : Vec Ideal S256 .i32) (T1 T2 : Vec Ideal S2000x2048 .bf16) (Tr : Vec Ideal S86x1024 .bf16)
    (x1 x2 xf xs : Fin 2000 → Fin 256 → EReal) (wR wI : Fin 86 → Fin 256 → EReal)
    (h1 : ∀ n d, Cert.Spec.IsReal (x1 n d)) (h2 : ∀ n d, Cert.Spec.IsReal (x2 n d))
    (hf : ∀ n d, Cert.Spec.IsReal (xf n d)) (hs : ∀ n d, Cert.Spec.IsReal (xs n d))
    (hR : ∀ r d, Cert.Spec.IsReal (wR r d)) (hI : ∀ r d, Cert.Spec.IsReal (wI r d))
    -- the first table: quarters [x1 | x2 | xs | xf], then the residual of each of the 1024 columns
    (hT1 : ∀ (n : Fin 2000) (d : Fin 256), T1 (ix2 n ⟨d.val, by omega⟩) = x1 n d
      ∧ T1 (ix2 n ⟨256 + d.val, by omega⟩) = x2 n d ∧ T1 (ix2 n ⟨512 + d.val, by omega⟩) = xs n d
      ∧ T1 (ix2 n ⟨768 + d.val, by omega⟩) = xf n d)
    (hT1lo : ∀ (n : Fin 2000) (j : Fin 1024), T1 (ix2 n ⟨1024 + j.val, by omega⟩)
      = T1 (ix2 n ⟨j.val, by omega⟩) - T1 (ix2 n ⟨j.val, by omega⟩))
    -- the second table: quarters [xf | xs | x2 | x1], then the residuals
    (hT2 : ∀ (n : Fin 2000) (d : Fin 256), T2 (ix2 n ⟨d.val, by omega⟩) = xf n d
      ∧ T2 (ix2 n ⟨256 + d.val, by omega⟩) = xs n d ∧ T2 (ix2 n ⟨512 + d.val, by omega⟩) = x2 n d
      ∧ T2 (ix2 n ⟨768 + d.val, by omega⟩) = x1 n d)
    (hT2lo : ∀ (n : Fin 2000) (j : Fin 1024), T2 (ix2 n ⟨1024 + j.val, by omega⟩)
      = T2 (ix2 n ⟨j.val, by omega⟩) - T2 (ix2 n ⟨j.val, by omega⟩))
    -- the relation table: halves [wR - wI | wR + wI], then the residual of each of the 512 columns
    (hTr : ∀ (r : Fin 86) (d : Fin 256), Tr (ix2 r ⟨d.val, by omega⟩) = wR r d - wI r d
      ∧ Tr (ix2 r ⟨256 + d.val, by omega⟩) = wR r d + wI r d)
    (hTrlo : ∀ (r : Fin 86) (j : Fin 512), Tr (ix2 r ⟨512 + j.val, by omega⟩)
      = Tr (ix2 r ⟨j.val, by omega⟩) - Tr (ix2 r ⟨j.val, by omega⟩))
    (a b : Fin 2000) (r : Fin 86) (p : Fin 256)
    (ha : i1 (ix1 p) = BitVec.ofNat 32 a.val) (hb : i2 (ix1 p) = BitVec.ofNat 32 b.val)
    (hr : i3 (ix1 p) = BitVec.ofNat 32 r.val) :
    gatherOut (F := Ideal) i1 i2 i3 T1 T2 Tr (ix1 p) = Cert.Spec.outK x1 x2 xf xs wR wI a b r := by
  -- the four quarters of the gathered sum at row p
  have hq0 : ∀ d : Fin 256, k1_pay3 (F := Ideal) i1 i2 T1 T2 (ix2 p (⟨d.val, by omega⟩ : Fin 1024))
      = x1 a d + xf b d := fun d => by
    have e1 := (hT1 a d).1
    have e2 := (hT2 b d).1
    refine (pay3_row i1 i2 T1 T2 p a b ha hb ⟨d.val, by omega⟩ ?_ ?_ (hT1lo a ⟨d.val, by omega⟩)
      (hT2lo b ⟨d.val, by omega⟩)).trans ?_
    · rw [e1]; exact h1 a d
    · rw [e2]; exact hf b d
    · rw [e1, e2]
  have hq1 : ∀ d : Fin 256, k1_pay3 (F := Ideal) i1 i2 T1 T2 (ix2 p (⟨256 + d.val, by omega⟩ : Fin 1024))
      = x2 a d + xs b d := fun d => by
    have e1 := (hT1 a d).2.1
    have e2 := (hT2 b d).2.1
    refine (pay3_row i1 i2 T1 T2 p a b ha hb ⟨256 + d.val, by omega⟩ ?_ ?_ (hT1lo a ⟨256 + d.val, by omega⟩)
      (hT2lo b ⟨256 + d.val, by omega⟩)).trans ?_
    · rw [e1]; exact h2 a d
    · rw [e2]; exact hs b d
    · rw [e1, e2]
  have hq2 : ∀ d : Fin 256, k1_pay3 (F := Ideal) i1 i2 T1 T2 (ix2 p (⟨512 + d.val, by omega⟩ : Fin 1024))
      = xs a d + x2 b d := fun d => by
    have e1 := (hT1 a d).2.2.1
    have e2 := (hT2 b d).2.2.1
    refine (pay3_row i1 i2 T1 T2 p a b ha hb ⟨512 + d.val, by omega⟩ ?_ ?_ (hT1lo a ⟨512 + d.val, by omega⟩)
      (hT2lo b ⟨512 + d.val, by omega⟩)).trans ?_
    · rw [e1]; exact hs a d
    · rw [e2]; exact h2 b d
    · rw [e1, e2]
  have hq3 : ∀ d : Fin 256, k1_pay3 (F := Ideal) i1 i2 T1 T2 (ix2 p (⟨768 + d.val, by omega⟩ : Fin 1024))
      = xf a d + x1 b d := fun d => by
    have e1 := (hT1 a d).2.2.2
    have e2 := (hT2 b d).2.2.2
    refine (pay3_row i1 i2 T1 T2 p a b ha hb ⟨768 + d.val, by omega⟩ ?_ ?_ (hT1lo a ⟨768 + d.val, by omega⟩)
      (hT2lo b ⟨768 + d.val, by omega⟩)).trans ?_
    · rw [e1]; exact hf a d
    · rw [e2]; exact h1 b d
    · rw [e1, e2]
  -- the four normalised vectors
  have h4 : ∀ k, k1_pay4 (F := Ideal) i1 i2 T1 T2 (ix2 p k) = (fun d => x1 a d + xf b d) k :=
    fun k => (pay4_apply i1 i2 T1 T2 p k).trans (hq0 k)
  have hR1 : ∀ k, k1_pay8 (F := Ideal) (k1_pay4 i1 i2 T1 T2) (k1_pay6 i1 i2 T1 T2) (k1_pay7 i1 i2 T1 T2) (ix2 p k)
      = Cert.Spec.R1 x1 xf a b k :=
    fun k => pay8_apply p _ _ _ _ h4 (fun k => pay7_apply i1 i2 T1 T2 p _ h4 k) (pay6_apply i1 i2 T1 T2 p _ h4 0) k
  have hI1 : ∀ k, k1_pay9 (F := Ideal) (k1_pay3 i1 i2 T1 T2) (ix2 p k) = Cert.Spec.I1 x2 xs a b k :=
    fun k => pay9_apply p _ _ hq1 k
  have hR2 : ∀ k, k1_pay10 (F := Ideal) (k1_pay3 i1 i2 T1 T2) (ix2 p k) = Cert.Spec.R2 x2 xs a b k :=
    fun k => pay10_apply p _ _ hq2 k
  have hI2 : ∀ k, k1_pay13 (F := Ideal) (k1_pay11 (k1_pay3 i1 i2 T1 T2)) (k1_pay12 (k1_pay3 i1 i2 T1 T2))
      (Scalar.ofBits .f32 0x43800000#32) (ix2 p k) = Cert.Spec.I2 x1 xf a b k :=
    fun k => pay13_apply p _ _ _ (fun k => (pay11_apply p _ k).trans (hq3 k)) (pay12_apply p _ _ hq3 0) k
  -- the normalised complex product, the relation row and the logistic
  unfold gatherOut
  refine (pay1_apply _ _ _ _ _ Tr p r (Cert.Spec.Rc x1 x2 xf xs a b)
    (fun k => Cert.Spec.R1 x1 xf a b k * Cert.Spec.I2 x1 xf a b k + Cert.Spec.I1 x2 xs a b k * Cert.Spec.R2 x2 xs a b k)
    ((pay2_apply i3 p).trans hr)
    (fun k => pay14_apply p _ _ _ _ _ _ _ _ _ _ hR1 hI1 hR2 hI2 k)
    (fun k => pay15_apply p _ _ _ _ _ _ _ _ _ _ hR1 hI1 hR2 hI2 k)
    (pay16_apply p _ _ _ _ _ _ _ _ _ _ hR1 hI1 hR2 hI2 0)
    (pay17_apply p _ _ _ _ _ _ _ _ _ _ hR1 hI1 hR2 hI2 0)).trans ?_
  unfold Cert.Spec.outK Cert.Spec.logitK
  refine congrArg Ideal.logistic (Finset.sum_congr rfl fun k _ => ?_)
  rw [hTrlo r ⟨k.val, by omega⟩, hTrlo r ⟨256 + k.val, by omega⟩, (hTr r k).1, (hTr r k).2,
    ((hR r k).sub (hI r k)).sub_self, ((hR r k).add (hI r k)).sub_self, add_zero, add_zero]
  rfl

end Cert.KernelIdeal.Hand

end
-- ==== Proof.LibGatherScatter.lean ====
/-
  The three index operations of one graph-convolution layer, READ AT AN INDEX, over generic extents: `N` rows (nodes),
  `E` start indices (edges), rows of width `D`.

  * the row gather `[N, D] → [E, D]` at a column `[E, 1]` of start indices (`gathD`): result `(e, q)` is the
    operand at `(row (idx (e, 0)), q)`;
  * the entry gather `[N] → [E]` at the same column (`gath1`): result `e` is the operand at `row (idx (e, 0))`;
    `row` is ONE function of the index word for both: the word read signed and clamped into `[0, N − 1]`;
  * the accumulating scatter `[E, D] → [N, D]` (`scatD`) and `[E] → [N]` (`scat1`) at a column of scatter indices:
    update `(e, q')` lands on `(i, q)` exactly when `q' = q` and the index word of `e`, read signed and NOT clamped,
    is `i`; hence at the ideal instance the scatter's value at `(i, q)` is the operand's plus the sum, over the edges
    `e` whose word is `i`, of the updates `(e, q)`.

  The dimension-number records are written out here with their well-formedness as an argument, so that a program's own
  record of the same fields is one of these by unfolding.
-/
import Idealize.ShloMosaic.PureOps.Ideal
import Idealize.ShloMosaic.Lib.ValueIdx

open scoped BigOperators

namespace Cert.Proof.GS

open Idealize.ShloMosaic Idealize.ShloMosaic.ValueIdx

/-! ## The records -/

/-- Row gather: operand `[N, D]`, start indices `[E, 1]`, result `[E, D]`; axis 0 collapsed and start-indexed, axis 1
    an offset axis of full width. -/
abbrev gathD (N E D : Nat) (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- Entry gather: operand `[N]`, start indices `[E, 1]`, result `[E]`; the one axis collapsed and start-indexed. -/
abbrev gath1 (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Row scatter: operand `[N, D]`, scatter indices `[E, 1]`, updates `[E, D]`; axis 0 inserted and scatter-indexed,
    axis 1 the window. -/
abbrev scatD (N E D : Nat) (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

/-- Entry scatter: operand `[N]`, scatter indices `[E, 1]`, updates `[E]`; no window. -/
abbrev scat1 (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-! ## The gathers at an index -/

/-- The row a gather reads for an index word: the word as a signed integer, clamped into `[0, N − 1]` (a negative
    word reads row 0, a word past the end the last row). -/
def row {N : Nat} (hN : 0 < N) {w : Nat} (b : BitVec w) : Fin N := ⟨min b.toInt.toNat (N - 1), by omega⟩

/-- A word whose signed value is a row number is sent to that row: the clamp leaves it alone. -/
theorem row_of_toInt {N : Nat} (hN : 0 < N) {w : Nat} (b : BitVec w) (i : Fin N) (h : b.toInt = (i.val : Int)) :
    row hN b = i := by
  refine Fin.ext ?_
  show min b.toInt.toNat (N - 1) = i.val
  rw [h, Int.toNat_natCast]
  have := i.isLt
  omega

variable {α : Type}

/-- THE ROW GATHER AT `(e, q)`: the operand at row `row (idx (e, 0))`, column `q`. On axis 0 (collapsed, no batching)
    the operand coordinate is the clamped start; on axis 1 (not start-indexed) it is the offset coordinate `q`. -/
theorem gather_gathD_apply {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (q : Fin D) :
    Host.gather (gathD N E D wf) x idx (ix2 e q) = x (ix2 (row hN (idx (ix2 e (0 : Fin 1)))) q) := by
  unfold Host.gather
  congr 1
  funext a
  refine Fin.ext ?_
  match a with
  | ⟨0, _⟩ =>
    show (gathD N E D wf).start (ix2 e q) idx 0 + (gathD N E D wf).batchCoord (ix2 e q) 0
      + (gathD N E D wf).offCoord (ix2 e q) 0 = _
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (show (0 : Fin 2) ∈ (gathD N E D wf).startIndexMap from List.mem_singleton.mpr rfl)]
    show min (idx _).toInt.toNat (N - 1) = min (idx (ix2 e (0 : Fin 1))).toInt.toNat (N - 1)
    congr 3
    congr 1
    funext b
    refine Fin.ext ?_
    match b with
    | ⟨0, _⟩ => rfl
    | ⟨1, _⟩ => rfl
  | ⟨1, _⟩ =>
    show (gathD N E D wf).start (ix2 e q) idx 1 + (gathD N E D wf).batchCoord (ix2 e q) 1
      + (gathD N E D wf).offCoord (ix2 e q) 1 = q.val
    rw [GatherDims.batchCoord_eq_zero _ _ _ List.not_mem_nil]
    have h1 : (1 : Fin 2) ∉ (gathD N E D wf).startIndexMap :=
      show (1 : Fin 2) ∉ ([0] : List (Fin 2)) by decide
    have hk : (1 : Fin 2) ∈ (gathD N E D wf).sKept :=
      (GatherDims.mem_sKept _ _).mpr ⟨show (1 : Fin 2) ∉ ([0] : List (Fin 2)) by decide, List.not_mem_nil⟩
    unfold GatherDims.start GatherDims.offCoord
    rw [dif_neg h1, dif_pos hk]
    simp only [Nat.zero_add]
    rfl

/-- THE ENTRY GATHER AT `e`: the operand at `row (idx (e, 0))`, the same row the row gather reads for that edge. -/
theorem gather_gath1_apply {N E w : Nat} (hN : 0 < N)
    (wf : GatherDims.WF ⟨1, ![N]⟩ ⟨2, ![E, 1]⟩ ⟨1, ![E]⟩ [] [0] [] [0] [] 1 ![1])
    (v : (⟨1, ![N]⟩ : Shape).Idx → α) (idx : IVec ⟨2, ![E, 1]⟩ w) (e : Fin E) :
    Host.gather (gath1 N E wf) v idx (ix1 e) = v (ix1 (row hN (idx (ix2 e (0 : Fin 1))))) := by
  unfold Host.gather
  congr 1
  funext a
  obtain rfl : a = 0 := Subsingleton.elim _ _
  refine Fin.ext ?_
  show (gath1 N E wf).start (ix1 e) idx 0 + (gath1 N E wf).batchCoord (ix1 e) 0 + (gath1 N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  unfold GatherDims.start
  rw [dif_pos (show (0 : Fin 1) ∈ (gath1 N E wf).startIndexMap from List.mem_singleton.mpr rfl)]
  show min (idx _).toInt.toNat (N - 1) = min (idx (ix2 e (0 : Fin 1))).toInt.toNat (N - 1)
  congr 3
  congr 1
  funext b
  refine Fin.ext ?_
  match b with
  | ⟨0, _⟩ => rfl
  | ⟨1, _⟩ => rfl

/-! ## Where a scattered update lands -/

/-- For any scatter: an update lands on operand index `r` exactly when, on every axis, its signed start plus its
    window coordinate is `r`'s coordinate (if the sum leaves the operand on some axis the update is dropped, and no
    `r` has that coordinate). -/
theorem resultIdx?_eq_some_iff {s si u : Shape} (d : ScatterDims s si u) {w : Nat} (j : u.Idx) (idx : IVec si w)
    (r : s.Idx) :
    d.resultIdx? j idx = some r ↔ ∀ a, d.start j idx a + (d.window j a : Int) = ((r a).val : Int) := by
  unfold ScatterDims.resultIdx?
  split
  · next h =>
    constructor
    · intro hh a
      have := congrFun (Option.some.inj hh) a
      rw [← this]
      exact (Int.toNat_of_nonneg (h a).1).symm
    · intro hall
      congr 1
      funext a
      refine Fin.ext ?_
      show (d.start j idx a + (d.window j a : Int)).toNat = (r a).val
      rw [hall a]; exact Int.toNat_natCast _
  · next h =>
    constructor
    · intro hh; cases hh
    · intro hall
      exfalso; apply h; intro a
      rw [hall a]
      exact ⟨Int.natCast_nonneg _, by exact_mod_cast (r a).isLt⟩

section ScatD
variable {N E D w : Nat} (wf : ScatterDims.WF ⟨2, ![N, D]⟩ ⟨2, ![E, 1]⟩ ⟨2, ![E, D]⟩ [1] [0] [0] 1)
  (idx : IVec ⟨2, ![E, 1]⟩ w) (e : Fin E) (q' : Fin D)

/-- Row scatter, axis 0: the start is the edge's index word read signed … -/
theorem scatD_start0 : (scatD N E D wf).start (ix2 e q') idx 0 = (idx (ix2 e (0 : Fin 1))).toInt := by
  unfold ScatterDims.start
  rw [dif_pos (show (0 : Fin 2) ∈ (scatD N E D wf).scatterDimsToOperandDims from List.mem_singleton.mpr rfl)]
  congr 2
  funext b
  refine Fin.ext ?_
  match b with
  | ⟨0, _⟩ => rfl
  | ⟨1, _⟩ => rfl

/-- … and there is no window coordinate (the axis is inserted). -/
theorem scatD_window0 : (scatD N E D wf).window (ix2 e q') 0 = 0 := by
  unfold ScatterDims.window
  rw [dif_neg]
  intro h
  have : (0 : Fin 2) ∉ ([0] : List (Fin 2)) := by
    simpa [ScatterDims.sKept, Shape.kept, List.mem_filter] using h
  exact this (List.mem_singleton.mpr rfl)

/-- Row scatter, axis 1: not scatter-indexed, start 0 … -/
theorem scatD_start1 : (scatD N E D wf).start (ix2 e q') idx 1 = 0 := by
  unfold ScatterDims.start
  rw [dif_neg (show (1 : Fin 2) ∉ ([0] : List (Fin 2)) by decide)]

/-- … and the window coordinate is the update's column. -/
theorem scatD_window1 : (scatD N E D wf).window (ix2 e q') 1 = q'.val := by
  unfold ScatterDims.window
  have hk : (1 : Fin 2) ∈ (scatD N E D wf).sKept := by
    simp [ScatterDims.sKept, Shape.kept, List.mem_filter]
  rw [dif_pos hk]
  rfl

/-- WHERE A ROW UPDATE LANDS: update `(e, q')` lands on `(i, q)` iff `q' = q` and the edge's index word, read signed,
    is `i`. -/
theorem scatD_resultIdx?_iff (i : Fin N) (q : Fin D) :
    (scatD N E D wf).resultIdx? (ix2 e q') idx = some (ix2 i q)
      ↔ q' = q ∧ (idx (ix2 e (0 : Fin 1))).toInt = (i.val : Int) := by
  rw [resultIdx?_eq_some_iff]
  constructor
  · intro h
    have h0 : (scatD N E D wf).start (ix2 e q') idx 0 + ((scatD N E D wf).window (ix2 e q') 0 : Int) = (i.val : Int) :=
      h 0
    have h1 : (scatD N E D wf).start (ix2 e q') idx 1 + ((scatD N E D wf).window (ix2 e q') 1 : Int) = (q.val : Int) :=
      h 1
    rw [scatD_start0, scatD_window0] at h0
    rw [scatD_start1, scatD_window1] at h1
    refine ⟨Fin.ext ?_, ?_⟩
    · have : ((q'.val : Int)) = (q.val : Int) := by simpa using h1
      exact_mod_cast this
    · simpa using h0
  · rintro ⟨rfl, ht⟩ a
    match a with
    | ⟨0, _⟩ =>
      show (scatD N E D wf).start (ix2 e q') idx 0 + ((scatD N E D wf).window (ix2 e q') 0 : Int) = (i.val : Int)
      rw [scatD_start0, scatD_window0, ht]; simp
    | ⟨1, _⟩ =>
      show (scatD N E D wf).start (ix2 e q') idx 1 + ((scatD N E D wf).window (ix2 e q') 1 : Int) = (q'.val : Int)
      rw [scatD_start1, scatD_window1]; simp

end ScatD

section Scat1
variable {N E w : Nat} (wf : ScatterDims.WF ⟨1, ![N]⟩ ⟨2, ![E, 1]⟩ ⟨1, ![E]⟩ [] [0] [0] 1)
  (idx : IVec ⟨2, ![E, 1]⟩ w) (e : Fin E)

/-- Entry scatter: the start is the edge's index word read signed … -/
theorem scat1_start0 : (scat1 N E wf).start (ix1 e) idx 0 = (idx (ix2 e (0 : Fin 1))).toInt := by
  unfold ScatterDims.start
  rw [dif_pos (show (0 : Fin 1) ∈ (scat1 N E wf).scatterDimsToOperandDims from List.mem_singleton.mpr rfl)]
  congr 2
  funext b
  refine Fin.ext ?_
  match b with
  | ⟨0, _⟩ => rfl
  | ⟨1, _⟩ => rfl

/-- … and there is no window. -/
theorem scat1_window0 : (scat1 N E wf).window (ix1 e) 0 = 0 := by
  unfold ScatterDims.window
  rw [dif_neg]
  intro h
  have : (0 : Fin 1) ∉ ([0] : List (Fin 1)) := by
    simpa [ScatterDims.sKept, Shape.kept, List.mem_filter] using h
  exact this (List.mem_singleton.mpr rfl)

/-- WHERE AN ENTRY UPDATE LANDS: update `e` lands on `i` iff the edge's index word, read signed, is `i`. -/
theorem scat1_resultIdx?_iff (i : Fin N) :
    (scat1 N E wf).resultIdx? (ix1 e) idx = some (ix1 i) ↔ (idx (ix2 e (0 : Fin 1))).toInt = (i.val : Int) := by
  rw [resultIdx?_eq_some_iff]
  constructor
  · intro h
    have h0 : (scat1 N E wf).start (ix1 e) idx 0 + ((scat1 N E wf).window (ix1 e) 0 : Int) = (i.val : Int) := h 0
    rw [scat1_start0, scat1_window0] at h0
    simpa using h0
  · intro ht a
    obtain rfl : a = 0 := Subsingleton.elim _ _
    show (scat1 N E wf).start (ix1 e) idx 0 + ((scat1 N E wf).window (ix1 e) 0 : Int) = (i.val : Int)
    rw [scat1_start0, scat1_window0, ht]; simp

end Scat1

/-! ## The accumulating scatter at an index, at the ideal instance -/

section ScatterAddAt
open Finset

/-- THE ROW SCATTER-ADD AT `(i, q)`: the operand's entry plus the sum, over the edges `e` whose index word read signed
    is `i`, of the update entries `(e, q)`. The updates that land on `(i, q)` are the `(e, q')` with `q' = q` and word
    `i`: the sum over the pairs collapses to the sum over the edges. -/
theorem scatterAdd_scatD_apply {N E D w : Nat} (wf : ScatterDims.WF ⟨2, ![N, D]⟩ ⟨2, ![E, 1]⟩ ⟨2, ![E, D]⟩ [1] [0] [0] 1)
    (x : FVec Ideal ⟨2, ![N, D]⟩ .f32) (idx : IVec ⟨2, ![E, 1]⟩ w) (upd : FVec Ideal ⟨2, ![E, D]⟩ .f32)
    (i : Fin N) (q : Fin D) :
    Host.scatterAdd (scatD N E D wf) x idx upd (ix2 i q)
      = x (ix2 i q) + ∑ e ∈ univ.filter (fun e : Fin E => (idx (ix2 e (0 : Fin 1))).toInt = (i.val : Int)), upd (ix2 e q) := by
  classical
  show x (ix2 i q) + ∑ j ∈ univ.filter (fun j => (scatD N E D wf).resultIdx? j idx = some (ix2 i q)), upd j = _
  congr 1
  rw [Finset.sum_filter, sum_idx2, Finset.sum_filter]
  refine Finset.sum_congr rfl fun e _ => ?_
  simp only [scatD_resultIdx?_iff]
  by_cases ht : (idx (ix2 e (0 : Fin 1))).toInt = (i.val : Int)
  · simp [ht]
  · simp [ht]

/-- THE ENTRY SCATTER-ADD AT `i`: the operand's entry plus the sum, over the edges whose index word read signed is
    `i`, of their updates. -/
theorem scatterAdd_scat1_apply {N E w : Nat} (wf : ScatterDims.WF ⟨1, ![N]⟩ ⟨2, ![E, 1]⟩ ⟨1, ![E]⟩ [] [0] [0] 1)
    (x : FVec Ideal ⟨1, ![N]⟩ .f32) (idx : IVec ⟨2, ![E, 1]⟩ w) (upd : FVec Ideal ⟨1, ![E]⟩ .f32) (i : Fin N) :
    Host.scatterAdd (scat1 N E wf) x idx upd (ix1 i)
      = x (ix1 i) + ∑ e ∈ univ.filter (fun e : Fin E => (idx (ix2 e (0 : Fin 1))).toInt = (i.val : Int)), upd (ix1 e) := by
  classical
  show x (ix1 i) + ∑ j ∈ univ.filter (fun j => (scat1 N E wf).resultIdx? j idx = some (ix1 i)), upd j = _
  congr 1
  refine Finset.sum_bij' (fun j _ => (j 0 : Fin E)) (fun e _ => ix1 e) ?_ ?_ ?_ ?_ ?_
  · intro j hj
    have h2 := (Finset.mem_filter.mp hj).2
    rw [eq_ix1 j] at h2
    exact Finset.mem_filter.mpr ⟨Finset.mem_univ _, (scat1_resultIdx?_iff wf idx _ i).mp h2⟩
  · intro e he
    exact Finset.mem_filter.mpr ⟨Finset.mem_univ _, (scat1_resultIdx?_iff wf idx e i).mpr (Finset.mem_filter.mp he).2⟩
  · intro j _; exact (eq_ix1 j).symm
  · intro e _; rfl
  · intro j _; exact congrArg upd (eq_ix1 j)

end ScatterAddAt

end Cert.Proof.GS
-- ==== Proof.SpecOf.lean ====
/-
  The specification as a function of the eleven argument arrays. The four float tables a pair reads are the two
  given embeddings and the two encoder outputs; a pair's rows are its three index words read as signed integers
  (clamped into range, which leaves an in-range word alone). Stated in the kernel's arrangement of the inner product
  and in the reference's; with every float entry a real number the two agree.
-/
import proofs.«417564_j14156212208090_3_alg».proof.Proof.Spec
import proofs.«417564_j14156212208090_3_alg».proof.Proof.LibGatherScatter

noncomputable section

namespace Cert.Spec

open Idealize.ShloMosaic Idealize.ShloMosaic.ValueIdx Cert.Proof

section
variable (a0 a1 : (⟨2, ![2000, 512]⟩ : Shape).Idx → EReal) (a2 a3 : (⟨2, ![2000, 256]⟩ : Shape).Idx → EReal)
  (a4 a5 : (⟨2, ![256, 512]⟩ : Shape).Idx → EReal) (a6 a7 : (⟨2, ![86, 256]⟩ : Shape).Idx → EReal)
  (i1 i2 i3 : (⟨1, ![200000]⟩ : Shape).Idx → BitVec 32)

/-- The fingerprint embedding of the arrays. -/
abbrev tXf : Fin 2000 → Fin 256 → EReal := xfp (fun n h => a0 (ix2 n h)) (fun d h => a4 (ix2 d h))
/-- The skip embedding of the arrays. -/
abbrev tXs : Fin 2000 → Fin 256 → EReal := xskip (fun n h => a1 (ix2 n h)) (fun d h => a5 (ix2 d h))

/-- The drug row an index word names. -/
abbrev drugRow (w : BitVec 32) : Fin 2000 := GS.row (N := 2000) (by decide) w
/-- The relation row an index word names. -/
abbrev relRow (w : BitVec 32) : Fin 86 := GS.row (N := 86) (by decide) w

/-- Pair e's output, the inner product as one fused sum. -/
def ofArrays (e : Fin 200000) : EReal :=
  outK (fun n d => a2 (ix2 n d)) (fun n d => a3 (ix2 n d)) (tXf a0 a4) (tXs a1 a5) (fun r d => a6 (ix2 r d)) (fun r d => a7 (ix2 r d))
    (drugRow (i1 (ix1 e))) (drugRow (i2 (ix1 e))) (relRow (i3 (ix1 e)))

/-- Pair e's output, the inner product as four sums. -/
def ofArraysR (e : Fin 200000) : EReal :=
  outR (fun n d => a2 (ix2 n d)) (fun n d => a3 (ix2 n d)) (tXf a0 a4) (tXs a1 a5) (fun r d => a6 (ix2 r d)) (fun r d => a7 (ix2 r d))
    (drugRow (i1 (ix1 e))) (drugRow (i2 (ix1 e))) (relRow (i3 (ix1 e)))

/-- With every float entry real the two arrangements agree. -/
theorem ofArrays_eq_ofArraysR (h0 : ∀ i, IsReal (a0 i)) (h1 : ∀ i, IsReal (a1 i)) (h2 : ∀ i, IsReal (a2 i)) (h3 : ∀ i, IsReal (a3 i))
    (h4 : ∀ i, IsReal (a4 i)) (h5 : ∀ i, IsReal (a5 i)) (h6 : ∀ i, IsReal (a6 i)) (h7 : ∀ i, IsReal (a7 i)) (e : Fin 200000) :
    ofArrays a0 a1 a2 a3 a4 a5 a6 a7 i1 i2 i3 e = ofArraysR a0 a1 a2 a3 a4 a5 a6 a7 i1 i2 i3 e :=
  outK_eq_outR _ _ _ _ _ _ (fun n d => h2 _) (fun n d => h3 _)
    (fun n d => xfp_isReal _ _ (fun n h => h0 _) (fun d h => h4 _) n d)
    (fun n d => xskip_isReal _ _ (fun n h => h1 _) (fun d h => h5 _) n d)
    (fun r d => h6 _) (fun r d => h7 _) _ _ _

end

end Cert.Spec

end
-- ==== Proof.KernelValue.lean ====
/-
  What the kernel program's result buffer holds, entry by entry, as the specification of the launch arrays.

  The result is the first 200000 entries of what the second region's write-backs leave; entry e lies in block
  e / 256 at row e % 256, and that row is the pair kernel's stored value of the block's three index rows and the
  three whole tables. The index blocks are the padded index arrays, so row e holds the pair's own index words. The
  tables are built by the host from the given embeddings and the first region's two outputs, which are the encoder's
  stored values of the launch arrays: quarter by quarter the rows of the four tables a pair reads, each followed by
  its residual x - x. With every entry a real number the stored value is the specification's pair output.
-/
import proofs.«417564_j14156212208090_3_alg».proof.Proof.RunV
import proofs.«417564_j14156212208090_3_alg».proof.Proof.RegVal
import proofs.«417564_j14156212208090_3_alg».proof.Proof.HostVal
import proofs.«417564_j14156212208090_3_alg».proof.Proof.KVal0
import proofs.«417564_j14156212208090_3_alg».proof.Proof.KVal1
import proofs.«417564_j14156212208090_3_alg».proof.Proof.SpecOf

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Cert.Proof

variable (m : (ℓ : Loc nD τ sig) → Buf (Elt Ideal) ℓ) (c : Dev nD)

/-! ## The launch arrays -/

abbrev A0 : Vec Ideal S2000x512 .f32 := m ((c : Thread nD τ).loc main_arg0)
abbrev A1 : Vec Ideal S2000x512 .f32 := m ((c : Thread nD τ).loc main_arg1)
abbrev A2 : Vec Ideal S2000x256 .f32 := m ((c : Thread nD τ).loc main_arg2)
abbrev A3 : Vec Ideal S2000x256 .f32 := m ((c : Thread nD τ).loc main_arg3)
abbrev A4 : Vec Ideal S256x512 .f32 := m ((c : Thread nD τ).loc main_arg4)
abbrev A5 : Vec Ideal S256x512 .f32 := m ((c : Thread nD τ).loc main_arg5)
abbrev A6 : Vec Ideal S86x256 .f32 := m ((c : Thread nD τ).loc main_arg6)
abbrev A7 : Vec Ideal S86x256 .f32 := m ((c : Thread nD τ).loc main_arg7)
abbrev I1 : IVec S200000 32 := m ((c : Thread nD τ).loc main_arg8)
abbrev I2 : IVec S200000 32 := m ((c : Thread nD τ).loc main_arg9)
abbrev I3 : IVec S200000 32 := m ((c : Thread nD τ).loc main_arg10)

/-- The transposed projection matrices the host hands the encoder. -/
abbrev T4 : Vec Ideal S512x256 .f32 := transpose S512x256 [1, 0] (A4 m c) transposes_S256x512_S512x256_1_0
abbrev T5 : Vec Ideal S512x256 .f32 := transpose S512x256 [1, 0] (A5 m c) transposes_S256x512_S512x256_1_0

/-! ## The first region's outputs -/

/-- The first region leaves the fingerprint embedding's stored value in its first output. -/
theorem V2A_xf : Gen.V2 m (outsA m) c main_v2_0 = k0_pay2 (F := Ideal) (A0 m c) (T4 m c) :=
  calc Gen.V2 m (outsA m) c main_v2_0 = Gen.V2 m (outs m) c main_v2_0 := by rw [V2_outs]
    _ = (dat0 (E1 m) c).arrAt 4 cfg0.N := (hF0 m c 4).symm
    _ = k0_pay2 (F := Ideal) (E1 m c main_arg0) (E1 m c main_v0) := final0_4 (E1 m) c
    _ = k0_pay2 (F := Ideal) (A0 m c) (T4 m c) :=
        congr (congrArg (k0_pay2 (F := Ideal)) (Gen.V1_of m c main_arg0 (by decide))) (after_hostOps0_v0 (Gen.V0 m c))

/-- and the skip embedding's in its second. -/
theorem V2A_xs : Gen.V2 m (outsA m) c main_v2_1 = k0_pay1 (F := Ideal) (A1 m c) (T5 m c) :=
  calc Gen.V2 m (outsA m) c main_v2_1 = Gen.V2 m (outs m) c main_v2_1 := by rw [V2_outs]
    _ = (dat0 (E1 m) c).arrAt 5 cfg0.N := (hF0 m c 5).symm
    _ = k0_pay1 (F := Ideal) (E1 m c main_arg1) (E1 m c main_v1) := final0_5 (E1 m) c
    _ = k0_pay1 (F := Ideal) (A1 m c) (T5 m c) :=
        congr (congrArg (k0_pay1 (F := Ideal)) (Gen.V1_of m c main_arg1 (by decide))) (after_hostOps0_v1 (Gen.V0 m c))

/-- An argument array is still at its launch contents between the regions. -/
theorem V2A_arg (r : Ref sig .tc) (h2 : r ∉ ([main_v2_0, main_v2_1] : List (Ref sig .tc))) (h1 : r ∉ hostOps0_W) :
    Gen.V2 m (outsA m) c r = m ((c : Thread nD τ).loc r) :=
  (Gen.V2_of m (outsA m) c r h2).trans (Gen.V1_of m c r h1)

/-- The encoder's first stored block is the specification's fingerprint embedding. -/
theorem xf_eq (n : Fin 2000) (d : Fin 256) :
    k0_pay2 (F := Ideal) (A0 m c) (T4 m c) (ix2 n d) = Cert.Spec.tXf (A0 m c) (A4 m c) n d := by
  rw [k0_pay2_apply]
  show Cert.Spec.xfp _ _ n d = Cert.Spec.xfp _ _ n d
  congr 1
  funext d h
  exact transpose_apply (A4 m c) h d

/-- The encoder's second stored block is the specification's skip embedding. -/
theorem xs_eq (n : Fin 2000) (d : Fin 256) :
    k0_pay1 (F := Ideal) (A1 m c) (T5 m c) (ix2 n d) = Cert.Spec.tXs (A1 m c) (A5 m c) n d := by
  rw [k0_pay1_apply]
  show Cert.Spec.xskip _ _ n d = Cert.Spec.xskip _ _ n d
  congr 1
  funext d h
  exact transpose_apply (A5 m c) h d

/-! ## The second region's operands -/

/-- The first table the pair kernel reads. -/
theorem E8_top : E8 m c main_v9
    = topTable (F := Ideal) (A2 m c) (A3 m c) (k0_pay1 (F := Ideal) (A1 m c) (T5 m c)) (k0_pay2 (F := Ideal) (A0 m c) (T4 m c)) :=
  calc E8 m c main_v9 = Gen.V3 m (outsA m) c main_v9 :=
        (Gen.V8_of m (outsA m) c main_v9 (by decide)).trans <| (Gen.V7_of m (outsA m) c main_v9 (by decide)).trans <|
          (Gen.V6_of m (outsA m) c main_v9 (by decide)).trans <| (Gen.V5_of m (outsA m) c main_v9 (by decide)).trans
            (Gen.V4_of m (outsA m) c main_v9 (by decide))
    _ = topTable (F := Ideal) (Gen.V2 m (outsA m) c main_arg2) (Gen.V2 m (outsA m) c main_arg3) (Gen.V2 m (outsA m) c main_v2_1) (Gen.V2 m (outsA m) c main_v2_0) :=
        after_hostOps1_v9 (Gen.V2 m (outsA m) c)
    _ = _ := by rw [V2A_arg m c main_arg2 (by decide) (by decide), V2A_arg m c main_arg3 (by decide) (by decide), V2A_xs, V2A_xf]

/-- The second table. -/
theorem E8_bot : E8 m c main_v14
    = botTable (F := Ideal) (k0_pay2 (F := Ideal) (A0 m c) (T4 m c)) (k0_pay1 (F := Ideal) (A1 m c) (T5 m c)) (A3 m c) (A2 m c) :=
  calc E8 m c main_v14 = Gen.V3 m (outsA m) c main_v14 :=
        (Gen.V8_of m (outsA m) c main_v14 (by decide)).trans <| (Gen.V7_of m (outsA m) c main_v14 (by decide)).trans <|
          (Gen.V6_of m (outsA m) c main_v14 (by decide)).trans <| (Gen.V5_of m (outsA m) c main_v14 (by decide)).trans
            (Gen.V4_of m (outsA m) c main_v14 (by decide))
    _ = botTable (F := Ideal) (Gen.V2 m (outsA m) c main_v2_0) (Gen.V2 m (outsA m) c main_v2_1) (Gen.V2 m (outsA m) c main_arg3) (Gen.V2 m (outsA m) c main_arg2) :=
        after_hostOps1_v14 (Gen.V2 m (outsA m) c)
    _ = _ := by rw [V2A_arg m c main_arg2 (by decide) (by decide), V2A_arg m c main_arg3 (by decide) (by decide), V2A_xs, V2A_xf]

/-- The relation table. -/
theorem E8_rel : E8 m c main_v22 = relTable (F := Ideal) (A6 m c) (A7 m c) :=
  calc E8 m c main_v22 = Gen.V3 m (outsA m) c main_v22 :=
        (Gen.V8_of m (outsA m) c main_v22 (by decide)).trans <| (Gen.V7_of m (outsA m) c main_v22 (by decide)).trans <|
          (Gen.V6_of m (outsA m) c main_v22 (by decide)).trans <| (Gen.V5_of m (outsA m) c main_v22 (by decide)).trans
            (Gen.V4_of m (outsA m) c main_v22 (by decide))
    _ = relTable (F := Ideal) (Gen.V2 m (outsA m) c main_arg6) (Gen.V2 m (outsA m) c main_arg7) := after_hostOps1_v22 (Gen.V2 m (outsA m) c)
    _ = _ := by rw [V2A_arg m c main_arg6 (by decide) (by decide), V2A_arg m c main_arg7 (by decide) (by decide)]

/-- The first index vector, padded. -/
theorem E8_i1 : ∃ z, E8 m c main_v23 = padIdx (I1 m c) z :=
  ⟨Gen.V3 m (outsA m) c main_c,
   calc E8 m c main_v23 = Gen.V4 m (outsA m) c main_v23 :=
        (Gen.V8_of m (outsA m) c main_v23 (by decide)).trans <| (Gen.V7_of m (outsA m) c main_v23 (by decide)).trans <|
          (Gen.V6_of m (outsA m) c main_v23 (by decide)).trans (Gen.V5_of m (outsA m) c main_v23 (by decide))
    _ = padIdx (Gen.V3 m (outsA m) c main_arg8) (Gen.V3 m (outsA m) c main_c) := after_pad_v23 (Gen.V3 m (outsA m) c)
    _ = _ := by rw [show Gen.V3 m (outsA m) c main_arg8 = I1 m c from
          (Gen.V3_of m (outsA m) c main_arg8 (by decide)).trans (V2A_arg m c main_arg8 (by decide) (by decide))]⟩

/-- The second. -/
theorem E8_i2 : ∃ z, E8 m c main_v24 = padIdx (I2 m c) z :=
  ⟨Gen.V5 m (outsA m) c main_c_0,
   calc E8 m c main_v24 = Gen.V6 m (outsA m) c main_v24 :=
        (Gen.V8_of m (outsA m) c main_v24 (by decide)).trans (Gen.V7_of m (outsA m) c main_v24 (by decide))
    _ = padIdx (Gen.V5 m (outsA m) c main_arg9) (Gen.V5 m (outsA m) c main_c_0) := after_pad_v24 (Gen.V5 m (outsA m) c)
    _ = _ := by rw [show Gen.V5 m (outsA m) c main_arg9 = I2 m c from
          (Gen.V5_of m (outsA m) c main_arg9 (by decide)).trans <| (Gen.V4_of m (outsA m) c main_arg9 (by decide)).trans <|
            (Gen.V3_of m (outsA m) c main_arg9 (by decide)).trans (V2A_arg m c main_arg9 (by decide) (by decide))]⟩

/-- The third. -/
theorem E8_i3 : ∃ z, E8 m c main_v25 = padIdx (I3 m c) z :=
  ⟨Gen.V7 m (outsA m) c main_c_1,
   calc E8 m c main_v25 = padIdx (Gen.V7 m (outsA m) c main_arg10) (Gen.V7 m (outsA m) c main_c_1) := after_pad_v25 (Gen.V7 m (outsA m) c)
    _ = _ := by rw [show Gen.V7 m (outsA m) c main_arg10 = I3 m c from
          (Gen.V7_of m (outsA m) c main_arg10 (by decide)).trans <| (Gen.V6_of m (outsA m) c main_arg10 (by decide)).trans <|
            (Gen.V5_of m (outsA m) c main_arg10 (by decide)).trans <| (Gen.V4_of m (outsA m) c main_arg10 (by decide)).trans <|
              (Gen.V3_of m (outsA m) c main_arg10 (by decide)).trans (V2A_arg m c main_arg10 (by decide) (by decide))]⟩

/-! ## The result -/

/-- The result at e is the second region's output array at e. -/
theorem result_eq (e : Fin 200000) :
    resultOf m c (ix1 e) = (dat1 (E8 m) c).arrAt 6 cfg1.N (ix1 (⟨e.val, by omega⟩ : Fin 200192)) := by
  have h1 : resultOf m c = extractStridedSlice S200000 ![0] (Gen.V9 m (outs m) c main_v26 : Vec Ideal S200192 .f32) slices_S200192_S200000_0 :=
    after_hostOps2_v27 (Gen.V9 m (outs m) c)
  rw [h1, slice_apply]
  exact congrFun (hF1 m c 6).symm _

/-- A word whose signed value is a row number below N is that row number's word. -/
theorem word_eq_ofNat_row {N : ℕ} (hN : 0 < N) (w : BitVec 32) (h0 : 0 ≤ w.toInt) (h1 : w.toInt < N) :
    w = BitVec.ofNat 32 (GS.row hN w).val := by
  have hnat : w.toInt = (w.toNat : Int) := by
    rw [BitVec.toInt_eq_toNat_cond] at h0 ⊢
    split_ifs at h0 ⊢ with hc
    · rfl
    · exfalso; have := w.isLt; omega
  have hv : (GS.row hN w).val = w.toNat := by
    show min w.toInt.toNat (N - 1) = w.toNat
    omega
  rw [hv, BitVec.ofNat_toNat, BitVec.setWidth_eq]

/-- THE KERNEL'S VALUE: with every float entry real and every index word in range, the result at e is the
    specification's output of pair e. -/
theorem kernel_value
    (h0 : ∀ i, Cert.Spec.IsReal (A0 m c i)) (h1 : ∀ i, Cert.Spec.IsReal (A1 m c i)) (h2 : ∀ i, Cert.Spec.IsReal (A2 m c i))
    (h3 : ∀ i, Cert.Spec.IsReal (A3 m c i)) (h4 : ∀ i, Cert.Spec.IsReal (A4 m c i)) (h5 : ∀ i, Cert.Spec.IsReal (A5 m c i))
    (h6 : ∀ i, Cert.Spec.IsReal (A6 m c i)) (h7 : ∀ i, Cert.Spec.IsReal (A7 m c i))
    (hi1 : ∀ e, 0 ≤ (I1 m c e).toInt ∧ (I1 m c e).toInt < 2000) (hi2 : ∀ e, 0 ≤ (I2 m c e).toInt ∧ (I2 m c e).toInt < 2000)
    (hi3 : ∀ e, 0 ≤ (I3 m c e).toInt ∧ (I3 m c e).toInt < 86) (e : Fin 200000) :
    resultOf m c (ix1 e)
      = Cert.Spec.ofArrays (A0 m c) (A1 m c) (A2 m c) (A3 m c) (A4 m c) (A5 m c) (A6 m c) (A7 m c) (I1 m c) (I2 m c) (I3 m c) e := by
  have hlt : e.val < 200000 := e.isLt
  -- the block of e and its row inside the block
  obtain ⟨t, p, hsum⟩ : ∃ (t : Fin 782) (p : Fin 256), 256 * t.val + p.val = e.val :=
    ⟨⟨e.val / 256, by omega⟩, ⟨e.val % 256, Nat.mod_lt _ (by decide)⟩, Nat.div_add_mod e.val 256⟩
  have hb : 256 * t.val + p.val < 200192 := by omega
  have hfin : (⟨e.val, by omega⟩ : Fin 200192) = ⟨256 * t.val + p.val, hb⟩ := Fin.ext hsum.symm
  rw [result_eq, hfin, final1_6 (E8 m) c t p hb]
  obtain ⟨z1, hz1⟩ := E8_i1 m c
  obtain ⟨z2, hz2⟩ := E8_i2 m c
  obtain ⟨z3, hz3⟩ := E8_i3 m c
  -- the row's three index words are the pair's own
  have hw : ∀ (x : IVec S200000 32) (z : IVec S_ 32), rowBlock (F := Ideal) (e := .i32) (padIdx x z) t (ix1 p) = x (ix1 e) := fun x z => by
    rw [rowBlock_apply (F := Ideal) (e := .i32) _ t p hb, ← hfin]
    exact padIdx_apply x z e
  unfold Cert.Spec.ofArrays
  refine gatherOut_apply _ _ _ _ _ _
    (fun n d => A2 m c (ix2 n d)) (fun n d => A3 m c (ix2 n d)) (Cert.Spec.tXf (A0 m c) (A4 m c)) (Cert.Spec.tXs (A1 m c) (A5 m c))
    (fun r d => A6 m c (ix2 r d)) (fun r d => A7 m c (ix2 r d))
    (fun n d => h2 _) (fun n d => h3 _)
    (fun n d => Cert.Spec.xfp_isReal _ _ (fun n h => h0 _) (fun d h => h4 _) n d)
    (fun n d => Cert.Spec.xskip_isReal _ _ (fun n h => h1 _) (fun d h => h5 _) n d)
    (fun r d => h6 _) (fun r d => h7 _)
    ?hT1 ?hT1lo ?hT2 ?hT2lo ?hTr ?hTrlo _ _ _ p ?ha ?hb ?hr
  case hT1 =>
    intro n d
    rw [E8_top]
    obtain ⟨q1, q2, q3, q4⟩ := topTable_apply (A2 m c) (A3 m c) (k0_pay1 (F := Ideal) (A1 m c) (T5 m c)) (k0_pay2 (F := Ideal) (A0 m c) (T4 m c)) n d
    exact ⟨q1, q2, q3.trans (xs_eq m c n d), q4.trans (xf_eq m c n d)⟩
  case hT1lo => intro n j; rw [E8_top]; exact topTable_lo _ _ _ _ n j
  case hT2 =>
    intro n d
    rw [E8_bot]
    obtain ⟨q1, q2, q3, q4⟩ := botTable_apply (k0_pay2 (F := Ideal) (A0 m c) (T4 m c)) (k0_pay1 (F := Ideal) (A1 m c) (T5 m c)) (A3 m c) (A2 m c) n d
    exact ⟨q1.trans (xf_eq m c n d), q2.trans (xs_eq m c n d), q3, q4⟩
  case hT2lo => intro n j; rw [E8_bot]; exact botTable_lo _ _ _ _ n j
  case hTr => intro r d; rw [E8_rel]; exact relTable_apply (A6 m c) (A7 m c) r d
  case hTrlo => intro r j; rw [E8_rel]; exact relTable_lo (A6 m c) (A7 m c) r j
  case ha => rw [hz1, hw]; exact word_eq_ofNat_row (by decide) _ (hi1 _).1 (hi1 _).2
  case hb => rw [hz2, hw]; exact word_eq_ofNat_row (by decide) _ (hi2 _).1 (hi2 _).2
  case hr => rw [hz3, hw]; exact word_eq_ofNat_row (by decide) _ (hi3 _).1 (hi3 _).2

end Cert.KernelIdeal.Hand

end
-- ==== Proof.RefRun.lean ====
/-
  The run of the reference program, read back.

  The reference is one straight line of 319 host operations (the two calls of elu written out at their call
  sites over the calls' own buffers). It is cut here into nineteen stretches that follow the mathematics: the
  layer norm of the 512-wide rows, elu, the two projections, four times a pair of row lookups added and
  layer-normalised, the complex product's two parts layer-normalised, the two relation lookups, and the four sums
  with the logistic. Each stretch's result is a named function of plain arrays; the whole result is their
  composition, and every argument buffer ends as it began.
-/
import proofs.«417564_j14156212208090_3_alg».proof.Proof.Gen.ReferenceIdeal
import Idealize.ShloMosaic.Lib.StableHlo.Run
import Idealize.ShloMosaic.Lib.Pipeline.Regions

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The stage functions -/

/-- Values %0 to %3: the mean of each 512-wide row, kept as a [2000,1] column (the row sum over the literal 512). -/
def mean512 (x : Vec F S2000x512 .f32) : Vec F S2000x1 .f32 :=
  Host.divf (broadcastInDim S2000x1 ![0] bcast_S2000_S2000x1_0 (Host.reduceAdd x (constant S_ .f32 0x00000000#32) reducesTo_S2000x512_S2000_d1 h_S_))
    (broadcastInDim S2000x1 ![] bcast_S_S2000x1 (constant S_ .f32 0x44000000#32))

/-- Values %4 to %10: the variance of each 512-wide row as a [2000,1] column: the mean of the squared deviations. -/
def var512 (x : Vec F S2000x512 .f32) : Vec F S2000x1 .f32 :=
  Host.divf
    (broadcastInDim S2000x1 ![0] bcast_S2000_S2000x1_0
      (Host.reduceAdd
        (mulf (subf x (broadcastInDim S2000x512 ![0, 1] bcast_S2000x1_S2000x512_0_1 (mean512 x)))
          (subf x (broadcastInDim S2000x512 ![0, 1] bcast_S2000x1_S2000x512_0_1 (mean512 x))))
        (constant S_ .f32 0x00000000#32) reducesTo_S2000x512_S2000_d1 h_S_))
    (broadcastInDim S2000x1 ![] bcast_S_S2000x1 (constant S_ .f32 0x44000000#32))

/-- Values %0 to %17: the layer norm of a [2000,512] array along axis 1,
    (x - mean) * rsqrt (var + eps) with eps the f32 nearest 1e-5. -/
def lnRows512 (x : Vec F S2000x512 .f32) : Vec F S2000x512 .f32 :=
  mulf (subf x (broadcastInDim S2000x512 ![0, 1] bcast_S2000x1_S2000x512_0_1 (mean512 x)))
    (broadcastInDim S2000x512 ![0, 1] bcast_S2000x1_S2000x512_0_1
      (Host.rsqrt (addf (var512 x) (broadcastInDim S2000x1 ![] bcast_S_S2000x1 (constant S_ .f32 0x3727C5AC#32)))))

/-- The first call of elu written out, on a [2000,512] array (value %18): where x > 0 it is x, elsewhere
    1 * expm1 (where x > 0 then 0 else x). -/
def eluA (x : Vec F S2000x512 .f32) : Vec F S2000x512 .f32 :=
  select (cmpf (F := F) .ogt x (broadcastInDim S2000x512 ![] bcast_S_S2000x512 (constant S_ .f32 0x00000000#32))) x
    (mulf (broadcastInDim S2000x512 ![] bcast_S_S2000x512 (constant S_ .f32 0x3F800000#32))
      (Host.expm1
        (select (cmpf (F := F) .ogt x (broadcastInDim S2000x512 ![] bcast_S_S2000x512 (constant S_ .f32 0x00000000#32)))
          (broadcastInDim S2000x512 ![] bcast_S_S2000x512 (id (constant S_ .f32 0x00000000#32))) x)))

/-- The second call of elu written out, on a [2000,256] array (value %21). -/
def eluB (x : Vec F S2000x256 .f32) : Vec F S2000x256 .f32 :=
  select (cmpf (F := F) .ogt x (broadcastInDim S2000x256 ![] bcast_S_S2000x256 (constant S_ .f32 0x00000000#32))) x
    (mulf (broadcastInDim S2000x256 ![] bcast_S_S2000x256 (constant S_ .f32 0x3F800000#32))
      (Host.expm1
        (select (cmpf (F := F) .ogt x (broadcastInDim S2000x256 ![] bcast_S_S2000x256 (constant S_ .f32 0x00000000#32)))
          (broadcastInDim S2000x256 ![] bcast_S_S2000x256 (id (constant S_ .f32 0x00000000#32))) x)))

/-- Values %19, %20: a [2000,512] array times the transpose of a [256,512] weight, contracting the 512 features. -/
def projT (x : Vec F S2000x512 .f32) (w : Vec F S256x512 .f32) : Vec F S2000x256 .f32 :=
  Host.dotGeneral dot_S2000x512_S512x256_S2000x256_1_0_0_1_n_n none x (transpose S512x256 [1, 0] w transposes_S256x512_S512x256_1_0)

/-- Value %21, the fingerprint embedding: elu of (elu of the layer-normalised fingerprints, projected by W_fp). -/
def xfpT (a0 : Vec F S2000x512 .f32) (a4 : Vec F S256x512 .f32) : Vec F S2000x256 .f32 :=
  eluB (projT (eluA (lnRows512 a0)) a4)

/-- Value %23, the skip embedding: the initial features projected by W_skip. -/
def xskipT (a1 : Vec F S2000x512 .f32) (a5 : Vec F S256x512 .f32) : Vec F S2000x256 .f32 :=
  projT a1 a5

/-- A row index made non-negative for a table of 2000 rows, as a [200000,1] column: an index below 0 has 2000
    added (the compare with 0, the add of 2000, the select, the broadcast_in_dim). -/
def wrapIdx2000 (idx : Vec F S200000 .i32) : Vec F S200000x1 .i32 :=
  broadcastInDim S200000x1 ![0] bcast_S200000_S200000x1_0
    (select (cmpi .slt idx (broadcastInDim S200000 ![] bcast_S_S200000 (constantI S_ 32 0#32)))
      (addi idx (broadcastInDim S200000 ![] bcast_S_S200000 (constantI S_ 32 2000#32))) idx)

/-- The rows of a [2000,256] table at 200000 indices (the pattern of every x[idx]): a gather of whole rows at
    the wrapped indices. -/
def takeRow (tbl : Vec F S2000x256 .f32) (idx : Vec F S200000 .i32) : Vec F S200000x256 .f32 :=
  Host.gather gather_S2000x256_S200000x1_S200000x256_1_0_n_n_0_1_1256 tbl (wrapIdx2000 idx)

/-- A row index made non-negative for a table of 86 rows, as a [200000,1] column. -/
def wrapIdx86 (idx : Vec F S200000 .i32) : Vec F S200000x1 .i32 :=
  broadcastInDim S200000x1 ![0] bcast_S200000_S200000x1_0
    (select (cmpi .slt idx (broadcastInDim S200000 ![] bcast_S_S200000 (constantI S_ 32 0#32)))
      (addi idx (broadcastInDim S200000 ![] bcast_S_S200000 (constantI S_ 32 86#32))) idx)

/-- The rows of an [86,256] relation table at 200000 indices. -/
def takeRow86 (tbl : Vec F S86x256 .f32) (idx : Vec F S200000 .i32) : Vec F S200000x256 .f32 :=
  Host.gather gather_S86x256_S200000x1_S200000x256_1_0_n_n_0_1_1256 tbl (wrapIdx86 idx)

/-- The sum of each 256-wide row of a [200000,256] array (a reduce with add from the literal 0 along axis 1). -/
def rowSum256 (x : Vec F S200000x256 .f32) : Vec F S200000 .f32 :=
  Host.reduceAdd x (constant S_ .f32 0x00000000#32) reducesTo_S200000x256_S200000_d1 h_S_

/-- The mean of each 256-wide row, as a [200000,1] column (the row sum over the literal 256). -/
def mean256 (x : Vec F S200000x256 .f32) : Vec F S200000x1 .f32 :=
  Host.divf (broadcastInDim S200000x1 ![0] bcast_S200000_S200000x1_0 (rowSum256 x))
    (broadcastInDim S200000x1 ![] bcast_S_S200000x1 (constant S_ .f32 0x43800000#32))

/-- The variance of each 256-wide row, as a [200000,1] column. -/
def var256 (x : Vec F S200000x256 .f32) : Vec F S200000x1 .f32 :=
  Host.divf
    (broadcastInDim S200000x1 ![0] bcast_S200000_S200000x1_0
      (rowSum256
        (mulf (subf x (broadcastInDim S200000x256 ![0, 1] bcast_S200000x1_S200000x256_0_1 (mean256 x)))
          (subf x (broadcastInDim S200000x256 ![0, 1] bcast_S200000x1_S200000x256_0_1 (mean256 x))))))
    (broadcastInDim S200000x1 ![] bcast_S_S200000x1 (constant S_ .f32 0x43800000#32))

/-- The layer norm of a [200000,256] array along axis 1 (the pattern used six times: values %39 to %56,
    %72 to %89, %105 to %122, %138 to %155, %159 to %176, %180 to %197). -/
def lnRows256 (x : Vec F S200000x256 .f32) : Vec F S200000x256 .f32 :=
  mulf (subf x (broadcastInDim S200000x256 ![0, 1] bcast_S200000x1_S200000x256_0_1 (mean256 x)))
    (broadcastInDim S200000x256 ![0, 1] bcast_S200000x1_S200000x256_0_1
      (Host.rsqrt (addf (var256 x) (broadcastInDim S200000x1 ![] bcast_S_S200000x1 (constant S_ .f32 0x3727C5AC#32)))))

/-- Values %24 to %56, and likewise the three that follow: a row of one table at the first index plus a row of
    another at the second, layer-normalised. -/
def pairLn (t1 t2 : Vec F S2000x256 .f32) (i1 i2 : Vec F S200000 .i32) : Vec F S200000x256 .f32 :=
  lnRows256 (addf (takeRow t1 i1) (takeRow t2 i2))

/-- Values %156 to %176: the real part of the complex product, layer-normalised. -/
def rcT (R1 I1 R2 I2 : Vec F S200000x256 .f32) : Vec F S200000x256 .f32 :=
  lnRows256 (subf (mulf R1 R2) (mulf I1 I2))

/-- Values %177 to %197: the imaginary part of the complex product, layer-normalised. -/
def icT (R1 I1 R2 I2 : Vec F S200000x256 .f32) : Vec F S200000x256 .f32 :=
  lnRows256 (addf (mulf R1 I2) (mulf I1 R2))

/-- Values %212 to %229: the four row sums, the negation of the third, the adds, and the logistic written as
    1 / (1 + exp (-s)). -/
def scoreT (Rc Ic wr wi : Vec F S200000x256 .f32) : Vec F S200000 .f32 :=
  Host.divf (broadcastInDim S200000 ![] bcast_S_S200000 (constant S_ .f32 0x3F800000#32))
    (addf (broadcastInDim S200000 ![] bcast_S_S200000 (constant S_ .f32 0x3F800000#32))
      (Host.exp (Host.negf
        (addf (addf (rowSum256 (mulf Rc wr)) (rowSum256 (mulf Ic wi)))
          (addf (Host.negf (rowSum256 (mulf Rc wi))) (rowSum256 (mulf Ic wr)))))))

/-- The reference's result as a function of its eleven arguments, following the source: the two embeddings, the
    four layer-normalised pair sums R1, I1, R2, I2, the complex product's parts Rc, Ic, the relation rows wr, wi,
    and the score. -/
def resOf (a0 a1 : Vec F S2000x512 .f32) (a2 a3 : Vec F S2000x256 .f32) (a4 a5 : Vec F S256x512 .f32)
    (a6 a7 : Vec F S86x256 .f32) (i1 i2 i3 : Vec F S200000 .i32) : Vec F S200000 .f32 :=
  scoreT
    (rcT (pairLn a2 (xfpT a0 a4) i1 i2) (pairLn a3 (xskipT a1 a5) i1 i2) (pairLn (xskipT a1 a5) a3 i1 i2) (pairLn (xfpT a0 a4) a2 i1 i2))
    (icT (pairLn a2 (xfpT a0 a4) i1 i2) (pairLn a3 (xskipT a1 a5) i1 i2) (pairLn (xskipT a1 a5) a3 i1 i2) (pairLn (xfpT a0 a4) a2 i1 i2))
    (takeRow86 a6 i3) (takeRow86 a7 i3)

/-- The reference's result on device c from the launch memory m. -/
def res (m : (l : Loc nD τ sig) → Buf (Elt F) l) (c : Dev nD) : Buf (Elt F) ((c.tc : Thread nD τ).loc main_v229) :=
  resOf (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg4)) (m ((c.tc : Thread nD τ).loc main_arg5))
    (m ((c.tc : Thread nD τ).loc main_arg6)) (m ((c.tc : Thread nD τ).loc main_arg7))
    (m ((c.tc : Thread nD τ).loc main_arg8)) (m ((c.tc : Thread nD τ).loc main_arg9))
    (m ((c.tc : Thread nD τ).loc main_arg10))

/-! ## The operations, stretch by stretch -/

/-- The typed references of the two calls' operands. -/
abbrev tv17 : TRef sig ⟨S2000x512, .f32⟩ := .of main_v17
abbrev tv20 : TRef sig ⟨S2000x256, .f32⟩ := .of main_v20

/-- Values %cst to %17: the layer norm of the fingerprints. -/
abbrev opsLnA : List (HloOp τ sig (Elt F)) :=
  [ nullary main_cst (constant S_ .f32 0x00000000#32),
    binary main_arg0 main_cst main_v0 (fun x v => Host.reduceAdd x v reducesTo_S2000x512_S2000_d1 h_S_),
    unary main_v0 main_v1 (broadcastInDim S2000x1 ![0] bcast_S2000_S2000x1_0),
    nullary main_cst_0 (constant S_ .f32 0x44000000#32),
    unary main_cst_0 main_v2 (broadcastInDim S2000x1 ![] bcast_S_S2000x1),
    binary main_v1 main_v2 main_v3 Host.divf,
    unary main_v3 main_v4 (broadcastInDim S2000x512 ![0, 1] bcast_S2000x1_S2000x512_0_1),
    binary main_arg0 main_v4 main_v5 subf,
    binary main_v5 main_v5 main_v6 mulf,
    nullary main_cst_1 (constant S_ .f32 0x00000000#32),
    binary main_v6 main_cst_1 main_v7 (fun x v => Host.reduceAdd x v reducesTo_S2000x512_S2000_d1 h_S_),
    unary main_v7 main_v8 (broadcastInDim S2000x1 ![0] bcast_S2000_S2000x1_0),
    nullary main_cst_2 (constant S_ .f32 0x44000000#32),
    unary main_cst_2 main_v9 (broadcastInDim S2000x1 ![] bcast_S_S2000x1),
    binary main_v8 main_v9 main_v10 Host.divf,
    unary main_v3 main_v11 (broadcastInDim S2000x512 ![0, 1] bcast_S2000x1_S2000x512_0_1),
    binary main_arg0 main_v11 main_v12 subf,
    nullary main_cst_3 (constant S_ .f32 0x3727C5AC#32),
    unary main_cst_3 main_v13 (broadcastInDim S2000x1 ![] bcast_S_S2000x1),
    binary main_v10 main_v13 main_v14 addf,
    unary main_v14 main_v15 Host.rsqrt,
    unary main_v15 main_v16 (broadcastInDim S2000x512 ![0, 1] bcast_S2000x1_S2000x512_0_1),
    binary main_v12 main_v16 main_v17 mulf ]

/-- Value %18: the first call of elu, its fifteen operations over the call's own buffers. -/
abbrev opsEluA : List (HloOp τ sig (Elt F)) :=
  [ TRef.nullary main_call0.cst (constant S_ .f32 0x00000000#32),
    TRef.unary main_call0.cst main_call0.v0 (broadcastInDim S2000x512 ![] bcast_S_S2000x512),
    TRef.binary tv17 main_call0.v0 main_call0.v1 (cmpf (F := F) .ogt),
    TRef.nullary main_call0.cst_0 (constant S_ .f32 0x00000000#32),
    TRef.unary main_call0.cst_0 main_call0.v2 (broadcastInDim S2000x512 ![] bcast_S_S2000x512),
    TRef.binary tv17 main_call0.v2 main_call0.v3 (cmpf (F := F) .ogt),
    TRef.nullary main_call0.cst_1 (constant S_ .f32 0x00000000#32),
    TRef.unary main_call0.cst_1 main_call0.call0.v0 id,
    TRef.unary main_call0.call0.v0 main_call0.call0.v1 (broadcastInDim S2000x512 ![] bcast_S_S2000x512),
    TRef.ternary main_call0.v3 main_call0.call0.v1 tv17 main_call0.call0.v2 select,
    TRef.unary main_call0.call0.v2 main_call0.v5 Host.expm1,
    TRef.nullary main_call0.cst_2 (constant S_ .f32 0x3F800000#32),
    TRef.unary main_call0.cst_2 main_call0.v6 (broadcastInDim S2000x512 ![] bcast_S_S2000x512),
    TRef.binary main_call0.v6 main_call0.v5 main_call0.v7 mulf,
    TRef.ternary main_call0.v1 tv17 main_call0.v7 main_call0.call1.v0 select ]

/-- Values %19 to %23: the projection by W_fp, the second call of elu, the projection by W_skip. -/
abbrev opsProj : List (HloOp τ sig (Elt F)) :=
  [ unary main_arg4 main_v19 (transpose S512x256 [1, 0] · transposes_S256x512_S512x256_1_0),
    binary main_v18 main_v19 main_v20 (fun l r => Host.dotGeneral dot_S2000x512_S512x256_S2000x256_1_0_0_1_n_n none l r),
    TRef.nullary main_call1.cst (constant S_ .f32 0x00000000#32),
    TRef.unary main_call1.cst main_call1.v0 (broadcastInDim S2000x256 ![] bcast_S_S2000x256),
    TRef.binary tv20 main_call1.v0 main_call1.v1 (cmpf (F := F) .ogt),
    TRef.nullary main_call1.cst_0 (constant S_ .f32 0x00000000#32),
    TRef.unary main_call1.cst_0 main_call1.v2 (broadcastInDim S2000x256 ![] bcast_S_S2000x256),
    TRef.binary tv20 main_call1.v2 main_call1.v3 (cmpf (F := F) .ogt),
    TRef.nullary main_call1.cst_1 (constant S_ .f32 0x00000000#32),
    TRef.unary main_call1.cst_1 main_call1.call0.v0 id,
    TRef.unary main_call1.call0.v0 main_call1.call0.v1 (broadcastInDim S2000x256 ![] bcast_S_S2000x256),
    TRef.ternary main_call1.v3 main_call1.call0.v1 tv20 main_call1.call0.v2 select,
    TRef.unary main_call1.call0.v2 main_call1.v5 Host.expm1,
    TRef.nullary main_call1.cst_2 (constant S_ .f32 0x3F800000#32),
    TRef.unary main_call1.cst_2 main_call1.v6 (broadcastInDim S2000x256 ![] bcast_S_S2000x256),
    TRef.binary main_call1.v6 main_call1.v5 main_call1.v7 mulf,
    TRef.ternary main_call1.v1 tv20 main_call1.v7 main_call1.call1.v0 select,
    unary main_arg5 main_v22 (transpose S512x256 [1, 0] · transposes_S256x512_S512x256_1_0),
    binary main_arg1 main_v22 main_v23 (fun l r => Host.dotGeneral dot_S2000x512_S512x256_S2000x256_1_0_0_1_n_n none l r) ]

/-- Values %c to %38: x1 at the first index plus the fingerprint embedding at the second. -/
abbrev opsR1g : List (HloOp τ sig (Elt F)) :=
  [ nullary main_c (constantI S_ 32 0#32),
    unary main_c main_v24 (broadcastInDim S200000 ![] bcast_S_S200000),
    binary main_arg8 main_v24 main_v25 (cmpi .slt),
    nullary main_c_4 (constantI S_ 32 2000#32),
    unary main_c_4 main_v26 (broadcastInDim S200000 ![] bcast_S_S200000),
    binary main_arg8 main_v26 main_v27 addi,
    ternary main_v25 main_v27 main_arg8 main_v28 select,
    unary main_v28 main_v29 (broadcastInDim S200000x1 ![0] bcast_S200000_S200000x1_0),
    binary main_arg2 main_v29 main_v30 (fun x i => Host.gather gather_S2000x256_S200000x1_S200000x256_1_0_n_n_0_1_1256 x i),
    nullary main_c_5 (constantI S_ 32 0#32),
    unary main_c_5 main_v31 (broadcastInDim S200000 ![] bcast_S_S200000),
    binary main_arg9 main_v31 main_v32 (cmpi .slt),
    nullary main_c_6 (constantI S_ 32 2000#32),
    unary main_c_6 main_v33 (broadcastInDim S200000 ![] bcast_S_S200000),
    binary main_arg9 main_v33 main_v34 addi,
    ternary main_v32 main_v34 main_arg9 main_v35 select,
    unary main_v35 main_v36 (broadcastInDim S200000x1 ![0] bcast_S200000_S200000x1_0),
    binary main_v21 main_v36 main_v37 (fun x i => Host.gather gather_S2000x256_S200000x1_S200000x256_1_0_n_n_0_1_1256 x i),
    binary main_v30 main_v37 main_v38 addf ]

/-- Values %cst_7 to %47: the first half of the layer norm of %38 (to the end of the first window). -/
abbrev opsR1nA : List (HloOp τ sig (Elt F)) :=
  [ nullary main_cst_7 (constant S_ .f32 0x00000000#32),
    binary main_v38 main_cst_7 main_v39 (fun x v => Host.reduceAdd x v reducesTo_S200000x256_S200000_d1 h_S_),
    unary main_v39 main_v40 (broadcastInDim S200000x1 ![0] bcast_S200000_S200000x1_0),
    nullary main_cst_8 (constant S_ .f32 0x43800000#32),
    unary main_cst_8 main_v41 (broadcastInDim S200000x1 ![] bcast_S_S200000x1),
    binary main_v40 main_v41 main_v42 Host.divf,
    unary main_v42 main_v43 (broadcastInDim S200000x256 ![0, 1] bcast_S200000x1_S200000x256_0_1),
    binary main_v38 main_v43 main_v44 subf,
    binary main_v44 main_v44 main_v45 mulf,
    nullary main_cst_9 (constant S_ .f32 0x00000000#32),
    binary main_v45 main_cst_9 main_v46 (fun x v => Host.reduceAdd x v reducesTo_S200000x256_S200000_d1 h_S_),
    unary main_v46 main_v47 (broadcastInDim S200000x1 ![0] bcast_S200000_S200000x1_0) ]

/-- Values %cst_10 to %56: the second half of the layer norm of %38. -/
abbrev opsR1nB : List (HloOp τ sig (Elt F)) :=
  [ nullary main_cst_10 (constant S_ .f32 0x43800000#32),
    unary main_cst_10 main_v48 (broadcastInDim S200000x1 ![] bcast_S_S200000x1),
    binary main_v47 main_v48 main_v49 Host.divf,
    unary main_v42 main_v50 (broadcastInDim S200000x256 ![0, 1] bcast_S200000x1_S200000x256_0_1),
    binary main_v38 main_v50 main_v51 subf,
    nullary main_cst_11 (constant S_ .f32 0x3727C5AC#32),
    unary main_cst_11 main_v52 (broadcastInDim S200000x1 ![] bcast_S_S200000x1),
    binary main_v49 main_v52 main_v53 addf,
    unary main_v53 main_v54 Host.rsqrt,
    unary main_v54 main_v55 (broadcastInDim S200000x256 ![0, 1] bcast_S200000x1_S200000x256_0_1),
    binary main_v51 main_v55 main_v56 mulf ]

/-- Values %c_12 to %71: x2 at the first index plus the skip embedding at the second. -/
abbrev opsI1g : List (HloOp τ sig (Elt F)) :=
  [ nullary main_c_12 (constantI S_ 32 0#32),
    unary main_c_12 main_v57 (broadcastInDim S200000 ![] bcast_S_S200000),
    binary main_arg8 main_v57 main_v58 (cmpi .slt),
    nullary main_c_13 (constantI S_ 32 2000#32),
    unary main_c_13 main_v59 (broadcastInDim S200000 ![] bcast_S_S200000),
    binary main_arg8 main_v59 main_v60 addi,
    ternary main_v58 main_v60 main_arg8 main_v61 select,
    unary main_v61 main_v62 (broadcastInDim S200000x1 ![0] bcast_S200000_S200000x1_0),
    binary main_arg3 main_v62 main_v63 (fun x i => Host.gather gather_S2000x256_S200000x1_S200000x256_1_0_n_n_0_1_1256 x i),
    nullary main_c_14 (constantI S_ 32 0#32),
    unary main_c_14 main_v64 (broadcastInDim S200000 ![] bcast_S_S200000),
    binary main_arg9 main_v64 main_v65 (cmpi .slt),
    nullary main_c_15 (constantI S_ 32 2000#32),
    unary main_c_15 main_v66 (broadcastInDim S200000 ![] bcast_S_S200000),
    binary main_arg9 main_v66 main_v67 addi,
    ternary main_v65 main_v67 main_arg9 main_v68 select,
    unary main_v68 main_v69 (broadcastInDim S200000x1 ![0] bcast_S200000_S200000x1_0),
    binary main_v23 main_v69 main_v70 (fun x i => Host.gather gather_S2000x256_S200000x1_S200000x256_1_0_n_n_0_1_1256 x i),
    binary main_v63 main_v70 main_v71 addf ]

/-- Values %cst_16 to %89: the layer norm of %71. -/
abbrev opsI1n : List (HloOp τ sig (Elt F)) :=
  [ nullary main_cst_16 (constant S_ .f32 0x00000000#32),
    binary main_v71 main_cst_16 main_v72 (fun x v => Host.reduceAdd x v reducesTo_S200000x256_S200000_d1 h_S_),
    unary main_v72 main_v73 (broadcastInDim S200000x1 ![0] bcast_S200000_S200000x1_0),
    nullary main_cst_17 (constant S_ .f32 0x43800000#32),
    unary main_cst_17 main_v74 (broadcastInDim S200000x1 ![] bcast_S_S200000x1),
    binary main_v73 main_v74 main_v75 Host.divf,
    unary main_v75 main_v76 (broadcastInDim S200000x256 ![0, 1] bcast_S200000x1_S200000x256_0_1),
    binary main_v71 main_v76 main_v77 subf,
    binary main_v77 main_v77 main_v78 mulf,
    nullary main_cst_18 (constant S_ .f32 0x00000000#32),
    binary main_v78 main_cst_18 main_v79 (fun x v => Host.reduceAdd x v reducesTo_S200000x256_S200000_d1 h_S_),
    unary main_v79 main_v80 (broadcastInDim S200000x1 ![0] bcast_S200000_S200000x1_0),
    nullary main_cst_19 (constant S_ .f32 0x43800000#32),
    unary main_cst_19 main_v81 (broadcastInDim S200000x1 ![] bcast_S_S200000x1),
    binary main_v80 main_v81 main_v82 Host.divf,
    unary main_v75 main_v83 (broadcastInDim S200000x256 ![0, 1] bcast_S200000x1_S200000x256_0_1),
    binary main_v71 main_v83 main_v84 subf,
    nullary main_cst_20 (constant S_ .f32 0x3727C5AC#32),
    unary main_cst_20 main_v85 (broadcastInDim S200000x1 ![] bcast_S_S200000x1),
    binary main_v82 main_v85 main_v86 addf,
    unary main_v86 main_v87 Host.rsqrt,
    unary main_v87 main_v88 (broadcastInDim S200000x256 ![0, 1] bcast_S200000x1_S200000x256_0_1),
    binary main_v84 main_v88 main_v89 mulf ]

/-- Values %c_21 to %94: the first index made non-negative (to the end of the second window). -/
abbrev opsR2gA : List (HloOp τ sig (Elt F)) :=
  [ nullary main_c_21 (constantI S_ 32 0#32),
    unary main_c_21 main_v90 (broadcastInDim S200000 ![] bcast_S_S200000),
    binary main_arg8 main_v90 main_v91 (cmpi .slt),
    nullary main_c_22 (constantI S_ 32 2000#32),
    unary main_c_22 main_v92 (broadcastInDim S200000 ![] bcast_S_S200000),
    binary main_arg8 main_v92 main_v93 addi,
    ternary main_v91 main_v93 main_arg8 main_v94 select ]

/-- Values %95 to %104: the skip embedding at the first index plus x2 at the second. -/
abbrev opsR2gB : List (HloOp τ sig (Elt F)) :=
  [ unary main_v94 main_v95 (broadcastInDim S200000x1 ![0] bcast_S200000_S200000x1_0),
    binary main_v23 main_v95 main_v96 (fun x i => Host.gather gather_S2000x256_S200000x1_S200000x256_1_0_n_n_0_1_1256 x i),
    nullary main_c_23 (constantI S_ 32 0#32),
    unary main_c_23 main_v97 (broadcastInDim S200000 ![] bcast_S_S200000),
    binary main_arg9 main_v97 main_v98 (cmpi .slt),
    nullary main_c_24 (constantI S_ 32 2000#32),
    unary main_c_24 main_v99 (broadcastInDim S200000 ![] bcast_S_S200000),
    binary main_arg9 main_v99 main_v100 addi,
    ternary main_v98 main_v100 main_arg9 main_v101 select,
    unary main_v101 main_v102 (broadcastInDim S200000x1 ![0] bcast_S200000_S200000x1_0),
    binary main_arg3 main_v102 main_v103 (fun x i => Host.gather gather_S2000x256_S200000x1_S200000x256_1_0_n_n_0_1_1256 x i),
    binary main_v96 main_v103 main_v104 addf ]

/-- Values %cst_25 to %122: the layer norm of %104. -/
abbrev opsR2n : List (HloOp τ sig (Elt F)) :=
  [ nullary main_cst_25 (constant S_ .f32 0x00000000#32),
    binary main_v104 main_cst_25 main_v105 (fun x v => Host.reduceAdd x v reducesTo_S200000x256_S200000_d1 h_S_),
    unary main_v105 main_v106 (broadcastInDim S200000x1 ![0] bcast_S200000_S200000x1_0),
    nullary main_cst_26 (constant S_ .f32 0x43800000#32),
    unary main_cst_26 main_v107 (broadcastInDim S200000x1 ![] bcast_S_S200000x1),
    binary main_v106 main_v107 main_v108 Host.divf,
    unary main_v108 main_v109 (broadcastInDim S200000x256 ![0, 1] bcast_S200000x1_S200000x256_0_1),
    binary main_v104 main_v109 main_v110 subf,
    binary main_v110 main_v110 main_v111 mulf,
    nullary main_cst_27 (constant S_ .f32 0x00000000#32),
    binary main_v111 main_cst_27 main_v112 (fun x v => Host.reduceAdd x v reducesTo_S200000x256_S200000_d1 h_S_),
    unary main_v112 main_v113 (broadcastInDim S200000x1 ![0] bcast_S200000_S200000x1_0),
    nullary main_cst_28 (constant S_ .f32 0x43800000#32),
    unary main_cst_28 main_v114 (broadcastInDim S200000x1 ![] bcast_S_S200000x1),
    binary main_v113 main_v114 main_v115 Host.divf,
    unary main_v108 main_v116 (broadcastInDim S200000x256 ![0, 1] bcast_S200000x1_S200000x256_0_1),
    binary main_v104 main_v116 main_v117 subf,
    nullary main_cst_29 (constant S_ .f32 0x3727C5AC#32),
    unary main_cst_29 main_v118 (broadcastInDim S200000x1 ![] bcast_S_S200000x1),
    binary main_v115 main_v118 main_v119 addf,
    unary main_v119 main_v120 Host.rsqrt,
    unary main_v120 main_v121 (broadcastInDim S200000x256 ![0, 1] bcast_S200000x1_S200000x256_0_1),
    binary main_v117 main_v121 main_v122 mulf ]

/-- Values %c_30 to %137: the fingerprint embedding at the first index plus x1 at the second. -/
abbrev opsI2g : List (HloOp τ sig (Elt F)) :=
  [ nullary main_c_30 (constantI S_ 32 0#32),
    unary main_c_30 main_v123 (broadcastInDim S200000 ![] bcast_S_S200000),
    binary main_arg8 main_v123 main_v124 (cmpi .slt),
    nullary main_c_31 (constantI S_ 32 2000#32),
    unary main_c_31 main_v125 (broadcastInDim S200000 ![] bcast_S_S200000),
    binary main_arg8 main_v125 main_v126 addi,
    ternary main_v124 main_v126 main_arg8 main_v127 select,
    unary main_v127 main_v128 (broadcastInDim S200000x1 ![0] bcast_S200000_S200000x1_0),
    binary main_v21 main_v128 main_v129 (fun x i => Host.gather gather_S2000x256_S200000x1_S200000x256_1_0_n_n_0_1_1256 x i),
    nullary main_c_32 (constantI S_ 32 0#32),
    unary main_c_32 main_v130 (broadcastInDim S200000 ![] bcast_S_S200000),
    binary main_arg9 main_v130 main_v131 (cmpi .slt),
    nullary main_c_33 (constantI S_ 32 2000#32),
    unary main_c_33 main_v132 (broadcastInDim S200000 ![] bcast_S_S200000),
    binary main_arg9 main_v132 main_v133 addi,
    ternary main_v131 main_v133 main_arg9 main_v134 select,
    unary main_v134 main_v135 (broadcastInDim S200000x1 ![0] bcast_S200000_S200000x1_0),
    binary main_arg2 main_v135 main_v136 (fun x i => Host.gather gather_S2000x256_S200000x1_S200000x256_1_0_n_n_0_1_1256 x i),
    binary main_v129 main_v136 main_v137 addf ]

/-- Values %cst_34 to %141: the mean column of %137 (to the end of the third window). -/
abbrev opsI2nA : List (HloOp τ sig (Elt F)) :=
  [ nullary main_cst_34 (constant S_ .f32 0x00000000#32),
    binary main_v137 main_cst_34 main_v138 (fun x v => Host.reduceAdd x v reducesTo_S200000x256_S200000_d1 h_S_),
    unary main_v138 main_v139 (broadcastInDim S200000x1 ![0] bcast_S200000_S200000x1_0),
    nullary main_cst_35 (constant S_ .f32 0x43800000#32),
    unary main_cst_35 main_v140 (broadcastInDim S200000x1 ![] bcast_S_S200000x1),
    binary main_v139 main_v140 main_v141 Host.divf ]

/-- Values %142 to %155: the rest of the layer norm of %137. -/
abbrev opsI2nB : List (HloOp τ sig (Elt F)) :=
  [ unary main_v141 main_v142 (broadcastInDim S200000x256 ![0, 1] bcast_S200000x1_S200000x256_0_1),
    binary main_v137 main_v142 main_v143 subf,
    binary main_v143 main_v143 main_v144 mulf,
    nullary main_cst_36 (constant S_ .f32 0x00000000#32),
    binary main_v144 main_cst_36 main_v145 (fun x v => Host.reduceAdd x v reducesTo_S200000x256_S200000_d1 h_S_),
    unary main_v145 main_v146 (broadcastInDim S200000x1 ![0] bcast_S200000_S200000x1_0),
    nullary main_cst_37 (constant S_ .f32 0x43800000#32),
    unary main_cst_37 main_v147 (broadcastInDim S200000x1 ![] bcast_S_S200000x1),
    binary main_v146 main_v147 main_v148 Host.divf,
    unary main_v141 main_v149 (broadcastInDim S200000x256 ![0, 1] bcast_S200000x1_S200000x256_0_1),
    binary main_v137 main_v149 main_v150 subf,
    nullary main_cst_38 (constant S_ .f32 0x3727C5AC#32),
    unary main_cst_38 main_v151 (broadcastInDim S200000x1 ![] bcast_S_S200000x1),
    binary main_v148 main_v151 main_v152 addf,
    unary main_v152 main_v153 Host.rsqrt,
    unary main_v153 main_v154 (broadcastInDim S200000x256 ![0, 1] bcast_S200000x1_S200000x256_0_1),
    binary main_v150 main_v154 main_v155 mulf ]

/-- Values %156 to %176: the real part of the complex product and its layer norm. -/
abbrev opsRc : List (HloOp τ sig (Elt F)) :=
  [ binary main_v56 main_v122 main_v156 mulf,
    binary main_v89 main_v155 main_v157 mulf,
    binary main_v156 main_v157 main_v158 subf,
    nullary main_cst_39 (constant S_ .f32 0x00000000#32),
    binary main_v158 main_cst_39 main_v159 (fun x v => Host.reduceAdd x v reducesTo_S200000x256_S200000_d1 h_S_),
    unary main_v159 main_v160 (broadcastInDim S200000x1 ![0] bcast_S200000_S200000x1_0),
    nullary main_cst_40 (constant S_ .f32 0x43800000#32),
    unary main_cst_40 main_v161 (broadcastInDim S200000x1 ![] bcast_S_S200000x1),
    binary main_v160 main_v161 main_v162 Host.divf,
    unary main_v162 main_v163 (broadcastInDim S200000x256 ![0, 1] bcast_S200000x1_S200000x256_0_1),
    binary main_v158 main_v163 main_v164 subf,
    binary main_v164 main_v164 main_v165 mulf,
    nullary main_cst_41 (constant S_ .f32 0x00000000#32),
    binary main_v165 main_cst_41 main_v166 (fun x v => Host.reduceAdd x v reducesTo_S200000x256_S200000_d1 h_S_),
    unary main_v166 main_v167 (broadcastInDim S200000x1 ![0] bcast_S200000_S200000x1_0),
    nullary main_cst_42 (constant S_ .f32 0x43800000#32),
    unary main_cst_42 main_v168 (broadcastInDim S200000x1 ![] bcast_S_S200000x1),
    binary main_v167 main_v168 main_v169 Host.divf,
    unary main_v162 main_v170 (broadcastInDim S200000x256 ![0, 1] bcast_S200000x1_S200000x256_0_1),
    binary main_v158 main_v170 main_v171 subf,
    nullary main_cst_43 (constant S_ .f32 0x3727C5AC#32),
    unary main_cst_43 main_v172 (broadcastInDim S200000x1 ![] bcast_S_S200000x1),
    binary main_v169 main_v172 main_v173 addf,
    unary main_v173 main_v174 Host.rsqrt,
    unary main_v174 main_v175 (broadcastInDim S200000x256 ![0, 1] bcast_S200000x1_S200000x256_0_1),
    binary main_v171 main_v175 main_v176 mulf ]

/-- Values %177 to %189: the imaginary part of the complex product and the first part of its layer norm (to the
    end of the fourth window). -/
abbrev opsIcA : List (HloOp τ sig (Elt F)) :=
  [ binary main_v56 main_v155 main_v177 mulf,
    binary main_v89 main_v122 main_v178 mulf,
    binary main_v177 main_v178 main_v179 addf,
    nullary main_cst_44 (constant S_ .f32 0x00000000#32),
    binary main_v179 main_cst_44 main_v180 (fun x v => Host.reduceAdd x v reducesTo_S200000x256_S200000_d1 h_S_),
    unary main_v180 main_v181 (broadcastInDim S200000x1 ![0] bcast_S200000_S200000x1_0),
    nullary main_cst_45 (constant S_ .f32 0x43800000#32),
    unary main_cst_45 main_v182 (broadcastInDim S200000x1 ![] bcast_S_S200000x1),
    binary main_v181 main_v182 main_v183 Host.divf,
    unary main_v183 main_v184 (broadcastInDim S200000x256 ![0, 1] bcast_S200000x1_S200000x256_0_1),
    binary main_v179 main_v184 main_v185 subf,
    binary main_v185 main_v185 main_v186 mulf,
    nullary main_cst_46 (constant S_ .f32 0x00000000#32),
    binary main_v186 main_cst_46 main_v187 (fun x v => Host.reduceAdd x v reducesTo_S200000x256_S200000_d1 h_S_),
    unary main_v187 main_v188 (broadcastInDim S200000x1 ![0] bcast_S200000_S200000x1_0),
    nullary main_cst_47 (constant S_ .f32 0x43800000#32),
    unary main_cst_47 main_v189 (broadcastInDim S200000x1 ![] bcast_S_S200000x1) ]

/-- Values %190 to %197: the rest of the layer norm of %179. -/
abbrev opsIcB : List (HloOp τ sig (Elt F)) :=
  [ binary main_v188 main_v189 main_v190 Host.divf,
    unary main_v183 main_v191 (broadcastInDim S200000x256 ![0, 1] bcast_S200000x1_S200000x256_0_1),
    binary main_v179 main_v191 main_v192 subf,
    nullary main_cst_48 (constant S_ .f32 0x3727C5AC#32),
    unary main_cst_48 main_v193 (broadcastInDim S200000x1 ![] bcast_S_S200000x1),
    binary main_v190 main_v193 main_v194 addf,
    unary main_v194 main_v195 Host.rsqrt,
    unary main_v195 main_v196 (broadcastInDim S200000x256 ![0, 1] bcast_S200000x1_S200000x256_0_1),
    binary main_v192 main_v196 main_v197 mulf ]

/-- Values %c_49 to %211: the rows of the two relation tables at the third index. -/
abbrev opsW : List (HloOp τ sig (Elt F)) :=
  [ nullary main_c_49 (constantI S_ 32 0#32),
    unary main_c_49 main_v198 (broadcastInDim S200000 ![] bcast_S_S200000),
    binary main_arg10 main_v198 main_v199 (cmpi .slt),
    nullary main_c_50 (constantI S_ 32 86#32),
    unary main_c_50 main_v200 (broadcastInDim S200000 ![] bcast_S_S200000),
    binary main_arg10 main_v200 main_v201 addi,
    ternary main_v199 main_v201 main_arg10 main_v202 select,
    unary main_v202 main_v203 (broadcastInDim S200000x1 ![0] bcast_S200000_S200000x1_0),
    binary main_arg6 main_v203 main_v204 (fun x i => Host.gather gather_S86x256_S200000x1_S200000x256_1_0_n_n_0_1_1256 x i),
    nullary main_c_51 (constantI S_ 32 0#32),
    unary main_c_51 main_v205 (broadcastInDim S200000 ![] bcast_S_S200000),
    binary main_arg10 main_v205 main_v206 (cmpi .slt),
    nullary main_c_52 (constantI S_ 32 86#32),
    unary main_c_52 main_v207 (broadcastInDim S200000 ![] bcast_S_S200000),
    binary main_arg10 main_v207 main_v208 addi,
    ternary main_v206 main_v208 main_arg10 main_v209 select,
    unary main_v209 main_v210 (broadcastInDim S200000x1 ![0] bcast_S200000_S200000x1_0),
    binary main_arg7 main_v210 main_v211 (fun x i => Host.gather gather_S86x256_S200000x1_S200000x256_1_0_n_n_0_1_1256 x i) ]

/-- Values %212 to %229: the four sums, their combination and the logistic. -/
abbrev opsOut : List (HloOp τ sig (Elt F)) :=
  [ binary main_v176 main_v204 main_v212 mulf,
    nullary main_cst_53 (constant S_ .f32 0x00000000#32),
    binary main_v212 main_cst_53 main_v213 (fun x v => Host.reduceAdd x v reducesTo_S200000x256_S200000_d1 h_S_),
    binary main_v197 main_v211 main_v214 mulf,
    nullary main_cst_54 (constant S_ .f32 0x00000000#32),
    binary main_v214 main_cst_54 main_v215 (fun x v => Host.reduceAdd x v reducesTo_S200000x256_S200000_d1 h_S_),
    binary main_v213 main_v215 main_v216 addf,
    binary main_v176 main_v211 main_v217 mulf,
    nullary main_cst_55 (constant S_ .f32 0x00000000#32),
    binary main_v217 main_cst_55 main_v218 (fun x v => Host.reduceAdd x v reducesTo_S200000x256_S200000_d1 h_S_),
    unary main_v218 main_v219 Host.negf,
    binary main_v197 main_v204 main_v220 mulf,
    nullary main_cst_56 (constant S_ .f32 0x00000000#32),
    binary main_v220 main_cst_56 main_v221 (fun x v => Host.reduceAdd x v reducesTo_S200000x256_S200000_d1 h_S_),
    binary main_v219 main_v221 main_v222 addf,
    binary main_v216 main_v222 main_v223 addf,
    unary main_v223 main_v224 Host.negf,
    unary main_v224 main_v225 Host.exp,
    nullary main_cst_57 (constant S_ .f32 0x3F800000#32),
    unary main_cst_57 main_v226 (broadcastInDim S200000 ![] bcast_S_S200000),
    binary main_v226 main_v225 main_v227 addf,
    nullary main_cst_58 (constant S_ .f32 0x3F800000#32),
    unary main_cst_58 main_v228 (broadcastInDim S200000 ![] bcast_S_S200000),
    binary main_v228 main_v227 main_v229 Host.divf ]

/-- The five windows of @main as lists. -/
abbrev opsW0 : List (HloOp τ sig (Elt F)) := opsLnA ++ (opsEluA ++ (opsProj ++ (opsR1g ++ opsR1nA)))
abbrev opsW1 : List (HloOp τ sig (Elt F)) := opsR1nB ++ (opsI1g ++ (opsI1n ++ opsR2gA))
abbrev opsW2 : List (HloOp τ sig (Elt F)) := opsR2gB ++ (opsR2n ++ (opsI2g ++ opsI2nA))
abbrev opsW3 : List (HloOp τ sig (Elt F)) := opsI2nB ++ (opsRc ++ opsIcA)
abbrev opsW4 : List (HloOp τ sig (Elt F)) := opsIcB ++ (opsW ++ opsOut)

/-- Every operation of @main in order, the calls written out over their records: 319 operations. -/
abbrev ops : List (HloOp τ sig (Elt F)) := opsW0 ++ (opsW1 ++ (opsW2 ++ (opsW3 ++ opsW4)))

/-! ## @main is that line -/

set_option maxRecDepth 8192 in
theorem main_part0_eq (c : Dev nD) : main_part0 (F := F) c = seq opsW0 := by chain_rfl
set_option maxRecDepth 8192 in
theorem main_part1_eq (c : Dev nD) : main_part1 (F := F) c = seq opsW1 := by chain_rfl
set_option maxRecDepth 8192 in
theorem main_part2_eq (c : Dev nD) : main_part2 (F := F) c = seq opsW2 := by chain_rfl
set_option maxRecDepth 8192 in
theorem main_part3_eq (c : Dev nD) : main_part3 (F := F) c = seq opsW3 := by chain_rfl
set_option maxRecDepth 8192 in
theorem main_part4_eq (c : Dev nD) : main_part4 (F := F) c = seq opsW4 := by chain_rfl

/-- @main runs its five windows in order, each window is its list run as a line, and lists run one after the
    other are their concatenation run as one. -/
theorem main_eq (c : Dev nD) : main (F := F) c = seq ops := by
  have h : main (F := F) c
      = (main_part0 (F := F) c >>= fun _ => main_part1 (F := F) c >>= fun _ => main_part2 (F := F) c >>= fun _ =>
          main_part3 (F := F) c >>= fun _ => main_part4 (F := F) c) := rfl
  rw [h, main_part0_eq, main_part1_eq, main_part2_eq, main_part3_eq, main_part4_eq]
  show _ = seq (opsW0 ++ (opsW1 ++ (opsW2 ++ (opsW3 ++ opsW4))))
  rw [seq_append opsW0, seq_append opsW1, seq_append opsW2, seq_append opsW3]

/-! ## Every operation's buffers are the TensorCore's, and none is left undetermined -/

theorem forall_app {α : Type} {p : α → Prop} {l₁ l₂ : List α} (h₁ : l₁.Forall p) (h₂ : l₂.Forall p) : (l₁ ++ l₂).Forall p :=
  List.forall_iff_forall_mem.mpr fun x hx =>
    (List.mem_append.mp hx).elim (List.forall_iff_forall_mem.mp h₁ x) (List.forall_iff_forall_mem.mp h₂ x)

theorem fresh_app {l₁ l₂ : List (HloOp τ sig (Elt F))} (h₁ : ∀ op ∈ l₁, op.fresh = ∅) (h₂ : ∀ op ∈ l₂, op.fresh = ∅) :
    ∀ op ∈ l₁ ++ l₂, op.fresh = ∅ :=
  fun op h => (List.mem_append.mp h).elim (h₁ op) (h₂ op)

local macro "nb" : term => `(nullary_bufs_sub ..)
local macro "ub" : term => `(unary_bufs_sub ..)
local macro "bb" : term => `(binary_bufs_sub ..)
local macro "tb" : term => `(ternary_bufs_sub ..)
/-- Membership in a literal list, one case at a time: each operation there determines all it writes. -/
local macro "fresh_lit" : tactic =>
  `(tactic| (intro _ h; (repeat (cases h with | head => rfl | tail _ h => ?_)); exact nomatch h))

theorem sub_LnA : (opsLnA : List (HloOp τ sig (Elt F))).Forall fun op => op.bufs ⊆ tcRefs τ sig :=
  ⟨nb, bb, ub, nb, ub, bb, ub, bb, bb, nb, bb, ub, nb, ub, bb, ub, bb, nb, ub, bb, ub, ub, bb⟩
theorem sub_EluA : (opsEluA : List (HloOp τ sig (Elt F))).Forall fun op => op.bufs ⊆ tcRefs τ sig :=
  ⟨nb, ub, bb, nb, ub, bb, nb, ub, ub, tb, ub, nb, ub, bb, tb⟩
theorem sub_Proj : (opsProj : List (HloOp τ sig (Elt F))).Forall fun op => op.bufs ⊆ tcRefs τ sig :=
  ⟨ub, bb, nb, ub, bb, nb, ub, bb, nb, ub, ub, tb, ub, nb, ub, bb, tb, ub, bb⟩
theorem sub_R1g : (opsR1g : List (HloOp τ sig (Elt F))).Forall fun op => op.bufs ⊆ tcRefs τ sig :=
  ⟨nb, ub, bb, nb, ub, bb, tb, ub, bb, nb, ub, bb, nb, ub, bb, tb, ub, bb, bb⟩
theorem sub_R1nA : (opsR1nA : List (HloOp τ sig (Elt F))).Forall fun op => op.bufs ⊆ tcRefs τ sig :=
  ⟨nb, bb, ub, nb, ub, bb, ub, bb, bb, nb, bb, ub⟩
theorem sub_R1nB : (opsR1nB : List (HloOp τ sig (Elt F))).Forall fun op => op.bufs ⊆ tcRefs τ sig :=
  ⟨nb, ub, bb, ub, bb, nb, ub, bb, ub, ub, bb⟩
theorem sub_I1g : (opsI1g : List (HloOp τ sig (Elt F))).Forall fun op => op.bufs ⊆ tcRefs τ sig :=
  ⟨nb, ub, bb, nb, ub, bb, tb, ub, bb, nb, ub, bb, nb, ub, bb, tb, ub, bb, bb⟩
theorem sub_I1n : (opsI1n : List (HloOp τ sig (Elt F))).Forall fun op => op.bufs ⊆ tcRefs τ sig :=
  ⟨nb, bb, ub, nb, ub, bb, ub, bb, bb, nb, bb, ub, nb, ub, bb, ub, bb, nb, ub, bb, ub, ub, bb⟩
theorem sub_R2gA : (opsR2gA : List (HloOp τ sig (Elt F))).Forall fun op => op.bufs ⊆ tcRefs τ sig :=
  ⟨nb, ub, bb, nb, ub, bb, tb⟩
theorem sub_R2gB : (opsR2gB : List (HloOp τ sig (Elt F))).Forall fun op => op.bufs ⊆ tcRefs τ sig :=
  ⟨ub, bb, nb, ub, bb, nb, ub, bb, tb, ub, bb, bb⟩
theorem sub_R2n : (opsR2n : List (HloOp τ sig (Elt F))).Forall fun op => op.bufs ⊆ tcRefs τ sig :=
  ⟨nb, bb, ub, nb, ub, bb, ub, bb, bb, nb, bb, ub, nb, ub, bb, ub, bb, nb, ub, bb, ub, ub, bb⟩
theorem sub_I2g : (opsI2g : List (HloOp τ sig (Elt F))).Forall fun op => op.bufs ⊆ tcRefs τ sig :=
  ⟨nb, ub, bb, nb, ub, bb, tb, ub, bb, nb, ub, bb, nb, ub, bb, tb, ub, bb, bb⟩
theorem sub_I2nA : (opsI2nA : List (HloOp τ sig (Elt F))).Forall fun op => op.bufs ⊆ tcRefs τ sig :=
  ⟨nb, bb, ub, nb, ub, bb⟩
theorem sub_I2nB : (opsI2nB : List (HloOp τ sig (Elt F))).Forall fun op => op.bufs ⊆ tcRefs τ sig :=
  ⟨ub, bb, bb, nb, bb, ub, nb, ub, bb, ub, bb, nb, ub, bb, ub, ub, bb⟩
theorem sub_Rc : (opsRc : List (HloOp τ sig (Elt F))).Forall fun op => op.bufs ⊆ tcRefs τ sig :=
  ⟨bb, bb, bb, nb, bb, ub, nb, ub, bb, ub, bb, bb, nb, bb, ub, nb, ub, bb, ub, bb, nb, ub, bb, ub, ub, bb⟩
theorem sub_IcA : (opsIcA : List (HloOp τ sig (Elt F))).Forall fun op => op.bufs ⊆ tcRefs τ sig :=
  ⟨bb, bb, bb, nb, bb, ub, nb, ub, bb, ub, bb, bb, nb, bb, ub, nb, ub⟩
theorem sub_IcB : (opsIcB : List (HloOp τ sig (Elt F))).Forall fun op => op.bufs ⊆ tcRefs τ sig :=
  ⟨bb, ub, bb, nb, ub, bb, ub, ub, bb⟩
theorem sub_W : (opsW : List (HloOp τ sig (Elt F))).Forall fun op => op.bufs ⊆ tcRefs τ sig :=
  ⟨nb, ub, bb, nb, ub, bb, tb, ub, bb, nb, ub, bb, nb, ub, bb, tb, ub, bb⟩
theorem sub_Out : (opsOut : List (HloOp τ sig (Elt F))).Forall fun op => op.bufs ⊆ tcRefs τ sig :=
  ⟨bb, nb, bb, bb, nb, bb, bb, bb, nb, bb, ub, bb, nb, bb, bb, bb, ub, ub, nb, ub, bb, nb, ub, bb⟩

theorem ops_sub : (ops : List (HloOp τ sig (Elt F))).Forall fun op => op.bufs ⊆ tcRefs τ sig :=
  forall_app (forall_app sub_LnA (forall_app sub_EluA (forall_app sub_Proj (forall_app sub_R1g sub_R1nA))))
    (forall_app (forall_app sub_R1nB (forall_app sub_I1g (forall_app sub_I1n sub_R2gA)))
      (forall_app (forall_app sub_R2gB (forall_app sub_R2n (forall_app sub_I2g sub_I2nA)))
        (forall_app (forall_app sub_I2nB (forall_app sub_Rc sub_IcA))
          (forall_app sub_IcB (forall_app sub_W sub_Out)))))

theorem fresh_LnA : ∀ op ∈ (opsLnA : List (HloOp τ sig (Elt F))), op.fresh = ∅ := by fresh_lit
theorem fresh_EluA : ∀ op ∈ (opsEluA : List (HloOp τ sig (Elt F))), op.fresh = ∅ := by fresh_lit
theorem fresh_Proj : ∀ op ∈ (opsProj : List (HloOp τ sig (Elt F))), op.fresh = ∅ := by fresh_lit
theorem fresh_R1g : ∀ op ∈ (opsR1g : List (HloOp τ sig (Elt F))), op.fresh = ∅ := by fresh_lit
theorem fresh_R1nA : ∀ op ∈ (opsR1nA : List (HloOp τ sig (Elt F))), op.fresh = ∅ := by fresh_lit
theorem fresh_R1nB : ∀ op ∈ (opsR1nB : List (HloOp τ sig (Elt F))), op.fresh = ∅ := by fresh_lit
theorem fresh_I1g : ∀ op ∈ (opsI1g : List (HloOp τ sig (Elt F))), op.fresh = ∅ := by fresh_lit
theorem fresh_I1n : ∀ op ∈ (opsI1n : List (HloOp τ sig (Elt F))), op.fresh = ∅ := by fresh_lit
theorem fresh_R2gA : ∀ op ∈ (opsR2gA : List (HloOp τ sig (Elt F))), op.fresh = ∅ := by fresh_lit
theorem fresh_R2gB : ∀ op ∈ (opsR2gB : List (HloOp τ sig (Elt F))), op.fresh = ∅ := by fresh_lit
theorem fresh_R2n : ∀ op ∈ (opsR2n : List (HloOp τ sig (Elt F))), op.fresh = ∅ := by fresh_lit
theorem fresh_I2g : ∀ op ∈ (opsI2g : List (HloOp τ sig (Elt F))), op.fresh = ∅ := by fresh_lit
theorem fresh_I2nA : ∀ op ∈ (opsI2nA : List (HloOp τ sig (Elt F))), op.fresh = ∅ := by fresh_lit
theorem fresh_I2nB : ∀ op ∈ (opsI2nB : List (HloOp τ sig (Elt F))), op.fresh = ∅ := by fresh_lit
theorem fresh_Rc : ∀ op ∈ (opsRc : List (HloOp τ sig (Elt F))), op.fresh = ∅ := by fresh_lit
theorem fresh_IcA : ∀ op ∈ (opsIcA : List (HloOp τ sig (Elt F))), op.fresh = ∅ := by fresh_lit
theorem fresh_IcB : ∀ op ∈ (opsIcB : List (HloOp τ sig (Elt F))), op.fresh = ∅ := by fresh_lit
theorem fresh_W : ∀ op ∈ (opsW : List (HloOp τ sig (Elt F))), op.fresh = ∅ := by fresh_lit
theorem fresh_Out : ∀ op ∈ (opsOut : List (HloOp τ sig (Elt F))), op.fresh = ∅ := by fresh_lit

theorem fresh_ops : ∀ op ∈ (ops : List (HloOp τ sig (Elt F))), op.fresh = ∅ :=
  fresh_app (fresh_app fresh_LnA (fresh_app fresh_EluA (fresh_app fresh_Proj (fresh_app fresh_R1g fresh_R1nA))))
    (fresh_app (fresh_app fresh_R1nB (fresh_app fresh_I1g (fresh_app fresh_I1n fresh_R2gA)))
      (fresh_app (fresh_app fresh_R2gB (fresh_app fresh_R2n (fresh_app fresh_I2g fresh_I2nA)))
        (fresh_app (fresh_app fresh_I2nB (fresh_app fresh_Rc fresh_IcA))
          (fresh_app fresh_IcB (fresh_app fresh_W fresh_Out)))))

theorem scopedRefs_eq : (Finset.univ.filter fun b : Ref sig .tc => b.isScoped) = ∅ := by decide
theorem scopedSems_eq : (Finset.univ.filter fun sm : SemLoc sig => sm.isScoped .tc) = ∅ := by decide

/-! ## What each stretch computes, from any contents -/

theorem after_app (l₁ l₂ : List (HloOp τ sig (Elt F))) (V : Valuation τ sig (Elt F)) :
    after (l₁ ++ l₂) V = after l₂ (after l₁ V) := by
  induction l₁ generalizing V with
  | nil => rfl
  | cons op l ih => exact ih (op.result V)

/-- A stretch's result buffer: the fold unrolled, each operation's result read at its own buffer and passed over at
    every other, and what is left is the stage function's own text. -/
local macro "stage_val" : tactic =>
  `(tactic| (after_results_simp <;> (try simp only [TRef.ofBuf, TRef.toBuf, cast_eq]) <;> rfl))

variable (V : Valuation τ sig (Elt F))

theorem val_LnA : after opsLnA V (no_index (Proc.devRef .tc main_v17)) = lnRows512 (V (Proc.devRef .tc main_arg0)) := by
  stage_val
theorem val_EluA : after opsEluA V (no_index (Proc.devRef .tc main_v18)) = eluA (V (Proc.devRef .tc main_v17)) := by
  stage_val
theorem val_Proj21 : after opsProj V (no_index (Proc.devRef .tc main_v21))
    = eluB (projT (V (Proc.devRef .tc main_v18)) (V (Proc.devRef .tc main_arg4))) := by
  stage_val
theorem val_Proj23 : after opsProj V (no_index (Proc.devRef .tc main_v23))
    = projT (V (Proc.devRef .tc main_arg1)) (V (Proc.devRef .tc main_arg5)) := by
  stage_val
theorem val_R1g : after opsR1g V (no_index (Proc.devRef .tc main_v38))
    = addf (takeRow (V (Proc.devRef .tc main_arg2)) (V (Proc.devRef .tc main_arg8)))
        (takeRow (V (Proc.devRef .tc main_v21)) (V (Proc.devRef .tc main_arg9))) := by
  stage_val
theorem val_R1n : after opsR1nB (after opsR1nA V) (no_index (Proc.devRef .tc main_v56)) = lnRows256 (V (Proc.devRef .tc main_v38)) := by
  stage_val
theorem val_I1g : after opsI1g V (no_index (Proc.devRef .tc main_v71))
    = addf (takeRow (V (Proc.devRef .tc main_arg3)) (V (Proc.devRef .tc main_arg8)))
        (takeRow (V (Proc.devRef .tc main_v23)) (V (Proc.devRef .tc main_arg9))) := by
  stage_val
theorem val_I1n : after opsI1n V (no_index (Proc.devRef .tc main_v89)) = lnRows256 (V (Proc.devRef .tc main_v71)) := by
  stage_val
theorem val_R2g : after opsR2gB (after opsR2gA V) (no_index (Proc.devRef .tc main_v104))
    = addf (takeRow (V (Proc.devRef .tc main_v23)) (V (Proc.devRef .tc main_arg8)))
        (takeRow (V (Proc.devRef .tc main_arg3)) (V (Proc.devRef .tc main_arg9))) := by
  stage_val
theorem val_R2n : after opsR2n V (no_index (Proc.devRef .tc main_v122)) = lnRows256 (V (Proc.devRef .tc main_v104)) := by
  stage_val
theorem val_I2g : after opsI2g V (no_index (Proc.devRef .tc main_v137))
    = addf (takeRow (V (Proc.devRef .tc main_v21)) (V (Proc.devRef .tc main_arg8)))
        (takeRow (V (Proc.devRef .tc main_arg2)) (V (Proc.devRef .tc main_arg9))) := by
  stage_val
theorem val_I2n : after opsI2nB (after opsI2nA V) (no_index (Proc.devRef .tc main_v155)) = lnRows256 (V (Proc.devRef .tc main_v137)) := by
  stage_val
theorem val_Rc : after opsRc V (no_index (Proc.devRef .tc main_v176))
    = rcT (V (Proc.devRef .tc main_v56)) (V (Proc.devRef .tc main_v89)) (V (Proc.devRef .tc main_v122)) (V (Proc.devRef .tc main_v155)) := by
  stage_val
theorem val_Ic : after opsIcB (after opsIcA V) (no_index (Proc.devRef .tc main_v197))
    = icT (V (Proc.devRef .tc main_v56)) (V (Proc.devRef .tc main_v89)) (V (Proc.devRef .tc main_v122)) (V (Proc.devRef .tc main_v155)) := by
  stage_val
theorem val_W204 : after opsW V (no_index (Proc.devRef .tc main_v204))
    = takeRow86 (V (Proc.devRef .tc main_arg6)) (V (Proc.devRef .tc main_arg10)) := by
  stage_val
theorem val_W211 : after opsW V (no_index (Proc.devRef .tc main_v211))
    = takeRow86 (V (Proc.devRef .tc main_arg7)) (V (Proc.devRef .tc main_arg10)) := by
  stage_val
theorem val_Out : after opsOut V (no_index (Proc.devRef .tc main_v229))
    = scoreT (V (Proc.devRef .tc main_v176)) (V (Proc.devRef .tc main_v197)) (V (Proc.devRef .tc main_v204)) (V (Proc.devRef .tc main_v211)) := by
  stage_val

/-! ## What each stretch leaves alone

The argument buffers are written by no operation; a stage's result is written once and read by later stretches.
For each stretch, the buffers that must come through it unchanged: every argument, and the earlier results still to
be read. -/

theorem keep_LnA (r : Ref sig .tc)
    (hr : r ∈ [main_arg0, main_arg1, main_arg2, main_arg3, main_arg4, main_arg5, main_arg6, main_arg7, main_arg8, main_arg9, main_arg10]) :
    after opsLnA V (no_index (Proc.devRef .tc r)) = V (Proc.devRef .tc r) := by fin_cases hr <;> after_results_simp
theorem keep_EluA (r : Ref sig .tc)
    (hr : r ∈ [main_arg0, main_arg1, main_arg2, main_arg3, main_arg4, main_arg5, main_arg6, main_arg7, main_arg8, main_arg9, main_arg10]) :
    after opsEluA V (no_index (Proc.devRef .tc r)) = V (Proc.devRef .tc r) := by fin_cases hr <;> after_results_simp
theorem keep_Proj (r : Ref sig .tc)
    (hr : r ∈ [main_arg0, main_arg1, main_arg2, main_arg3, main_arg4, main_arg5, main_arg6, main_arg7, main_arg8, main_arg9, main_arg10]) :
    after opsProj V (no_index (Proc.devRef .tc r)) = V (Proc.devRef .tc r) := by fin_cases hr <;> after_results_simp
theorem keep_R1g (r : Ref sig .tc)
    (hr : r ∈ [main_arg0, main_arg1, main_arg2, main_arg3, main_arg4, main_arg5, main_arg6, main_arg7, main_arg8, main_arg9, main_arg10, main_v21, main_v23]) :
    after opsR1g V (no_index (Proc.devRef .tc r)) = V (Proc.devRef .tc r) := by fin_cases hr <;> after_results_simp
theorem keep_R1nA (r : Ref sig .tc)
    (hr : r ∈ [main_arg0, main_arg1, main_arg2, main_arg3, main_arg4, main_arg5, main_arg6, main_arg7, main_arg8, main_arg9, main_arg10, main_v21, main_v23]) :
    after opsR1nA V (no_index (Proc.devRef .tc r)) = V (Proc.devRef .tc r) := by fin_cases hr <;> after_results_simp
theorem keep_R1nB (r : Ref sig .tc)
    (hr : r ∈ [main_arg0, main_arg1, main_arg2, main_arg3, main_arg4, main_arg5, main_arg6, main_arg7, main_arg8, main_arg9, main_arg10, main_v21, main_v23]) :
    after opsR1nB V (no_index (Proc.devRef .tc r)) = V (Proc.devRef .tc r) := by fin_cases hr <;> after_results_simp
theorem keep_I1g (r : Ref sig .tc)
    (hr : r ∈ [main_arg0, main_arg1, main_arg2, main_arg3, main_arg4, main_arg5, main_arg6, main_arg7, main_arg8, main_arg9, main_arg10, main_v21, main_v23, main_v56]) :
    after opsI1g V (no_index (Proc.devRef .tc r)) = V (Proc.devRef .tc r) := by fin_cases hr <;> after_results_simp
theorem keep_I1n (r : Ref sig .tc)
    (hr : r ∈ [main_arg0, main_arg1, main_arg2, main_arg3, main_arg4, main_arg5, main_arg6, main_arg7, main_arg8, main_arg9, main_arg10, main_v21, main_v23, main_v56]) :
    after opsI1n V (no_index (Proc.devRef .tc r)) = V (Proc.devRef .tc r) := by fin_cases hr <;> after_results_simp
theorem keep_R2gA (r : Ref sig .tc)
    (hr : r ∈ [main_arg0, main_arg1, main_arg2, main_arg3, main_arg4, main_arg5, main_arg6, main_arg7, main_arg8, main_arg9, main_arg10, main_v21, main_v56, main_v89]) :
    after opsR2gA V (no_index (Proc.devRef .tc r)) = V (Proc.devRef .tc r) := by fin_cases hr <;> after_results_simp
theorem keep_R2gB (r : Ref sig .tc)
    (hr : r ∈ [main_arg0, main_arg1, main_arg2, main_arg3, main_arg4, main_arg5, main_arg6, main_arg7, main_arg8, main_arg9, main_arg10, main_v21, main_v56, main_v89]) :
    after opsR2gB V (no_index (Proc.devRef .tc r)) = V (Proc.devRef .tc r) := by fin_cases hr <;> after_results_simp
theorem keep_R2n (r : Ref sig .tc)
    (hr : r ∈ [main_arg0, main_arg1, main_arg2, main_arg3, main_arg4, main_arg5, main_arg6, main_arg7, main_arg8, main_arg9, main_arg10, main_v21, main_v56, main_v89]) :
    after opsR2n V (no_index (Proc.devRef .tc r)) = V (Proc.devRef .tc r) := by fin_cases hr <;> after_results_simp
theorem keep_I2g (r : Ref sig .tc)
    (hr : r ∈ [main_arg0, main_arg1, main_arg2, main_arg3, main_arg4, main_arg5, main_arg6, main_arg7, main_arg8, main_arg9, main_arg10, main_v56, main_v89, main_v122]) :
    after opsI2g V (no_index (Proc.devRef .tc r)) = V (Proc.devRef .tc r) := by fin_cases hr <;> after_results_simp
theorem keep_I2nA (r : Ref sig .tc)
    (hr : r ∈ [main_arg0, main_arg1, main_arg2, main_arg3, main_arg4, main_arg5, main_arg6, main_arg7, main_arg8, main_arg9, main_arg10, main_v56, main_v89, main_v122]) :
    after opsI2nA V (no_index (Proc.devRef .tc r)) = V (Proc.devRef .tc r) := by fin_cases hr <;> after_results_simp
theorem keep_I2nB (r : Ref sig .tc)
    (hr : r ∈ [main_arg0, main_arg1, main_arg2, main_arg3, main_arg4, main_arg5, main_arg6, main_arg7, main_arg8, main_arg9, main_arg10, main_v56, main_v89, main_v122]) :
    after opsI2nB V (no_index (Proc.devRef .tc r)) = V (Proc.devRef .tc r) := by fin_cases hr <;> after_results_simp
set_option maxHeartbeats 1000000 in
theorem keep_Rc (r : Ref sig .tc)
    (hr : r ∈ [main_arg0, main_arg1, main_arg2, main_arg3, main_arg4, main_arg5, main_arg6, main_arg7, main_arg8, main_arg9, main_arg10, main_v56, main_v89, main_v122, main_v155]) :
    after opsRc V (no_index (Proc.devRef .tc r)) = V (Proc.devRef .tc r) := by fin_cases hr <;> after_results_simp
theorem keep_IcA (r : Ref sig .tc)
    (hr : r ∈ [main_arg0, main_arg1, main_arg2, main_arg3, main_arg4, main_arg5, main_arg6, main_arg7, main_arg8, main_arg9, main_arg10, main_v176]) :
    after opsIcA V (no_index (Proc.devRef .tc r)) = V (Proc.devRef .tc r) := by fin_cases hr <;> after_results_simp
theorem keep_IcB (r : Ref sig .tc)
    (hr : r ∈ [main_arg0, main_arg1, main_arg2, main_arg3, main_arg4, main_arg5, main_arg6, main_arg7, main_arg8, main_arg9, main_arg10, main_v176]) :
    after opsIcB V (no_index (Proc.devRef .tc r)) = V (Proc.devRef .tc r) := by fin_cases hr <;> after_results_simp
theorem keep_W (r : Ref sig .tc)
    (hr : r ∈ [main_arg0, main_arg1, main_arg2, main_arg3, main_arg4, main_arg5, main_arg6, main_arg7, main_arg8, main_arg9, main_arg10, main_v176, main_v197]) :
    after opsW V (no_index (Proc.devRef .tc r)) = V (Proc.devRef .tc r) := by fin_cases hr <;> after_results_simp
theorem keep_Out (r : Ref sig .tc)
    (hr : r ∈ [main_arg0, main_arg1, main_arg2, main_arg3, main_arg4, main_arg5, main_arg6, main_arg7, main_arg8, main_arg9, main_arg10]) :
    after opsOut V (no_index (Proc.devRef .tc r)) = V (Proc.devRef .tc r) := by fin_cases hr <;> after_results_simp

/-! ## The whole line -/

/-- The result buffer after the whole line: the stretches one after the other, each read through its value lemma
    at the buffer it writes and passed over at the others, compose to the stage functions' composition. -/
theorem after_ops_res : after ops V (Proc.devRef .tc main_v229)
    = resOf (V (Proc.devRef .tc main_arg0)) (V (Proc.devRef .tc main_arg1)) (V (Proc.devRef .tc main_arg2))
        (V (Proc.devRef .tc main_arg3)) (V (Proc.devRef .tc main_arg4)) (V (Proc.devRef .tc main_arg5))
        (V (Proc.devRef .tc main_arg6)) (V (Proc.devRef .tc main_arg7)) (V (Proc.devRef .tc main_arg8))
        (V (Proc.devRef .tc main_arg9)) (V (Proc.devRef .tc main_arg10)) := by
  simp only [ops, opsW0, opsW1, opsW2, opsW3, opsW4, after_app]
  simp (disch := decide) only [val_LnA, val_EluA, val_Proj21, val_Proj23, val_R1g, val_R1n, val_I1g, val_I1n, val_R2g, val_R2n,
    val_I2g, val_I2n, val_Rc, val_Ic, val_W204, val_W211, val_Out,
    keep_LnA, keep_EluA, keep_Proj, keep_R1g, keep_R1nA, keep_R1nB, keep_I1g, keep_I1n, keep_R2gA, keep_R2gB, keep_R2n,
    keep_I2g, keep_I2nA, keep_I2nB, keep_Rc, keep_IcA, keep_IcB, keep_W, keep_Out]
  rfl

/-- An argument buffer after the whole line is as it was. -/
theorem after_ops_arg (r : Ref sig .tc)
    (hr : r ∈ [main_arg0, main_arg1, main_arg2, main_arg3, main_arg4, main_arg5, main_arg6, main_arg7, main_arg8, main_arg9, main_arg10]) :
    after ops V (Proc.devRef .tc r) = V (Proc.devRef .tc r) := by
  simp only [ops, opsW0, opsW1, opsW2, opsW3, opsW4, after_app]
  fin_cases hr <;>
    simp (disch := decide) only [keep_LnA, keep_EluA, keep_Proj, keep_R1g, keep_R1nA, keep_R1nB, keep_I1g, keep_I1n, keep_R2gA, keep_R2gB,
      keep_R2n, keep_I2g, keep_I2nA, keep_I2nB, keep_Rc, keep_IcA, keep_IcB, keep_W, keep_Out]

/-- On every device, for any float values, from any memory with zero counters: every weakly fair execution of
    @main terminates with the result buffer at the stage functions' composition of the arguments' launch contents,
    and the arguments unchanged. -/
theorem run (m : (l : Loc nD τ sig) → Buf (Elt F) l) (ρ : Dev nD → PrngReg) :
    θ_run defs (onTc (τ := τ) (main (F := F))) ⟨m, fun _ => 0, ρ⟩ fun r => ∀ c : Dev nD,
      r.2.mem ((c.tc : Thread nD τ).loc main_v229) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c =>
      ⟨(h c main_v229).trans (after_ops_res (launchContents m c)),
       (h c main_arg0).trans (after_ops_arg (launchContents m c) main_arg0 (by decide)),
       (h c main_arg1).trans (after_ops_arg (launchContents m c) main_arg1 (by decide)),
       (h c main_arg2).trans (after_ops_arg (launchContents m c) main_arg2 (by decide)),
       (h c main_arg3).trans (after_ops_arg (launchContents m c) main_arg3 (by decide)),
       (h c main_arg4).trans (after_ops_arg (launchContents m c) main_arg4 (by decide)),
       (h c main_arg5).trans (after_ops_arg (launchContents m c) main_arg5 (by decide)),
       (h c main_arg6).trans (after_ops_arg (launchContents m c) main_arg6 (by decide)),
       (h c main_arg7).trans (after_ops_arg (launchContents m c) main_arg7 (by decide)),
       (h c main_arg8).trans (after_ops_arg (launchContents m c) main_arg8 (by decide)),
       (h c main_arg9).trans (after_ops_arg (launchContents m c) main_arg9 (by decide)),
       (h c main_arg10).trans (after_ops_arg (launchContents m c) main_arg10 (by decide))⟩)
    (run_seq scopedRefs_eq scopedSems_eq defs main (fun _ => ops) main_eq (fun _ => ops_sub) m ρ (fun _ => fresh_ops))

end Cert.ReferenceIdeal.RefRun

end
-- ==== Proof.RVal.lean ====
/-
  The reference program's result, read at an entry, is the specification in the reference's arrangement.

  Every stage of the reference is a composition of pointwise operations, broadcasts, row sums, one matrix product
  and row lookups. Read at an index given by its coordinates, each stage is the matching stage of the
  specification on the extended reals: a row's layer norm is (v - mean) * rsqrt (var + eps) with the mean and the
  variance the row sums over the literal count; elu written with two selects is the identity on positives and
  exp (min x 0) - 1 elsewhere; the product with a transposed weight is the sum over the features; a lookup with an
  index word in range reads the row the word names; the score is the logistic of the four row sums combined.
-/
import proofs.«417564_j14156212208090_3_alg».proof.Proof.RefRun
import proofs.«417564_j14156212208090_3_alg».proof.Proof.Spec
import proofs.«417564_j14156212208090_3_alg».proof.Proof.SpecOf
import proofs.«417564_j14156212208090_3_alg».proof.Proof.LibRows
import proofs.«417564_j14156212208090_3_alg».proof.Proof.LibGatherScatter
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost
import Idealize.ShloMosaic.Lib.StackMember

open scoped BigOperators

noncomputable section

namespace Cert.ReferenceIdeal.RefValue

open Cert.ReferenceIdeal Cert.ReferenceIdeal.RefRun Idealize.ShloMosaic Idealize.ShloMosaic.ValueIdx

/-! ## Broadcasts, a row sum and a product with a transposed weight, read at coordinates -/

section Generic
variable {α : Type}

/-- A vector `[a]` broadcast to the column `[a, 1]` reads, at `(p, u)`, the vector at `p`. -/
theorem bcast_a_a1_apply {a : ℕ} (v : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h v (ix2 p u) = v (ix1 p) := by
  refine broadcastInDim_apply _ h v _ _ fun ax => ?_
  match ax with
  | ⟨0, _⟩ =>
    show p.val = if a = 1 then 0 else p.val
    split
    · have := p.isLt; omega
    · rfl

/-- A column `[a, 1]` broadcast over the lanes to `[a, b]` reads, at `(p, q)`, the column's entry of row `p`. -/
theorem bcast_a1_ab_apply {a b : ℕ} (v : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h v (ix2 p q) = v (ix2 p (0 : Fin 1)) := by
  refine broadcastInDim_apply _ h v _ _ fun ax => ?_
  match ax with
  | ⟨0, _⟩ =>
    show p.val = if a = 1 then 0 else p.val
    split
    · have := p.isLt; omega
    · rfl
  | ⟨1, _⟩ => rfl

/-- A literal broadcast to any shape reads the extended real its word encodes. -/
theorem bcast_const_apply {T : Shape} (h : (⟨0, ![]⟩ : Shape).BroadcastsInDim T ![]) (w : BitVec 32) (j : T.Idx) :
    broadcastInDim T ![] h (constant (F := Ideal) ⟨0, ![]⟩ .f32 w) j = Ideal.ofBits .f32 w := rfl

/-- The host's sum of an `[a, b]` array along its lanes from the literal zero, at row `r`: the sum of the row. -/
theorem hostReduceAdd_lane {a b : ℕ} (x : FVec Ideal ⟨2, ![a, b]⟩ .f32)
    (h' : (⟨2, ![a, b]⟩ : Shape).ReducesTo [1] ⟨1, ![a]⟩) (hu : 0 < (⟨0, ![]⟩ : Shape).numel) (r : Fin a) :
    Host.reduceAdd x (constant (F := Ideal) ⟨0, ![]⟩ .f32 0x00000000#32) h' hu (ix1 r) = ∑ k : Fin b, x (ix2 r k) := by
  have h : (⟨2, ![a, b]⟩ : Shape).Reduces [1] ⟨1, ![a]⟩ := ⟨h'.1, Nat.one_pos, h'.2⟩
  show Ideal.hostReduceAdd h' x (Ideal.ofBits .f32 0x00000000#32) (ix1 r) = _
  rw [Ideal.hostReduceAdd_single h' h, Ideal.ofBits_zero_f32, zero_add]
  exact Finset.sum_congr rfl fun k _ => congrArg x (Cert.Proof.LibRows.lift_lane h r k)

end Generic

/-! ## The host's pointwise operations and two words, read at an element -/

section Pointwise
variable {s : Shape}

/-- The host's reciprocal square root at an index is the extended reals' of the element. -/
theorem hostRsqrt_apply (x : FVec Ideal s .f32) (i : s.Idx) : Host.rsqrt x i = Ideal.rsqrt (x i) := rfl
/-- The host's exponential at an index is the exponential of the element. -/
theorem hostExp_apply (x : FVec Ideal s .f32) (i : s.Idx) : Host.exp x i = Ideal.exp (x i) := rfl
/-- The host's negation at an index is the negation of the element. -/
theorem hostNegf_apply (x : FVec Ideal s .f32) (i : s.Idx) : Host.negf x i = -(x i) := rfl

end Pointwise

/-- Above zero the comparison "greater than zero" is the set bit … -/
theorem cmp_ogt_zero_pos {x : EReal} (h : 0 < x) : Ideal.cmp .ogt x 0 = 1#1 := by
  show BitVec.ofBool (decide (0 < x)) = 1#1
  rw [decide_eq_true h]; rfl
/-- … and elsewhere the cleared one. -/
theorem cmp_ogt_zero_not {x : EReal} (h : ¬ 0 < x) : Ideal.cmp .ogt x 0 = 0#1 := by
  show BitVec.ofBool (decide (0 < x)) = 0#1
  rw [decide_eq_false h]; rfl

/-- elu as the reference spells it on one element, where x > 0 then x else 1 * (exp (where x > 0 then 0 else x) - 1),
    is the specification's: off the positives the inner choice is x itself, which is min x 0, and 1 * y = y on
    every extended real. -/
theorem elu_scalar (x : EReal) :
    Scalar.select (Ideal.cmp .ogt x (Ideal.ofBits .f32 0x00000000#32)) x
        (Ideal.ofBits .f32 0x3F800000#32 *
          (Ideal.exp (Scalar.select (Ideal.cmp .ogt x (Ideal.ofBits .f32 0x00000000#32)) (Ideal.ofBits .f32 0x00000000#32) x) - 1))
      = Spec.elu x := by
  rw [Ideal.ofBits_zero_f32, Ideal.ofBits_one_f32, one_mul]
  unfold Spec.elu
  by_cases h : (0 : EReal) < x
  · rw [cmp_ogt_zero_pos h, select_one, if_pos h]
  · rw [cmp_ogt_zero_not h, select_zero, select_zero, if_neg h, min_eq_left (not_lt.mp h)]

/-- A word whose signed value is not negative is not below zero: the compare's bit is cleared. -/
theorem slt_zero_of_nonneg (w : BitVec 32) (h : 0 ≤ w.toInt) : IntOp.cmpi .slt w 0#32 = 0#1 := by
  have hs : w.slt 0#32 = false := by
    unfold BitVec.slt
    exact decide_eq_false (by rw [BitVec.toInt_zero]; exact not_lt.mpr h)
  show BitVec.ofBool (w.slt 0#32) = 0#1
  rw [hs]; rfl

/-! ## The encoder: layer norm of the 512-wide rows, elu, the projections -/

/-- The mean column of a [2000,512] array at row p is the mean of the row. -/
theorem mean512_apply (x : Vec Ideal S2000x512 .f32) (p : Fin 2000) (u : Fin 1) :
    mean512 (F := Ideal) x (ix2 p u) = Spec.mean Spec.c512 (fun k => x (ix2 p k)) := by
  unfold mean512 Spec.mean
  rw [hostDivf_apply, bcast_a_a1_apply, hostReduceAdd_lane, bcast_const_apply]

/-- The variance column at row p is the variance of the row. -/
theorem var512_apply (x : Vec Ideal S2000x512 .f32) (p : Fin 2000) (u : Fin 1) :
    var512 (F := Ideal) x (ix2 p u) = Spec.var Spec.c512 (fun k => x (ix2 p k)) := by
  unfold var512 Spec.var
  rw [hostDivf_apply, bcast_a_a1_apply, hostReduceAdd_lane, bcast_const_apply]
  refine congrArg (fun t : EReal => Ideal.div t Spec.c512) (Finset.sum_congr rfl fun k _ => ?_)
  rw [mulf_apply, subf_apply, bcast_a1_ab_apply, mean512_apply]

/-- The layer norm of a [2000,512] array at (p, q) is the layer norm of row p at q. -/
theorem lnRows512_apply (x : Vec Ideal S2000x512 .f32) (p : Fin 2000) (q : Fin 512) :
    lnRows512 (F := Ideal) x (ix2 p q) = Spec.ln Spec.c512 (fun k => x (ix2 p k)) q := by
  unfold lnRows512 Spec.ln
  rw [mulf_apply, subf_apply, bcast_a1_ab_apply, mean512_apply, bcast_a1_ab_apply, hostRsqrt_apply, addf_apply,
    var512_apply, bcast_const_apply]

/-- The first elu at an entry. -/
theorem eluA_apply (x : Vec Ideal S2000x512 .f32) (i : S2000x512.Idx) : eluA (F := Ideal) x i = Spec.elu (x i) :=
  elu_scalar (x i)

/-- The second elu at an entry. -/
theorem eluB_apply (x : Vec Ideal S2000x256 .f32) (i : S2000x256.Idx) : eluB (F := Ideal) x i = Spec.elu (x i) :=
  elu_scalar (x i)

/-- A [2000,512] array times the transpose of a [256,512] weight, at (n, d): the sum over the 512 features. -/
theorem projT_apply (x : Vec Ideal S2000x512 .f32) (w : Vec Ideal S256x512 .f32) (n : Fin 2000) (d : Fin 256) :
    projT (F := Ideal) x w (ix2 n d) = ∑ h : Fin 512, x (ix2 n h) * w (ix2 d h) := by
  unfold projT
  refine (StackMember.dotGeneral_plain_apply (m := 2000) (k := 512) (n := 256) none x _ n d).trans ?_
  exact Finset.sum_congr rfl fun h _ => congrArg (x (ix2 n h) * ·) (transpose_ix2_apply w _ h d)

/-- The fingerprint embedding at (n, d) is the specification's. -/
theorem xfpT_apply (a0 : Vec Ideal S2000x512 .f32) (a4 : Vec Ideal S256x512 .f32) (n : Fin 2000) (d : Fin 256) :
    xfpT (F := Ideal) a0 a4 (ix2 n d) = Spec.tXf a0 a4 n d := by
  unfold xfpT
  rw [eluB_apply, projT_apply]
  show _ = Spec.elu (∑ h : Fin 512, Spec.elu (Spec.ln Spec.c512 (fun k => a0 (ix2 n k)) h) * a4 (ix2 d h))
  refine congrArg Spec.elu (Finset.sum_congr rfl fun h _ => ?_)
  rw [eluA_apply, lnRows512_apply]

/-- The skip embedding at (n, d) is the specification's. -/
theorem xskipT_apply (a1 : Vec Ideal S2000x512 .f32) (a5 : Vec Ideal S256x512 .f32) (n : Fin 2000) (d : Fin 256) :
    xskipT (F := Ideal) a1 a5 (ix2 n d) = Spec.tXs a1 a5 n d :=
  projT_apply a1 a5 n d

/-! ## The row lookups -/

/-- The wrapped index column of a word that is not negative is the word: the compare with zero fails, the select keeps it. -/
theorem wrapIdx2000_apply (idx : Vec Ideal S200000 .i32) (e : Fin 200000) (u : Fin 1) (h : 0 ≤ (idx (ix1 e)).toInt) :
    wrapIdx2000 (F := Ideal) idx (ix2 e u) = idx (ix1 e) := by
  unfold wrapIdx2000
  rw [bcast_a_a1_apply]
  show Scalar.select (IntOp.cmpi .slt (idx (ix1 e)) 0#32) _ (idx (ix1 e)) = _
  rw [slt_zero_of_nonneg _ h, select_zero]

/-- The same for the table of 86 rows. -/
theorem wrapIdx86_apply (idx : Vec Ideal S200000 .i32) (e : Fin 200000) (u : Fin 1) (h : 0 ≤ (idx (ix1 e)).toInt) :
    wrapIdx86 (F := Ideal) idx (ix2 e u) = idx (ix1 e) := by
  unfold wrapIdx86
  rw [bcast_a_a1_apply]
  show Scalar.select (IntOp.cmpi .slt (idx (ix1 e)) 0#32) _ (idx (ix1 e)) = _
  rw [slt_zero_of_nonneg _ h, select_zero]

/-- A row lookup in a [2000,256] table at a word that is not negative: at (e, q) the table at the row the word names. -/
theorem takeRow_apply (tbl : Vec Ideal S2000x256 .f32) (idx : Vec Ideal S200000 .i32) (e : Fin 200000) (q : Fin 256)
    (h : 0 ≤ (idx (ix1 e)).toInt) :
    takeRow (F := Ideal) tbl idx (ix2 e q) = tbl (ix2 (Spec.drugRow (idx (ix1 e))) q) := by
  unfold takeRow
  refine (Cert.Proof.GS.gather_gathD_apply (N := 2000) (E := 200000) (D := 256) (by decide)
    Gen.gather_S2000x256_S200000x1_S200000x256_1_0_n_n_0_1_1256_wf tbl _ e q).trans ?_
  rw [wrapIdx2000_apply idx e 0 h]

/-- A row lookup in an [86,256] relation table likewise. -/
theorem takeRow86_apply (tbl : Vec Ideal S86x256 .f32) (idx : Vec Ideal S200000 .i32) (e : Fin 200000) (q : Fin 256)
    (h : 0 ≤ (idx (ix1 e)).toInt) :
    takeRow86 (F := Ideal) tbl idx (ix2 e q) = tbl (ix2 (Spec.relRow (idx (ix1 e))) q) := by
  unfold takeRow86
  refine (Cert.Proof.GS.gather_gathD_apply (N := 86) (E := 200000) (D := 256) (by decide)
    Gen.gather_S86x256_S200000x1_S200000x256_1_0_n_n_0_1_1256_wf tbl _ e q).trans ?_
  rw [wrapIdx86_apply idx e 0 h]

/-! ## The layer norm of the 256-wide rows -/

/-- The sum of row e of a [200000,256] array. -/
theorem rowSum256_apply (x : Vec Ideal S200000x256 .f32) (e : Fin 200000) :
    rowSum256 (F := Ideal) x (ix1 e) = ∑ k : Fin 256, x (ix2 e k) :=
  hostReduceAdd_lane x _ _ e

/-- The mean column of a [200000,256] array at row e is the mean of the row. -/
theorem mean256_apply (x : Vec Ideal S200000x256 .f32) (e : Fin 200000) (u : Fin 1) :
    mean256 (F := Ideal) x (ix2 e u) = Spec.mean Spec.c256 (fun k => x (ix2 e k)) := by
  unfold mean256 Spec.mean
  rw [hostDivf_apply, bcast_a_a1_apply, rowSum256_apply, bcast_const_apply]

/-- The variance column at row e is the variance of the row. -/
theorem var256_apply (x : Vec Ideal S200000x256 .f32) (e : Fin 200000) (u : Fin 1) :
    var256 (F := Ideal) x (ix2 e u) = Spec.var Spec.c256 (fun k => x (ix2 e k)) := by
  unfold var256 Spec.var
  rw [hostDivf_apply, bcast_a_a1_apply, rowSum256_apply, bcast_const_apply]
  refine congrArg (fun t : EReal => Ideal.div t Spec.c256) (Finset.sum_congr rfl fun k _ => ?_)
  rw [mulf_apply, subf_apply, bcast_a1_ab_apply, mean256_apply]

/-- The layer norm of a [200000,256] array at (e, q) is the layer norm of row e at q. -/
theorem lnRows256_apply (x : Vec Ideal S200000x256 .f32) (e : Fin 200000) (q : Fin 256) :
    lnRows256 (F := Ideal) x (ix2 e q) = Spec.ln Spec.c256 (fun k => x (ix2 e k)) q := by
  unfold lnRows256 Spec.ln
  rw [mulf_apply, subf_apply, bcast_a1_ab_apply, mean256_apply, bcast_a1_ab_apply, hostRsqrt_apply, addf_apply,
    var256_apply, bcast_const_apply]

/-- The same with the row named: whatever row e of the array is known to be, the layer norm at (e, q) is that row's. -/
theorem lnRows256_apply_of (x : Vec Ideal S200000x256 .f32) (e : Fin 200000) (q : Fin 256) (f : Fin 256 → EReal)
    (hv : ∀ k, x (ix2 e k) = f k) : lnRows256 (F := Ideal) x (ix2 e q) = Spec.ln Spec.c256 f q := by
  rw [lnRows256_apply, show (fun k => x (ix2 e k)) = f from funext hv]

/-! ## The pair stages, the complex product and the score -/

/-- A row of one table at the first index plus a row of another at the second, layer-normalised: with the two tables
    known entry by entry, at (e, q) it is the layer norm of the sum of the two named rows. -/
theorem pairLn_apply (t1 t2 : Vec Ideal S2000x256 .f32) (T1 T2 : Fin 2000 → Fin 256 → EReal)
    (ht1 : ∀ n d, t1 (ix2 n d) = T1 n d) (ht2 : ∀ n d, t2 (ix2 n d) = T2 n d)
    (i1 i2 : Vec Ideal S200000 .i32) (e : Fin 200000) (q : Fin 256)
    (h1 : 0 ≤ (i1 (ix1 e)).toInt) (h2 : 0 ≤ (i2 (ix1 e)).toInt) :
    pairLn (F := Ideal) t1 t2 i1 i2 (ix2 e q)
      = Spec.ln Spec.c256 (fun d => T1 (Spec.drugRow (i1 (ix1 e))) d + T2 (Spec.drugRow (i2 (ix1 e))) d) q := by
  unfold pairLn
  refine lnRows256_apply_of _ e q _ fun k => ?_
  rw [addf_apply, takeRow_apply _ _ _ _ h1, takeRow_apply _ _ _ _ h2, ht1, ht2]

/-- The real part of the complex product, layer-normalised, with the four factors' rows named. -/
theorem rcT_apply (R1 I1 R2 I2 : Vec Ideal S200000x256 .f32) (e : Fin 200000) (q : Fin 256)
    (r1 i1 r2 i2 : Fin 256 → EReal) (hR1 : ∀ d, R1 (ix2 e d) = r1 d) (hI1 : ∀ d, I1 (ix2 e d) = i1 d)
    (hR2 : ∀ d, R2 (ix2 e d) = r2 d) (hI2 : ∀ d, I2 (ix2 e d) = i2 d) :
    rcT (F := Ideal) R1 I1 R2 I2 (ix2 e q) = Spec.ln Spec.c256 (fun d => r1 d * r2 d - i1 d * i2 d) q := by
  unfold rcT
  refine lnRows256_apply_of _ e q _ fun k => ?_
  rw [subf_apply, mulf_apply, mulf_apply, hR1, hR2, hI1, hI2]

/-- The imaginary part likewise. -/
theorem icT_apply (R1 I1 R2 I2 : Vec Ideal S200000x256 .f32) (e : Fin 200000) (q : Fin 256)
    (r1 i1 r2 i2 : Fin 256 → EReal) (hR1 : ∀ d, R1 (ix2 e d) = r1 d) (hI1 : ∀ d, I1 (ix2 e d) = i1 d)
    (hR2 : ∀ d, R2 (ix2 e d) = r2 d) (hI2 : ∀ d, I2 (ix2 e d) = i2 d) :
    icT (F := Ideal) R1 I1 R2 I2 (ix2 e q) = Spec.ln Spec.c256 (fun d => r1 d * i2 d + i1 d * r2 d) q := by
  unfold icT
  refine lnRows256_apply_of _ e q _ fun k => ?_
  rw [addf_apply, mulf_apply, mulf_apply, hR1, hR2, hI1, hI2]

/-- The score at e, with the four rows named: the logistic, written 1 / (1 + exp (-s)), of the four row sums combined. -/
theorem scoreT_apply (Rc Ic wr wi : Vec Ideal S200000x256 .f32) (e : Fin 200000)
    (rc ic vr vi : Fin 256 → EReal) (hRc : ∀ d, Rc (ix2 e d) = rc d) (hIc : ∀ d, Ic (ix2 e d) = ic d)
    (hwr : ∀ d, wr (ix2 e d) = vr d) (hwi : ∀ d, wi (ix2 e d) = vi d) :
    scoreT (F := Ideal) Rc Ic wr wi (ix1 e)
      = Ideal.logistic ((∑ d, rc d * vr d + ∑ d, ic d * vi d) + (-(∑ d, rc d * vi d) + ∑ d, ic d * vr d)) := by
  unfold scoreT Ideal.logistic
  rw [hostDivf_apply, bcast_const_apply, addf_apply, bcast_const_apply, hostExp_apply, hostNegf_apply, addf_apply, addf_apply,
    addf_apply, hostNegf_apply, rowSum256_apply, rowSum256_apply, rowSum256_apply, rowSum256_apply, Ideal.ofBits_one_f32]
  simp only [mulf_apply, hRc, hIc, hwr, hwi]

/-! ## The whole reference -/

/-- The reference's result at pair e is the specification in the reference's arrangement, for index words in range. -/
theorem resOf_apply (a0 a1 : Vec Ideal S2000x512 .f32) (a2 a3 : Vec Ideal S2000x256 .f32) (a4 a5 : Vec Ideal S256x512 .f32)
    (a6 a7 : Vec Ideal S86x256 .f32) (i1 i2 i3 : Vec Ideal S200000 .i32)
    (h1 : ∀ e, 0 ≤ (i1 e).toInt ∧ (i1 e).toInt < 2000) (h2 : ∀ e, 0 ≤ (i2 e).toInt ∧ (i2 e).toInt < 2000)
    (h3 : ∀ e, 0 ≤ (i3 e).toInt ∧ (i3 e).toInt < 86) (e : Fin 200000) :
    resOf (F := Ideal) a0 a1 a2 a3 a4 a5 a6 a7 i1 i2 i3 (ix1 e) = Cert.Spec.ofArraysR a0 a1 a2 a3 a4 a5 a6 a7 i1 i2 i3 e := by
  have H1 := (h1 (ix1 e)).1
  have H2 := (h2 (ix1 e)).1
  have H3 := (h3 (ix1 e)).1
  -- the four layer-normalised pair sums, row e
  have hR1 : ∀ d, pairLn (F := Ideal) a2 (xfpT a0 a4) i1 i2 (ix2 e d)
      = Spec.R1 (fun n d => a2 (ix2 n d)) (Spec.tXf a0 a4) (Spec.drugRow (i1 (ix1 e))) (Spec.drugRow (i2 (ix1 e))) d := fun d =>
    pairLn_apply a2 (xfpT a0 a4) _ _ (fun _ _ => rfl) (xfpT_apply a0 a4) i1 i2 e d H1 H2
  have hI1 : ∀ d, pairLn (F := Ideal) a3 (xskipT a1 a5) i1 i2 (ix2 e d)
      = Spec.I1 (fun n d => a3 (ix2 n d)) (Spec.tXs a1 a5) (Spec.drugRow (i1 (ix1 e))) (Spec.drugRow (i2 (ix1 e))) d := fun d =>
    pairLn_apply a3 (xskipT a1 a5) _ _ (fun _ _ => rfl) (xskipT_apply a1 a5) i1 i2 e d H1 H2
  have hR2 : ∀ d, pairLn (F := Ideal) (xskipT a1 a5) a3 i1 i2 (ix2 e d)
      = Spec.R2 (fun n d => a3 (ix2 n d)) (Spec.tXs a1 a5) (Spec.drugRow (i1 (ix1 e))) (Spec.drugRow (i2 (ix1 e))) d := fun d =>
    pairLn_apply (xskipT a1 a5) a3 _ _ (xskipT_apply a1 a5) (fun _ _ => rfl) i1 i2 e d H1 H2
  have hI2 : ∀ d, pairLn (F := Ideal) (xfpT a0 a4) a2 i1 i2 (ix2 e d)
      = Spec.I2 (fun n d => a2 (ix2 n d)) (Spec.tXf a0 a4) (Spec.drugRow (i1 (ix1 e))) (Spec.drugRow (i2 (ix1 e))) d := fun d =>
    pairLn_apply (xfpT a0 a4) a2 _ _ (xfpT_apply a0 a4) (fun _ _ => rfl) i1 i2 e d H1 H2
  unfold resOf Spec.ofArraysR Spec.outR Spec.logitR
  exact scoreT_apply _ _ _ _ e _ _ _ _
    (fun d => rcT_apply _ _ _ _ e d _ _ _ _ hR1 hI1 hR2 hI2)
    (fun d => icT_apply _ _ _ _ e d _ _ _ _ hR1 hI1 hR2 hI2)
    (fun d => takeRow86_apply a6 i3 e d H3)
    (fun d => takeRow86_apply a7 i3 e d H3)

end Cert.ReferenceIdeal.RefValue

end
-- ==== Proof.PreDecode.lean ====
/-
  The precondition, read back. The precondition is a conjunction of eleven tests, each an "all" over one array: for each
  of the eight float arrays, every entry x has |x| < +∞; for each of the three index arrays, every entry lies in
  [0, N). A conjunction of one-bit words is 1 exactly when each is; an "all" that is 1 had a 1 at every entry; |x| < +∞ on
  the extended reals says x is neither infinity, so it is a real number; the two signed comparisons say 0 ≤ idx < N as
  integers.
-/
import proofs.«417564_j14156212208090_3_alg».proof.Pre_finite_inputs
import proofs.«417564_j14156212208090_3_alg».proof.Proof.Spec
import Idealize.ShloMosaic.Lib.ReduceAll
import Idealize.ShloMosaic.Lib.StableHlo.Predicate
import Idealize.ShloMosaic.PureOps.Ideal
import Idealize.ShloMosaic.Lib.ValueIdx

noncomputable section

namespace Cert.PreDecode

open Idealize.ShloMosaic
open Idealize.ShloMosaic.ValueIdx
open Cert.Pre_finite_inputs

/-- One value: max x (-x) < +∞ leaves x neither infinity, so x is a real number. -/
theorem isReal_of_abs_lt_top (x : EReal)
    (h : Ideal.cmp .olt (max x (-x)) (Ideal.ofBits .f32 0x7F800000#32) = 1#1) : Cert.Spec.IsReal x := by
  have htop : Ideal.ofBits .f32 0x7F800000#32 = ⊤ := by simp [Ideal.ofBits, Ideal.ieee]
  rw [htop] at h
  have h' : BitVec.ofBool (decide (max x (-x) < ⊤)) = 1#1 := h
  have hlt : max x (-x) < ⊤ := of_decide_eq_true ((StableHlo.Predicate.ofBool_eq_one_iff _).1 h')
  rw [max_lt_iff] at hlt
  refine ⟨x.toReal, (EReal.coe_toReal (ne_of_lt hlt.1) ?_).symm⟩
  intro hb
  rw [hb] at hlt
  exact absurd hlt.2 (by simp)

/-- The all-finite test of one array, of any shape: if the "all" of |a| < +∞ is 1, every entry of a is a real number. -/
theorem all_finite {s : Shape} (hb : S_.BroadcastsInDim s (![] : Fin 0 → Fin s.rank)) {axes : List (Fin s.rank)}
    (hr : s.ReducesTo axes S_) (h0 : 0 < S_.numel) (a : FVec Ideal s .f32)
    (h : Host.reduce IntOp.andi
          (cmpf .olt (Host.absf a) (broadcastInDim s ![] hb (constant (F := Ideal) S_ .f32 0x7F800000#32)))
          (constantI S_ 1 1#1) hr h0 ix0 = 1#1) :
    ∀ i, Cert.Spec.IsReal (a i) := by
  intro i
  have e := Host.reduce_andi_eq_one _ _ hr h0 ix0 h i (funext fun d => d.elim0)
  exact isReal_of_abs_lt_top (a i) e

/-- The range test of one index array, of any shape: if the "all" of (lo ≤ idx) ∧ (idx < hi), both signed, is 1, every
    entry lies between the two bounds as integers (L and H the bounds' signed values). -/
theorem all_in_range {s : Shape} (hb : S_.BroadcastsInDim s (![] : Fin 0 → Fin s.rank)) {axes : List (Fin s.rank)}
    (hr : s.ReducesTo axes S_) (h0 : 0 < S_.numel) (idx : IVec s 32) (lo hi : BitVec 32) (L H : Int)
    (hlo : lo.toInt = L) (hhi : hi.toInt = H)
    (h : Host.reduce IntOp.andi
          (andi (cmpi .sge idx (broadcastInDim s ![] hb (constantI S_ 32 lo)))
                (cmpi .slt idx (broadcastInDim s ![] hb (constantI S_ 32 hi))))
          (constantI S_ 1 1#1) hr h0 ix0 = 1#1) :
    ∀ e, L ≤ (idx e).toInt ∧ (idx e).toInt < H := by
  intro e
  subst hlo hhi
  have e1 := Host.reduce_andi_eq_one _ _ hr h0 ix0 h e (funext fun d => d.elim0)
  have e2 : IntOp.andi (IntOp.cmpi .sge (idx e) lo) (IntOp.cmpi .slt (idx e) hi) = 1#1 := e1
  obtain ⟨hge, hlt⟩ := IntOp.andi_eq_one.1 e2
  exact ⟨IntOp.cmpi_sge.1 hge, IntOp.cmpi_slt.1 hlt⟩

/-- A conjunction of two one-bit scalars that is 1 has both 1. -/
theorem andi_at {x y : IVec S_ 1} (h : andi x y ix0 = 1#1) : x ix0 = 1#1 ∧ y ix0 = 1#1 := IntOp.andi_eq_one.1 h

/-- The precondition read back: the eight float arrays hold real numbers and the three index arrays lie in their ranges. -/
theorem decode [Cert.Pre_finite_inputs.Facts]
    (a0 a1 : FVec Ideal S2000x512 .f32) (a2 a3 : FVec Ideal S2000x256 .f32) (a4 a5 : FVec Ideal S256x512 .f32)
    (a6 a7 : FVec Ideal S86x256 .f32) (i1 i2 i3 : IVec S200000 32)
    (h : Cert.Pre_finite_inputs.fn (F := Ideal) a0 a1 a2 a3 a4 a5 a6 a7 i1 i2 i3 = fun _ => 1#1) :
    (∀ i, Cert.Spec.IsReal (a0 i)) ∧ (∀ i, Cert.Spec.IsReal (a1 i)) ∧ (∀ i, Cert.Spec.IsReal (a2 i))
      ∧ (∀ i, Cert.Spec.IsReal (a3 i)) ∧ (∀ i, Cert.Spec.IsReal (a4 i)) ∧ (∀ i, Cert.Spec.IsReal (a5 i))
      ∧ (∀ i, Cert.Spec.IsReal (a6 i)) ∧ (∀ i, Cert.Spec.IsReal (a7 i))
      ∧ (∀ e, 0 ≤ (i1 e).toInt ∧ (i1 e).toInt < 2000) ∧ (∀ e, 0 ≤ (i2 e).toInt ∧ (i2 e).toInt < 2000)
      ∧ (∀ e, 0 ≤ (i3 e).toInt ∧ (i3 e).toInt < 86) := by
  have h0 := congrFun h ix0
  dsimp only [fn, fn_part1, fn_part2, fn_part3] at h0
  obtain ⟨h0, t11⟩ := andi_at h0
  obtain ⟨h0, t10⟩ := andi_at h0
  obtain ⟨h0, t9⟩ := andi_at h0
  obtain ⟨h0, t8⟩ := andi_at h0
  obtain ⟨h0, t7⟩ := andi_at h0
  obtain ⟨h0, t6⟩ := andi_at h0
  obtain ⟨h0, t5⟩ := andi_at h0
  obtain ⟨h0, t4⟩ := andi_at h0
  obtain ⟨h0, t3⟩ := andi_at h0
  obtain ⟨t1, t2⟩ := andi_at h0
  exact ⟨all_finite _ _ _ a0 t1, all_finite _ _ _ a1 t2, all_finite _ _ _ a2 t3, all_finite _ _ _ a3 t4,
    all_finite _ _ _ a4 t5, all_finite _ _ _ a5 t6, all_finite _ _ _ a6 t7, all_finite _ _ _ a7 t8,
    all_in_range _ _ _ i1 0#32 2000#32 0 2000 (by decide) (by decide) t9,
    all_in_range _ _ _ i2 0#32 2000#32 0 2000 (by decide) (by decide) t10,
    all_in_range _ _ _ i3 0#32 86#32 0 86 (by decide) (by decide) t11⟩

end Cert.PreDecode

end
-- ==== Proof.lean ====
/-
  The certificate: the one-hot pair kernel against its reference, over the extended reals.

  The kernel program runs an encoder region (layer norm, elu, two projections), builds two drug tables and a relation
  table on the host, each carrying its rounding residual x - x beside it, and runs a pair region over blocks of 256
  pairs: a one-hot row times a table selects the table's row, the residual of a real entry is zero, so the four
  gathered halves add up to the two rows a pair reads; four layer norms, a complex product, two more layer norms and
  the logistic of the inner product with the relation weights follow. The reference gathers the rows directly and
  writes the inner product as four sums. Entry by entry both are the specification's pair output; the kernel's
  fused sum and the reference's four sums agree because every entry is a real number, which the precondition
  gives for the inputs and the layer norm, elu and finite sums preserve. The index words are in range by the
  precondition, so the reference's wrap of negative indices and its clamp are the identity and the kernel's one-hot
  row has exactly one entry set.

  The three frames: the kernel program's, at the word-level and at the ideal instance, from its two regions'
  segment records; the reference's from its run. The idealization rewrote nothing, so preserves is trivial.
-/
import proofs.«417564_j14156212208090_3_alg».proof.Defs
import proofs.«417564_j14156212208090_3_alg».proof.Proof.Gen.Kernel
import proofs.«417564_j14156212208090_3_alg».proof.Proof.Gen.KernelIdeal
import proofs.«417564_j14156212208090_3_alg».proof.Proof.Gen.ReferenceIdeal
import proofs.«417564_j14156212208090_3_alg».proof.Proof.Gen.Pre_finite_inputs
import proofs.«417564_j14156212208090_3_alg».proof.Proof.RunB
import proofs.«417564_j14156212208090_3_alg».proof.Proof.RunV
import proofs.«417564_j14156212208090_3_alg».proof.Proof.KernelValue
import proofs.«417564_j14156212208090_3_alg».proof.Proof.RefRun
import proofs.«417564_j14156212208090_3_alg».proof.Proof.RVal
import proofs.«417564_j14156212208090_3_alg».proof.Proof.PreDecode
import proofs.«417564_j14156212208090_3_alg».proof.Proof.SpecOf

set_option maxRecDepth 16384

noncomputable section

namespace Cert.Proof

open Idealize.ShloMosaic Idealize.ShloMosaic.TcCoe Idealize.SL.Sem Idealize.ShloMosaic.ValueIdx

/-- The word-level kernel program runs to the end and leaves its arguments unchanged. -/
theorem frame_k : Cert.frame_Kernel := fun m ρ _ => Cert.Kernel.Hand.frame m ρ

/-- So does the idealized kernel program. -/
theorem frame_ki : Cert.frame_KernelIdeal := fun m ρ _ => Cert.KernelIdeal.Hand.frame m ρ

/-- So does the reference: its run, the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- From memories agreeing on the arguments both programs end with the same result: entry by entry each is the
    specification's output of that pair, in the two arrangements of the inner product, which agree on real entries. -/
theorem algebraic : Cert.algebraic_KernelIdeal_ReferenceIdeal := by
  intro m ρ m' ρ' hpre hagree
  refine ⟨fun c => Cert.KernelIdeal.Hand.resultOf m c, Cert.KernelIdeal.Hand.run_val m ρ, ?_⟩
  refine (θ_run Cert.ReferenceIdeal.defs _ _).mono (fun _ h c => ⟨(h c).1.trans ?_, (h c).2⟩)
    (Cert.ReferenceIdeal.RefRun.run (F := Ideal) m' ρ')
  obtain ⟨h0, h1, h2, h3, h4, h5, h6, h7, hi1, hi2, hi3⟩ := Cert.PreDecode.decode _ _ _ _ _ _ _ _ _ _ _ (hpre c)
  obtain ⟨g0, g1, g2, g3, g4, g5, g6, g7, g8, g9, g10⟩ := hagree c
  show Cert.ReferenceIdeal.RefRun.res m' c = Cert.KernelIdeal.Hand.resultOf m c
  funext j
  obtain ⟨e, rfl⟩ : ∃ e : Fin 200000, j = ix1 e := ⟨j 0, eq_ix1 j⟩
  rw [Cert.KernelIdeal.Hand.kernel_value m c h0 h1 h2 h3 h4 h5 h6 h7 hi1 hi2 hi3 e]
  unfold Cert.ReferenceIdeal.RefRun.res
  rw [g0, g1, g2, g3, g4, g5, g6, g7, g8, g9, g10]
  rw [Cert.ReferenceIdeal.RefValue.resOf_apply _ _ _ _ _ _ _ _ _ _ _ hi1 hi2 hi3 e]
  exact (Cert.Spec.ofArrays_eq_ofArraysR _ _ _ _ _ _ _ _ _ _ _ h0 h1 h2 h3 h4 h5 h6 h7 e).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
